-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v76) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x500 : Shape := ⟨2, ![12288, 500]⟩
abbrev S393216 : Shape := ⟨1, ![393216]⟩
abbrev S500x64 : Shape := ⟨2, ![500, 64]⟩
abbrev S64 : Shape := ⟨1, ![64]⟩
abbrev S64x64 : Shape := ⟨2, ![64, 64]⟩
abbrev S64x500 : Shape := ⟨2, ![64, 500]⟩
abbrev S500 : Shape := ⟨1, ![500]⟩
abbrev S_ : Shape := ⟨0, ![]⟩

class Facts : Prop where
  bcast_S_S12288x500 : S_.BroadcastsInDim S12288x500 (![] : Fin 0 → Fin S12288x500.rank)
  reducesTo_S12288x500_S_d0_1 : S12288x500.ReducesTo [0, 1] S_
  h_S_ : 0 < S_.numel
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x500 : S_.BroadcastsInDim S64x500 (![] : Fin 0 → Fin S64x500.rank)
  reducesTo_S64x500_S_d0_1 : S64x500.ReducesTo [0, 1] S_
  bcast_S_S500 : S_.BroadcastsInDim S500 (![] : Fin 0 → Fin S500.rank)
  reducesTo_S500_S_d0 : S500.ReducesTo [0] S_
  bcast_S_S393216 : S_.BroadcastsInDim S393216 (![] : Fin 0 → Fin S393216.rank)
  reducesTo_S393216_S_d0 : S393216.ReducesTo [0] S_

variable [Facts]

def fn_part3 {F : FTy → Type} [FloatOps F] (main_arg1 : IVec S393216 32) (main_arg2 : IVec S393216 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_c_20 : IVec S_ 32 := constantI S_ 32 0#32
  let main_v54 : IVec S393216 32 := broadcastInDim S393216 ![] bcast_S_S393216 main_c_20
  let main_v55 : IVec S393216 1 := cmpi .sge main_arg1 main_v54
  let main_c_21 : IVec S_ 32 := constantI S_ 32 12288#32
  let main_v56 : IVec S393216 32 := broadcastInDim S393216 ![] bcast_S_S393216 main_c_21
  let main_v57 : IVec S393216 1 := cmpi .slt main_arg1 main_v56
  let main_v58 : IVec S393216 1 := andi main_v55 main_v57
  let main_c_22 : IVec S_ 1 := constantI S_ 1 1#1
  let main_v59 : IVec S_ 1 := (fun x v => Host.reduce IntOp.andi x v reducesTo_S393216_S_d0 h_S_) main_v58 main_c_22
  let main_v60 : IVec S_ 1 := andi main_v53 main_v59
  let main_c_23 : IVec S_ 32 := constantI S_ 32 0#32
  let main_v61 : IVec S393216 32 := broadcastInDim S393216 ![] bcast_S_S393216 main_c_23
  let main_v62 : IVec S393216 1 := cmpi .sge main_arg2 main_v61
  let main_c_24 : IVec S_ 32 := constantI S_ 32 12288#32
  let main_v63 : IVec S393216 32 := broadcastInDim S393216 ![] bcast_S_S393216 main_c_24
  let main_v64 : IVec S393216 1 := cmpi .slt main_arg2 main_v63
  let main_v65 : IVec S393216 1 := andi main_v62 main_v64
  let main_c_25 : IVec S_ 1 := constantI S_ 1 1#1
  let main_v66 : IVec S_ 1 := (fun x v => Host.reduce IntOp.andi x v reducesTo_S393216_S_d0 h_S_) main_v65 main_c_25
  let main_v67 : IVec S_ 1 := andi main_v60 main_v66
  main_v67

def fn_part2 {F : FTy → Type} [FloatOps F] (main_arg1 : IVec S393216 32) (main_arg2 : IVec S393216 32) (main_arg9 : FVec F S64x500 .f32) (main_arg10 : FVec F S500 .f32) (main_arg11 : FVec F S64x64 .f32) (main_arg12 : FVec F S64 .f32) (main_v33 : IVec S_ 1) : IVec S_ 1 :=
  let main_v34 : FVec F S64x500 .f32 := Host.absf main_arg9
  let main_cst_12 : FVec F S_ .f32 := constant S_ .f32 0x7F800000#32
  let main_v35 : FVec F S64x500 .f32 := broadcastInDim S64x500 ![] bcast_S_S64x500 main_cst_12
  let main_v36 : IVec S64x500 1 := cmpf .olt main_v34 main_v35
  let main_c_13 : IVec S_ 1 := constantI S_ 1 1#1
  let main_v37 : IVec S_ 1 := (fun x v => Host.reduce IntOp.andi x v reducesTo_S64x500_S_d0_1 h_S_) main_v36 main_c_13
  let main_v38 : IVec S_ 1 := andi main_v33 main_v37
  let main_v39 : FVec F S500 .f32 := Host.absf main_arg10
  let main_cst_14 : FVec F S_ .f32 := constant S_ .f32 0x7F800000#32
  let main_v40 : FVec F S500 .f32 := broadcastInDim S500 ![] bcast_S_S500 main_cst_14
  let main_v41 : IVec S500 1 := cmpf .olt main_v39 main_v40
  let main_c_15 : IVec S_ 1 := constantI S_ 1 1#1
  let main_v42 : IVec S_ 1 := (fun x v => Host.reduce IntOp.andi x v reducesTo_S500_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg1 main_arg2 main_v48 main_v49 main_v50

def fn_part1 {F : FTy → Type} [FloatOps F] (main_arg1 : IVec S393216 32) (main_arg2 : IVec S393216 32) (main_arg6 : FVec F S64 .f32) (main_arg7 : FVec F S64x64 .f32) (main_arg8 : FVec F S64 .f32) (main_arg9 : FVec F S64x500 .f32) (main_arg10 : FVec F S500 .f32) (main_arg11 : FVec F S64x64 .f32) (main_arg12 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_arg9 main_arg10 main_arg11 main_arg12 main_v33

def fn {F : FTy → Type} [FloatOps F] (main_arg0 : FVec F S12288x500 .f32) (main_arg1 : IVec S393216 32) (main_arg2 : IVec S393216 32) (main_arg3 : FVec F S500x64 .f32) (main_arg4 : FVec F S64 .f32) (main_arg5 : FVec F S64x64 .f32) (main_arg6 : FVec F S64 .f32) (main_arg7 : FVec F S64x64 .f32) (main_arg8 : FVec F S64 .f32) (main_arg9 : FVec F S64x500 .f32) (main_arg10 : FVec F S500 .f32) (main_arg11 : FVec F S64x64 .f32) (main_arg12 : FVec F S64 .f32) : IVec S_ 1 :=
  let main_v0 : FVec F S12288x500 .f32 := Host.absf main_arg0
  let main_cst : FVec F S_ .f32 := constant S_ .f32 0x7F800000#32
  let main_v1 : FVec F S12288x500 .f32 := broadcastInDim S12288x500 ![] bcast_S_S12288x500 main_cst
  let main_v2 : IVec S12288x500 1 := cmpf .olt main_v0 main_v1
  let main_c : IVec S_ 1 := constantI S_ 1 1#1
  let main_v3 : IVec S_ 1 := (fun x v => Host.reduce IntOp.andi x v reducesTo_S12288x500_S_d0_1 h_S_) main_v2 main_c
  let main_v4 : FVec F S500x64 .f32 := Host.absf main_arg3
  let main_cst_0 : FVec F S_ .f32 := constant S_ .f32 0x7F800000#32
  let main_v5 : FVec F S500x64 .f32 := broadcastInDim S500x64 ![] bcast_S_S500x64 main_cst_0
  let main_v6 : IVec S500x64 1 := cmpf .olt main_v4 main_v5
  let main_c_1 : IVec S_ 1 := constantI S_ 1 1#1
  let main_v7 : IVec S_ 1 := (fun x v => Host.reduce IntOp.andi x v reducesTo_S500x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg2 main_arg6 main_arg7 main_arg8 main_arg9 main_arg10 main_arg11 main_arg12 main_v13 main_v16
-- ==== Kernel.lean ====
abbrev S12288x500 : Shape := ⟨2, ![12288, 500]⟩
abbrev S393216 : Shape := ⟨1, ![393216]⟩
abbrev S500x64 : Shape := ⟨2, ![500, 64]⟩
abbrev S64 : Shape := ⟨1, ![64]⟩
abbrev S64x64 : Shape := ⟨2, ![64, 64]⟩
abbrev S64x500 : Shape := ⟨2, ![64, 500]⟩
abbrev S500 : Shape := ⟨1, ![500]⟩
abbrev S12288 : Shape := ⟨1, ![12288]⟩
abbrev S405504 : Shape := ⟨1, ![405504]⟩
abbrev S_ : Shape := ⟨0, ![]⟩
abbrev S405504x1 : Shape := ⟨2, ![405504, 1]⟩
abbrev S12288x12288 : Shape := ⟨2, ![12288, 12288]⟩
abbrev S405504x2 : Shape := ⟨2, ![405504, 2]⟩
abbrev S12288x64 : Shape := ⟨2, ![12288, 64]⟩
abbrev S1x64 : Shape := ⟨2, ![1, 64]⟩
abbrev S2048x2048 : Shape := ⟨2, ![2048, 2048]⟩
abbrev S2048x64 : Shape := ⟨2, ![2048, 64]⟩
abbrev S12288x128 : Shape := ⟨2, ![12288, 128]⟩
abbrev S128 : Shape := ⟨1, ![128]⟩
abbrev S1x128 : Shape := ⟨2, ![1, 128]⟩
abbrev S2048x128 : Shape := ⟨2, ![2048, 128]⟩
abbrev S64x512 : Shape := ⟨2, ![64, 512]⟩
abbrev S512 : Shape := ⟨1, ![512]⟩
abbrev S12288x512 : Shape := ⟨2, ![12288, 512]⟩
abbrev S1x512 : Shape := ⟨2, ![1, 512]⟩
abbrev S2048x512 : Shape := ⟨2, ![2048, 512]⟩
abbrev S1536x64 : Shape := ⟨2, ![1536, 64]⟩
abbrev S2048x1536 : Shape := ⟨2, ![2048, 1536]⟩

abbrev nBuf : Space → Nat
  | .hbm => 106
  | .vmem => 38
  | .smem => 0
  | _ => 0

abbrev bufTy : (tb : Table) → Fin (tcTables nBuf tb) → BufTy
  | .hbm, ⟨0, _⟩ => ⟨S12288x500, .f32⟩
  | .hbm, ⟨1, _⟩ => ⟨S393216, .i32⟩
  | .hbm, ⟨2, _⟩ => ⟨S393216, .i32⟩
  | .hbm, ⟨3, _⟩ => ⟨S500x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x500, .f32⟩
  | .hbm, ⟨10, _⟩ => ⟨S500, .f32⟩
  | .hbm, ⟨11, _⟩ => ⟨S64x64, .f32⟩
  | .hbm, ⟨12, _⟩ => ⟨S64, .f32⟩
  | .hbm, ⟨13, _⟩ => ⟨S12288, .i32⟩
  | .hbm, ⟨14, _⟩ => ⟨S405504, .i32⟩
  | .hbm, ⟨15, _⟩ => ⟨S405504, .i32⟩
  | .hbm, ⟨16, _⟩ => ⟨S_, .f32⟩
  | .hbm, ⟨17, _⟩ => ⟨S405504, .f32⟩
  | .hbm, ⟨18, _⟩ => ⟨S_, .f32⟩
  | .hbm, ⟨19, _⟩ => ⟨S12288, .f32⟩
  | .hbm, ⟨20, _⟩ => ⟨S405504x1, .i32⟩
  | .hbm, ⟨21, _⟩ => ⟨S12288, .f32⟩
  | .hbm, ⟨22, _⟩ => ⟨S12288, .f32⟩
  | .hbm, ⟨23, _⟩ => ⟨S_, .i32⟩
  | .hbm, ⟨24, _⟩ => ⟨S405504, .i32⟩
  | .hbm, ⟨25, _⟩ => ⟨S405504, .i1⟩
  | .hbm, ⟨26, _⟩ => ⟨S_, .i32⟩
  | .hbm, ⟨27, _⟩ => ⟨S405504, .i32⟩
  | .hbm, ⟨28, _⟩ => ⟨S405504, .i32⟩
  | .hbm, ⟨29, _⟩ => ⟨S405504, .i32⟩
  | .hbm, ⟨30, _⟩ => ⟨S405504x1, .i32⟩
  | .hbm, ⟨31, _⟩ => ⟨S405504, .f32⟩
  | .hbm, ⟨32, _⟩ => ⟨S_, .i32⟩
  | .hbm, ⟨33, _⟩ => ⟨S405504, .i32⟩
  | .hbm, ⟨34, _⟩ => ⟨S405504, .i1⟩
  | .hbm, ⟨35, _⟩ => ⟨S_, .i32⟩
  | .hbm, ⟨36, _⟩ => ⟨S405504, .i32⟩
  | .hbm, ⟨37, _⟩ => ⟨S405504, .i32⟩
  | .hbm, ⟨38, _⟩ => ⟨S405504, .i32⟩
  | .hbm, ⟨39, _⟩ => ⟨S405504x1, .i32⟩
  | .hbm, ⟨40, _⟩ => ⟨S405504, .f32⟩
  | .hbm, ⟨41, _⟩ => ⟨S405504, .f32⟩
  | .hbm, ⟨42, _⟩ => ⟨S_, .f32⟩
  | .hbm, ⟨43, _⟩ => ⟨S12288x12288, .f32⟩
  | .hbm, ⟨44, _⟩ => ⟨S_, .i32⟩
  | .hbm, ⟨45, _⟩ => ⟨S405504, .i32⟩
  | .hbm, ⟨46, _⟩ => ⟨S405504, .i1⟩
  | .hbm, ⟨47, _⟩ => ⟨S_, .i32⟩
  | .hbm, ⟨48, _⟩ => ⟨S405504, .i32⟩
  | .hbm, ⟨49, _⟩ => ⟨S405504, .i32⟩
  | .hbm, ⟨50, _⟩ => ⟨S405504, .i32⟩
  | .hbm, ⟨51, _⟩ => ⟨S_, .i32⟩
  | .hbm, ⟨52, _⟩ => ⟨S405504, .i32⟩
  | .hbm, ⟨53, _⟩ => ⟨S405504, .i1⟩
  | .hbm, ⟨54, _⟩ => ⟨S_, .i32⟩
  | .hbm, ⟨55, _⟩ => ⟨S405504, .i32⟩
  | .hbm, ⟨56, _⟩ => ⟨S405504, .i32⟩
  | .hbm, ⟨57, _⟩ => ⟨S405504, .i32⟩
  | .hbm, ⟨58, _⟩ => ⟨S405504x1, .i32⟩
  | .hbm, ⟨59, _⟩ => ⟨S405504x1, .i32⟩
  | .hbm, ⟨60, _⟩ => ⟨S405504x2, .i32⟩
  | .hbm, ⟨61, _⟩ => ⟨S12288x12288, .f32⟩
  | .hbm, ⟨62, _⟩ => ⟨S12288x12288, .bf16⟩
  | .hbm, ⟨63, _⟩ => ⟨S12288x500, .bf16⟩
  | .hbm, ⟨64, _⟩ => ⟨S500x64, .bf16⟩
  | .hbm, ⟨65, _⟩ => ⟨S12288x64, .f32⟩
  | .hbm, ⟨66, _⟩ => ⟨S12288x64, .bf16⟩
  | .hbm, ⟨67, _⟩ => ⟨S1x64, .f32⟩
  | .hbm, ⟨68, _⟩ => ⟨S12288x64, .f32⟩
  | .hbm, ⟨69, _⟩ => ⟨S12288x64, .bf16⟩
  | .hbm, ⟨70, _⟩ => ⟨S64x64, .bf16⟩
  | .hbm, ⟨71, _⟩ => ⟨S12288x64, .f32⟩
  | .hbm, ⟨72, _⟩ => ⟨S12288x64, .bf16⟩
  | .hbm, ⟨73, _⟩ => ⟨S1x64, .f32⟩
  | .hbm, ⟨74, _⟩ => ⟨S12288x64, .f32⟩
  | .hbm, ⟨75, _⟩ => ⟨S12288x64, .bf16⟩
  | .hbm, ⟨76, _⟩ => ⟨S64x64, .bf16⟩
  | .hbm, ⟨77, _⟩ => ⟨S12288x64, .f32⟩
  | .hbm, ⟨78, _⟩ => ⟨S12288x64, .bf16⟩
  | .hbm, ⟨79, _⟩ => ⟨S64x64, .bf16⟩
  | .hbm, ⟨80, _⟩ => ⟨S12288x64, .f32⟩
  | .hbm, ⟨81, _⟩ => ⟨S12288x128, .f32⟩
  | .hbm, ⟨82, _⟩ => ⟨S12288x128, .bf16⟩
  | .hbm, ⟨83, _⟩ => ⟨S128, .f32⟩
  | .hbm, ⟨84, _⟩ => ⟨S1x128, .f32⟩
  | .hbm, ⟨85, _⟩ => ⟨S12288x128, .f32⟩
  | .hbm, ⟨86, _⟩ => ⟨S12288x64, .f32⟩
  | .hbm, ⟨87, _⟩ => ⟨S_, .f32⟩
  | .hbm, ⟨88, _⟩ => ⟨S12288x64, .f32⟩
  | .hbm, ⟨89, _⟩ => ⟨S12288x64, .f32⟩
  | .hbm, ⟨90, _⟩ => ⟨S12288x64, .f32⟩
  | .hbm, ⟨91, _⟩ => ⟨S_, .i32⟩
  | .hbm, ⟨92, _⟩ => ⟨S_, .f32⟩
  | .hbm, ⟨93, _⟩ => ⟨S64x512, .f32⟩
  | .hbm, ⟨94, _⟩ => ⟨S_, .i32⟩
  | .hbm, ⟨95, _⟩ => ⟨S_, .f32⟩
  | .hbm, ⟨96, _⟩ => ⟨S512, .f32⟩
  | .hbm, ⟨97, _⟩ => ⟨S12288x64, .bf16⟩
  | .hbm, ⟨98, _⟩ => ⟨S64x512, .bf16⟩
  | .hbm, ⟨99, _⟩ => ⟨S12288x512, .f32⟩
  | .hbm, ⟨100, _⟩ => ⟨S12288x512, .bf16⟩
  | .hbm, ⟨101, _⟩ => ⟨S1x512, .f32⟩
  | .hbm, ⟨102, _⟩ => ⟨S12288x512, .f32⟩
  | .hbm, ⟨103, _⟩ => ⟨S12288x500, .f32⟩
  | .hbm, ⟨104, _⟩ => ⟨S12288x64, .bf16⟩
  | .hbm, ⟨105, _⟩ => ⟨S12288x12288, .f32⟩
  | .local _ .vmem, ⟨0, _⟩ => ⟨S2048x2048, .bf16⟩
  | .local _ .vmem, ⟨1, _⟩ => ⟨S2048x2048, .bf16⟩
  | .local _ .vmem, ⟨2, _⟩ => ⟨S2048x64, .bf16⟩
  | .local _ .vmem, ⟨3, _⟩ => ⟨S2048x64, .bf16⟩
  | .local _ .vmem, ⟨4, _⟩ => ⟨S1x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x2048, .bf16⟩
  | .local _ .vmem, ⟨9, _⟩ => ⟨S2048x2048, .bf16⟩
  | .local _ .vmem, ⟨10, _⟩ => ⟨S2048x64, .bf16⟩
  | .local _ .vmem, ⟨11, _⟩ => ⟨S2048x64, .bf16⟩
  | .local _ .vmem, ⟨12, _⟩ => ⟨S1x64, .f32⟩
  | .local _ .vmem, ⟨13, _⟩ => ⟨S2048x64, .f32⟩
  | .local _ .vmem, ⟨14, _⟩ => ⟨S2048x64, .f32⟩
  | .local _ .vmem, ⟨15, _⟩ => ⟨S2048x64, .f32⟩
  | .local _ .vmem, ⟨16, _⟩ => ⟨S2048x2048, .bf16⟩
  | .local _ .vmem, ⟨17, _⟩ => ⟨S2048x2048, .bf16⟩
  | .local _ .vmem, ⟨18, _⟩ => ⟨S2048x128, .bf16⟩
  | .local _ .vmem, ⟨19, _⟩ => ⟨S2048x128, .bf16⟩
  | .local _ .vmem, ⟨20, _⟩ => ⟨S1x128, .f32⟩
  | .local _ .vmem, ⟨21, _⟩ => ⟨S2048x128, .f32⟩
  | .local _ .vmem, ⟨22, _⟩ => ⟨S2048x128, .f32⟩
  | .local _ .vmem, ⟨23, _⟩ => ⟨S2048x128, .f32⟩
  | .local _ .vmem, ⟨24, _⟩ => ⟨S2048x2048, .bf16⟩
  | .local _ .vmem, ⟨25, _⟩ => ⟨S2048x2048, .bf16⟩
  | .local _ .vmem, ⟨26, _⟩ => ⟨S2048x512, .bf16⟩
  | .local _ .vmem, ⟨27, _⟩ => ⟨S2048x512, .bf16⟩
  | .local _ .vmem, ⟨28, _⟩ => ⟨S1x512, .f32⟩
  | .local _ .vmem, ⟨29, _⟩ => ⟨S2048x512, .f32⟩
  | .local _ .vmem, ⟨30, _⟩ => ⟨S2048x512, .f32⟩
  | .local _ .vmem, ⟨31, _⟩ => ⟨S2048x512, .f32⟩
  | .local _ .vmem, ⟨32, _⟩ => ⟨S2048x64, .bf16⟩
  | .local _ .vmem, ⟨33, _⟩ => ⟨S2048x64, .bf16⟩
  | .local _ .vmem, ⟨34, _⟩ => ⟨S1536x64, .bf16⟩
  | .local _ .vmem, ⟨35, _⟩ => ⟨S1536x64, .bf16⟩
  | .local _ .vmem, ⟨36, _⟩ => ⟨S2048x1536, .f32⟩
  | .local _ .vmem, ⟨37, _⟩ => ⟨S2048x1536, .f32⟩
  | _, _ => ⟨S12288x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_9 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_10 : Ref sig .tc := ⟨.hbm, 91, rfl⟩
abbrev main_call0_v0 : Ref sig .tc := ⟨.hbm, 92, rfl⟩
abbrev main_v66 : Ref sig .tc := ⟨.hbm, 93, rfl⟩
abbrev main_c_11 : Ref sig .tc := ⟨.hbm, 94, rfl⟩
abbrev main_call1_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc3_scratch0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33

abbrev nD : Nat := 1
abbrev τ : Topo := Topo.v7x

variable {F : FTy → Type} [FloatOps F]

abbrev grid0 : Pipeline.Grid := ⟨2, ![6, 6], ![false, false]⟩

def k0_cond2 (i : grid0.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![6, 6], ![false, false]⟩

def k1_cond2 (i : grid1.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![6, 6], ![false, false]⟩

def k2_cond2 (i : grid2.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![6, 6], ![false, false]⟩

def k3_cond2 (i : grid3.Coords) : BitVec 1 :=
  let arg1 : BitVec 32 := BitVec.ofNat 32 (i 1).val
  let c5_i32 : BitVec 32 := 5#32
  let v13 : BitVec 1 := Scalar.cmpi .eq arg1 c5_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S2048x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![6, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1536x64 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1536 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S_S12288x12288 : S_.BroadcastsInDim S12288x12288 (![] : Fin 0 → Fin S12288x12288.rank)
  concatenates_S405504x1_S405504x1_S405504x2_d1 : Shape.Concatenates [S405504x1, S405504x1] S405504x2 1
  bitsLt_bf16_f32 : FTy.bits .bf16 < FTy.bits .f32
  shapeCasts_S64_S1x64 : S64.ShapeCasts S1x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  concatenates_S12288x64_S12288x64_S12288x128_d1 : Shape.Concatenates [S12288x64, S12288x64] S12288x128 1
  concatenates_S64_S64_S128_d0 : Shape.Concatenates [S64, S64] S128 0
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S12288x128_S12288x64_0_0 : S12288x128.Slices ![0, 0] S12288x64
  bcast_S_S12288x64 : S_.BroadcastsInDim S12288x64 (![] : Fin 0 → Fin S12288x64.rank)
  slices_S12288x128_S12288x64_0_64 : S12288x128.Slices ![0, 64] S12288x64
  pads_S64x500_S64x512_000_0120 : S64x500.Pads (![0, 0] : Fin 2 → Nat) ![0, 12] ![0, 0] S64x512
  h_S_ : 0 < S_.numel
  pads_S500_S512_0120 : S500.Pads (![0] : Fin 1 → Nat) ![12] ![0] S512
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S12288x512_S12288x500_0_0 : S12288x512.Slices ![0, 0] S12288x500
  inb_S1536x64_S1536x64_0_0 : ∀ a, (![0, 0] : Fin 2 → Nat) a + S1536x64.size a ≤ S1536x64.size a
  h_S1536x64 : 0 < S1536x64.numel
  shapeCasts_S1536x64_S1536x64 : S1536x64.ShapeCasts S1536x64
  inb_S2048x1536_S2048x1536_0_0 : ∀ a, (![0, 0] : Fin 2 → Nat) a + S2048x1536.size a ≤ S2048x1536.size a
  h_S2048x1536 : 0 < S2048x1536.numel
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  scatter_S12288x12288_S405504x2_S405504_n_01_01_1_wf : ScatterDims.WF S12288x12288 S405504x2 S405504 [] [0, 1] [0, 1] 1
  dot_S12288x500_S500x64_S12288x64_1_0_0_1_n_n_wf : DotDims.WF S12288x500 S500x64 S12288x64 [1] [0] [0] [1] [] []
  dot_S2048x2048_S2048x64_S2048x64_1_0_0_1_n_n_wf : DotDims.WF S2048x2048 S2048x64 S2048x64 [1] [0] [0] [1] [] []
  dot_S12288x64_S64x64_S12288x64_1_0_0_1_n_n_wf : DotDims.WF S12288x64 S64x64 S12288x64 [1] [0] [0] [1] [] []
  dot_S2048x2048_S2048x128_S2048x128_1_0_0_1_n_n_wf : DotDims.WF S2048x2048 S2048x128 S2048x128 [1] [0] [0] [1] [] []
  dot_S12288x64_S64x512_S12288x512_1_0_0_1_n_n_wf : DotDims.WF S12288x64 S64x512 S12288x512 [1] [0] [0] [1] [] []
  dot_S2048x2048_S2048x512_S2048x512_1_0_0_1_n_n_wf : DotDims.WF S2048x2048 S2048x512 S2048x512 [1] [0] [0] [1] [] []
  dot_S2048x64_S1536x64_S2048x1536_1_1_0_0_n_n_wf : DotDims.WF S2048x64 S1536x64 S2048x1536 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S12288x12288.size a
  hwx0_0 : ∀ i : grid0.Coords, EltTy.bits .bf16 = 32 ∨ (Rect.block (s := S12288x12288) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S12288x64.size a
  hwx0_1 : ∀ i : grid0.Coords, EltTy.bits .bf16 = 32 ∨ (Rect.block (s := S12288x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S12288x64.size a
  hwx0_3 : ∀ i : grid0.Coords, EltTy.bits .f32 = 32 ∨ (Rect.block (s := S12288x64) S2048x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S12288x12288.size a
  hwx1_0 : ∀ i : grid1.Coords, EltTy.bits .bf16 = 32 ∨ (Rect.block (s := S12288x12288) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S12288x64.size a
  hwx1_1 : ∀ i : grid1.Coords, EltTy.bits .bf16 = 32 ∨ (Rect.block (s := S12288x64) S2048x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x64.size a ≤ S12288x64.size a
  hwx1_3 : ∀ i : grid1.Coords, EltTy.bits .f32 = 32 ∨ (Rect.block (s := S12288x64) S2048x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S12288x12288.size a
  hwx2_0 : ∀ i : grid2.Coords, EltTy.bits .bf16 = 32 ∨ (Rect.block (s := S12288x12288) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S12288x128.size a
  hwx2_1 : ∀ i : grid2.Coords, EltTy.bits .bf16 = 32 ∨ (Rect.block (s := S12288x128) S2048x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S12288x128.size a
  hwx2_3 : ∀ i : grid2.Coords, EltTy.bits .f32 = 32 ∨ (Rect.block (s := S12288x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x2048.size a ≤ S12288x12288.size a
  hwx3_0 : ∀ i : grid3.Coords, EltTy.bits .bf16 = 32 ∨ (Rect.block (s := S12288x12288) S2048x2048.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S12288x512.size a
  hwx3_1 : ∀ i : grid3.Coords, EltTy.bits .bf16 = 32 ∨ (Rect.block (s := S12288x512) S2048x512.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x512.size a ≤ S12288x512.size a
  hwx3_3 : ∀ i : grid3.Coords, EltTy.bits .f32 = 32 ∨ (Rect.block (s := S12288x512) S2048x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x64.size a ≤ S12288x64.size a
  hwx4_0 : ∀ i : grid4.Coords, EltTy.bits .bf16 = 32 ∨ (Rect.block (s := S12288x64) S2048x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1536x64.size a ≤ S12288x64.size a
  hwx4_1 : ∀ i : grid4.Coords, EltTy.bits .bf16 = 32 ∨ (Rect.block (s := S12288x64) S1536x64.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1536.size a ≤ S12288x12288.size a
  hwx4_2 : ∀ i : grid4.Coords, EltTy.bits .f32 = 32 ∨ (Rect.block (s := S12288x12288) S2048x1536.size (cc4_transform_2 i) (hinb4_2 i)).WholeWords (EltTy.packing .f32)

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def scatter_S12288x12288_S405504x2_S405504_n_01_01_1 : ScatterDims S12288x12288 S405504x2 S405504 where
  updateWindowDims := []
  insertedWindowDims := [0, 1]
  scatterDimsToOperandDims := [0, 1]
  indexVectorDim := 1
  wf := scatter_S12288x12288_S405504x2_S405504_n_01_01_1_wf
def dot_S12288x500_S500x64_S12288x64_1_0_0_1_n_n : DotDims S12288x500 S500x64 S12288x64 where
  lhsContracting := [1]
  rhsContracting := [0]
  lhsNonContracting := [0]
  rhsNonContracting := [1]
  lhsBatch := []
  rhsBatch := []
  wf := dot_S12288x500_S500x64_S12288x64_1_0_0_1_n_n_wf
def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S12288x64_S64x512_S12288x512_1_0_0_1_n_n : DotDims S12288x64 S64x512 S12288x512 where
  lhsContracting := [1]
  rhsContracting := [0]
  lhsNonContracting := [0]
  rhsNonContracting := [1]
  lhsBatch := []
  rhsBatch := []
  wf := dot_S12288x64_S64x512_S12288x512_1_0_0_1_n_n_wf
def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x64_S1536x64_S2048x1536_1_1_0_0_n_n : DotDims S2048x64 S1536x64 S2048x1536 where
  lhsContracting := [1]
  rhsContracting := [1]
  lhsNonContracting := [0]
  rhsNonContracting := [0]
  lhsBatch := []
  rhsBatch := []
  wf := dot_S2048x64_S1536x64_S2048x1536_1_1_0_0_n_n_wf

abbrev win0_0 : Pipeline.Window sig grid0 :=
  Pipeline.Window.ofSpec (Memref.whole main_v38) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v38) S2048x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S2048x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v38) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v60) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v38) S2048x2048.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v71) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v72) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S2048x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v75) S2048x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1536x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S2048x1536.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S12288x500 : Shape := ⟨2, ![12288, 500]⟩
abbrev S393216 : Shape := ⟨1, ![393216]⟩
abbrev S500x64 : Shape := ⟨2, ![500, 64]⟩
abbrev S64 : Shape := ⟨1, ![64]⟩
abbrev S64x64 : Shape := ⟨2, ![64, 64]⟩
abbrev S64x500 : Shape := ⟨2, ![64, 500]⟩
abbrev S500 : Shape := ⟨1, ![500]⟩
abbrev S12288 : Shape := ⟨1, ![12288]⟩
abbrev S405504 : Shape := ⟨1, ![405504]⟩
abbrev S_ : Shape := ⟨0, ![]⟩
abbrev S405504x1 : Shape := ⟨2, ![405504, 1]⟩
abbrev S12288x64 : Shape := ⟨2, ![12288, 64]⟩
abbrev S405504x64 : Shape := ⟨2, ![405504, 64]⟩
abbrev S1x64 : Shape := ⟨2, ![1, 64]⟩
abbrev S405504x500 : Shape := ⟨2, ![405504, 500]⟩
abbrev S1x500 : Shape := ⟨2, ![1, 500]⟩
abbrev S64x12288 : Shape := ⟨2, ![64, 12288]⟩
abbrev S12288x12288 : Shape := ⟨2, ![12288, 12288]⟩

abbrev nBuf : Space → Nat
  | .hbm => 150
  | .vmem => 0
  | .smem => 0
  | _ => 0

abbrev hbmTy0_0 (i : Nat) : BufTy := match i % 128 with
  | 0 => ⟨S12288x500, .f32⟩
  | 1 => ⟨S393216, .i32⟩
  | 2 => ⟨S393216, .i32⟩
  | 3 => ⟨S500x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x500, .f32⟩
  | 10 => ⟨S500, .f32⟩
  | 11 => ⟨S64x64, .f32⟩
  | 12 => ⟨S64, .f32⟩
  | 13 => ⟨S12288, .i32⟩
  | 14 => ⟨S405504, .i32⟩
  | 15 => ⟨S405504, .i32⟩
  | 16 => ⟨S_, .f32⟩
  | 17 => ⟨S405504, .f32⟩
  | 18 => ⟨S_, .f32⟩
  | 19 => ⟨S12288, .f32⟩
  | 20 => ⟨S405504x1, .i32⟩
  | 21 => ⟨S12288, .f32⟩
  | 22 => ⟨S12288, .f32⟩
  | 23 => ⟨S_, .i32⟩
  | 24 => ⟨S405504, .i32⟩
  | 25 => ⟨S405504, .i1⟩
  | 26 => ⟨S_, .i32⟩
  | 27 => ⟨S405504, .i32⟩
  | 28 => ⟨S405504, .i32⟩
  | 29 => ⟨S405504, .i32⟩
  | 30 => ⟨S405504x1, .i32⟩
  | 31 => ⟨S405504, .f32⟩
  | 32 => ⟨S_, .i32⟩
  | 33 => ⟨S405504, .i32⟩
  | 34 => ⟨S405504, .i1⟩
  | 35 => ⟨S_, .i32⟩
  | 36 => ⟨S405504, .i32⟩
  | 37 => ⟨S405504, .i32⟩
  | 38 => ⟨S405504, .i32⟩
  | 39 => ⟨S405504x1, .i32⟩
  | 40 => ⟨S405504, .f32⟩
  | 41 => ⟨S405504, .f32⟩
  | 42 => ⟨S12288x64, .f32⟩
  | 43 => ⟨S_, .i32⟩
  | 44 => ⟨S405504, .i32⟩
  | 45 => ⟨S405504, .i1⟩
  | 46 => ⟨S_, .i32⟩
  | 47 => ⟨S405504, .i32⟩
  | 48 => ⟨S405504, .i32⟩
  | 49 => ⟨S405504, .i32⟩
  | 50 => ⟨S405504x1, .i32⟩
  | 51 => ⟨S405504x64, .f32⟩
  | 52 => ⟨S405504x1, .f32⟩
  | 53 => ⟨S405504x64, .f32⟩
  | 54 => ⟨S405504x64, .f32⟩
  | 55 => ⟨S_, .f32⟩
  | 56 => ⟨S12288x64, .f32⟩
  | 57 => ⟨S405504x1, .i32⟩
  | 58 => ⟨S12288x64, .f32⟩
  | 59 => ⟨S1x64, .f32⟩
  | 60 => ⟨S12288x64, .f32⟩
  | 61 => ⟨S12288x64, .f32⟩
  | 62 => ⟨S_, .f32⟩
  | 63 => ⟨S12288x64, .f32⟩
  | 64 => ⟨S12288x64, .f32⟩
  | 65 => ⟨S12288x64, .f32⟩
  | 66 => ⟨S_, .i32⟩
  | 67 => ⟨S405504, .i32⟩
  | 68 => ⟨S405504, .i1⟩
  | 69 => ⟨S_, .i32⟩
  | 70 => ⟨S405504, .i32⟩
  | 71 => ⟨S405504, .i32⟩
  | 72 => ⟨S405504, .i32⟩
  | 73 => ⟨S405504x1, .i32⟩
  | 74 => ⟨S405504x64, .f32⟩
  | 75 => ⟨S405504x1, .f32⟩
  | 76 => ⟨S405504x64, .f32⟩
  | 77 => ⟨S405504x64, .f32⟩
  | 78 => ⟨S_, .f32⟩
  | 79 => ⟨S12288x64, .f32⟩
  | 80 => ⟨S405504x1, .i32⟩
  | 81 => ⟨S12288x64, .f32⟩
  | 82 => ⟨S1x64, .f32⟩
  | 83 => ⟨S12288x64, .f32⟩
  | 84 => ⟨S12288x64, .f32⟩
  | 85 => ⟨S12288x64, .f32⟩
  | 86 => ⟨S_, .i32⟩
  | 87 => ⟨S405504, .i32⟩
  | 88 => ⟨S405504, .i1⟩
  | 89 => ⟨S_, .i32⟩
  | 90 => ⟨S405504, .i32⟩
  | 91 => ⟨S405504, .i32⟩
  | 92 => ⟨S405504, .i32⟩
  | 93 => ⟨S405504x1, .i32⟩
  | 94 => ⟨S405504x64, .f32⟩
  | 95 => ⟨S405504x1, .f32⟩
  | 96 => ⟨S405504x64, .f32⟩
  | 97 => ⟨S405504x64, .f32⟩
  | 98 => ⟨S_, .f32⟩
  | 99 => ⟨S12288x64, .f32⟩
  | 100 => ⟨S405504x1, .i32⟩
  | 101 => ⟨S12288x64, .f32⟩
  | 102 => ⟨S1x64, .f32⟩
  | 103 => ⟨S12288x64, .f32⟩
  | 104 => ⟨S12288x64, .f32⟩
  | 105 => ⟨S_, .f32⟩
  | 106 => ⟨S12288x64, .f32⟩
  | 107 => ⟨S12288x64, .f32⟩
  | 108 => ⟨S12288x500, .f32⟩
  | 109 => ⟨S_, .i32⟩
  | 110 => ⟨S405504, .i32⟩
  | 111 => ⟨S405504, .i1⟩
  | 112 => ⟨S_, .i32⟩
  | 113 => ⟨S405504, .i32⟩
  | 114 => ⟨S405504, .i32⟩
  | 115 => ⟨S405504, .i32⟩
  | 116 => ⟨S405504x1, .i32⟩
  | 117 => ⟨S405504x500, .f32⟩
  | 118 => ⟨S405504x1, .f32⟩
  | 119 => ⟨S405504x500, .f32⟩
  | 120 => ⟨S405504x500, .f32⟩
  | 121 => ⟨S_, .f32⟩
  | 122 => ⟨S12288x500, .f32⟩
  | 123 => ⟨S405504x1, .i32⟩
  | 124 => ⟨S12288x500, .f32⟩
  | 125 => ⟨S1x500, .f32⟩
  | 126 => ⟨S12288x500, .f32⟩
  | 127 => ⟨S12288x500, .f32⟩
  | _ => ⟨S12288x500, .f32⟩

abbrev hbmTy0_1 (i : Nat) : BufTy := match i % 128 with
  | 0 => ⟨S12288x64, .f32⟩
  | 1 => ⟨S_, .i32⟩
  | 2 => ⟨S405504, .i32⟩
  | 3 => ⟨S405504, .i1⟩
  | 4 => ⟨S_, .i32⟩
  | 5 => ⟨S405504, .i32⟩
  | 6 => ⟨S405504, .i32⟩
  | 7 => ⟨S405504, .i32⟩
  | 8 => ⟨S405504x1, .i32⟩
  | 9 => ⟨S405504x64, .f32⟩
  | 10 => ⟨S405504x1, .f32⟩
  | 11 => ⟨S405504x64, .f32⟩
  | 12 => ⟨S405504x64, .f32⟩
  | 13 => ⟨S_, .f32⟩
  | 14 => ⟨S12288x64, .f32⟩
  | 15 => ⟨S405504x1, .i32⟩
  | 16 => ⟨S12288x64, .f32⟩
  | 17 => ⟨S1x64, .f32⟩
  | 18 => ⟨S12288x64, .f32⟩
  | 19 => ⟨S12288x64, .f32⟩
  | 20 => ⟨S64x12288, .f32⟩
  | 21 => ⟨S12288x12288, .f32⟩
  | _ => ⟨S12288x500, .f32⟩

abbrev hbmTy (i : Nat) : BufTy := match i / 128 with
  | 0 => hbmTy0_0 i
  | 1 => hbmTy0_1 i
  | _ => ⟨S12288x500, .f32⟩

abbrev bufTy : (tb : Table) → Fin (tcTables nBuf tb) → BufTy
  | .hbm, ⟨i, _⟩ => hbmTy i
  | _, _ => ⟨S12288x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_2 : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_v40 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_10 : Ref sig .tc := ⟨.hbm, 86, rfl⟩
abbrev main_v59 : Ref sig .tc := ⟨.hbm, 87, rfl⟩
abbrev main_v60 : Ref sig .tc := ⟨.hbm, 88, rfl⟩
abbrev main_c_11 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_12 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_call1_cst : Ref sig .tc := ⟨.hbm, 105, rfl⟩
abbrev main_call1_v0 : Ref sig .tc := ⟨.hbm, 106, rfl⟩
abbrev main_v75 : Ref sig .tc := ⟨.hbm, 107, rfl⟩
abbrev main_v76 : Ref sig .tc := ⟨.hbm, 108, rfl⟩
abbrev main_c_13 : Ref sig .tc := ⟨.hbm, 109, rfl⟩
abbrev main_v77 : Ref sig .tc := ⟨.hbm, 110, rfl⟩
abbrev main_v78 : Ref sig .tc := ⟨.hbm, 111, rfl⟩
abbrev main_c_14 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_15 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_c_16 : Ref sig .tc := ⟨.hbm, 129, rfl⟩
abbrev main_v94 : Ref sig .tc := ⟨.hbm, 130, rfl⟩
abbrev main_v95 : Ref sig .tc := ⟨.hbm, 131, rfl⟩
abbrev main_c_17 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_18 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩

abbrev nD : Nat := 1
abbrev τ : Topo := Topo.v7x

variable {F : FTy → Type} [FloatOps F]

class Facts₀ : Prop where
  concatenates_S393216_S12288_S405504_d0 : Shape.Concatenates [S393216, S12288] S405504 0
  bcast_S_S405504 : S_.BroadcastsInDim S405504 (![] : Fin 0 → Fin S405504.rank)
  bcast_S_S12288 : S_.BroadcastsInDim S12288 (![] : Fin 0 → Fin S12288.rank)
  bcast_S405504_S405504x1_0 : S405504.BroadcastsInDim S405504x1 (![0] : Fin 1 → Fin S405504x1.rank)
  bcast_S405504x1_S405504x64_0_1 : S405504x1.BroadcastsInDim S405504x64 (![0, 1] : Fin 2 → Fin S405504x64.rank)
  bcast_S_S12288x64 : S_.BroadcastsInDim S12288x64 (![] : Fin 0 → Fin S12288x64.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S405504x1_S405504x500_0_1 : S405504x1.BroadcastsInDim S405504x500 (![0, 1] : Fin 2 → Fin S405504x500.rank)
  bcast_S_S12288x500 : S_.BroadcastsInDim S12288x500 (![] : Fin 0 → Fin S12288x500.rank)
  bcast_S500_S1x500_1 : S500.BroadcastsInDim S1x500 (![1] : Fin 1 → Fin S1x500.rank)
  bcast_S1x500_S12288x500_0_1 : S1x500.BroadcastsInDim S12288x500 (![0, 1] : Fin 2 → Fin S12288x500.rank)
  transposes_S12288x64_S64x12288_1_0 : S12288x64.Transposes [1, 0] S64x12288
  scatter_S12288_S405504x1_S405504_n_0_0_1_wf : ScatterDims.WF S12288 S405504x1 S405504 [] [0] [0] 1
  gather_S12288_S405504x1_S405504_n_0_n_n_0_1_1_wf : GatherDims.WF S12288 S405504x1 S405504 [] [0] [] [0] [] 1 ![1]
  dot_S12288x500_S500x64_S12288x64_1_0_0_1_n_n_wf : DotDims.WF S12288x500 S500x64 S12288x64 [1] [0] [0] [1] [] []
  gather_S12288x64_S405504x1_S405504x64_1_0_n_n_0_1_164_wf : GatherDims.WF S12288x64 S405504x1 S405504x64 [1] [0] [] [0] [] 1 ![1, 64]
  scatter_S12288x64_S405504x1_S405504x64_1_0_0_1_wf : ScatterDims.WF S12288x64 S405504x1 S405504x64 [1] [0] [0] 1
  dot_S12288x64_S64x64_S12288x64_1_0_0_1_n_n_wf : DotDims.WF S12288x64 S64x64 S12288x64 [1] [0] [0] [1] [] []
  dot_S12288x64_S64x500_S12288x500_1_0_0_1_n_n_wf : DotDims.WF S12288x64 S64x500 S12288x500 [1] [0] [0] [1] [] []
  gather_S12288x500_S405504x1_S405504x500_1_0_n_n_0_1_1500_wf : GatherDims.WF S12288x500 S405504x1 S405504x500 [1] [0] [] [0] [] 1 ![1, 500]
  scatter_S12288x500_S405504x1_S405504x500_1_0_0_1_wf : ScatterDims.WF S12288x500 S405504x1 S405504x500 [1] [0] [0] 1
  dot_S12288x64_S64x12288_S12288x12288_1_0_0_1_n_n_wf : DotDims.WF S12288x64 S64x12288 S12288x12288 [1] [0] [0] [1] [] []

variable [Facts₀]

def scatter_S12288_S405504x1_S405504_n_0_0_1 : ScatterDims S12288 S405504x1 S405504 where
  updateWindowDims := []
  insertedWindowDims := [0]
  scatterDimsToOperandDims := [0]
  indexVectorDim := 1
  wf := scatter_S12288_S405504x1_S405504_n_0_0_1_wf
def gather_S12288_S405504x1_S405504_n_0_n_n_0_1_1 : GatherDims S12288 S405504x1 S405504 where
  offsetDims := []
  collapsedSliceDims := [0]
  operandBatchingDims := []
  startIndicesBatchingDims := []
  startIndexMap := [0]
  indexVectorDim := 1
  sliceSizes := ![1]
  wf := gather_S12288_S405504x1_S405504_n_0_n_n_0_1_1_wf
def dot_S12288x500_S500x64_S12288x64_1_0_0_1_n_n : DotDims S12288x500 S500x64 S12288x64 where
  lhsContracting := [1]
  rhsContracting := [0]
  lhsNonContracting := [0]
  rhsNonContracting := [1]
  lhsBatch := []
  rhsBatch := []
  wf := dot_S12288x500_S500x64_S12288x64_1_0_0_1_n_n_wf
def gather_S12288x64_S405504x1_S405504x64_1_0_n_n_0_1_164 : GatherDims S12288x64 S405504x1 S405504x64 where
  offsetDims := [1]
  collapsedSliceDims := [0]
  operandBatchingDims := []
  startIndicesBatchingDims := []
  startIndexMap := [0]
  indexVectorDim := 1
  sliceSizes := ![1, 64]
  wf := gather_S12288x64_S405504x1_S405504x64_1_0_n_n_0_1_164_wf
def scatter_S12288x64_S405504x1_S405504x64_1_0_0_1 : ScatterDims S12288x64 S405504x1 S405504x64 where
  updateWindowDims := [1]
  insertedWindowDims := [0]
  scatterDimsToOperandDims := [0]
  indexVectorDim := 1
  wf := scatter_S12288x64_S405504x1_S405504x64_1_0_0_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x64_S64x500_S12288x500_1_0_0_1_n_n : DotDims S12288x64 S64x500 S12288x500 where
  lhsContracting := [1]
  rhsContracting := [0]
  lhsNonContracting := [0]
  rhsNonContracting := [1]
  lhsBatch := []
  rhsBatch := []
  wf := dot_S12288x64_S64x500_S12288x500_1_0_0_1_n_n_wf
def gather_S12288x500_S405504x1_S405504x500_1_0_n_n_0_1_1500 : GatherDims S12288x500 S405504x1 S405504x500 where
  offsetDims := [1]
  collapsedSliceDims := [0]
  operandBatchingDims := []
  startIndicesBatchingDims := []
  startIndexMap := [0]
  indexVectorDim := 1
  sliceSizes := ![1, 500]
  wf := gather_S12288x500_S405504x1_S405504x500_1_0_n_n_0_1_1500_wf
def scatter_S12288x500_S405504x1_S405504x500_1_0_0_1 : ScatterDims S12288x500 S405504x1 S405504x500 where
  updateWindowDims := [1]
  insertedWindowDims := [0]
  scatterDimsToOperandDims := [0]
  indexVectorDim := 1
  wf := scatter_S12288x500_S405504x1_S405504x500_1_0_0_1_wf
def dot_S12288x64_S64x12288_S12288x12288_1_0_0_1_n_n : DotDims S12288x64 S64x12288 S12288x12288 where
  lhsContracting := [1]
  rhsContracting := [0]
  lhsNonContracting := [0]
  rhsNonContracting := [1]
  lhsBatch := []
  rhsBatch := []
  wf := dot_S12288x64_S64x12288_S12288x12288_1_0_0_1_n_n_wf

class Facts : Prop extends Facts₀ where

variable [Facts]
-- ==== Proof.Reg0.lean ====
import proofs.«420824_j61512521613989_2_alg».proof.Proof.Gen.KernelIdeal.Launch
import proofs.«420824_j61512521613989_2_alg».proof.Proof.Gen.KernelIdeal.Skeleton
import proofs.«420824_j61512521613989_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc0`). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window is fetched at the first point only; its block index never moves, so it too holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions, in closed form over the grid -/

/-- The condition of the first conditional of the body: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 6 = 0 :=
  (by decide +kernel : ∀ t : Fin grid0.N, cond0_0 (grid0.coords t) ↔ t.val % 6 = 0)
/-- The condition of the second conditional: the second grid coordinate is 5. -/
abbrev cond0_1 (i : grid0.Coords) : Prop := k0_cond2 i = 1#1
theorem hcond0_1 : ∀ t : Fin cfg0.N, cond0_1 (grid0.coords t) ↔ t.val % 6 = 5 :=
  (by decide +kernel : ∀ t : Fin grid0.N, cond0_1 (grid0.coords t) ↔ t.val % 6 = 5)

/-- The zero offsets of every access of the body, as a constant function. -/
theorem cover0_hz : (![0, 0] : Fin 2 → ℕ) = fun _ => 0 := by
  funext a; fin_cases a <;> rfl

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Off the last point of a row the output window is idle, -/
theorem idleAt0_3 : ∀ t : Fin cfg0.N, ¬cond0_1 (grid0.coords t) → cfg0.idle 3 (grid0.coords t) = true := by decide +kernel
/-- and its block is not written back there; -/
theorem noFlush0_3 : ∀ t : Fin cfg0.N, ¬cond0_1 (grid0.coords t) → (cfg0.win 3).flush t = false := by decide +kernel
/-- at the last point of a row it is live. -/
theorem liveAt0_3 : ∀ t : Fin cfg0.N, cond0_1 (grid0.coords t) → cfg0.idle 3 (grid0.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel0_A (c : Dev nD) (E : Set ℕ) (i : grid0.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : cond0_0 i) (hc1 : ¬cond0_1 i)
    (x0 : Vec F S2048x2048 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay2 (k0_pay1 (F := F)) x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover0_hz inb_S2048x64_S2048x64_0_0 y⟩),
    View.canon_cons_unit_zero (S := S2048x64) cover0_hz]
  simp only [View.readAt_eq_ld, harg2.read_unread, harg3.read_unread, View.ld_unit_zero (S := S2048x64) cover0_hz,
    View.ld_unit_zero (S := S2048x2048) cover0_hz, View.readCov_unit_zero (S := S2048x64) _ cover0_hz]

set_option maxHeartbeats 1000000 in
/-- A middle point of a row (k neither 0 nor 5): the accumulator, holding `xs`, gains the product of the two input blocks. -/
theorem sound_kernel0_B (c : Dev nD) (E : Set ℕ) (i : grid0.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : ¬cond0_1 i)
    (x0 : Vec F S2048x2048 .bf16) (x1 : Vec F S2048x64 .bf16) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover0_hz inb_S2048x64_S2048x64_0_0 y⟩),
    View.canon_cons_unit_zero (S := S2048x64) cover0_hz]
  simp only [View.readAt_eq_ld, harg2.read_unread, harg3.read_unread, harg6.read_unread, View.ld_unit_zero (S := S2048x64) cover0_hz,
    View.ld_unit_zero (S := S2048x2048) cover0_hz]

set_option maxHeartbeats 1000000 in
/-- The last point of a row (k = 5): the accumulator gains the product, and the output buffer, whatever it held,
    receives the epilogue payload of the new accumulator and the bias block. -/
theorem sound_kernel0_C (c : Dev nD) (E : Set ℕ) (i : grid0.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : cond0_1 i)
    (x0 : Vec F S2048x2048 .bf16) (x1 : Vec F S2048x64 .bf16) (x2 : Vec F S1x64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2)
            ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover0_hz inb_S2048x64_S2048x64_0_0 y⟩),
      View.canon_cons_unit_zero (S := S2048x64) cover0_hz]
    simp only [View.readAt_eq_ld, harg2.read_unread, harg3.read_unread, harg4.read_unread, harg6.read_unread, View.ld_unit_zero (S := S2048x64) cover0_hz,
      View.ld_unit_zero (S := S2048x2048) cover0_hz, View.ld_unit_zero (S := S1x64) cover0_hz, View.readCov_unit_zero (S := S2048x64) _ cover0_hz]
  iexists _; isplitr
  swap; · iexact HS
  ipureintro
  sl_unfold_words
  rw [View.read_writes_eq_canon _ _ _ (fun y => ⟨_, List.mem_cons.mpr (Or.inl rfl), View.mem_set_unit_zero cover0_hz inb_S2048x64_S2048x64_0_0 y⟩),
    View.canon_cons_unit_zero (S := S2048x64) cover0_hz]
  simp only [View.readAt_eq_ld, harg2.read_unread, harg3.read_unread, harg6.read_unread, View.ld_unit_zero (S := S2048x64) cover0_hz,
    View.ld_unit_zero (S := S2048x2048) cover0_hz]

/-! ## What the scratch holds after each point -/

/-- The accumulator after the body at position `n`: at the first point of a row (`n % 6 = 0`) the zero payload plus the
    product of the point's blocks; at any other point what the point before left plus the product of the point's blocks. -/
def acc0 (c : Dev nD) : (n : ℕ) → n < cfg0.N → Vec F S2048x64 .f32
  | 0, hn => k0_pay2 (k0_pay1 (F := F)) (iblk0 V c 0 ⟨0, hn⟩) (iblk0 V c 1 ⟨0, hn⟩)
  | n + 1, hn =>
    if h : (n + 1) % 6 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_reset (c : Dev nD) (t : Fin cfg0.N) (h : t.val % 6 = 0) :
    acc0 V c t.val t.isLt = k0_pay2 (k0_pay1 (F := F)) (iblk0 V c 0 t) (iblk0 V c 1 t) := by
  obtain ⟨n, hn⟩ := t
  cases n with
  | zero => rfl
  | succ n => exact dif_pos h

theorem acc0_step (c : Dev nD) (t : Fin cfg0.N) (h : t.val % 6 ≠ 0) :
    acc0 V c t.val t.isLt = k0_pay2 (acc0 V c (t.val - 1) (by omega)) (iblk0 V c 0 t) (iblk0 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM0 : Memref sig .tc .vmem S2048x64 .f32 := Memref.whole cc0_scratch0

/-- The class invariant with the scratch operand split off as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The region invariant before position `n`: before the first point the class's; afterwards the scratch at what the point
    before left (`acc0`), the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) (h : t.val % 6 = 5) :
    (dat0 V c).after 3 t = k0_pay3 (acc0 V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 36 := lt_of_lt_of_eq t.isLt (show cfg0.N = 36 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h0 : t.val % 6 = 0
  · have h1 : ¬t.val % 6 = 5 := by omega
    rw [Dat.leavesExact_idle (dat0 V c) 3 t (idleAt0_3 t (fun h => h1 ((hcond0_1 t).mp h))) (noFlush0_3 t (fun h => h1 ((hcond0_1 t).mp h)))]
    rw [acc0_reset V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat0 V c).leavesExact 3 t = owns (c : Thread nD τ) (st0_3 t) fullShare ((dat0 V c).after 3 t) from by
        unfold Dat.leavesExact; rw [liveAt0_3 t ((hcond0_1 t).mpr h1)], after0_3 V c t h1]
      rw [acc0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_kernel0_C c Set.univ (grid0.coords t) _ _ _ _ _ _ _ _ _ _ (fun h => h0 ((hcond0_0 t).mp h)) ((hcond0_1 t).mpr h1) (iblk0 V c 0 t) (iblk0 V c 1 t) (iblk0 V c 2 t) (acc0 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      rw [acc0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_kernel0_B c Set.univ (grid0.coords t) _ _ _ _ _ _ _ _ _ _ (fun h => h0 ((hcond0_0 t).mp h)) (fun h => h1 ((hcond0_1 t).mp h)) (iblk0 V c 0 t) (iblk0 V c 1 t) (acc0 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem PhiS0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  PhiS0_out V c _ (by rw [Fin.val_last]; have : cfg0.N = 36 := N_0; omega)

end Cert.KernelIdeal.Gen

end
-- ==== Proof.Reg1.lean ====
import proofs.«420824_j61512521613989_2_alg».proof.Proof.Gen.KernelIdeal.Launch
import proofs.«420824_j61512521613989_2_alg».proof.Proof.Gen.KernelIdeal.Skeleton
import proofs.«420824_j61512521613989_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc1`). -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window is fetched at the first point only; its block index never moves, so it too holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- The condition of the first conditional of the body: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)
/-- The condition of the second conditional: the second grid coordinate is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-- The zero offsets of every access of the body, as a constant function. -/
theorem cover1_hz : (![0, 0] : Fin 2 → ℕ) = fun _ => 0 := by
  funext a; fin_cases a <;> rfl

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last point of a row the output window is idle, -/
theorem idleAt1_3 : ∀ t : Fin cfg1.N, ¬cond1_1 (grid1.coords t) → cfg1.idle 3 (grid1.coords t) = true := by decide +kernel
/-- and its block is not written back there; -/
theorem noFlush1_3 : ∀ t : Fin cfg1.N, ¬cond1_1 (grid1.coords t) → (cfg1.win 3).flush t = false := by decide +kernel
/-- at the last point of a row it is live. -/
theorem liveAt1_3 : ∀ t : Fin cfg1.N, cond1_1 (grid1.coords t) → cfg1.idle 3 (grid1.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel1_A (c : Dev nD) (E : Set ℕ) (i : grid1.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : cond1_0 i) (hc1 : ¬cond1_1 i)
    (x0 : Vec F S2048x2048 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 (k1_pay1 (F := F)) x0 x1)) -∗ K ⟨⟩))
      ⊢ wp frame (wpE (defs₀ (F := F)) Variants.none c none) E (cc1__gcn_matmul_kernel i arg2 harg2 arg3 harg3 arg4 harg4 arg5 harg5 arg6 harg6) K := by
  simp only [cc1__gcn_matmul_kernel_eq_skeleton]; unfold cc1__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover1_hz inb_S2048x64_S2048x64_0_0 y⟩),
    View.canon_cons_unit_zero (S := S2048x64) cover1_hz]
  simp only [View.readAt_eq_ld, harg2.read_unread, harg3.read_unread, View.ld_unit_zero (S := S2048x64) cover1_hz,
    View.ld_unit_zero (S := S2048x2048) cover1_hz, View.readCov_unit_zero (S := S2048x64) _ cover1_hz]

set_option maxHeartbeats 1000000 in
/-- A middle point of a row (k neither 0 nor 5): the accumulator, holding `xs`, gains the product of the two input blocks. -/
theorem sound_kernel1_B (c : Dev nD) (E : Set ℕ) (i : grid1.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : ¬cond1_1 i)
    (x0 : Vec F S2048x2048 .bf16) (x1 : Vec F S2048x64 .bf16) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 xs x0 x1)) -∗ K ⟨⟩))
      ⊢ wp frame (wpE (defs₀ (F := F)) Variants.none c none) E (cc1__gcn_matmul_kernel i arg2 harg2 arg3 harg3 arg4 harg4 arg5 harg5 arg6 harg6) K := by
  simp only [cc1__gcn_matmul_kernel_eq_skeleton]; unfold cc1__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover1_hz inb_S2048x64_S2048x64_0_0 y⟩),
    View.canon_cons_unit_zero (S := S2048x64) cover1_hz]
  simp only [View.readAt_eq_ld, harg2.read_unread, harg3.read_unread, harg6.read_unread, View.ld_unit_zero (S := S2048x64) cover1_hz,
    View.ld_unit_zero (S := S2048x2048) cover1_hz]

set_option maxHeartbeats 1000000 in
/-- The last point of a row (k = 5): the accumulator gains the product, and the output buffer, whatever it held,
    receives the epilogue payload of the new accumulator and the bias block. -/
theorem sound_kernel1_C (c : Dev nD) (E : Set ℕ) (i : grid1.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : cond1_1 i)
    (x0 : Vec F S2048x2048 .bf16) (x1 : Vec F S2048x64 .bf16) (x2 : Vec F S1x64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2)
            ∗ owns (c : Thread nD τ) arg6 fullShare (k1_pay2 xs x0 x1)) -∗ K ⟨⟩))
      ⊢ wp frame (wpE (defs₀ (F := F)) Variants.none c none) E (cc1__gcn_matmul_kernel i arg2 harg2 arg3 harg3 arg4 harg4 arg5 harg5 arg6 harg6) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover1_hz inb_S2048x64_S2048x64_0_0 y⟩),
      View.canon_cons_unit_zero (S := S2048x64) cover1_hz]
    simp only [View.readAt_eq_ld, harg2.read_unread, harg3.read_unread, harg4.read_unread, harg6.read_unread, View.ld_unit_zero (S := S2048x64) cover1_hz,
      View.ld_unit_zero (S := S2048x2048) cover1_hz, View.ld_unit_zero (S := S1x64) cover1_hz, View.readCov_unit_zero (S := S2048x64) _ cover1_hz]
  iexists _; isplitr
  swap; · iexact HS
  ipureintro
  sl_unfold_words
  rw [View.read_writes_eq_canon _ _ _ (fun y => ⟨_, List.mem_cons.mpr (Or.inl rfl), View.mem_set_unit_zero cover1_hz inb_S2048x64_S2048x64_0_0 y⟩),
    View.canon_cons_unit_zero (S := S2048x64) cover1_hz]
  simp only [View.readAt_eq_ld, harg2.read_unread, harg3.read_unread, harg6.read_unread, View.ld_unit_zero (S := S2048x64) cover1_hz,
    View.ld_unit_zero (S := S2048x2048) cover1_hz]

/-! ## What the scratch holds after each point -/

/-- The accumulator after the body at position `n`: at the first point of a row (`n % 6 = 0`) the zero payload plus the
    product of the point's blocks; at any other point what the point before left plus the product of the point's blocks. -/
def acc1 (c : Dev nD) : (n : ℕ) → n < cfg1.N → Vec F S2048x64 .f32
  | 0, hn => k1_pay2 (k1_pay1 (F := F)) (iblk1 V c 0 ⟨0, hn⟩) (iblk1 V c 1 ⟨0, hn⟩)
  | n + 1, hn =>
    if h : (n + 1) % 6 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_reset (c : Dev nD) (t : Fin cfg1.N) (h : t.val % 6 = 0) :
    acc1 V c t.val t.isLt = k1_pay2 (k1_pay1 (F := F)) (iblk1 V c 0 t) (iblk1 V c 1 t) := by
  obtain ⟨n, hn⟩ := t
  cases n with
  | zero => rfl
  | succ n => exact dif_pos h

theorem acc1_step (c : Dev nD) (t : Fin cfg1.N) (h : t.val % 6 ≠ 0) :
    acc1 V c t.val t.isLt = k1_pay2 (acc1 V c (t.val - 1) (by omega)) (iblk1 V c 0 t) (iblk1 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM1 : Memref sig .tc .vmem S2048x64 .f32 := Memref.whole cc1_scratch0

/-- The class invariant with the scratch operand split off as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The region invariant before position `n`: before the first point the class's; afterwards the scratch at what the point
    before left (`acc1`), the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) (h : t.val % 6 = 5) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 36 := lt_of_lt_of_eq t.isLt (show cfg1.N = 36 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 6 = 0
  · have h1 : ¬t.val % 6 = 5 := by omega
    rw [Dat.leavesExact_idle (dat1 V c) 3 t (idleAt1_3 t (fun h => h1 ((hcond1_1 t).mp h))) (noFlush1_3 t (fun h => h1 ((hcond1_1 t).mp h)))]
    rw [acc1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat1 V c).leavesExact 3 t = owns (c : Thread nD τ) (st1_3 t) fullShare ((dat1 V c).after 3 t) from by
        unfold Dat.leavesExact; rw [liveAt1_3 t ((hcond1_1 t).mpr h1)], after1_3 V c t h1]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (iblk1 V c 0 t) (iblk1 V c 1 t) (iblk1 V c 2 t) (acc1 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (iblk1 V c 0 t) (iblk1 V c 1 t) (acc1 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem PhiS1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  PhiS1_out V c _ (by rw [Fin.val_last]; have : cfg1.N = 36 := N_1; omega)

end Cert.KernelIdeal.Gen

end
-- ==== Proof.Reg2.lean ====
import proofs.«420824_j61512521613989_2_alg».proof.Proof.Gen.KernelIdeal.Launch
import proofs.«420824_j61512521613989_2_alg».proof.Proof.Gen.KernelIdeal.Skeleton
import proofs.«420824_j61512521613989_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc2`). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window is fetched at the first point only; its block index never moves, so it too holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions, in closed form over the grid -/

/-- The condition of the first conditional of the body: the second grid coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 6 = 0 :=
  (by decide +kernel : ∀ t : Fin grid2.N, cond2_0 (grid2.coords t) ↔ t.val % 6 = 0)
/-- The condition of the second conditional: the second grid coordinate is 5. -/
abbrev cond2_1 (i : grid2.Coords) : Prop := k2_cond2 i = 1#1
theorem hcond2_1 : ∀ t : Fin cfg2.N, cond2_1 (grid2.coords t) ↔ t.val % 6 = 5 :=
  (by decide +kernel : ∀ t : Fin grid2.N, cond2_1 (grid2.coords t) ↔ t.val % 6 = 5)

/-- The zero offsets of every access of the body, as a constant function. -/
theorem cover2_hz : (![0, 0] : Fin 2 → ℕ) = fun _ => 0 := by
  funext a; fin_cases a <;> rfl

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last point of a row the output window is idle, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at the last point of a row it is live. -/
theorem liveAt2_3 : ∀ t : Fin cfg2.N, cond2_1 (grid2.coords t) → cfg2.idle 3 (grid2.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel2_A (c : Dev nD) (E : Set ℕ) (i : grid2.Coords)
    (arg2 : Memref sig .tc .vmem S2048x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (hc0 : cond2_0 i) (hc1 : ¬cond2_1 i)
    (x0 : Vec F S2048x2048 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k2_pay2 (k2_pay1 (F := F)) x0 x1)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover2_hz inb_S2048x128_S2048x128_0_0 y⟩),
    View.canon_cons_unit_zero (S := S2048x128) cover2_hz]
  simp only [View.readAt_eq_ld, harg2.read_unread, harg3.read_unread, View.ld_unit_zero (S := S2048x128) cover2_hz,
    View.ld_unit_zero (S := S2048x2048) cover2_hz, View.readCov_unit_zero (S := S2048x128) _ cover2_hz]

set_option maxHeartbeats 1000000 in
/-- A middle point of a row (k neither 0 nor 5): the accumulator, holding `xs`, gains the product of the two input blocks. -/
theorem sound_kernel2_B (c : Dev nD) (E : Set ℕ) (i : grid2.Coords)
    (arg2 : Memref sig .tc .vmem S2048x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond2_0 i) (hc1 : ¬cond2_1 i)
    (x0 : Vec F S2048x2048 .bf16) (x1 : Vec F S2048x128 .bf16) (xs : Vec F S2048x128 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k2_pay2 xs x0 x1)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover2_hz inb_S2048x128_S2048x128_0_0 y⟩),
    View.canon_cons_unit_zero (S := S2048x128) cover2_hz]
  simp only [View.readAt_eq_ld, harg2.read_unread, harg3.read_unread, harg6.read_unread, View.ld_unit_zero (S := S2048x128) cover2_hz,
    View.ld_unit_zero (S := S2048x2048) cover2_hz]

set_option maxHeartbeats 1000000 in
/-- The last point of a row (k = 5): the accumulator gains the product, and the output buffer, whatever it held,
    receives the epilogue payload of the new accumulator and the bias block. -/
theorem sound_kernel2_C (c : Dev nD) (E : Set ℕ) (i : grid2.Coords)
    (arg2 : Memref sig .tc .vmem S2048x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond2_0 i) (hc1 : cond2_1 i)
    (x0 : Vec F S2048x2048 .bf16) (x1 : Vec F S2048x128 .bf16) (x2 : Vec F S1x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 xs x0 x1) x2)
            ∗ owns (c : Thread nD τ) arg6 fullShare (k2_pay2 xs x0 x1)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover2_hz inb_S2048x128_S2048x128_0_0 y⟩),
      View.canon_cons_unit_zero (S := S2048x128) cover2_hz]
    simp only [View.readAt_eq_ld, harg2.read_unread, harg3.read_unread, harg4.read_unread, harg6.read_unread, View.ld_unit_zero (S := S2048x128) cover2_hz,
      View.ld_unit_zero (S := S2048x2048) cover2_hz, View.ld_unit_zero (S := S1x128) cover2_hz, View.readCov_unit_zero (S := S2048x128) _ cover2_hz]
  iexists _; isplitr
  swap; · iexact HS
  ipureintro
  sl_unfold_words
  rw [View.read_writes_eq_canon _ _ _ (fun y => ⟨_, List.mem_cons.mpr (Or.inl rfl), View.mem_set_unit_zero cover2_hz inb_S2048x128_S2048x128_0_0 y⟩),
    View.canon_cons_unit_zero (S := S2048x128) cover2_hz]
  simp only [View.readAt_eq_ld, harg2.read_unread, harg3.read_unread, harg6.read_unread, View.ld_unit_zero (S := S2048x128) cover2_hz,
    View.ld_unit_zero (S := S2048x2048) cover2_hz]

/-! ## What the scratch holds after each point -/

/-- The accumulator after the body at position `n`: at the first point of a row (`n % 6 = 0`) the zero payload plus the
    product of the point's blocks; at any other point what the point before left plus the product of the point's blocks. -/
def acc2 (c : Dev nD) : (n : ℕ) → n < cfg2.N → Vec F S2048x128 .f32
  | 0, hn => k2_pay2 (k2_pay1 (F := F)) (iblk2 V c 0 ⟨0, hn⟩) (iblk2 V c 1 ⟨0, hn⟩)
  | n + 1, hn =>
    if h : (n + 1) % 6 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_reset (c : Dev nD) (t : Fin cfg2.N) (h : t.val % 6 = 0) :
    acc2 V c t.val t.isLt = k2_pay2 (k2_pay1 (F := F)) (iblk2 V c 0 t) (iblk2 V c 1 t) := by
  obtain ⟨n, hn⟩ := t
  cases n with
  | zero => rfl
  | succ n => exact dif_pos h

theorem acc2_step (c : Dev nD) (t : Fin cfg2.N) (h : t.val % 6 ≠ 0) :
    acc2 V c t.val t.isLt = k2_pay2 (acc2 V c (t.val - 1) (by omega)) (iblk2 V c 0 t) (iblk2 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM2 : Memref sig .tc .vmem S2048x128 .f32 := Memref.whole cc2_scratch0

/-- The class invariant with the scratch operand split off as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The region invariant before position `n`: before the first point the class's; afterwards the scratch at what the point
    before left (`acc2`), the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) (h : t.val % 6 = 5) :
    (dat2 V c).after 3 t = k2_pay3 (acc2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 36 := lt_of_lt_of_eq t.isLt (show cfg2.N = 36 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 6 = 0
  · have h1 : ¬t.val % 6 = 5 := by omega
    rw [Dat.leavesExact_idle (dat2 V c) 3 t (idleAt2_3 t (fun h => h1 ((hcond2_1 t).mp h))) (noFlush2_3 t (fun h => h1 ((hcond2_1 t).mp h)))]
    rw [acc2_reset V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h1 ((hcond2_1 t).mp h)) (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h1 ((hcond2_1 t).mp h)) (iblk2 V c 0 t) (iblk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat2 V c).leavesExact 3 t = owns (c : Thread nD τ) (st2_3 t) fullShare ((dat2 V c).after 3 t) from by
        unfold Dat.leavesExact; rw [liveAt2_3 t ((hcond2_1 t).mpr h1)], after2_3 V c t h1]
      rw [acc2_step V c t h0]
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h0 ((hcond2_0 t).mp h)) ((hcond2_1 t).mpr h1) (iblk2 V c 0 t) (iblk2 V c 1 t) (iblk2 V c 2 t) (acc2 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcond2_1 t).mp h))) (noFlush2_3 t (fun h => h1 ((hcond2_1 t).mp h)))]
      rw [acc2_step V c t h0]
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h0 ((hcond2_0 t).mp h)) (fun h => h1 ((hcond2_1 t).mp h)) (iblk2 V c 0 t) (iblk2 V c 1 t) (acc2 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem PhiS2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]; · iexists _; iexact HS
    iexact HR
  iexact Hg

/-- The same after the last point. -/
theorem hout2 (c : Dev nD) : (dat2 V c).Φ (Fin.last cfg2.N) ⊢ Pipeline.ΦA spec2 c :=
  PhiS2_out V c _ (by rw [Fin.val_last]; have : cfg2.N = 36 := N_2; omega)

end Cert.KernelIdeal.Gen

end
-- ==== Proof.Reg3.lean ====
import proofs.«420824_j61512521613989_2_alg».proof.Proof.Gen.KernelIdeal.Launch
import proofs.«420824_j61512521613989_2_alg».proof.Proof.Gen.KernelIdeal.Skeleton
import proofs.«420824_j61512521613989_2_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc3`). -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias window is fetched at the first point only; its block index never moves, so it too holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions, in closed form over the grid -/

/-- The condition of the first conditional of the body: the second grid coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 6 = 0 :=
  (by decide +kernel : ∀ t : Fin grid3.N, cond3_0 (grid3.coords t) ↔ t.val % 6 = 0)
/-- The condition of the second conditional: the second grid coordinate is 5. -/
abbrev cond3_1 (i : grid3.Coords) : Prop := k3_cond2 i = 1#1
theorem hcond3_1 : ∀ t : Fin cfg3.N, cond3_1 (grid3.coords t) ↔ t.val % 6 = 5 :=
  (by decide +kernel : ∀ t : Fin grid3.N, cond3_1 (grid3.coords t) ↔ t.val % 6 = 5)

/-- The zero offsets of every access of the body, as a constant function. -/
theorem cover3_hz : (![0, 0] : Fin 2 → ℕ) = fun _ => 0 := by
  funext a; fin_cases a <;> rfl

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Off the last point of a row the output window is idle, -/
theorem idleAt3_3 : ∀ t : Fin cfg3.N, ¬cond3_1 (grid3.coords t) → cfg3.idle 3 (grid3.coords t) = true := by decide +kernel
/-- and its block is not written back there; -/
theorem noFlush3_3 : ∀ t : Fin cfg3.N, ¬cond3_1 (grid3.coords t) → (cfg3.win 3).flush t = false := by decide +kernel
/-- at the last point of a row it is live. -/
theorem liveAt3_3 : ∀ t : Fin cfg3.N, cond3_1 (grid3.coords t) → cfg3.idle 3 (grid3.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel3_A (c : Dev nD) (E : Set ℕ) (i : grid3.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (arg6 : Memref sig .tc .vmem S2048x512 .f32) (harg6 : arg6.IsWhole)
    (hc0 : cond3_0 i) (hc1 : ¬cond3_1 i)
    (x0 : Vec F S2048x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k3_pay2 (k3_pay1 (F := F)) x0 x1)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover3_hz inb_S2048x512_S2048x512_0_0 y⟩),
    View.canon_cons_unit_zero (S := S2048x512) cover3_hz]
  simp only [View.readAt_eq_ld, harg2.read_unread, harg3.read_unread, View.ld_unit_zero (S := S2048x512) cover3_hz,
    View.ld_unit_zero (S := S2048x2048) cover3_hz, View.readCov_unit_zero (S := S2048x512) _ cover3_hz]

set_option maxHeartbeats 1000000 in
/-- A middle point of a row (k neither 0 nor 5): the accumulator, holding `xs`, gains the product of the two input blocks. -/
theorem sound_kernel3_B (c : Dev nD) (E : Set ℕ) (i : grid3.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (arg6 : Memref sig .tc .vmem S2048x512 .f32) (harg6 : arg6.IsWhole)
    (hc0 : ¬cond3_0 i) (hc1 : ¬cond3_1 i)
    (x0 : Vec F S2048x2048 .bf16) (x1 : Vec F S2048x512 .bf16) (xs : Vec F S2048x512 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k3_pay2 xs x0 x1)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover3_hz inb_S2048x512_S2048x512_0_0 y⟩),
    View.canon_cons_unit_zero (S := S2048x512) cover3_hz]
  simp only [View.readAt_eq_ld, harg2.read_unread, harg3.read_unread, harg6.read_unread, View.ld_unit_zero (S := S2048x512) cover3_hz,
    View.ld_unit_zero (S := S2048x2048) cover3_hz]

set_option maxHeartbeats 1000000 in
/-- The last point of a row (k = 5): the accumulator gains the product, and the output buffer, whatever it held,
    receives the epilogue payload of the new accumulator and the bias block. -/
theorem sound_kernel3_C (c : Dev nD) (E : Set ℕ) (i : grid3.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (arg6 : Memref sig .tc .vmem S2048x512 .f32) (harg6 : arg6.IsWhole)
    (hc0 : ¬cond3_0 i) (hc1 : cond3_1 i)
    (x0 : Vec F S2048x2048 .bf16) (x1 : Vec F S2048x512 .bf16) (x2 : Vec F S1x512 .f32) (xs : Vec F S2048x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 xs x0 x1) x2)
            ∗ owns (c : Thread nD τ) arg6 fullShare (k3_pay2 xs x0 x1)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover3_hz inb_S2048x512_S2048x512_0_0 y⟩),
      View.canon_cons_unit_zero (S := S2048x512) cover3_hz]
    simp only [View.readAt_eq_ld, harg2.read_unread, harg3.read_unread, harg4.read_unread, harg6.read_unread, View.ld_unit_zero (S := S2048x512) cover3_hz,
      View.ld_unit_zero (S := S2048x2048) cover3_hz, View.ld_unit_zero (S := S1x512) cover3_hz, View.readCov_unit_zero (S := S2048x512) _ cover3_hz]
  iexists _; isplitr
  swap; · iexact HS
  ipureintro
  sl_unfold_words
  rw [View.read_writes_eq_canon _ _ _ (fun y => ⟨_, List.mem_cons.mpr (Or.inl rfl), View.mem_set_unit_zero cover3_hz inb_S2048x512_S2048x512_0_0 y⟩),
    View.canon_cons_unit_zero (S := S2048x512) cover3_hz]
  simp only [View.readAt_eq_ld, harg2.read_unread, harg3.read_unread, harg6.read_unread, View.ld_unit_zero (S := S2048x512) cover3_hz,
    View.ld_unit_zero (S := S2048x2048) cover3_hz]

/-! ## What the scratch holds after each point -/

/-- The accumulator after the body at position `n`: at the first point of a row (`n % 6 = 0`) the zero payload plus the
    product of the point's blocks; at any other point what the point before left plus the product of the point's blocks. -/
def acc3 (c : Dev nD) : (n : ℕ) → n < cfg3.N → Vec F S2048x512 .f32
  | 0, hn => k3_pay2 (k3_pay1 (F := F)) (iblk3 V c 0 ⟨0, hn⟩) (iblk3 V c 1 ⟨0, hn⟩)
  | n + 1, hn =>
    if h : (n + 1) % 6 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

theorem acc3_reset (c : Dev nD) (t : Fin cfg3.N) (h : t.val % 6 = 0) :
    acc3 V c t.val t.isLt = k3_pay2 (k3_pay1 (F := F)) (iblk3 V c 0 t) (iblk3 V c 1 t) := by
  obtain ⟨n, hn⟩ := t
  cases n with
  | zero => rfl
  | succ n => exact dif_pos h

theorem acc3_step (c : Dev nD) (t : Fin cfg3.N) (h : t.val % 6 ≠ 0) :
    acc3 V c t.val t.isLt = k3_pay2 (acc3 V c (t.val - 1) (by omega)) (iblk3 V c 0 t) (iblk3 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM3 : Memref sig .tc .vmem S2048x512 .f32 := Memref.whole cc3_scratch0

/-- The class invariant with the scratch operand split off as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The region invariant before position `n`: before the first point the class's; afterwards the scratch at what the point
    before left (`acc3`), the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) (h : t.val % 6 = 5) :
    (dat3 V c).after 3 t = k3_pay3 (acc3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 36 := lt_of_lt_of_eq t.isLt (show cfg3.N = 36 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  by_cases h0 : t.val % 6 = 0
  · have h1 : ¬t.val % 6 = 5 := by omega
    rw [Dat.leavesExact_idle (dat3 V c) 3 t (idleAt3_3 t (fun h => h1 ((hcond3_1 t).mp h))) (noFlush3_3 t (fun h => h1 ((hcond3_1 t).mp h)))]
    rw [acc3_reset V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat3 V c).leavesExact 3 t = owns (c : Thread nD τ) (st3_3 t) fullShare ((dat3 V c).after 3 t) from by
        unfold Dat.leavesExact; rw [liveAt3_3 t ((hcond3_1 t).mpr h1)], after3_3 V c t h1]
      rw [acc3_step V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h0 ((hcond3_0 t).mp h)) ((hcond3_1 t).mpr h1) (iblk3 V c 0 t) (iblk3 V c 1 t) (iblk3 V c 2 t) (acc3 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t (fun h => h1 ((hcond3_1 t).mp h))) (noFlush3_3 t (fun h => h1 ((hcond3_1 t).mp h)))]
      rw [acc3_step V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_B c Set.univ (grid3.coords t) _ _ _ _ _ _ _ _ _ _ (fun h => h0 ((hcond3_0 t).mp h)) (fun h => h1 ((hcond3_1 t).mp h)) (iblk3 V c 0 t) (iblk3 V c 1 t) (acc3 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch's named contents are forgotten. -/
theorem PhiS3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]; · iexists _; iexact HS
    iexact HR
  iexact Hg

/-- The same after the last point. -/
theorem hout3 (c : Dev nD) : (dat3 V c).Φ (Fin.last cfg3.N) ⊢ Pipeline.ΦA spec3 c :=
  PhiS3_out V c _ (by rw [Fin.val_last]; have : cfg3.N = 36 := N_3; omega)

end Cert.KernelIdeal.Gen

end
-- ==== Proof.Reg4.lean ====
import proofs.«420824_j61512521613989_2_alg».proof.Proof.Gen.KernelIdeal.Launch
import proofs.«420824_j61512521613989_2_alg».proof.Proof.Gen.KernelIdeal.Skeleton
import proofs.«420824_j61512521613989_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

/-!
# Region 4: the Gram product z zᵀ, block by block

The fifth kernel region multiplies a row block of z (2048 rows) by the transpose of another row block of z
(1536 rows) and writes the product to the output block (i, j). Both operand windows read ONE array, so the
array's full share is dealt between them in halves at the region's entry and joined again at its exit; the
output array is held whole.
-/

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the buffers' contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block of z (window 0) sits in its staging buffer at every point, fetched there or not: the block
    index depends on i alone, so along j the buffer keeps the block it was given. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The column operand's row block of z (window 1) likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the output block -/

/-- The output block after the body: the product of the two operand blocks, the second transposed. -/
def out4_2 (x0 : Vec F S2048x64 .bf16) (x1 : Vec F S1536x64 .bf16) : Vec F S2048x1536 .f32 :=
  k4_pay1 x0 x1

/-! ## The body's triple -/

set_option maxHeartbeats 1000000 in
/-- The body on whole staging buffers: it reads both operand blocks, multiplies, and stores the product over the
    whole output block, whatever the block held. -/
theorem sound_kernel4 (c : Dev nD) (E : Set ℕ) (i : grid4.Coords)
    (arg2 : Memref sig .tc .vmem S2048x64 .bf16) (harg2 : arg2.IsWhole)
    (arg3 : Memref sig .tc .vmem S1536x64 .bf16) (harg3 : arg3.IsWhole)
    (arg4 : Memref sig .tc .vmem S2048x1536 .f32) (harg4 : arg4.IsWhole)
    (x0 : Vec F S2048x64 .bf16) (x1 : Vec F S1536x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__zzt_kernel i arg2 harg2 arg3 harg3 arg4 harg4) K := by
  simp only [cc4__zzt_kernel_eq_skeleton]; unfold cc4__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S2048x1536_S2048x1536_0_0 y⟩),
    View.canon_unit_zero hz]
  unfold out4_2
  congr 1
  · exact View.ld_unit_zero (Val := Elt F) hz inb_S2048x64_S2048x64_0_0 (View.read (Elt F) arg2.view f0)
  · exact View.ld_unit_zero (Val := Elt F) hz inb_S1536x64_S1536x64_0_0 (View.read (Elt F) arg3.view f1)

/-! ## The region's proof data -/

/-- The proof data of the region on core c: the arrays as the region finds them; after the body at point t each
    operand's buffer at its block and the output's at the product of the two blocks; the class invariant (the scoped
    rest and the generator register, untouched); nothing owed. The operand array is read by two windows: the first
    holds the left half of its full share, the second the right half; the output array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay1 (iblk4 V c 0 t) (iblk4 V c 1 t) := by
  dsimp only [dat4, out4_2]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies; the invariant
    and the core's tallies pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The operand array dealt between its two readers, and joined again -/

/-- The distinct buffers behind the region's three windows: the operand array and the output array. -/
theorem arrRefs4 : Finset.univ.image (Pipeline.arrRef spec4) = ({main_v75, main_v76} : Finset (Ref sig .tc)) := by decide

theorem share4_0 (c : Dev nD) : (dat4 V c).share 0 = fullShare.left := rfl
theorem share4_1 (c : Dev nD) : (dat4 V c).share 1 = fullShare.right := rfl
theorem share4_2 (c : Dev nD) : (dat4 V c).share 2 = fullShare := rfl

omit V in
/-- A buffer held whole is the same as its two half shares held side by side (another buffer riding along). -/
theorem halves_iff {ℓ ℓ' : Loc nD τ sig} (f : Buf (Elt F) ℓ) (g : Buf (Elt F) ℓ') :
    (iprop((ℓ ↦{fullShare.left} f) ∗ (ℓ ↦{fullShare.right} f) ∗ (ℓ' ↦{fullShare} g)) : sProp 𝕄)
      ⊣⊢ iprop((ℓ ↦{fullShare} f) ∗ (ℓ' ↦{fullShare} g)) := by
  have hsh := pointsTo_share (nD := nD) (τ := τ) (sig := sig) (Ix := Unit) (Val := Elt F) (Name := ℕ) (U := UR sig nD τ) (Lvl := ℕ)
    (ℓ := ℓ) (I := Finset.univ) (f := f) (PosShare.mem_left_op_right fullShare)
  constructor
  · iintro ⟨H0, H1, H2⟩
    isplitl [H0 H1]
    · iapply hsh.2
      isplitl [H0]; · iexact H0
      iexact H1
    · iexact H2
  · iintro ⟨Hz, H2⟩
    ihave H := hsh.1 $$ Hz
    icases H with ⟨H0, H1⟩
    isplitl [H0]; · iexact H0
    isplitl [H1]; · iexact H1
    iexact H2

/-- The arrays of the region, at contents G that give both operand windows one and the same contents fz of the
    operand array and the output window the contents fo, are the operand array whole at fz and the output array
    whole at fo: the two halves of the full share put together, or dealt out. -/
theorem arrays4_iff (c : Dev nD)
    (G : (w : Fin cfg4.W) → Buf (Elt F) ((cfg4.win w).arr.view.loc (c : Thread nD τ)))
    (fz : Buf (Elt F) ((c : Thread nD τ).loc main_v75)) (fo : Buf (Elt F) ((c : Thread nD τ).loc main_v76))
    (h0 : G 0 = fz) (h1 : G 1 = fz) (h2 : G 2 = fo) :
    (dat4 V c).arrays G ⊣⊢ (iprop((((c : Thread nD τ).loc main_v75) ↦{fullShare} fz) ∗ (((c : Thread nD τ).loc main_v76) ↦{fullShare} fo)) : sProp 𝕄) := by
  unfold Dat.arrays
  rw [bigSep_W4]
  -- window by window: the array behind it, whole, at the window's share
  have p0 : (((cfg4.win 0).arr.view.loc (c : Thread nD τ)) ↦[(cfg4.win 0).arr.view.set]{(dat4 V c).share 0} G 0 : sProp 𝕄)
      = (((c : Thread nD τ).loc main_v75) ↦{fullShare.left} fz) := by
    rw [(arr_whole4 0).set_eq_univ, h0] <;> rfl
  have p1 : (((cfg4.win 1).arr.view.loc (c : Thread nD τ)) ↦[(cfg4.win 1).arr.view.set]{(dat4 V c).share 1} G 1 : sProp 𝕄)
      = (((c : Thread nD τ).loc main_v75) ↦{fullShare.right} fz) := by
    rw [(arr_whole4 1).set_eq_univ, h1] <;> rfl
  have p2 : (((cfg4.win 2).arr.view.loc (c : Thread nD τ)) ↦[(cfg4.win 2).arr.view.set]{(dat4 V c).share 2} G 2 : sProp 𝕄)
      = (((c : Thread nD τ).loc main_v76) ↦{fullShare} fo) := by
    rw [(arr_whole4 2).set_eq_univ, h2] <;> rfl
  exact (BiEntails.of_eq (congrArg₂ _ p0 (congrArg₂ _ p1 p2))).trans (halves_iff fz fo)

/-! ## Into the region and out of it -/

/-- The core's unscoped buffers are the two arrays of the region and the rest. -/
theorem unscoped_split4 (c : Dev nD) (W : (b : Ref sig .tc) → Buf (Elt F) ((c : Thread nD τ).loc b)) :
    (unscopedBufs c W : sProp 𝕄) = iprop(iprop((((c : Thread nD τ).loc main_v75) ↦{fullShare} W main_v75) ∗ (((c : Thread nD τ).loc main_v76) ↦{fullShare} W main_v76))
        ∗ Pipeline.unscopedRest spec4 c W) := by
  have h : (unscopedBufs c W : sProp 𝕄) = iprop(Pipeline.arrBufs spec4 c W ∗ Pipeline.unscopedRest spec4 c W) :=
    Pipeline.unscopedBufs_split₀ cfgs 4 winFacts₀4.arr_unscoped c W
  rw [h]; unfold Pipeline.arrBufs
  rw [arrRefs4, bigSep_insert (by decide), bigSep_singleton]
  rfl

/-- ENTRY: the core's unscoped buffers at the entry contents are the region's arrays at those contents (the operand
    array's full share dealt in halves to its two readers) and every unscoped buffer that is no array of the region. -/
theorem entry4 (c : Dev nD) :
    (unscopedBufs c (V c) : sProp 𝕄)
      ⊢ iprop((dat4 V c).arrays ((dat4 V c).arrAt · 0) ∗ Pipeline.unscopedRest spec4 c (V c)) := by
  rw [unscoped_split4]
  exact sep_mono (arrays4_iff V c ((dat4 V c).arrAt · 0) (V c main_v75) (V c main_v76) (A_eq4 V c 0) (A_eq4 V c 1) (A_eq4 V c 2)).2 .rfl

/-- EXIT: the region's arrays as the pipeline leaves them (the operand array unchanged, its halves joined; the output
    array at the folded write-backs) and the bypassing buffers are the core's unscoped buffers at any contents that
    agree with the entry contents off the output array and hold the pipeline's result there. -/
theorem exit4 (c : Dev nD) (V' : (b : Ref sig .tc) → Buf (Elt F) ((c : Thread nD τ).loc b))
    (h76 : V' main_v76 = (dat4 V c).arrAt 2 cfg4.N) (hrest : ∀ b, b ≠ main_v76 → V' b = V c b) :
    iprop((dat4 V c).arrays ((dat4 V c).arrAt · cfg4.N) ∗ Pipeline.unscopedRest spec4 c (V c))
      ⊢ (unscopedBufs c V' : sProp 𝕄) := by
  rw [unscoped_split4]
  refine sep_mono ?_ (Entails.of_eq ?_)
  · have h0 : (dat4 V c).arrAt 0 cfg4.N = V' main_v75 :=
      (((dat4 V c).arrAt_in 0 rfl _).trans (A_eq4 V c 0)).trans (hrest main_v75 (by decide)).symm
    have h1 : (dat4 V c).arrAt 1 cfg4.N = V' main_v75 :=
      (((dat4 V c).arrAt_in 1 rfl _).trans (A_eq4 V c 1)).trans (hrest main_v75 (by decide)).symm
    exact (arrays4_iff V c ((dat4 V c).arrAt · cfg4.N) (V' main_v75) (V' main_v76) h0 h1 h76.symm).1
  · unfold Pipeline.unscopedRest
    refine bigSep_congr fun b hb => ?_
    rw [hrest b fun e => (Finset.mem_sdiff.mp hb).2 (by rw [e, arrRefs4]; decide)]

end Region4

end Cert.KernelIdeal.Gen

end
-- ==== Proof.Run.lean ====
/- The run of the kernel program: the contents of every unscoped buffer at each boundary between two items of @main,
   one segment record per kernel region, @main as the list of its fourteen segments, and the launch theorem whose
   post names the final contents of every unscoped buffer. -/
import proofs.«420824_j61512521613989_2_alg».proof.Proof.Gen.KernelIdeal.Launch
import proofs.«420824_j61512521613989_2_alg».proof.Proof.Gen.KernelIdeal.Skeleton
import proofs.«420824_j61512521613989_2_alg».proof.Proof.Gen.KernelIdeal.Points
import proofs.«420824_j61512521613989_2_alg».proof.Proof.Gen.KernelIdeal.Regions
import proofs.«420824_j61512521613989_2_alg».proof.Proof.Reg0
import proofs.«420824_j61512521613989_2_alg».proof.Proof.Reg1
import proofs.«420824_j61512521613989_2_alg».proof.Proof.Reg2
import proofs.«420824_j61512521613989_2_alg».proof.Proof.Reg3
import proofs.«420824_j61512521613989_2_alg».proof.Proof.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary: a fold through @main

A host stretch takes the valuation to `StableHlo.after` of its operations. A kernel region changes exactly one
buffer, its output array, which ends at what the write-backs of all grid points leave (`Dat.arrAt … N`); the proof
data of a region are taken at the contents the region is entered from. -/

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- The same read at the TensorCore's references: the contents region 0 is entered from. -/
abbrev Vin0 : (c : Dev nD) → (b : Ref sig .tc) → Buf (Elt F) ((c : Thread nD τ).loc b) := fun c b => W1 m c b
/-- After region 0: its output array `main_v44` at what the write-backs leave, every other buffer as entered. -/
def W2 (c : Dev nD) : Valuation τ sig (Elt F) :=
  Function.update (W1 m c) main_v44 ((dat0 (Vin0 m) c).arrAt 3 cfg0.N)
theorem W2_main_v44 (c : Dev nD) : W2 m c (Proc.devRef .tc main_v44) = (dat0 (Vin0 m) c).arrAt 3 cfg0.N := by
  unfold W2; exact Function.update_self _ _ _
/-- After the host stretch `hostOps1`. -/
abbrev W3 (c : Dev nD) : Valuation τ sig (Elt F) := StableHlo.after hostOps1 (W2 m c)
/-- The same read at the TensorCore's references: the contents region 1 is entered from. -/
abbrev Vin1 : (c : Dev nD) → (b : Ref sig .tc) → Buf (Elt F) ((c : Thread nD τ).loc b) := fun c b => W3 m c b
/-- After region 1: its output array `main_v50` at what the write-backs leave, every other buffer as entered. -/
def W4 (c : Dev nD) : Valuation τ sig (Elt F) :=
  Function.update (W3 m c) main_v50 ((dat1 (Vin1 m) c).arrAt 3 cfg1.N)
theorem W4_main_v50 (c : Dev nD) : W4 m c (Proc.devRef .tc main_v50) = (dat1 (Vin1 m) c).arrAt 3 cfg1.N := by
  unfold W4; exact Function.update_self _ _ _
/-- After the host stretch `hostOps2`. -/
abbrev W5 (c : Dev nD) : Valuation τ sig (Elt F) := StableHlo.after hostOps2 (W4 m c)
/-- The same read at the TensorCore's references: the contents region 2 is entered from. -/
abbrev Vin2 : (c : Dev nD) → (b : Ref sig .tc) → Buf (Elt F) ((c : Thread nD τ).loc b) := fun c b => W5 m c b
/-- After region 2: its output array `main_v61` at what the write-backs leave, every other buffer as entered. -/
def W6 (c : Dev nD) : Valuation τ sig (Elt F) :=
  Function.update (W5 m c) main_v61 ((dat2 (Vin2 m) c).arrAt 3 cfg2.N)
theorem W6_main_v61 (c : Dev nD) : W6 m c (Proc.devRef .tc main_v61) = (dat2 (Vin2 m) c).arrAt 3 cfg2.N := by
  unfold W6; exact Function.update_self _ _ _
/-- After the host stretch `hostOps3`. -/
abbrev W7 (c : Dev nD) : Valuation τ sig (Elt F) := StableHlo.after hostOps3 (W6 m c)
/-- After the host stretch `hostOps3_1`. -/
abbrev W8 (c : Dev nD) : Valuation τ sig (Elt F) := StableHlo.after hostOps3_1 (W7 m c)
/-- After the host stretch `hostOps3_2`. -/
abbrev W9 (c : Dev nD) : Valuation τ sig (Elt F) := StableHlo.after hostOps3_2 (W8 m c)
/-- After the host stretch `hostOps3_3`. -/
abbrev W10 (c : Dev nD) : Valuation τ sig (Elt F) := StableHlo.after hostOps3_3 (W9 m c)
/-- After the host stretch `hostOps3_4`. -/
abbrev W11 (c : Dev nD) : Valuation τ sig (Elt F) := StableHlo.after hostOps3_4 (W10 m c)
/-- The same read at the TensorCore's references: the contents region 3 is entered from. -/
abbrev Vin3 : (c : Dev nD) → (b : Ref sig .tc) → Buf (Elt F) ((c : Thread nD τ).loc b) := fun c b => W11 m c b
/-- After region 3: its output array `main_v73` at what the write-backs leave, every other buffer as entered. -/
def W12 (c : Dev nD) : Valuation τ sig (Elt F) :=
  Function.update (W11 m c) main_v73 ((dat3 (Vin3 m) c).arrAt 3 cfg3.N)
theorem W12_main_v73 (c : Dev nD) : W12 m c (Proc.devRef .tc main_v73) = (dat3 (Vin3 m) c).arrAt 3 cfg3.N := by
  unfold W12; exact Function.update_self _ _ _
/-- After the host stretch `hostOps4`. -/
abbrev W13 (c : Dev nD) : Valuation τ sig (Elt F) := StableHlo.after hostOps4 (W12 m c)
/-- The same read at the TensorCore's references: the contents region 4 is entered from. -/
abbrev Vin4 : (c : Dev nD) → (b : Ref sig .tc) → Buf (Elt F) ((c : Thread nD τ).loc b) := fun c b => W13 m c b
/-- After region 4: its output array `main_v76` at what the write-backs leave, every other buffer as entered. -/
def W14 (c : Dev nD) : Valuation τ sig (Elt F) :=
  Function.update (W13 m c) main_v76 ((dat4 (Vin4 m) c).arrAt 2 cfg4.N)
theorem W14_main_v76 (c : Dev nD) : W14 m c (Proc.devRef .tc main_v76) = (dat4 (Vin4 m) c).arrAt 2 cfg4.N := by
  unfold W14; exact Function.update_self _ _ _

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v44] : List (Ref sig .tc))) : W2 m c r = W1 m c r := by
  simp only [W2, Function.update_of_ne (StableHlo.devRef_ne_of_ne (List.ne_of_not_mem_cons h) : (Proc.devRef .tc r : DevRef τ sig) ≠ Proc.devRef .tc main_v44)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v50] : List (Ref sig .tc))) : W4 m c r = W3 m c r := by
  simp only [W4, Function.update_of_ne (StableHlo.devRef_ne_of_ne (List.ne_of_not_mem_cons h) : (Proc.devRef .tc r : DevRef τ sig) ≠ Proc.devRef .tc main_v50)]
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ ([main_v61] : List (Ref sig .tc))) : W6 m c r = W5 m c r := by
  simp only [W6, Function.update_of_ne (StableHlo.devRef_ne_of_ne (List.ne_of_not_mem_cons h) : (Proc.devRef .tc r : DevRef τ sig) ≠ Proc.devRef .tc main_v61)]
theorem W7_of (c : Dev nD) (r : Ref sig .tc) (h : r ∉ hostOps3_W) : W7 m c r = W6 m c r :=
  StableHlo.after_of_writes_sub hostOps3 _ hostOps3_writes h
theorem W8_of (c : Dev nD) (r : Ref sig .tc) (h : r ∉ hostOps3_1_W) : W8 m c r = W7 m c r :=
  StableHlo.after_of_writes_sub hostOps3_1 _ hostOps3_1_writes h
theorem W9_of (c : Dev nD) (r : Ref sig .tc) (h : r ∉ hostOps3_2_W) : W9 m c r = W8 m c r :=
  StableHlo.after_of_writes_sub hostOps3_2 _ hostOps3_2_writes h
theorem W10_of (c : Dev nD) (r : Ref sig .tc) (h : r ∉ hostOps3_3_W) : W10 m c r = W9 m c r :=
  StableHlo.after_of_writes_sub hostOps3_3 _ hostOps3_3_writes h
theorem W11_of (c : Dev nD) (r : Ref sig .tc) (h : r ∉ hostOps3_4_W) : W11 m c r = W10 m c r :=
  StableHlo.after_of_writes_sub hostOps3_4 _ hostOps3_4_writes h
theorem W12_of (c : Dev nD) (r : Ref sig .tc) (h : r ∉ ([main_v73] : List (Ref sig .tc))) : W12 m c r = W11 m c r := by
  simp only [W12, Function.update_of_ne (StableHlo.devRef_ne_of_ne (List.ne_of_not_mem_cons h) : (Proc.devRef .tc r : DevRef τ sig) ≠ Proc.devRef .tc main_v73)]
theorem W13_of (c : Dev nD) (r : Ref sig .tc) (h : r ∉ hostOps4_W) : W13 m c r = W12 m c r :=
  StableHlo.after_of_writes_sub hostOps4 _ hostOps4_writes h
theorem W14_of (c : Dev nD) (r : Ref sig .tc) (h : r ∉ ([main_v76] : List (Ref sig .tc))) : W14 m c r = W13 m c r := by
  simp only [W14, Function.update_of_ne (StableHlo.devRef_ne_of_ne (List.ne_of_not_mem_cons h) : (Proc.devRef .tc r : DevRef τ sig) ≠ Proc.devRef .tc main_v76)]

/-! ## A region's arrays at its exit

Each input window's array is never written by the region (`Dat.arrAt_in`) and is no output of it, so it holds at the
exit what it held at the entry; the output window's array is the updated buffer. -/

theorem hF0 (c : Dev nD) : ∀ w : Fin cfg0.W, (dat0 (Vin0 m) c).arrAt w cfg0.N = W2 m c (Proc.devRef .tc (Pipeline.arrRef spec0 w))
  | 0 => ((dat0 (Vin0 m) c).arrAt_in 0 rfl _).trans ((A_eq0 (Vin0 m) c 0).trans (W2_of m c _ (by decide)).symm)
  | 1 => ((dat0 (Vin0 m) c).arrAt_in 1 rfl _).trans ((A_eq0 (Vin0 m) c 1).trans (W2_of m c _ (by decide)).symm)
  | 2 => ((dat0 (Vin0 m) c).arrAt_in 2 rfl _).trans ((A_eq0 (Vin0 m) c 2).trans (W2_of m c _ (by decide)).symm)
  | 3 => (W2_main_v44 m c).symm
theorem hrest0 (c : Dev nD) (b : Ref sig .tc) (hb : b ∉ Finset.univ.image (Pipeline.arrRef spec0)) :
    W2 m c (Proc.devRef .tc b) = W1 m c (Proc.devRef .tc b) :=
  W2_of m c b fun h => hb (by rw [List.mem_singleton.mp h]; exact Finset.mem_image.mpr ⟨3, Finset.mem_univ _, rfl⟩)
theorem hF1 (c : Dev nD) : ∀ w : Fin cfg1.W, (dat1 (Vin1 m) c).arrAt w cfg1.N = W4 m c (Proc.devRef .tc (Pipeline.arrRef spec1 w))
  | 0 => ((dat1 (Vin1 m) c).arrAt_in 0 rfl _).trans ((A_eq1 (Vin1 m) c 0).trans (W4_of m c _ (by decide)).symm)
  | 1 => ((dat1 (Vin1 m) c).arrAt_in 1 rfl _).trans ((A_eq1 (Vin1 m) c 1).trans (W4_of m c _ (by decide)).symm)
  | 2 => ((dat1 (Vin1 m) c).arrAt_in 2 rfl _).trans ((A_eq1 (Vin1 m) c 2).trans (W4_of m c _ (by decide)).symm)
  | 3 => (W4_main_v50 m c).symm
theorem hrest1 (c : Dev nD) (b : Ref sig .tc) (hb : b ∉ Finset.univ.image (Pipeline.arrRef spec1)) :
    W4 m c (Proc.devRef .tc b) = W3 m c (Proc.devRef .tc b) :=
  W4_of m c b fun h => hb (by rw [List.mem_singleton.mp h]; exact Finset.mem_image.mpr ⟨3, Finset.mem_univ _, rfl⟩)
theorem hF2 (c : Dev nD) : ∀ w : Fin cfg2.W, (dat2 (Vin2 m) c).arrAt w cfg2.N = W6 m c (Proc.devRef .tc (Pipeline.arrRef spec2 w))
  | 0 => ((dat2 (Vin2 m) c).arrAt_in 0 rfl _).trans ((A_eq2 (Vin2 m) c 0).trans (W6_of m c _ (by decide)).symm)
  | 1 => ((dat2 (Vin2 m) c).arrAt_in 1 rfl _).trans ((A_eq2 (Vin2 m) c 1).trans (W6_of m c _ (by decide)).symm)
  | 2 => ((dat2 (Vin2 m) c).arrAt_in 2 rfl _).trans ((A_eq2 (Vin2 m) c 2).trans (W6_of m c _ (by decide)).symm)
  | 3 => (W6_main_v61 m c).symm
theorem hrest2 (c : Dev nD) (b : Ref sig .tc) (hb : b ∉ Finset.univ.image (Pipeline.arrRef spec2)) :
    W6 m c (Proc.devRef .tc b) = W5 m c (Proc.devRef .tc b) :=
  W6_of m c b fun h => hb (by rw [List.mem_singleton.mp h]; exact Finset.mem_image.mpr ⟨3, Finset.mem_univ _, rfl⟩)
theorem hF3 (c : Dev nD) : ∀ w : Fin cfg3.W, (dat3 (Vin3 m) c).arrAt w cfg3.N = W12 m c (Proc.devRef .tc (Pipeline.arrRef spec3 w))
  | 0 => ((dat3 (Vin3 m) c).arrAt_in 0 rfl _).trans ((A_eq3 (Vin3 m) c 0).trans (W12_of m c _ (by decide)).symm)
  | 1 => ((dat3 (Vin3 m) c).arrAt_in 1 rfl _).trans ((A_eq3 (Vin3 m) c 1).trans (W12_of m c _ (by decide)).symm)
  | 2 => ((dat3 (Vin3 m) c).arrAt_in 2 rfl _).trans ((A_eq3 (Vin3 m) c 2).trans (W12_of m c _ (by decide)).symm)
  | 3 => (W12_main_v73 m c).symm
theorem hrest3 (c : Dev nD) (b : Ref sig .tc) (hb : b ∉ Finset.univ.image (Pipeline.arrRef spec3)) :
    W12 m c (Proc.devRef .tc b) = W11 m c (Proc.devRef .tc b) :=
  W12_of m c b fun h => hb (by rw [List.mem_singleton.mp h]; exact Finset.mem_image.mpr ⟨3, Finset.mem_univ _, rfl⟩)
theorem hF4 (c : Dev nD) : ∀ w : Fin cfg4.W, (dat4 (Vin4 m) c).arrAt w cfg4.N = W14 m c (Proc.devRef .tc (Pipeline.arrRef spec4 w))
  | 0 => ((dat4 (Vin4 m) c).arrAt_in 0 rfl _).trans ((A_eq4 (Vin4 m) c 0).trans (W14_of m c _ (by decide)).symm)
  | 1 => ((dat4 (Vin4 m) c).arrAt_in 1 rfl _).trans ((A_eq4 (Vin4 m) c 1).trans (W14_of m c _ (by decide)).symm)
  | 2 => (W14_main_v76 m c).symm
theorem hrest4 (c : Dev nD) (b : Ref sig .tc) (hb : b ∉ Finset.univ.image (Pipeline.arrRef spec4)) :
    W14 m c (Proc.devRef .tc b) = W13 m c (Proc.devRef .tc b) :=
  W14_of m c b fun h => hb (by rw [List.mem_singleton.mp h]; exact Finset.mem_image.mpr ⟨2, Finset.mem_univ _, rfl⟩)

/-! ## No item writes an argument

No host stretch writes an argument array and no region's output array is one, so the fold at an argument's buffer
walks back to the launch memory. -/

theorem W14_main_arg0 (c : Dev nD) : W14 m c (Proc.devRef .tc main_arg0) = m ((c : Thread nD τ).loc main_arg0) :=
  (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W14_main_arg1 (c : Dev nD) : W14 m c (Proc.devRef .tc main_arg1) = m ((c : Thread nD τ).loc main_arg1) :=
  (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W14_main_arg2 (c : Dev nD) : W14 m c (Proc.devRef .tc main_arg2) = m ((c : Thread nD τ).loc main_arg2) :=
  (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W14_main_arg3 (c : Dev nD) : W14 m c (Proc.devRef .tc main_arg3) = m ((c : Thread nD τ).loc main_arg3) :=
  (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W14_main_arg4 (c : Dev nD) : W14 m c (Proc.devRef .tc main_arg4) = m ((c : Thread nD τ).loc main_arg4) :=
  (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W14_main_arg5 (c : Dev nD) : W14 m c (Proc.devRef .tc main_arg5) = m ((c : Thread nD τ).loc main_arg5) :=
  (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W14_main_arg6 (c : Dev nD) : W14 m c (Proc.devRef .tc main_arg6) = m ((c : Thread nD τ).loc main_arg6) :=
  (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W14_main_arg7 (c : Dev nD) : W14 m c (Proc.devRef .tc main_arg7) = m ((c : Thread nD τ).loc main_arg7) :=
  (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W14_main_arg8 (c : Dev nD) : W14 m c (Proc.devRef .tc main_arg8) = m ((c : Thread nD τ).loc main_arg8) :=
  (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W14_main_arg9 (c : Dev nD) : W14 m c (Proc.devRef .tc main_arg9) = m ((c : Thread nD τ).loc main_arg9) :=
  (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W14_main_arg10 (c : Dev nD) : W14 m c (Proc.devRef .tc main_arg10) = m ((c : Thread nD τ).loc main_arg10) :=
  (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W14_main_arg11 (c : Dev nD) : W14 m c (Proc.devRef .tc main_arg11) = m ((c : Thread nD τ).loc main_arg11) :=
  (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W14_main_arg12 (c : Dev nD) : W14 m c (Proc.devRef .tc main_arg12) = m ((c : Thread nD τ).loc main_arg12) :=
  (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl

/-- The first result array `main_v74` is written by the last host stretch and not by the last region. -/
theorem W14_main_v74 (c : Dev nD) :
    W14 m c (Proc.devRef .tc main_v74) = StableHlo.after hostOps4 (W12 m c) (Proc.devRef .tc main_v74) :=
  W14_of m c main_v74 (by decide)

/-! ## The proof data family and the thread state -/

/-- Every pipeline's proof data, each at its region's entry contents: a literal `match`, so that the family at a
    numeral reduces to that region's data. -/
def pdats : (p : Fin 5) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c

/-- No core owes another anything: no level is assigned. -/
abbrev runL : GSem nD τ sig → Finset Unit := fun _ => ∅
abbrev runLv : GSem nD τ sig → Unit → ℕ := fun _ _ => 0

/-- What rides beside the buffers through every segment: the core's generator register at some state and its
    dues, at nothing. -/
abbrev Rst (c : Dev nD) : sProp 𝕄 := iprop((∃ r, prngReg c r) ∗ ∃ W, owes (c : Thread nD τ) (0 : CellTallies nD τ sig Unit) W)

/-- A host stretch as a segment over the unscoped references from the contents `W`, `Rst` riding along: it ends
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last contents, the generator register at
    some state. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0 over the thread state: entered from every unscoped buffer at `W1`, left at `W2`. Its arrays are split
    out of the unscoped buffers at the entry and put back at the exit contents; the generator register goes into the
    region's invariant and comes back; nothing is owed; the kernel has no semaphore of its own. -/
def R0 : Pipeline.RegionSeg (pcfgs (F := F)) adm (pdats m) () defs₀ Variants.none runL runLv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ runL runLv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers at the entry and put back at the exit contents; the generator register goes into the
    region's invariant and comes back; nothing is owed; the kernel has no semaphore of its own. -/
def R1 : Pipeline.RegionSeg (pcfgs (F := F)) adm (pdats m) () defs₀ Variants.none runL runLv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ runL runLv 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers at the entry and put back at the exit contents; the generator register goes into the
    region's invariant and comes back; nothing is owed; the kernel has no semaphore of its own. -/
def R2 : Pipeline.RegionSeg (pcfgs (F := F)) adm (pdats m) () defs₀ Variants.none runL runLv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ runL runLv 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m) c)
    unfold Pipeline.ΦA
    iintro ⟨Hp, -, Hr⟩
    isplitl [Hr]; · iexact Hr
    iexact Hp
  hout c := by
    rw [Pipeline.ownSems0_none]
    refine BIBase.Entails.trans (hout2 (Vin2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split
    out of the unscoped buffers at the entry and put back at the exit contents; the generator register goes into the
    region's invariant and comes back; nothing is owed; the kernel has no semaphore of its own. -/
def R3 : Pipeline.RegionSeg (pcfgs (F := F)) adm (pdats m) () defs₀ Variants.none runL runLv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ runL runLv 3 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m) c)
    unfold Pipeline.ΦA
    iintro ⟨Hp, -, Hr⟩
    isplitl [Hr]; · iexact Hr
    iexact Hp
  hout c := by
    rw [Pipeline.ownSems0_none]
    refine BIBase.Entails.trans (hout3 (Vin3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b => W12 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W13`, left at `W14`. Its two input windows
    read one array. -/
def R4 : Pipeline.RegionSeg (pcfgs (F := F)) adm (pdats m) () defs₀ Variants.none runL runLv 4 where
  win := winFacts₀4
  block_pos := block_pos4
  stage_whole := stage_whole4
  K := PEmpty
  osem k := k.elim
  ho := Pipeline.OwnSemFacts.none _
  hbody c := (body_obligation4 (Vin4 m) c).loose
  hwaits := Pipeline.hwaits_of_owed_zero _ _ _ _ runL runLv 4 fun _ _ => rfl
  pre c := iprop(StableHlo.held (c : Thread nD τ) (Pipeline.ucRefs τ sig) (W13 m c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit : (unscopedBufs c (Vin4 m c) : sProp 𝕄)
        ⊢ iprop((pdats m 4 c).arrays ((pdats m 4 c).arrAt · 0) ∗ Pipeline.unscopedRest spec4 c (Vin4 m c)) := entry4 (Vin4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : (iprop((pdats m 4 c).arrays ((pdats m 4 c).arrAt · cfg4.N) ∗ Pipeline.unscopedRest spec4 c (Vin4 m c)) : sProp 𝕄)
        ⊢ unscopedBufs c (fun b => W14 m c b) :=
      exit4 (Vin4 m) c (fun b => W14 m c b) (W14_main_v76 m c) (fun b hb => W14_of m c b fun h => hb (List.mem_singleton.mp h))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's fourteen segments in order: a host segment per stretch from its boundary's contents, a region per kernel call. -/
abbrev runSegs : List (Pipeline.Seg (pcfgs (F := F)) adm (pdats m) () defs₀ Variants.none runL runLv) :=
  [ .host (hseg hostOps0 hostOps0_sub hostOps0_fresh (W0 m)),
    .region (R0 m),
    .host (hseg hostOps1 hostOps1_sub hostOps1_fresh (W2 m)),
    .region (R1 m),
    .host (hseg hostOps2 hostOps2_sub hostOps2_fresh (W4 m)),
    .region (R2 m),
    .host (hseg hostOps3 hostOps3_sub hostOps3_fresh (W6 m)),
    .host (hseg hostOps3_1 hostOps3_1_sub hostOps3_1_fresh (W7 m)),
    .host (hseg hostOps3_2 hostOps3_2_sub hostOps3_2_fresh (W8 m)),
    .host (hseg hostOps3_3 hostOps3_3_sub hostOps3_3_fresh (W9 m)),
    .host (hseg hostOps3_4 hostOps3_4_sub hostOps3_4_fresh (W10 m)),
    .region (R3 m),
    .host (hseg hostOps4 hostOps4_sub hostOps4_fresh (W12 m)),
    .region (R4 m) ]

/-- @main is the run of the segments. -/
theorem main_run (c : Dev nD) : main (F := F) c = Pipeline.Seg.run (runSegs m) := (main_chain c).trans (by chain_rfl)

set_option backward.isDefEq.respectTransparency.types false in
/-- THE RUN. From any memory with zero counters every weakly fair execution of @main on the TensorCores terminates and
    every final memory holds each unscoped buffer at the last boundary's contents `W14`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W14 m c b) :=
  Pipeline.θ_run_regions_kit (pcfgs (F := F)) adm (pdats m) () cellOf_inj emb₁ defs₀ Variants.none runL runLv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- THE FRAME: every argument array ends holding its launch contents. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (run_all m ρ).mono fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c),
     (h c _ (mem_uc main_arg6 (by decide))).trans (W14_main_arg6 m c),
     (h c _ (mem_uc main_arg7 (by decide))).trans (W14_main_arg7 m c),
     (h c _ (mem_uc main_arg8 (by decide))).trans (W14_main_arg8 m c),
     (h c _ (mem_uc main_arg9 (by decide))).trans (W14_main_arg9 m c),
     (h c _ (mem_uc main_arg10 (by decide))).trans (W14_main_arg10 m c),
     (h c _ (mem_uc main_arg11 (by decide))).trans (W14_main_arg11 m c),
     (h c _ (mem_uc main_arg12 (by decide))).trans (W14_main_arg12 m c)⟩

end Cert.KernelIdeal.Gen

end
-- ==== Proof.KReg0.lean ====
import proofs.«420824_j61512521613989_2_alg».proof.Proof.Gen.Kernel.Launch
import proofs.«420824_j61512521613989_2_alg».proof.Proof.Gen.Kernel.Skeleton
import proofs.«420824_j61512521613989_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc0`). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias window is fetched at the first point only; its block index never moves, so it too holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions, in closed form over the grid -/

/-- The condition of the first conditional of the body: the second grid coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 6 = 0 :=
  (by decide +kernel : ∀ t : Fin grid0.N, cond0_0 (grid0.coords t) ↔ t.val % 6 = 0)
/-- The condition of the second conditional: the second grid coordinate is 5. -/
abbrev cond0_1 (i : grid0.Coords) : Prop := k0_cond2 i = 1#1
theorem hcond0_1 : ∀ t : Fin cfg0.N, cond0_1 (grid0.coords t) ↔ t.val % 6 = 5 :=
  (by decide +kernel : ∀ t : Fin grid0.N, cond0_1 (grid0.coords t) ↔ t.val % 6 = 5)

/-- The zero offsets of every access of the body, as a constant function. -/
theorem cover0_hz : (![0, 0] : Fin 2 → ℕ) = fun _ => 0 := by
  funext a; fin_cases a <;> rfl

/-! ## Where the windows are idle -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
/-- Off the last point of a row the output window is idle, -/
theorem idleAt0_3 : ∀ t : Fin cfg0.N, ¬cond0_1 (grid0.coords t) → cfg0.idle 3 (grid0.coords t) = true := by decide +kernel
/-- and its block is not written back there; -/
theorem noFlush0_3 : ∀ t : Fin cfg0.N, ¬cond0_1 (grid0.coords t) → (cfg0.win 3).flush t = false := by decide +kernel
/-- at the last point of a row it is live. -/
theorem liveAt0_3 : ∀ t : Fin cfg0.N, cond0_1 (grid0.coords t) → cfg0.idle 3 (grid0.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel0_A (c : Dev nD) (E : Set ℕ) (i : grid0.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : cond0_0 i) (hc1 : ¬cond0_1 i)
    (x0 : Vec F S2048x2048 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k0_pay2 (k0_pay1 (F := F)) x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover0_hz inb_S2048x64_S2048x64_0_0 y⟩),
    View.canon_cons_unit_zero (S := S2048x64) cover0_hz]
  simp only [View.readAt_eq_ld, harg2.read_unread, harg3.read_unread, View.ld_unit_zero (S := S2048x64) cover0_hz,
    View.ld_unit_zero (S := S2048x2048) cover0_hz, View.readCov_unit_zero (S := S2048x64) _ cover0_hz]

set_option maxHeartbeats 1000000 in
/-- A middle point of a row (k neither 0 nor 5): the accumulator, holding `xs`, gains the product of the two input blocks. -/
theorem sound_kernel0_B (c : Dev nD) (E : Set ℕ) (i : grid0.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : ¬cond0_1 i)
    (x0 : Vec F S2048x2048 .bf16) (x1 : Vec F S2048x64 .bf16) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover0_hz inb_S2048x64_S2048x64_0_0 y⟩),
    View.canon_cons_unit_zero (S := S2048x64) cover0_hz]
  simp only [View.readAt_eq_ld, harg2.read_unread, harg3.read_unread, harg6.read_unread, View.ld_unit_zero (S := S2048x64) cover0_hz,
    View.ld_unit_zero (S := S2048x2048) cover0_hz]

set_option maxHeartbeats 1000000 in
/-- The last point of a row (k = 5): the accumulator gains the product, and the output buffer, whatever it held,
    receives the epilogue payload of the new accumulator and the bias block. -/
theorem sound_kernel0_C (c : Dev nD) (E : Set ℕ) (i : grid0.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond0_0 i) (hc1 : cond0_1 i)
    (x0 : Vec F S2048x2048 .bf16) (x1 : Vec F S2048x64 .bf16) (x2 : Vec F S1x64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k0_pay3 (k0_pay2 xs x0 x1) x2)
            ∗ owns (c : Thread nD τ) arg6 fullShare (k0_pay2 xs x0 x1)) -∗ K ⟨⟩))
      ⊢ wp frame (wpE (defs₀ (F := F)) Variants.none c none) E (cc0__gcn_matmul_kernel i arg2 harg2 arg3 harg3 arg4 harg4 arg5 harg5 arg6 harg6) K := by
  simp only [cc0__gcn_matmul_kernel_eq_skeleton]; unfold cc0__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover0_hz inb_S2048x64_S2048x64_0_0 y⟩),
      View.canon_cons_unit_zero (S := S2048x64) cover0_hz]
    simp only [View.readAt_eq_ld, harg2.read_unread, harg3.read_unread, harg4.read_unread, harg6.read_unread, View.ld_unit_zero (S := S2048x64) cover0_hz,
      View.ld_unit_zero (S := S2048x2048) cover0_hz, View.ld_unit_zero (S := S1x64) cover0_hz, View.readCov_unit_zero (S := S2048x64) _ cover0_hz]
  iexists _; isplitr
  swap; · iexact HS
  ipureintro
  sl_unfold_words
  rw [View.read_writes_eq_canon _ _ _ (fun y => ⟨_, List.mem_cons.mpr (Or.inl rfl), View.mem_set_unit_zero cover0_hz inb_S2048x64_S2048x64_0_0 y⟩),
    View.canon_cons_unit_zero (S := S2048x64) cover0_hz]
  simp only [View.readAt_eq_ld, harg2.read_unread, harg3.read_unread, harg6.read_unread, View.ld_unit_zero (S := S2048x64) cover0_hz,
    View.ld_unit_zero (S := S2048x2048) cover0_hz]

/-! ## What the scratch holds after each point -/

/-- The accumulator after the body at position `n`: at the first point of a row (`n % 6 = 0`) the zero payload plus the
    product of the point's blocks; at any other point what the point before left plus the product of the point's blocks. -/
def acc0 (c : Dev nD) : (n : ℕ) → n < cfg0.N → Vec F S2048x64 .f32
  | 0, hn => k0_pay2 (k0_pay1 (F := F)) (iblk0 V c 0 ⟨0, hn⟩) (iblk0 V c 1 ⟨0, hn⟩)
  | n + 1, hn =>
    if h : (n + 1) % 6 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_reset (c : Dev nD) (t : Fin cfg0.N) (h : t.val % 6 = 0) :
    acc0 V c t.val t.isLt = k0_pay2 (k0_pay1 (F := F)) (iblk0 V c 0 t) (iblk0 V c 1 t) := by
  obtain ⟨n, hn⟩ := t
  cases n with
  | zero => rfl
  | succ n => exact dif_pos h

theorem acc0_step (c : Dev nD) (t : Fin cfg0.N) (h : t.val % 6 ≠ 0) :
    acc0 V c t.val t.isLt = k0_pay2 (acc0 V c (t.val - 1) (by omega)) (iblk0 V c 0 t) (iblk0 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM0 : Memref sig .tc .vmem S2048x64 .f32 := Memref.whole cc0_scratch0

/-- The class invariant with the scratch operand split off as a memref owned at some contents. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0, owns_whole]; try rfl

/-- The region invariant before position `n`: before the first point the class's; afterwards the scratch at what the point
    before left (`acc0`), the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) (h : t.val % 6 = 5) :
    (dat0 V c).after 3 t = k0_pay3 (acc0 V c t.val t.isLt) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 36 := lt_of_lt_of_eq t.isLt (show cfg0.N = 36 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h0 : t.val % 6 = 0
  · have h1 : ¬t.val % 6 = 5 := by omega
    rw [Dat.leavesExact_idle (dat0 V c) 3 t (idleAt0_3 t (fun h => h1 ((hcond0_1 t).mp h))) (noFlush0_3 t (fun h => h1 ((hcond0_1 t).mp h)))]
    rw [acc0_reset V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_kernel0_A c Set.univ (grid0.coords t) _ _ _ _ _ _ _ _ _ _ ((hcond0_0 t).mpr h0) (fun h => h1 ((hcond0_1 t).mp h)) (iblk0 V c 0 t) (iblk0 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat0 V c).leavesExact 3 t = owns (c : Thread nD τ) (st0_3 t) fullShare ((dat0 V c).after 3 t) from by
        unfold Dat.leavesExact; rw [liveAt0_3 t ((hcond0_1 t).mpr h1)], after0_3 V c t h1]
      rw [acc0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_kernel0_C c Set.univ (grid0.coords t) _ _ _ _ _ _ _ _ _ _ (fun h => h0 ((hcond0_0 t).mp h)) ((hcond0_1 t).mpr h1) (iblk0 V c 0 t) (iblk0 V c 1 t) (iblk0 V c 2 t) (acc0 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      rw [acc0_step V c t h0]
      rw [PhiS0_castSucc V c t, PhiS0_pos V c _ _ hz]
      iintro ⟨⟨⟨HS, HR⟩, Hg⟩, Ho, ⟨%d0, H0⟩, ⟨%d1, H1⟩, ⟨%d2, H2⟩, ⟨%d3, H3⟩⟩
      iapply (sound_kernel0_B c Set.univ (grid0.coords t) _ _ _ _ _ _ _ _ _ _ (fun h => h0 ((hcond0_0 t).mp h)) (fun h => h1 ((hcond0_1 t).mp h)) (iblk0 V c 0 t) (iblk0 V c 1 t) (acc0 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's named contents are forgotten. -/
theorem PhiS0_out (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]; · iexists _; iexact HS
    iexact HR
  iexact Hg

/-- The same after the last point. -/
theorem hout0 (c : Dev nD) : (dat0 V c).Φ (Fin.last cfg0.N) ⊢ Pipeline.ΦA spec0 c :=
  PhiS0_out V c _ (by rw [Fin.val_last]; have : cfg0.N = 36 := N_0; omega)

end Cert.Kernel.Gen

end
-- ==== Proof.KReg1.lean ====
import proofs.«420824_j61512521613989_2_alg».proof.Proof.Gen.Kernel.Launch
import proofs.«420824_j61512521613989_2_alg».proof.Proof.Gen.Kernel.Skeleton
import proofs.«420824_j61512521613989_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc1`). -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window is fetched at the first point only; its block index never moves, so it too holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions, in closed form over the grid -/

/-- The condition of the first conditional of the body: the second grid coordinate is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 6 = 0 :=
  (by decide +kernel : ∀ t : Fin grid1.N, cond1_0 (grid1.coords t) ↔ t.val % 6 = 0)
/-- The condition of the second conditional: the second grid coordinate is 5. -/
abbrev cond1_1 (i : grid1.Coords) : Prop := k1_cond2 i = 1#1
theorem hcond1_1 : ∀ t : Fin cfg1.N, cond1_1 (grid1.coords t) ↔ t.val % 6 = 5 :=
  (by decide +kernel : ∀ t : Fin grid1.N, cond1_1 (grid1.coords t) ↔ t.val % 6 = 5)

/-- The zero offsets of every access of the body, as a constant function. -/
theorem cover1_hz : (![0, 0] : Fin 2 → ℕ) = fun _ => 0 := by
  funext a; fin_cases a <;> rfl

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Off the last point of a row the output window is idle, -/
theorem idleAt1_3 : ∀ t : Fin cfg1.N, ¬cond1_1 (grid1.coords t) → cfg1.idle 3 (grid1.coords t) = true := by decide +kernel
/-- and its block is not written back there; -/
theorem noFlush1_3 : ∀ t : Fin cfg1.N, ¬cond1_1 (grid1.coords t) → (cfg1.win 3).flush t = false := by decide +kernel
/-- at the last point of a row it is live. -/
theorem liveAt1_3 : ∀ t : Fin cfg1.N, cond1_1 (grid1.coords t) → cfg1.idle 3 (grid1.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel1_A (c : Dev nD) (E : Set ℕ) (i : grid1.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : cond1_0 i) (hc1 : ¬cond1_1 i)
    (x0 : Vec F S2048x2048 .bf16) (x1 : Vec F S2048x64 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k1_pay2 (k1_pay1 (F := F)) x0 x1)) -∗ K ⟨⟩))
      ⊢ wp frame (wpE (defs₀ (F := F)) Variants.none c none) E (cc1__gcn_matmul_kernel i arg2 harg2 arg3 harg3 arg4 harg4 arg5 harg5 arg6 harg6) K := by
  simp only [cc1__gcn_matmul_kernel_eq_skeleton]; unfold cc1__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover1_hz inb_S2048x64_S2048x64_0_0 y⟩),
    View.canon_cons_unit_zero (S := S2048x64) cover1_hz]
  simp only [View.readAt_eq_ld, harg2.read_unread, harg3.read_unread, View.ld_unit_zero (S := S2048x64) cover1_hz,
    View.ld_unit_zero (S := S2048x2048) cover1_hz, View.readCov_unit_zero (S := S2048x64) _ cover1_hz]

set_option maxHeartbeats 1000000 in
/-- A middle point of a row (k neither 0 nor 5): the accumulator, holding `xs`, gains the product of the two input blocks. -/
theorem sound_kernel1_B (c : Dev nD) (E : Set ℕ) (i : grid1.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : ¬cond1_1 i)
    (x0 : Vec F S2048x2048 .bf16) (x1 : Vec F S2048x64 .bf16) (xs : Vec F S2048x64 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k1_pay2 xs x0 x1)) -∗ K ⟨⟩))
      ⊢ wp frame (wpE (defs₀ (F := F)) Variants.none c none) E (cc1__gcn_matmul_kernel i arg2 harg2 arg3 harg3 arg4 harg4 arg5 harg5 arg6 harg6) K := by
  simp only [cc1__gcn_matmul_kernel_eq_skeleton]; unfold cc1__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover1_hz inb_S2048x64_S2048x64_0_0 y⟩),
    View.canon_cons_unit_zero (S := S2048x64) cover1_hz]
  simp only [View.readAt_eq_ld, harg2.read_unread, harg3.read_unread, harg6.read_unread, View.ld_unit_zero (S := S2048x64) cover1_hz,
    View.ld_unit_zero (S := S2048x2048) cover1_hz]

set_option maxHeartbeats 1000000 in
/-- The last point of a row (k = 5): the accumulator gains the product, and the output buffer, whatever it held,
    receives the epilogue payload of the new accumulator and the bias block. -/
theorem sound_kernel1_C (c : Dev nD) (E : Set ℕ) (i : grid1.Coords)
    (arg2 : Memref sig .tc .vmem S2048x2048 .bf16) (harg2 : arg2.IsWhole) (arg3 : Memref sig .tc .vmem S2048x64 .bf16) (harg3 : arg3.IsWhole)
    (arg4 : Memref sig .tc .vmem S1x64 .f32) (harg4 : arg4.IsWhole) (arg5 : Memref sig .tc .vmem S2048x64 .f32) (harg5 : arg5.IsWhole)
    (arg6 : Memref sig .tc .vmem S2048x64 .f32) (harg6 : arg6.IsWhole)
    (hc0 : ¬cond1_0 i) (hc1 : cond1_1 i)
    (x0 : Vec F S2048x2048 .bf16) (x1 : Vec F S2048x64 .bf16) (x2 : Vec F S1x64 .f32) (xs : Vec F S2048x64 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k1_pay3 (k1_pay2 xs x0 x1) x2)
            ∗ owns (c : Thread nD τ) arg6 fullShare (k1_pay2 xs x0 x1)) -∗ K ⟨⟩))
      ⊢ wp frame (wpE (defs₀ (F := F)) Variants.none c none) E (cc1__gcn_matmul_kernel i arg2 harg2 arg3 harg3 arg4 harg4 arg5 harg5 arg6 harg6) K := by
  simp only [cc1__gcn_matmul_kernel_eq_skeleton]; unfold cc1__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover1_hz inb_S2048x64_S2048x64_0_0 y⟩),
      View.canon_cons_unit_zero (S := S2048x64) cover1_hz]
    simp only [View.readAt_eq_ld, harg2.read_unread, harg3.read_unread, harg4.read_unread, harg6.read_unread, View.ld_unit_zero (S := S2048x64) cover1_hz,
      View.ld_unit_zero (S := S2048x2048) cover1_hz, View.ld_unit_zero (S := S1x64) cover1_hz, View.readCov_unit_zero (S := S2048x64) _ cover1_hz]
  iexists _; isplitr
  swap; · iexact HS
  ipureintro
  sl_unfold_words
  rw [View.read_writes_eq_canon _ _ _ (fun y => ⟨_, List.mem_cons.mpr (Or.inl rfl), View.mem_set_unit_zero cover1_hz inb_S2048x64_S2048x64_0_0 y⟩),
    View.canon_cons_unit_zero (S := S2048x64) cover1_hz]
  simp only [View.readAt_eq_ld, harg2.read_unread, harg3.read_unread, harg6.read_unread, View.ld_unit_zero (S := S2048x64) cover1_hz,
    View.ld_unit_zero (S := S2048x2048) cover1_hz]

/-! ## What the scratch holds after each point -/

/-- The accumulator after the body at position `n`: at the first point of a row (`n % 6 = 0`) the zero payload plus the
    product of the point's blocks; at any other point what the point before left plus the product of the point's blocks. -/
def acc1 (c : Dev nD) : (n : ℕ) → n < cfg1.N → Vec F S2048x64 .f32
  | 0, hn => k1_pay2 (k1_pay1 (F := F)) (iblk1 V c 0 ⟨0, hn⟩) (iblk1 V c 1 ⟨0, hn⟩)
  | n + 1, hn =>
    if h : (n + 1) % 6 = 0 then k1_pay2 (k1_pay1 (F := F)) (iblk1 V c 0 ⟨n + 1, hn⟩) (iblk1 V c 1 ⟨n + 1, hn⟩)
    else k1_pay2 (acc1 c n (Nat.lt_of_succ_lt hn)) (iblk1 V c 0 ⟨n + 1, hn⟩) (iblk1 V c 1 ⟨n + 1, hn⟩)

theorem acc1_reset (c : Dev nD) (t : Fin cfg1.N) (h : t.val % 6 = 0) :
    acc1 V c t.val t.isLt = k1_pay2 (k1_pay1 (F := F)) (iblk1 V c 0 t) (iblk1 V c 1 t) := by
  obtain ⟨n, hn⟩ := t
  cases n with
  | zero => rfl
  | succ n => exact dif_pos h

theorem acc1_step (c : Dev nD) (t : Fin cfg1.N) (h : t.val % 6 ≠ 0) :
    acc1 V c t.val t.isLt = k1_pay2 (acc1 V c (t.val - 1) (by omega)) (iblk1 V c 0 t) (iblk1 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM1 : Memref sig .tc .vmem S2048x64 .f32 := Memref.whole cc1_scratch0

/-- The class invariant with the scratch operand split off as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-- The region invariant before position `n`: before the first point the class's; afterwards the scratch at what the point
    before left (`acc1`), the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) (h : t.val % 6 = 5) :
    (dat1 V c).after 3 t = k1_pay3 (acc1 V c t.val t.isLt) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 36 := lt_of_lt_of_eq t.isLt (show cfg1.N = 36 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 6 = 0
  · have h1 : ¬t.val % 6 = 5 := by omega
    rw [Dat.leavesExact_idle (dat1 V c) 3 t (idleAt1_3 t (fun h => h1 ((hcond1_1 t).mp h))) (noFlush1_3 t (fun h => h1 ((hcond1_1 t).mp h)))]
    rw [acc1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_A c Set.univ (grid1.coords t) _ _ _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat1 V c).leavesExact 3 t = owns (c : Thread nD τ) (st1_3 t) fullShare ((dat1 V c).after 3 t) from by
        unfold Dat.leavesExact; rw [liveAt1_3 t ((hcond1_1 t).mpr h1)], after1_3 V c t h1]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_C c Set.univ (grid1.coords t) _ _ _ _ _ _ _ _ _ _ (fun h => h0 ((hcond1_0 t).mp h)) ((hcond1_1 t).mpr h1) (iblk1 V c 0 t) (iblk1 V c 1 t) (iblk1 V c 2 t) (acc1 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_step V c t h0]
      rw [PhiS1_castSucc V c t, PhiS1_pos V c _ _ hz]
      iintro ⟨⟨⟨HS, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ (fun h => h0 ((hcond1_0 t).mp h)) (fun h => h1 ((hcond1_1 t).mp h)) (iblk1 V c 0 t) (iblk1 V c 1 t) (acc1 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's named contents are forgotten. -/
theorem PhiS1_out (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]; · iexists _; iexact HS
    iexact HR
  iexact Hg

/-- The same after the last point. -/
theorem hout1 (c : Dev nD) : (dat1 V c).Φ (Fin.last cfg1.N) ⊢ Pipeline.ΦA spec1 c :=
  PhiS1_out V c _ (by rw [Fin.val_last]; have : cfg1.N = 36 := N_1; omega)

end Cert.Kernel.Gen

end
-- ==== Proof.KReg2.lean ====
import proofs.«420824_j61512521613989_2_alg».proof.Proof.Gen.Kernel.Launch
import proofs.«420824_j61512521613989_2_alg».proof.Proof.Gen.Kernel.Skeleton
import proofs.«420824_j61512521613989_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc2`). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias window is fetched at the first point only; its block index never moves, so it too holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions, in closed form over the grid -/

/-- The condition of the first conditional of the body: the second grid coordinate is 0. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 6 = 0 :=
  (by decide +kernel : ∀ t : Fin grid2.N, cond2_0 (grid2.coords t) ↔ t.val % 6 = 0)
/-- The condition of the second conditional: the second grid coordinate is 5. -/
abbrev cond2_1 (i : grid2.Coords) : Prop := k2_cond2 i = 1#1
theorem hcond2_1 : ∀ t : Fin cfg2.N, cond2_1 (grid2.coords t) ↔ t.val % 6 = 5 :=
  (by decide +kernel : ∀ t : Fin grid2.N, cond2_1 (grid2.coords t) ↔ t.val % 6 = 5)

/-- The zero offsets of every access of the body, as a constant function. -/
theorem cover2_hz : (![0, 0] : Fin 2 → ℕ) = fun _ => 0 := by
  funext a; fin_cases a <;> rfl

/-! ## Where the windows are idle -/

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Off the last point of a row the output window is idle, -/
theorem idleAt2_3 : ∀ t : Fin cfg2.N, ¬cond2_1 (grid2.coords t) → cfg2.idle 3 (grid2.coords t) = true := by decide +kernel
/-- and its block is not written back there; -/
theorem noFlush2_3 : ∀ t : Fin cfg2.N, ¬cond2_1 (grid2.coords t) → (cfg2.win 3).flush t = false := by decide +kernel
/-- at the last point of a row it is live. -/
theorem liveAt2_3 : ∀ t : Fin cfg2.N, cond2_1 (grid2.coords t) → cfg2.idle 3 (grid2.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel2_A (c : Dev nD) (E : Set ℕ) (i : grid2.Coords)
    (arg2 : Memref sig .tc .vmem S2048x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (hc0 : cond2_0 i) (hc1 : ¬cond2_1 i)
    (x0 : Vec F S2048x2048 .bf16) (x1 : Vec F S2048x128 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k2_pay2 (k2_pay1 (F := F)) x0 x1)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover2_hz inb_S2048x128_S2048x128_0_0 y⟩),
    View.canon_cons_unit_zero (S := S2048x128) cover2_hz]
  simp only [View.readAt_eq_ld, harg2.read_unread, harg3.read_unread, View.ld_unit_zero (S := S2048x128) cover2_hz,
    View.ld_unit_zero (S := S2048x2048) cover2_hz, View.readCov_unit_zero (S := S2048x128) _ cover2_hz]

set_option maxHeartbeats 1000000 in
/-- A middle point of a row (k neither 0 nor 5): the accumulator, holding `xs`, gains the product of the two input blocks. -/
theorem sound_kernel2_B (c : Dev nD) (E : Set ℕ) (i : grid2.Coords)
    (arg2 : Memref sig .tc .vmem S2048x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond2_0 i) (hc1 : ¬cond2_1 i)
    (x0 : Vec F S2048x2048 .bf16) (x1 : Vec F S2048x128 .bf16) (xs : Vec F S2048x128 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k2_pay2 xs x0 x1)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover2_hz inb_S2048x128_S2048x128_0_0 y⟩),
    View.canon_cons_unit_zero (S := S2048x128) cover2_hz]
  simp only [View.readAt_eq_ld, harg2.read_unread, harg3.read_unread, harg6.read_unread, View.ld_unit_zero (S := S2048x128) cover2_hz,
    View.ld_unit_zero (S := S2048x2048) cover2_hz]

set_option maxHeartbeats 1000000 in
/-- The last point of a row (k = 5): the accumulator gains the product, and the output buffer, whatever it held,
    receives the epilogue payload of the new accumulator and the bias block. -/
theorem sound_kernel2_C (c : Dev nD) (E : Set ℕ) (i : grid2.Coords)
    (arg2 : Memref sig .tc .vmem S2048x2048 .bf16) (harg2 : arg2.IsWhole) (arg3 : Memref sig .tc .vmem S2048x128 .bf16) (harg3 : arg3.IsWhole)
    (arg4 : Memref sig .tc .vmem S1x128 .f32) (harg4 : arg4.IsWhole) (arg5 : Memref sig .tc .vmem S2048x128 .f32) (harg5 : arg5.IsWhole)
    (arg6 : Memref sig .tc .vmem S2048x128 .f32) (harg6 : arg6.IsWhole)
    (hc0 : ¬cond2_0 i) (hc1 : cond2_1 i)
    (x0 : Vec F S2048x2048 .bf16) (x1 : Vec F S2048x128 .bf16) (x2 : Vec F S1x128 .f32) (xs : Vec F S2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k2_pay3 (k2_pay2 xs x0 x1) x2)
            ∗ owns (c : Thread nD τ) arg6 fullShare (k2_pay2 xs x0 x1)) -∗ K ⟨⟩))
      ⊢ wp frame (wpE (defs₀ (F := F)) Variants.none c none) E (cc2__gcn_matmul_kernel i arg2 harg2 arg3 harg3 arg4 harg4 arg5 harg5 arg6 harg6) K := by
  simp only [cc2__gcn_matmul_kernel_eq_skeleton]; unfold cc2__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover2_hz inb_S2048x128_S2048x128_0_0 y⟩),
      View.canon_cons_unit_zero (S := S2048x128) cover2_hz]
    simp only [View.readAt_eq_ld, harg2.read_unread, harg3.read_unread, harg4.read_unread, harg6.read_unread, View.ld_unit_zero (S := S2048x128) cover2_hz,
      View.ld_unit_zero (S := S2048x2048) cover2_hz, View.ld_unit_zero (S := S1x128) cover2_hz, View.readCov_unit_zero (S := S2048x128) _ cover2_hz]
  iexists _; isplitr
  swap; · iexact HS
  ipureintro
  sl_unfold_words
  rw [View.read_writes_eq_canon _ _ _ (fun y => ⟨_, List.mem_cons.mpr (Or.inl rfl), View.mem_set_unit_zero cover2_hz inb_S2048x128_S2048x128_0_0 y⟩),
    View.canon_cons_unit_zero (S := S2048x128) cover2_hz]
  simp only [View.readAt_eq_ld, harg2.read_unread, harg3.read_unread, harg6.read_unread, View.ld_unit_zero (S := S2048x128) cover2_hz,
    View.ld_unit_zero (S := S2048x2048) cover2_hz]

/-! ## What the scratch holds after each point -/

/-- The accumulator after the body at position `n`: at the first point of a row (`n % 6 = 0`) the zero payload plus the
    product of the point's blocks; at any other point what the point before left plus the product of the point's blocks. -/
def acc2 (c : Dev nD) : (n : ℕ) → n < cfg2.N → Vec F S2048x128 .f32
  | 0, hn => k2_pay2 (k2_pay1 (F := F)) (iblk2 V c 0 ⟨0, hn⟩) (iblk2 V c 1 ⟨0, hn⟩)
  | n + 1, hn =>
    if h : (n + 1) % 6 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_reset (c : Dev nD) (t : Fin cfg2.N) (h : t.val % 6 = 0) :
    acc2 V c t.val t.isLt = k2_pay2 (k2_pay1 (F := F)) (iblk2 V c 0 t) (iblk2 V c 1 t) := by
  obtain ⟨n, hn⟩ := t
  cases n with
  | zero => rfl
  | succ n => exact dif_pos h

theorem acc2_step (c : Dev nD) (t : Fin cfg2.N) (h : t.val % 6 ≠ 0) :
    acc2 V c t.val t.isLt = k2_pay2 (acc2 V c (t.val - 1) (by omega)) (iblk2 V c 0 t) (iblk2 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM2 : Memref sig .tc .vmem S2048x128 .f32 := Memref.whole cc2_scratch0

/-- The class invariant with the scratch operand split off as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The region invariant before position `n`: before the first point the class's; afterwards the scratch at what the point
    before left (`acc2`), the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (acc2 V c t.val t.isLt) (iblk2 V c 2 t)
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) (h : t.val % 6 = 5) :
    (dat2 V c).after 3 t = k2_pay3 (acc2 V c t.val t.isLt) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 36 := lt_of_lt_of_eq t.isLt (show cfg2.N = 36 from N_2)
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  by_cases h0 : t.val % 6 = 0
  · have h1 : ¬t.val % 6 = 5 := by omega
    rw [Dat.leavesExact_idle (dat2 V c) 3 t (idleAt2_3 t (fun h => h1 ((hcond2_1 t).mp h))) (noFlush2_3 t (fun h => h1 ((hcond2_1 t).mp h)))]
    rw [acc2_reset V c t h0]
    by_cases hz : t.val = 0
    · rw [PhiS2_castSucc V c t, PhiS2_zero V c _ _ hz, PhiA2_eq]
      iintro ⟨⟨⟨HS, HR⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h1 ((hcond2_1 t).mp h)) (iblk2 V c 0 t) (iblk2 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_A c Set.univ (grid2.coords t) _ _ _ _ _ _ _ _ _ _ ((hcond2_0 t).mpr h0) (fun h => h1 ((hcond2_1 t).mp h)) (iblk2 V c 0 t) (iblk2 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat2 V c).leavesExact 3 t = owns (c : Thread nD τ) (st2_3 t) fullShare ((dat2 V c).after 3 t) from by
        unfold Dat.leavesExact; rw [liveAt2_3 t ((hcond2_1 t).mpr h1)], after2_3 V c t h1]
      rw [acc2_step V c t h0]
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_C c Set.univ (grid2.coords t) _ _ _ _ _ _ _ _ _ _ (fun h => h0 ((hcond2_0 t).mp h)) ((hcond2_1 t).mpr h1) (iblk2 V c 0 t) (iblk2 V c 1 t) (iblk2 V c 2 t) (acc2 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t (fun h => h1 ((hcond2_1 t).mp h))) (noFlush2_3 t (fun h => h1 ((hcond2_1 t).mp h)))]
      rw [acc2_step V c t h0]
      rw [PhiS2_castSucc V c t, PhiS2_pos V c _ _ hz]
      iintro ⟨⟨⟨HS, HR⟩, Hg⟩, Ho, ⟨%d0, H0⟩, ⟨%d1, H1⟩, ⟨%d2, H2⟩, ⟨%d3, H3⟩⟩
      iapply (sound_kernel2_B c Set.univ (grid2.coords t) _ _ _ _ _ _ _ _ _ _ (fun h => h0 ((hcond2_0 t).mp h)) (fun h => h1 ((hcond2_1 t).mp h)) (iblk2 V c 0 t) (iblk2 V c 1 t) (acc2 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the scratch's named contents are forgotten. -/
theorem PhiS2_out (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS, HR⟩, Hg⟩
  isplitl [HS HR]
  · isplitl [HS]; · iexists _; iexact HS
    iexact HR
  iexact Hg

/-- The same after the last point. -/
theorem hout2 (c : Dev nD) : (dat2 V c).Φ (Fin.last cfg2.N) ⊢ Pipeline.ΦA spec2 c :=
  PhiS2_out V c _ (by rw [Fin.val_last]; have : cfg2.N = 36 := N_2; omega)

end Cert.Kernel.Gen

end
-- ==== Proof.KReg3.lean ====
import proofs.«420824_j61512521613989_2_alg».proof.Proof.Gen.Kernel.Launch
import proofs.«420824_j61512521613989_2_alg».proof.Proof.Gen.Kernel.Skeleton
import proofs.«420824_j61512521613989_2_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The tiled product with a carried accumulator, at the region-entry contents `V`

The grid is 6 x 6; point `t` is the pair `(t / 6, t % 6)`. Along the second coordinate `k` the body accumulates
the product of an `A` block and an `H` block into a scratch buffer: at `k = 0` the scratch is zeroed first, at
`k = 5` the output block receives the accumulator plus the bias (through the epilogue payload). The output window is
idle at the other points. What the scratch holds after each point is stated explicitly (`acc3`). -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for any proof data
    whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias window is fetched at the first point only; its block index never moves, so it too holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions, in closed form over the grid -/

/-- The condition of the first conditional of the body: the second grid coordinate is 0. -/
abbrev cond3_0 (i : grid3.Coords) : Prop := (Scalar.cmpi .ne (Scalar.extui (Scalar.cmpi .eq (BitVec.ofNat 32 (i 1).val) 0#32)) 0#32) = 1#1
theorem hcond3_0 : ∀ t : Fin cfg3.N, cond3_0 (grid3.coords t) ↔ t.val % 6 = 0 :=
  (by decide +kernel : ∀ t : Fin grid3.N, cond3_0 (grid3.coords t) ↔ t.val % 6 = 0)
/-- The condition of the second conditional: the second grid coordinate is 5. -/
abbrev cond3_1 (i : grid3.Coords) : Prop := k3_cond2 i = 1#1
theorem hcond3_1 : ∀ t : Fin cfg3.N, cond3_1 (grid3.coords t) ↔ t.val % 6 = 5 :=
  (by decide +kernel : ∀ t : Fin grid3.N, cond3_1 (grid3.coords t) ↔ t.val % 6 = 5)

/-- The zero offsets of every access of the body, as a constant function. -/
theorem cover3_hz : (![0, 0] : Fin 2 → ℕ) = fun _ => 0 := by
  funext a; fin_cases a <;> rfl

/-! ## Where the windows are idle -/

theorem liveAt3_0 : ∀ t : Fin cfg3.N, cfg3.idle 0 (grid3.coords t) = false := fun _ => rfl
theorem liveAt3_1 : ∀ t : Fin cfg3.N, cfg3.idle 1 (grid3.coords t) = false := fun _ => rfl
theorem liveAt3_2 : ∀ t : Fin cfg3.N, cfg3.idle 2 (grid3.coords t) = false := fun _ => rfl
/-- Off the last point of a row the output window is idle, -/
theorem idleAt3_3 : ∀ t : Fin cfg3.N, ¬cond3_1 (grid3.coords t) → cfg3.idle 3 (grid3.coords t) = true := by decide +kernel
/-- and its block is not written back there; -/
theorem noFlush3_3 : ∀ t : Fin cfg3.N, ¬cond3_1 (grid3.coords t) → (cfg3.win 3).flush t = false := by decide +kernel
/-- at the last point of a row it is live. -/
theorem liveAt3_3 : ∀ t : Fin cfg3.N, cond3_1 (grid3.coords t) → cfg3.idle 3 (grid3.coords t) = false := by decide +kernel

/-! ## The body on whole staging memrefs, one statement per control case -/

set_option maxHeartbeats 1000000 in
/-- First point of a row of blocks (k = 0, not the last): the accumulator, whatever it held, is zeroed and
    then holds the zero payload plus the product of the two input blocks. The bias and output buffers are not touched. -/
theorem sound_kernel3_A (c : Dev nD) (E : Set ℕ) (i : grid3.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (arg6 : Memref sig .tc .vmem S2048x512 .f32) (harg6 : arg6.IsWhole)
    (hc0 : cond3_0 i) (hc1 : ¬cond3_1 i)
    (x0 : Vec F S2048x2048 .bf16) (x1 : Vec F S2048x512 .bf16) (K : PUnit → sProp 𝕄) :
    iprop(owns (c : Thread nD τ) arg2 fullShare x0 ∗ owns (c : Thread nD τ) arg3 fullShare x1 ∗ (∃ d, owns (c : Thread nD τ) arg6 fullShare d)
        ∗ (iprop(owns (c : Thread nD τ) arg2 fullShare x0 ∗ owns (c : Thread nD τ) arg3 fullShare x1
            ∗ owns (c : Thread nD τ) arg6 fullShare (k3_pay2 (k3_pay1 (F := F)) x0 x1)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel
  unfold owns
  iintro ⟨⟨%f0, %hf0, H0⟩, ⟨%f1, %hf1, H1⟩, ⟨%ds, %fs, -, HS⟩, Hk⟩
  obtain rfl := harg2.eq_unread hf0; obtain rfl := harg3.eq_unread hf1
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover3_hz inb_S2048x512_S2048x512_0_0 y⟩),
    View.canon_cons_unit_zero (S := S2048x512) cover3_hz]
  simp only [View.readAt_eq_ld, harg2.read_unread, harg3.read_unread, View.ld_unit_zero (S := S2048x512) cover3_hz,
    View.ld_unit_zero (S := S2048x2048) cover3_hz, View.readCov_unit_zero (S := S2048x512) _ cover3_hz]

set_option maxHeartbeats 1000000 in
/-- A middle point of a row (k neither 0 nor 5): the accumulator, holding `xs`, gains the product of the two input blocks. -/
theorem sound_kernel3_B (c : Dev nD) (E : Set ℕ) (i : grid3.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (arg6 : Memref sig .tc .vmem S2048x512 .f32) (harg6 : arg6.IsWhole)
    (hc0 : ¬cond3_0 i) (hc1 : ¬cond3_1 i)
    (x0 : Vec F S2048x2048 .bf16) (x1 : Vec F S2048x512 .bf16) (xs : Vec F S2048x512 .f32) (K : PUnit → sProp 𝕄) :
    iprop(owns (c : Thread nD τ) arg2 fullShare x0 ∗ owns (c : Thread nD τ) arg3 fullShare x1 ∗ owns (c : Thread nD τ) arg6 fullShare xs
        ∗ (iprop(owns (c : Thread nD τ) arg2 fullShare x0 ∗ owns (c : Thread nD τ) arg3 fullShare x1
            ∗ owns (c : Thread nD τ) arg6 fullShare (k3_pay2 xs x0 x1)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel
  unfold owns
  iintro ⟨⟨%f0, %hf0, H0⟩, ⟨%f1, %hf1, H1⟩, ⟨%fs, %hfs, HS⟩, Hk⟩
  obtain rfl := harg2.eq_unread hf0; obtain rfl := harg3.eq_unread hf1; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  iexists _; isplitr
  swap; · iexact HS
  ipureintro
  sl_unfold_words
  rw [View.read_writes_eq_canon _ _ _ (fun y => ⟨_, List.mem_cons.mpr (Or.inl rfl), View.mem_set_unit_zero cover3_hz inb_S2048x512_S2048x512_0_0 y⟩),
    View.canon_cons_unit_zero (S := S2048x512) cover3_hz]
  simp only [View.readAt_eq_ld, harg2.read_unread, harg3.read_unread, harg6.read_unread, View.ld_unit_zero (S := S2048x512) cover3_hz,
    View.ld_unit_zero (S := S2048x2048) cover3_hz]

set_option maxHeartbeats 1000000 in
/-- The last point of a row (k = 5): the accumulator gains the product, and the output buffer, whatever it held,
    receives the epilogue payload of the new accumulator and the bias block. -/
theorem sound_kernel3_C (c : Dev nD) (E : Set ℕ) (i : grid3.Coords)
    (arg2 : Memref sig .tc .vmem S2048x2048 .bf16) (harg2 : arg2.IsWhole) (arg3 : Memref sig .tc .vmem S2048x512 .bf16) (harg3 : arg3.IsWhole)
    (arg4 : Memref sig .tc .vmem S1x512 .f32) (harg4 : arg4.IsWhole) (arg5 : Memref sig .tc .vmem S2048x512 .f32) (harg5 : arg5.IsWhole)
    (arg6 : Memref sig .tc .vmem S2048x512 .f32) (harg6 : arg6.IsWhole)
    (hc0 : ¬cond3_0 i) (hc1 : cond3_1 i)
    (x0 : Vec F S2048x2048 .bf16) (x1 : Vec F S2048x512 .bf16) (x2 : Vec F S1x512 .f32) (xs : Vec F S2048x512 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (k3_pay3 (k3_pay2 xs x0 x1) x2)
            ∗ owns (c : Thread nD τ) arg6 fullShare (k3_pay2 xs x0 x1)) -∗ K ⟨⟩))
      ⊢ wp frame (wpE (defs₀ (F := F)) Variants.none c none) E (cc3__gcn_matmul_kernel i arg2 harg2 arg3 harg3 arg4 harg4 arg5 harg5 arg6 harg6) K := by
  simp only [cc3__gcn_matmul_kernel_eq_skeleton]; unfold cc3__gcn_matmul_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [View.read_writes_eq_canon _ _ _ (fun y => ⟨_, List.mem_cons.mpr (Or.inl rfl), View.mem_set_unit_zero cover3_hz inb_S2048x512_S2048x512_0_0 y⟩),
      View.canon_cons_unit_zero (S := S2048x512) cover3_hz]
    simp only [View.readAt_eq_ld, harg2.read_unread, harg3.read_unread, harg4.read_unread, harg6.read_unread, View.ld_unit_zero (S := S2048x512) cover3_hz,
      View.ld_unit_zero (S := S2048x2048) cover3_hz, View.ld_unit_zero (S := S1x512) cover3_hz, View.readCov_unit_zero (S := S2048x512) _ cover3_hz]
  iexists _; isplitr
  swap; · iexact HS
  ipureintro
  sl_unfold_words
  rw [View.read_writes_eq_canon _ _ _ (fun y => ⟨_, List.mem_cons.mpr (Or.inl rfl), View.mem_set_unit_zero cover3_hz inb_S2048x512_S2048x512_0_0 y⟩),
    View.canon_cons_unit_zero (S := S2048x512) cover3_hz]
  simp only [View.readAt_eq_ld, harg2.read_unread, harg3.read_unread, harg6.read_unread, View.ld_unit_zero (S := S2048x512) cover3_hz,
    View.ld_unit_zero (S := S2048x2048) cover3_hz]

/-! ## What the scratch holds after each point -/

/-- The accumulator after the body at position `n`: at the first point of a row (`n % 6 = 0`) the zero payload plus the
    product of the point's blocks; at any other point what the point before left plus the product of the point's blocks. -/
def acc3 (c : Dev nD) : (n : ℕ) → n < cfg3.N → Vec F S2048x512 .f32
  | 0, hn => k3_pay2 (k3_pay1 (F := F)) (iblk3 V c 0 ⟨0, hn⟩) (iblk3 V c 1 ⟨0, hn⟩)
  | n + 1, hn =>
    if h : (n + 1) % 6 = 0 then k3_pay2 (k3_pay1 (F := F)) (iblk3 V c 0 ⟨n + 1, hn⟩) (iblk3 V c 1 ⟨n + 1, hn⟩)
    else k3_pay2 (acc3 c n (Nat.lt_of_succ_lt hn)) (iblk3 V c 0 ⟨n + 1, hn⟩) (iblk3 V c 1 ⟨n + 1, hn⟩)

theorem acc3_reset (c : Dev nD) (t : Fin cfg3.N) (h : t.val % 6 = 0) :
    acc3 V c t.val t.isLt = k3_pay2 (k3_pay1 (F := F)) (iblk3 V c 0 t) (iblk3 V c 1 t) := by
  obtain ⟨n, hn⟩ := t
  cases n with
  | zero => rfl
  | succ n => exact dif_pos h

theorem acc3_step (c : Dev nD) (t : Fin cfg3.N) (h : t.val % 6 ≠ 0) :
    acc3 V c t.val t.isLt = k3_pay2 (acc3 V c (t.val - 1) (by omega)) (iblk3 V c 0 t) (iblk3 V c 1 t) := by
  obtain ⟨n, hn⟩ := t
  cases n with
  | zero => exact absurd (Nat.zero_mod _) h
  | succ n => exact dif_neg h

/-! ## The scratch and the region invariant -/

/-- The scratch operand: a whole scoped buffer of the kernel's own. -/
abbrev scM3 : Memref sig .tc .vmem S2048x512 .f32 := Memref.whole cc3_scratch0

/-- The class invariant with the scratch operand split off as a memref owned at some contents. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3, owns_whole]; try rfl

/-- The region invariant before position `n`: before the first point the class's; afterwards the scratch at what the point
    before left (`acc3`), the other scoped buffers at anything, the generator register at some state. -/
def PhiS3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

/-! ## The pipeline's proof data -/

/-- The proof data of the pipeline on core `c`: the arrays as the region finds them; after the body each input's buffer at
    its block, the output's at the epilogue payload of the accumulator and the bias block (read only at the last point of a
    row, where the window is live); the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) (h : t.val % 6 = 5) :
    (dat3 V c).after 3 t = k3_pay3 (acc3 V c t.val t.isLt) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. The inputs' memrefs hold their blocks; the closed forms say which case the point is in; the
    invariant hands the body the scratch at what the point before left (at anything at the first point) and takes it back
    at this point's accumulator; off the last point of a row the output buffer is handed back untouched, at it the buffer
    receives the epilogue payload; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 36 := lt_of_lt_of_eq t.isLt (show cfg3.N = 36 from N_3)
  rw [show (dat3 V c).leavesExact 0 t = owns (c : Thread nD τ) (st3_0 t) fullShare ((dat3 V c).after 0 t) from by
    unfold Dat.leavesExact; rw [liveAt3_0 t], after3_0]
  rw [show (dat3 V c).leavesExact 1 t = owns (c : Thread nD τ) (st3_1 t) fullShare ((dat3 V c).after 1 t) from by
    unfold Dat.leavesExact; rw [liveAt3_1 t], after3_1]
  rw [show (dat3 V c).leavesExact 2 t = owns (c : Thread nD τ) (st3_2 t) fullShare ((dat3 V c).after 2 t) from by
    unfold Dat.leavesExact; rw [liveAt3_2 t], after3_2]
  by_cases h0 : t.val % 6 = 0
  · have h1 : ¬t.val % 6 = 5 := by omega
    rw [Dat.leavesExact_idle (dat3 V c) 3 t (idleAt3_3 t (fun h => h1 ((hcond3_1 t).mp h))) (noFlush3_3 t (fun h => h1 ((hcond3_1 t).mp h)))]
    rw [acc3_reset V c t h0]
    by_cases hz : t.val = 0
    · rw [PhiS3_castSucc V c t, PhiS3_zero V c _ _ hz, PhiA3_eq]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_A c Set.univ (grid3.coords t) _ _ _ _ _ _ _ _ _ _ ((hcond3_0 t).mpr h0) (fun h => h1 ((hcond3_1 t).mp h)) (iblk3 V c 0 t) (iblk3 V c 1 t) _)
      isplitl [H0]; · iexact H0
      isplitl [H1]; · iexact H1
      isplitl [HS]; · iexists _; iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 6 = 5
    · rw [show (dat3 V c).leavesExact 3 t = owns (c : Thread nD τ) (st3_3 t) fullShare ((dat3 V c).after 3 t) from by
        unfold Dat.leavesExact; rw [liveAt3_3 t ((hcond3_1 t).mpr h1)], after3_3 V c t h1]
      rw [acc3_step V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_C c Set.univ (grid3.coords t) _ _ _ _ _ _ _ _ _ _ (fun h => h0 ((hcond3_0 t).mp h)) ((hcond3_1 t).mpr h1) (iblk3 V c 0 t) (iblk3 V c 1 t) (iblk3 V c 2 t) (acc3 V c (t.val - 1) (by omega)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · rw [Dat.leavesExact_idle (dat3 V c) 3 t (idleAt3_3 t (fun h => h1 ((hcond3_1 t).mp h))) (noFlush3_3 t (fun h => h1 ((hcond3_1 t).mp h)))]
      rw [acc3_step V c t h0]
      rw [PhiS3_castSucc V c t, PhiS3_pos V c _ _ hz]
      iintro ⟨⟨⟨HS, HR⟩, Hg⟩, Ho, ⟨%d0, H0⟩, ⟨%d1, H1⟩, ⟨%d2, H2⟩, ⟨%d3, H3⟩⟩
      iapply (sound_kernel3_B c Set.univ (grid3.coords t) _ _ _ _ _ _ _ _ _ _ (fun h => h0 ((hcond3_0 t).mp h)) (fun h => h1 ((hcond3_1 t).mp h)) (iblk3 V c 0 t) (iblk3 V c 1 t) (acc3 V c (t.val - 1) (by omega)) _)
      isplitl [H0]; · iexact H0
      isplitl [H1]; · iexact H1
      isplitl [HS]; · iexact HS
      iintro ⟨H0, H1, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the scratch's named contents are forgotten. -/
theorem PhiS3_out (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS, HR⟩, Hg⟩
  isplitl [HS HR]
  · isplitl [HS]; · iexists _; iexact HS
    iexact HR
  iexact Hg

/-- The same after the last point. -/
theorem hout3 (c : Dev nD) : (dat3 V c).Φ (Fin.last cfg3.N) ⊢ Pipeline.ΦA spec3 c :=
  PhiS3_out V c _ (by rw [Fin.val_last]; have : cfg3.N = 36 := N_3; omega)

end Cert.Kernel.Gen

end
-- ==== Proof.KReg4.lean ====
import proofs.«420824_j61512521613989_2_alg».proof.Proof.Gen.Kernel.Launch
import proofs.«420824_j61512521613989_2_alg».proof.Proof.Gen.Kernel.Skeleton
import proofs.«420824_j61512521613989_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

/-!
# Region 4: the Gram product z zᵀ, block by block

The fifth kernel region multiplies a row block of z (2048 rows) by the transpose of another row block of z
(1536 rows) and writes the product to the output block (i, j). Both operand windows read ONE array, so the
array's full share is dealt between them in halves at the region's entry and joined again at its exit; the
output array is held whole.
-/

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the buffers' contents when the region is entered
variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row block of z (window 0) sits in its staging buffer at every point, fetched there or not: the block
    index depends on i alone, so along j the buffer keeps the block it was given. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The column operand's row block of z (window 1) likewise. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## What the body leaves in the output block -/

/-- The output block after the body: the product of the two operand blocks, the second transposed. -/
def out4_2 (x0 : Vec F S2048x64 .bf16) (x1 : Vec F S1536x64 .bf16) : Vec F S2048x1536 .f32 :=
  k4_pay1 x0 x1

/-! ## The body's triple -/

set_option maxHeartbeats 1000000 in
/-- The body on whole staging buffers: it reads both operand blocks, multiplies, and stores the product over the
    whole output block, whatever the block held. -/
theorem sound_kernel4 (c : Dev nD) (E : Set ℕ) (i : grid4.Coords)
    (arg2 : Memref sig .tc .vmem S2048x64 .bf16) (harg2 : arg2.IsWhole)
    (arg3 : Memref sig .tc .vmem S1536x64 .bf16) (harg3 : arg3.IsWhole)
    (arg4 : Memref sig .tc .vmem S2048x1536 .f32) (harg4 : arg4.IsWhole)
    (x0 : Vec F S2048x64 .bf16) (x1 : Vec F S1536x64 .bf16) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (out4_2 x0 x1)) -∗ K ⟨⟩))
      ⊢ wp frame (wpE (defs₀ (F := F)) Variants.none c none) E (cc4__zzt_kernel i arg2 harg2 arg3 harg3 arg4 harg4) K := by
  simp only [cc4__zzt_kernel_eq_skeleton]; unfold cc4__zzt_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz : (![0, 0] : Fin 2 → Nat) = fun _ => 0 := funext fun a => by fin_cases a <;> rfl
  rw [View.read_writes_eq_canon _ _ _ (fun y => ⟨_, List.mem_singleton_self _, View.mem_set_unit_zero hz inb_S2048x1536_S2048x1536_0_0 y⟩),
    View.canon_unit_zero hz]
  unfold out4_2
  congr 1
  · exact View.ld_unit_zero (Val := Elt F) hz inb_S2048x64_S2048x64_0_0 (View.read (Elt F) arg2.view f0)
  · exact View.ld_unit_zero (Val := Elt F) hz inb_S1536x64_S1536x64_0_0 (View.read (Elt F) arg3.view f1)

/-! ## The region's proof data -/

/-- The proof data of the region on core c: the arrays as the region finds them; after the body at point t each
    operand's buffer at its block and the output's at the product of the two blocks; the class invariant (the scoped
    rest and the generator register, untouched); nothing owed. The operand array is read by two windows: the first
    holds the left half of its full share, the second the right half; the output array is held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q w := match w with
    | ⟨0, _⟩ => fullShare.left
    | ⟨1, _⟩ => fullShare.right
    | ⟨2, _⟩ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = k4_pay1 (iblk4 V c 0 t) (iblk4 V c 1 t) := by
  dsimp only [dat4, out4_2]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point t, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the operands' buffers hold their blocks, so the body's triple applies; the invariant
    and the core's tallies pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The operand array dealt between its two readers, and joined again -/

/-- The distinct buffers behind the region's three windows: the operand array and the output array. -/
theorem arrRefs4 : Finset.univ.image (Pipeline.arrRef spec4) = ({main_v75, main_v76} : Finset (Ref sig .tc)) := by decide

theorem share4_0 (c : Dev nD) : (dat4 V c).share 0 = fullShare.left := rfl
theorem share4_1 (c : Dev nD) : (dat4 V c).share 1 = fullShare.right := rfl
theorem share4_2 (c : Dev nD) : (dat4 V c).share 2 = fullShare := rfl

omit V in
/-- A buffer held whole is the same as its two half shares held side by side (another buffer riding along). -/
theorem halves_iff {ℓ ℓ' : Loc nD τ sig} (f : Buf (Elt F) ℓ) (g : Buf (Elt F) ℓ') :
    (iprop((ℓ ↦{fullShare.left} f) ∗ (ℓ ↦{fullShare.right} f) ∗ (ℓ' ↦{fullShare} g)) : sProp 𝕄)
      ⊣⊢ iprop((ℓ ↦{fullShare} f) ∗ (ℓ' ↦{fullShare} g)) := by
  have hsh := pointsTo_share (nD := nD) (τ := τ) (sig := sig) (Ix := Unit) (Val := Elt F) (Name := ℕ) (U := UR sig nD τ) (Lvl := ℕ)
    (ℓ := ℓ) (I := Finset.univ) (f := f) (PosShare.mem_left_op_right fullShare)
  constructor
  · iintro ⟨H0, H1, H2⟩
    isplitl [H0 H1]
    · iapply hsh.2
      isplitl [H0]; · iexact H0
      iexact H1
    · iexact H2
  · iintro ⟨Hz, H2⟩
    ihave H := hsh.1 $$ Hz
    icases H with ⟨H0, H1⟩
    isplitl [H0]; · iexact H0
    isplitl [H1]; · iexact H1
    iexact H2

/-- The arrays of the region, at contents G that give both operand windows one and the same contents fz of the
    operand array and the output window the contents fo, are the operand array whole at fz and the output array
    whole at fo: the two halves of the full share put together, or dealt out. -/
theorem arrays4_iff (c : Dev nD)
    (G : (w : Fin cfg4.W) → Buf (Elt F) ((cfg4.win w).arr.view.loc (c : Thread nD τ)))
    (fz : Buf (Elt F) ((c : Thread nD τ).loc main_v75)) (fo : Buf (Elt F) ((c : Thread nD τ).loc main_v76))
    (h0 : G 0 = fz) (h1 : G 1 = fz) (h2 : G 2 = fo) :
    (dat4 V c).arrays G ⊣⊢ (iprop((((c : Thread nD τ).loc main_v75) ↦{fullShare} fz) ∗ (((c : Thread nD τ).loc main_v76) ↦{fullShare} fo)) : sProp 𝕄) := by
  unfold Dat.arrays
  rw [bigSep_W4]
  -- window by window: the array behind it, whole, at the window's share
  have p0 : (((cfg4.win 0).arr.view.loc (c : Thread nD τ)) ↦[(cfg4.win 0).arr.view.set]{(dat4 V c).share 0} G 0 : sProp 𝕄)
      = (((c : Thread nD τ).loc main_v75) ↦{fullShare.left} fz) := by
    rw [(arr_whole4 0).set_eq_univ, h0] <;> rfl
  have p1 : (((cfg4.win 1).arr.view.loc (c : Thread nD τ)) ↦[(cfg4.win 1).arr.view.set]{(dat4 V c).share 1} G 1 : sProp 𝕄)
      = (((c : Thread nD τ).loc main_v75) ↦{fullShare.right} fz) := by
    rw [(arr_whole4 1).set_eq_univ, h1] <;> rfl
  have p2 : (((cfg4.win 2).arr.view.loc (c : Thread nD τ)) ↦[(cfg4.win 2).arr.view.set]{(dat4 V c).share 2} G 2 : sProp 𝕄)
      = (((c : Thread nD τ).loc main_v76) ↦{fullShare} fo) := by
    rw [(arr_whole4 2).set_eq_univ, h2] <;> rfl
  exact (BiEntails.of_eq (congrArg₂ _ p0 (congrArg₂ _ p1 p2))).trans (halves_iff fz fo)

/-! ## Into the region and out of it -/

/-- The core's unscoped buffers are the two arrays of the region and the rest. -/
theorem unscoped_split4 (c : Dev nD) (W : (b : Ref sig .tc) → Buf (Elt F) ((c : Thread nD τ).loc b)) :
    (unscopedBufs c W : sProp 𝕄) = iprop(iprop((((c : Thread nD τ).loc main_v75) ↦{fullShare} W main_v75) ∗ (((c : Thread nD τ).loc main_v76) ↦{fullShare} W main_v76))
        ∗ Pipeline.unscopedRest spec4 c W) := by
  have h : (unscopedBufs c W : sProp 𝕄) = iprop(Pipeline.arrBufs spec4 c W ∗ Pipeline.unscopedRest spec4 c W) :=
    Pipeline.unscopedBufs_split₀ cfgs 4 winFacts₀4.arr_unscoped c W
  rw [h]; unfold Pipeline.arrBufs
  rw [arrRefs4, bigSep_insert (by decide), bigSep_singleton]
  rfl

/-- ENTRY: the core's unscoped buffers at the entry contents are the region's arrays at those contents (the operand
    array's full share dealt in halves to its two readers) and every unscoped buffer that is no array of the region. -/
theorem entry4 (c : Dev nD) :
    (unscopedBufs c (V c) : sProp 𝕄)
      ⊢ iprop((dat4 V c).arrays ((dat4 V c).arrAt · 0) ∗ Pipeline.unscopedRest spec4 c (V c)) := by
  rw [unscoped_split4]
  exact sep_mono (arrays4_iff V c ((dat4 V c).arrAt · 0) (V c main_v75) (V c main_v76) (A_eq4 V c 0) (A_eq4 V c 1) (A_eq4 V c 2)).2 .rfl

/-- EXIT: the region's arrays as the pipeline leaves them (the operand array unchanged, its halves joined; the output
    array at the folded write-backs) and the bypassing buffers are the core's unscoped buffers at any contents that
    agree with the entry contents off the output array and hold the pipeline's result there. -/
theorem exit4 (c : Dev nD) (V' : (b : Ref sig .tc) → Buf (Elt F) ((c : Thread nD τ).loc b))
    (h76 : V' main_v76 = (dat4 V c).arrAt 2 cfg4.N) (hrest : ∀ b, b ≠ main_v76 → V' b = V c b) :
    iprop((dat4 V c).arrays ((dat4 V c).arrAt · cfg4.N) ∗ Pipeline.unscopedRest spec4 c (V c))
      ⊢ (unscopedBufs c V' : sProp 𝕄) := by
  rw [unscoped_split4]
  refine sep_mono ?_ (Entails.of_eq ?_)
  · have h0 : (dat4 V c).arrAt 0 cfg4.N = V' main_v75 :=
      (((dat4 V c).arrAt_in 0 rfl _).trans (A_eq4 V c 0)).trans (hrest main_v75 (by decide)).symm
    have h1 : (dat4 V c).arrAt 1 cfg4.N = V' main_v75 :=
      (((dat4 V c).arrAt_in 1 rfl _).trans (A_eq4 V c 1)).trans (hrest main_v75 (by decide)).symm
    exact (arrays4_iff V c ((dat4 V c).arrAt · cfg4.N) (V' main_v75) (V' main_v76) h0 h1 h76.symm).1
  · unfold Pipeline.unscopedRest
    refine bigSep_congr fun b hb => ?_
    rw [hrest b fun e => (Finset.mem_sdiff.mp hb).2 (by rw [e, arrRefs4]; decide)]

end Region4

end Cert.Kernel.Gen

end
-- ==== Proof.KRun.lean ====
/- The run of the kernel program: the contents of every unscoped buffer at each boundary between two items of @main,
   one segment record per kernel region, @main as the list of its fourteen segments, and the launch theorem whose
   post names the final contents of every unscoped buffer. -/
import proofs.«420824_j61512521613989_2_alg».proof.Proof.Gen.Kernel.Launch
import proofs.«420824_j61512521613989_2_alg».proof.Proof.Gen.Kernel.Skeleton
import proofs.«420824_j61512521613989_2_alg».proof.Proof.Gen.Kernel.Points
import proofs.«420824_j61512521613989_2_alg».proof.Proof.Gen.Kernel.Regions
import proofs.«420824_j61512521613989_2_alg».proof.Proof.KReg0
import proofs.«420824_j61512521613989_2_alg».proof.Proof.KReg1
import proofs.«420824_j61512521613989_2_alg».proof.Proof.KReg2
import proofs.«420824_j61512521613989_2_alg».proof.Proof.KReg3
import proofs.«420824_j61512521613989_2_alg».proof.Proof.KReg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary: a fold through @main

A host stretch takes the valuation to `StableHlo.after` of its operations. A kernel region changes exactly one
buffer, its output array, which ends at what the write-backs of all grid points leave (`Dat.arrAt … N`); the proof
data of a region are taken at the contents the region is entered from. -/

/-- Core `c`'s unscoped buffers at launch. -/
abbrev W0 (c : Dev nD) : Valuation τ sig (Elt F) := fun b => m (c, b)
/-- After the host stretch `hostOps0`. -/
abbrev W1 (c : Dev nD) : Valuation τ sig (Elt F) := StableHlo.after hostOps0 (W0 m c)
/-- The same read at the TensorCore's references: the contents region 0 is entered from. -/
abbrev Vin0 : (c : Dev nD) → (b : Ref sig .tc) → Buf (Elt F) ((c : Thread nD τ).loc b) := fun c b => W1 m c b
/-- After region 0: its output array `main_v44` at what the write-backs leave, every other buffer as entered. -/
def W2 (c : Dev nD) : Valuation τ sig (Elt F) :=
  Function.update (W1 m c) main_v44 ((dat0 (Vin0 m) c).arrAt 3 cfg0.N)
theorem W2_main_v44 (c : Dev nD) : W2 m c (Proc.devRef .tc main_v44) = (dat0 (Vin0 m) c).arrAt 3 cfg0.N := by
  unfold W2; exact Function.update_self _ _ _
/-- After the host stretch `hostOps1`. -/
abbrev W3 (c : Dev nD) : Valuation τ sig (Elt F) := StableHlo.after hostOps1 (W2 m c)
/-- The same read at the TensorCore's references: the contents region 1 is entered from. -/
abbrev Vin1 : (c : Dev nD) → (b : Ref sig .tc) → Buf (Elt F) ((c : Thread nD τ).loc b) := fun c b => W3 m c b
/-- After region 1: its output array `main_v50` at what the write-backs leave, every other buffer as entered. -/
def W4 (c : Dev nD) : Valuation τ sig (Elt F) :=
  Function.update (W3 m c) main_v50 ((dat1 (Vin1 m) c).arrAt 3 cfg1.N)
theorem W4_main_v50 (c : Dev nD) : W4 m c (Proc.devRef .tc main_v50) = (dat1 (Vin1 m) c).arrAt 3 cfg1.N := by
  unfold W4; exact Function.update_self _ _ _
/-- After the host stretch `hostOps2`. -/
abbrev W5 (c : Dev nD) : Valuation τ sig (Elt F) := StableHlo.after hostOps2 (W4 m c)
/-- The same read at the TensorCore's references: the contents region 2 is entered from. -/
abbrev Vin2 : (c : Dev nD) → (b : Ref sig .tc) → Buf (Elt F) ((c : Thread nD τ).loc b) := fun c b => W5 m c b
/-- After region 2: its output array `main_v61` at what the write-backs leave, every other buffer as entered. -/
def W6 (c : Dev nD) : Valuation τ sig (Elt F) :=
  Function.update (W5 m c) main_v61 ((dat2 (Vin2 m) c).arrAt 3 cfg2.N)
theorem W6_main_v61 (c : Dev nD) : W6 m c (Proc.devRef .tc main_v61) = (dat2 (Vin2 m) c).arrAt 3 cfg2.N := by
  unfold W6; exact Function.update_self _ _ _
/-- After the host stretch `hostOps3`. -/
abbrev W7 (c : Dev nD) : Valuation τ sig (Elt F) := StableHlo.after hostOps3 (W6 m c)
/-- After the host stretch `hostOps3_1`. -/
abbrev W8 (c : Dev nD) : Valuation τ sig (Elt F) := StableHlo.after hostOps3_1 (W7 m c)
/-- After the host stretch `hostOps3_2`. -/
abbrev W9 (c : Dev nD) : Valuation τ sig (Elt F) := StableHlo.after hostOps3_2 (W8 m c)
/-- After the host stretch `hostOps3_3`. -/
abbrev W10 (c : Dev nD) : Valuation τ sig (Elt F) := StableHlo.after hostOps3_3 (W9 m c)
/-- After the host stretch `hostOps3_4`. -/
abbrev W11 (c : Dev nD) : Valuation τ sig (Elt F) := StableHlo.after hostOps3_4 (W10 m c)
/-- The same read at the TensorCore's references: the contents region 3 is entered from. -/
abbrev Vin3 : (c : Dev nD) → (b : Ref sig .tc) → Buf (Elt F) ((c : Thread nD τ).loc b) := fun c b => W11 m c b
/-- After region 3: its output array `main_v73` at what the write-backs leave, every other buffer as entered. -/
def W12 (c : Dev nD) : Valuation τ sig (Elt F) :=
  Function.update (W11 m c) main_v73 ((dat3 (Vin3 m) c).arrAt 3 cfg3.N)
theorem W12_main_v73 (c : Dev nD) : W12 m c (Proc.devRef .tc main_v73) = (dat3 (Vin3 m) c).arrAt 3 cfg3.N := by
  unfold W12; exact Function.update_self _ _ _
/-- After the host stretch `hostOps4`. -/
abbrev W13 (c : Dev nD) : Valuation τ sig (Elt F) := StableHlo.after hostOps4 (W12 m c)
/-- The same read at the TensorCore's references: the contents region 4 is entered from. -/
abbrev Vin4 : (c : Dev nD) → (b : Ref sig .tc) → Buf (Elt F) ((c : Thread nD τ).loc b) := fun c b => W13 m c b
/-- After region 4: its output array `main_v76` at what the write-backs leave, every other buffer as entered. -/
def W14 (c : Dev nD) : Valuation τ sig (Elt F) :=
  Function.update (W13 m c) main_v76 ((dat4 (Vin4 m) c).arrAt 2 cfg4.N)
theorem W14_main_v76 (c : Dev nD) : W14 m c (Proc.devRef .tc main_v76) = (dat4 (Vin4 m) c).arrAt 2 cfg4.N := by
  unfold W14; exact Function.update_self _ _ _

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v44] : List (Ref sig .tc))) : W2 m c r = W1 m c r := by
  simp only [W2, Function.update_of_ne (StableHlo.devRef_ne_of_ne (List.ne_of_not_mem_cons h) : (Proc.devRef .tc r : DevRef τ sig) ≠ Proc.devRef .tc main_v44)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v50] : List (Ref sig .tc))) : W4 m c r = W3 m c r := by
  simp only [W4, Function.update_of_ne (StableHlo.devRef_ne_of_ne (List.ne_of_not_mem_cons h) : (Proc.devRef .tc r : DevRef τ sig) ≠ Proc.devRef .tc main_v50)]
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ ([main_v61] : List (Ref sig .tc))) : W6 m c r = W5 m c r := by
  simp only [W6, Function.update_of_ne (StableHlo.devRef_ne_of_ne (List.ne_of_not_mem_cons h) : (Proc.devRef .tc r : DevRef τ sig) ≠ Proc.devRef .tc main_v61)]
theorem W7_of (c : Dev nD) (r : Ref sig .tc) (h : r ∉ hostOps3_W) : W7 m c r = W6 m c r :=
  StableHlo.after_of_writes_sub hostOps3 _ hostOps3_writes h
theorem W8_of (c : Dev nD) (r : Ref sig .tc) (h : r ∉ hostOps3_1_W) : W8 m c r = W7 m c r :=
  StableHlo.after_of_writes_sub hostOps3_1 _ hostOps3_1_writes h
theorem W9_of (c : Dev nD) (r : Ref sig .tc) (h : r ∉ hostOps3_2_W) : W9 m c r = W8 m c r :=
  StableHlo.after_of_writes_sub hostOps3_2 _ hostOps3_2_writes h
theorem W10_of (c : Dev nD) (r : Ref sig .tc) (h : r ∉ hostOps3_3_W) : W10 m c r = W9 m c r :=
  StableHlo.after_of_writes_sub hostOps3_3 _ hostOps3_3_writes h
theorem W11_of (c : Dev nD) (r : Ref sig .tc) (h : r ∉ hostOps3_4_W) : W11 m c r = W10 m c r :=
  StableHlo.after_of_writes_sub hostOps3_4 _ hostOps3_4_writes h
theorem W12_of (c : Dev nD) (r : Ref sig .tc) (h : r ∉ ([main_v73] : List (Ref sig .tc))) : W12 m c r = W11 m c r := by
  simp only [W12, Function.update_of_ne (StableHlo.devRef_ne_of_ne (List.ne_of_not_mem_cons h) : (Proc.devRef .tc r : DevRef τ sig) ≠ Proc.devRef .tc main_v73)]
theorem W13_of (c : Dev nD) (r : Ref sig .tc) (h : r ∉ hostOps4_W) : W13 m c r = W12 m c r :=
  StableHlo.after_of_writes_sub hostOps4 _ hostOps4_writes h
theorem W14_of (c : Dev nD) (r : Ref sig .tc) (h : r ∉ ([main_v76] : List (Ref sig .tc))) : W14 m c r = W13 m c r := by
  simp only [W14, Function.update_of_ne (StableHlo.devRef_ne_of_ne (List.ne_of_not_mem_cons h) : (Proc.devRef .tc r : DevRef τ sig) ≠ Proc.devRef .tc main_v76)]

/-! ## A region's arrays at its exit

Each input window's array is never written by the region (`Dat.arrAt_in`) and is no output of it, so it holds at the
exit what it held at the entry; the output window's array is the updated buffer. -/

theorem hF0 (c : Dev nD) : ∀ w : Fin cfg0.W, (dat0 (Vin0 m) c).arrAt w cfg0.N = W2 m c (Proc.devRef .tc (Pipeline.arrRef spec0 w))
  | 0 => ((dat0 (Vin0 m) c).arrAt_in 0 rfl _).trans ((A_eq0 (Vin0 m) c 0).trans (W2_of m c _ (by decide)).symm)
  | 1 => ((dat0 (Vin0 m) c).arrAt_in 1 rfl _).trans ((A_eq0 (Vin0 m) c 1).trans (W2_of m c _ (by decide)).symm)
  | 2 => ((dat0 (Vin0 m) c).arrAt_in 2 rfl _).trans ((A_eq0 (Vin0 m) c 2).trans (W2_of m c _ (by decide)).symm)
  | 3 => (W2_main_v44 m c).symm
theorem hrest0 (c : Dev nD) (b : Ref sig .tc) (hb : b ∉ Finset.univ.image (Pipeline.arrRef spec0)) :
    W2 m c (Proc.devRef .tc b) = W1 m c (Proc.devRef .tc b) :=
  W2_of m c b fun h => hb (by rw [List.mem_singleton.mp h]; exact Finset.mem_image.mpr ⟨3, Finset.mem_univ _, rfl⟩)
theorem hF1 (c : Dev nD) : ∀ w : Fin cfg1.W, (dat1 (Vin1 m) c).arrAt w cfg1.N = W4 m c (Proc.devRef .tc (Pipeline.arrRef spec1 w))
  | 0 => ((dat1 (Vin1 m) c).arrAt_in 0 rfl _).trans ((A_eq1 (Vin1 m) c 0).trans (W4_of m c _ (by decide)).symm)
  | 1 => ((dat1 (Vin1 m) c).arrAt_in 1 rfl _).trans ((A_eq1 (Vin1 m) c 1).trans (W4_of m c _ (by decide)).symm)
  | 2 => ((dat1 (Vin1 m) c).arrAt_in 2 rfl _).trans ((A_eq1 (Vin1 m) c 2).trans (W4_of m c _ (by decide)).symm)
  | 3 => (W4_main_v50 m c).symm
theorem hrest1 (c : Dev nD) (b : Ref sig .tc) (hb : b ∉ Finset.univ.image (Pipeline.arrRef spec1)) :
    W4 m c (Proc.devRef .tc b) = W3 m c (Proc.devRef .tc b) :=
  W4_of m c b fun h => hb (by rw [List.mem_singleton.mp h]; exact Finset.mem_image.mpr ⟨3, Finset.mem_univ _, rfl⟩)
theorem hF2 (c : Dev nD) : ∀ w : Fin cfg2.W, (dat2 (Vin2 m) c).arrAt w cfg2.N = W6 m c (Proc.devRef .tc (Pipeline.arrRef spec2 w))
  | 0 => ((dat2 (Vin2 m) c).arrAt_in 0 rfl _).trans ((A_eq2 (Vin2 m) c 0).trans (W6_of m c _ (by decide)).symm)
  | 1 => ((dat2 (Vin2 m) c).arrAt_in 1 rfl _).trans ((A_eq2 (Vin2 m) c 1).trans (W6_of m c _ (by decide)).symm)
  | 2 => ((dat2 (Vin2 m) c).arrAt_in 2 rfl _).trans ((A_eq2 (Vin2 m) c 2).trans (W6_of m c _ (by decide)).symm)
  | 3 => (W6_main_v61 m c).symm
theorem hrest2 (c : Dev nD) (b : Ref sig .tc) (hb : b ∉ Finset.univ.image (Pipeline.arrRef spec2)) :
    W6 m c (Proc.devRef .tc b) = W5 m c (Proc.devRef .tc b) :=
  W6_of m c b fun h => hb (by rw [List.mem_singleton.mp h]; exact Finset.mem_image.mpr ⟨3, Finset.mem_univ _, rfl⟩)
theorem hF3 (c : Dev nD) : ∀ w : Fin cfg3.W, (dat3 (Vin3 m) c).arrAt w cfg3.N = W12 m c (Proc.devRef .tc (Pipeline.arrRef spec3 w))
  | 0 => ((dat3 (Vin3 m) c).arrAt_in 0 rfl _).trans ((A_eq3 (Vin3 m) c 0).trans (W12_of m c _ (by decide)).symm)
  | 1 => ((dat3 (Vin3 m) c).arrAt_in 1 rfl _).trans ((A_eq3 (Vin3 m) c 1).trans (W12_of m c _ (by decide)).symm)
  | 2 => ((dat3 (Vin3 m) c).arrAt_in 2 rfl _).trans ((A_eq3 (Vin3 m) c 2).trans (W12_of m c _ (by decide)).symm)
  | 3 => (W12_main_v73 m c).symm
theorem hrest3 (c : Dev nD) (b : Ref sig .tc) (hb : b ∉ Finset.univ.image (Pipeline.arrRef spec3)) :
    W12 m c (Proc.devRef .tc b) = W11 m c (Proc.devRef .tc b) :=
  W12_of m c b fun h => hb (by rw [List.mem_singleton.mp h]; exact Finset.mem_image.mpr ⟨3, Finset.mem_univ _, rfl⟩)
theorem hF4 (c : Dev nD) : ∀ w : Fin cfg4.W, (dat4 (Vin4 m) c).arrAt w cfg4.N = W14 m c (Proc.devRef .tc (Pipeline.arrRef spec4 w))
  | 0 => ((dat4 (Vin4 m) c).arrAt_in 0 rfl _).trans ((A_eq4 (Vin4 m) c 0).trans (W14_of m c _ (by decide)).symm)
  | 1 => ((dat4 (Vin4 m) c).arrAt_in 1 rfl _).trans ((A_eq4 (Vin4 m) c 1).trans (W14_of m c _ (by decide)).symm)
  | 2 => (W14_main_v76 m c).symm
theorem hrest4 (c : Dev nD) (b : Ref sig .tc) (hb : b ∉ Finset.univ.image (Pipeline.arrRef spec4)) :
    W14 m c (Proc.devRef .tc b) = W13 m c (Proc.devRef .tc b) :=
  W14_of m c b fun h => hb (by rw [List.mem_singleton.mp h]; exact Finset.mem_image.mpr ⟨2, Finset.mem_univ _, rfl⟩)

/-! ## No item writes an argument

No host stretch writes an argument array and no region's output array is one, so the fold at an argument's buffer
walks back to the launch memory. -/

theorem W14_main_arg0 (c : Dev nD) : W14 m c (Proc.devRef .tc main_arg0) = m ((c : Thread nD τ).loc main_arg0) :=
  (W14_of m c main_arg0 (by decide)).trans <| (W13_of m c main_arg0 (by decide)).trans <| (W12_of m c main_arg0 (by decide)).trans <| (W11_of m c main_arg0 (by decide)).trans <| (W10_of m c main_arg0 (by decide)).trans <| (W9_of m c main_arg0 (by decide)).trans <| (W8_of m c main_arg0 (by decide)).trans <| (W7_of m c main_arg0 (by decide)).trans <| (W6_of m c main_arg0 (by decide)).trans <| (W5_of m c main_arg0 (by decide)).trans <| (W4_of m c main_arg0 (by decide)).trans <| (W3_of m c main_arg0 (by decide)).trans <| (W2_of m c main_arg0 (by decide)).trans <| (W1_of m c main_arg0 (by decide)).trans <| rfl
theorem W14_main_arg1 (c : Dev nD) : W14 m c (Proc.devRef .tc main_arg1) = m ((c : Thread nD τ).loc main_arg1) :=
  (W14_of m c main_arg1 (by decide)).trans <| (W13_of m c main_arg1 (by decide)).trans <| (W12_of m c main_arg1 (by decide)).trans <| (W11_of m c main_arg1 (by decide)).trans <| (W10_of m c main_arg1 (by decide)).trans <| (W9_of m c main_arg1 (by decide)).trans <| (W8_of m c main_arg1 (by decide)).trans <| (W7_of m c main_arg1 (by decide)).trans <| (W6_of m c main_arg1 (by decide)).trans <| (W5_of m c main_arg1 (by decide)).trans <| (W4_of m c main_arg1 (by decide)).trans <| (W3_of m c main_arg1 (by decide)).trans <| (W2_of m c main_arg1 (by decide)).trans <| (W1_of m c main_arg1 (by decide)).trans <| rfl
theorem W14_main_arg2 (c : Dev nD) : W14 m c (Proc.devRef .tc main_arg2) = m ((c : Thread nD τ).loc main_arg2) :=
  (W14_of m c main_arg2 (by decide)).trans <| (W13_of m c main_arg2 (by decide)).trans <| (W12_of m c main_arg2 (by decide)).trans <| (W11_of m c main_arg2 (by decide)).trans <| (W10_of m c main_arg2 (by decide)).trans <| (W9_of m c main_arg2 (by decide)).trans <| (W8_of m c main_arg2 (by decide)).trans <| (W7_of m c main_arg2 (by decide)).trans <| (W6_of m c main_arg2 (by decide)).trans <| (W5_of m c main_arg2 (by decide)).trans <| (W4_of m c main_arg2 (by decide)).trans <| (W3_of m c main_arg2 (by decide)).trans <| (W2_of m c main_arg2 (by decide)).trans <| (W1_of m c main_arg2 (by decide)).trans <| rfl
theorem W14_main_arg3 (c : Dev nD) : W14 m c (Proc.devRef .tc main_arg3) = m ((c : Thread nD τ).loc main_arg3) :=
  (W14_of m c main_arg3 (by decide)).trans <| (W13_of m c main_arg3 (by decide)).trans <| (W12_of m c main_arg3 (by decide)).trans <| (W11_of m c main_arg3 (by decide)).trans <| (W10_of m c main_arg3 (by decide)).trans <| (W9_of m c main_arg3 (by decide)).trans <| (W8_of m c main_arg3 (by decide)).trans <| (W7_of m c main_arg3 (by decide)).trans <| (W6_of m c main_arg3 (by decide)).trans <| (W5_of m c main_arg3 (by decide)).trans <| (W4_of m c main_arg3 (by decide)).trans <| (W3_of m c main_arg3 (by decide)).trans <| (W2_of m c main_arg3 (by decide)).trans <| (W1_of m c main_arg3 (by decide)).trans <| rfl
theorem W14_main_arg4 (c : Dev nD) : W14 m c (Proc.devRef .tc main_arg4) = m ((c : Thread nD τ).loc main_arg4) :=
  (W14_of m c main_arg4 (by decide)).trans <| (W13_of m c main_arg4 (by decide)).trans <| (W12_of m c main_arg4 (by decide)).trans <| (W11_of m c main_arg4 (by decide)).trans <| (W10_of m c main_arg4 (by decide)).trans <| (W9_of m c main_arg4 (by decide)).trans <| (W8_of m c main_arg4 (by decide)).trans <| (W7_of m c main_arg4 (by decide)).trans <| (W6_of m c main_arg4 (by decide)).trans <| (W5_of m c main_arg4 (by decide)).trans <| (W4_of m c main_arg4 (by decide)).trans <| (W3_of m c main_arg4 (by decide)).trans <| (W2_of m c main_arg4 (by decide)).trans <| (W1_of m c main_arg4 (by decide)).trans <| rfl
theorem W14_main_arg5 (c : Dev nD) : W14 m c (Proc.devRef .tc main_arg5) = m ((c : Thread nD τ).loc main_arg5) :=
  (W14_of m c main_arg5 (by decide)).trans <| (W13_of m c main_arg5 (by decide)).trans <| (W12_of m c main_arg5 (by decide)).trans <| (W11_of m c main_arg5 (by decide)).trans <| (W10_of m c main_arg5 (by decide)).trans <| (W9_of m c main_arg5 (by decide)).trans <| (W8_of m c main_arg5 (by decide)).trans <| (W7_of m c main_arg5 (by decide)).trans <| (W6_of m c main_arg5 (by decide)).trans <| (W5_of m c main_arg5 (by decide)).trans <| (W4_of m c main_arg5 (by decide)).trans <| (W3_of m c main_arg5 (by decide)).trans <| (W2_of m c main_arg5 (by decide)).trans <| (W1_of m c main_arg5 (by decide)).trans <| rfl
theorem W14_main_arg6 (c : Dev nD) : W14 m c (Proc.devRef .tc main_arg6) = m ((c : Thread nD τ).loc main_arg6) :=
  (W14_of m c main_arg6 (by decide)).trans <| (W13_of m c main_arg6 (by decide)).trans <| (W12_of m c main_arg6 (by decide)).trans <| (W11_of m c main_arg6 (by decide)).trans <| (W10_of m c main_arg6 (by decide)).trans <| (W9_of m c main_arg6 (by decide)).trans <| (W8_of m c main_arg6 (by decide)).trans <| (W7_of m c main_arg6 (by decide)).trans <| (W6_of m c main_arg6 (by decide)).trans <| (W5_of m c main_arg6 (by decide)).trans <| (W4_of m c main_arg6 (by decide)).trans <| (W3_of m c main_arg6 (by decide)).trans <| (W2_of m c main_arg6 (by decide)).trans <| (W1_of m c main_arg6 (by decide)).trans <| rfl
theorem W14_main_arg7 (c : Dev nD) : W14 m c (Proc.devRef .tc main_arg7) = m ((c : Thread nD τ).loc main_arg7) :=
  (W14_of m c main_arg7 (by decide)).trans <| (W13_of m c main_arg7 (by decide)).trans <| (W12_of m c main_arg7 (by decide)).trans <| (W11_of m c main_arg7 (by decide)).trans <| (W10_of m c main_arg7 (by decide)).trans <| (W9_of m c main_arg7 (by decide)).trans <| (W8_of m c main_arg7 (by decide)).trans <| (W7_of m c main_arg7 (by decide)).trans <| (W6_of m c main_arg7 (by decide)).trans <| (W5_of m c main_arg7 (by decide)).trans <| (W4_of m c main_arg7 (by decide)).trans <| (W3_of m c main_arg7 (by decide)).trans <| (W2_of m c main_arg7 (by decide)).trans <| (W1_of m c main_arg7 (by decide)).trans <| rfl
theorem W14_main_arg8 (c : Dev nD) : W14 m c (Proc.devRef .tc main_arg8) = m ((c : Thread nD τ).loc main_arg8) :=
  (W14_of m c main_arg8 (by decide)).trans <| (W13_of m c main_arg8 (by decide)).trans <| (W12_of m c main_arg8 (by decide)).trans <| (W11_of m c main_arg8 (by decide)).trans <| (W10_of m c main_arg8 (by decide)).trans <| (W9_of m c main_arg8 (by decide)).trans <| (W8_of m c main_arg8 (by decide)).trans <| (W7_of m c main_arg8 (by decide)).trans <| (W6_of m c main_arg8 (by decide)).trans <| (W5_of m c main_arg8 (by decide)).trans <| (W4_of m c main_arg8 (by decide)).trans <| (W3_of m c main_arg8 (by decide)).trans <| (W2_of m c main_arg8 (by decide)).trans <| (W1_of m c main_arg8 (by decide)).trans <| rfl
theorem W14_main_arg9 (c : Dev nD) : W14 m c (Proc.devRef .tc main_arg9) = m ((c : Thread nD τ).loc main_arg9) :=
  (W14_of m c main_arg9 (by decide)).trans <| (W13_of m c main_arg9 (by decide)).trans <| (W12_of m c main_arg9 (by decide)).trans <| (W11_of m c main_arg9 (by decide)).trans <| (W10_of m c main_arg9 (by decide)).trans <| (W9_of m c main_arg9 (by decide)).trans <| (W8_of m c main_arg9 (by decide)).trans <| (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W14_main_arg10 (c : Dev nD) : W14 m c (Proc.devRef .tc main_arg10) = m ((c : Thread nD τ).loc main_arg10) :=
  (W14_of m c main_arg10 (by decide)).trans <| (W13_of m c main_arg10 (by decide)).trans <| (W12_of m c main_arg10 (by decide)).trans <| (W11_of m c main_arg10 (by decide)).trans <| (W10_of m c main_arg10 (by decide)).trans <| (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W14_main_arg11 (c : Dev nD) : W14 m c (Proc.devRef .tc main_arg11) = m ((c : Thread nD τ).loc main_arg11) :=
  (W14_of m c main_arg11 (by decide)).trans <| (W13_of m c main_arg11 (by decide)).trans <| (W12_of m c main_arg11 (by decide)).trans <| (W11_of m c main_arg11 (by decide)).trans <| (W10_of m c main_arg11 (by decide)).trans <| (W9_of m c main_arg11 (by decide)).trans <| (W8_of m c main_arg11 (by decide)).trans <| (W7_of m c main_arg11 (by decide)).trans <| (W6_of m c main_arg11 (by decide)).trans <| (W5_of m c main_arg11 (by decide)).trans <| (W4_of m c main_arg11 (by decide)).trans <| (W3_of m c main_arg11 (by decide)).trans <| (W2_of m c main_arg11 (by decide)).trans <| (W1_of m c main_arg11 (by decide)).trans <| rfl
theorem W14_main_arg12 (c : Dev nD) : W14 m c (Proc.devRef .tc main_arg12) = m ((c : Thread nD τ).loc main_arg12) :=
  (W14_of m c main_arg12 (by decide)).trans <| (W13_of m c main_arg12 (by decide)).trans <| (W12_of m c main_arg12 (by decide)).trans <| (W11_of m c main_arg12 (by decide)).trans <| (W10_of m c main_arg12 (by decide)).trans <| (W9_of m c main_arg12 (by decide)).trans <| (W8_of m c main_arg12 (by decide)).trans <| (W7_of m c main_arg12 (by decide)).trans <| (W6_of m c main_arg12 (by decide)).trans <| (W5_of m c main_arg12 (by decide)).trans <| (W4_of m c main_arg12 (by decide)).trans <| (W3_of m c main_arg12 (by decide)).trans <| (W2_of m c main_arg12 (by decide)).trans <| (W1_of m c main_arg12 (by decide)).trans <| rfl

/-- The first result array `main_v74` is written by the last host stretch and not by the last region. -/
theorem W14_main_v74 (c : Dev nD) :
    W14 m c (Proc.devRef .tc main_v74) = StableHlo.after hostOps4 (W12 m c) (Proc.devRef .tc main_v74) :=
  W14_of m c main_v74 (by decide)

/-! ## The proof data family and the thread state -/

/-- Every pipeline's proof data, each at its region's entry contents: a literal `match`, so that the family at a
    numeral reduces to that region's data. -/
def pdats : (p : Fin 5) → (c : Dev nD) → Dat τ (Elt F) Unit ℕ (UR sig nD τ) ℕ (Pipeline.pin (pcfgs (F := F)) adm p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c

/-- No core owes another anything: no level is assigned. -/
abbrev runL : GSem nD τ sig → Finset Unit := fun _ => ∅
abbrev runLv : GSem nD τ sig → Unit → ℕ := fun _ _ => 0

/-- What rides beside the buffers through every segment: the core's generator register at some state and its
    dues, at nothing. -/
abbrev Rst (c : Dev nD) : sProp 𝕄 := iprop((∃ r, prngReg c r) ∗ ∃ W, owes (c : Thread nD τ) (0 : CellTallies nD τ sig Unit) W)

/-- A host stretch as a segment over the unscoped references from the contents `W`, `Rst` riding along: it ends
    with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none runL runLv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rst

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the dues: every unscoped buffer at the last contents, the generator register at
    some state. -/
abbrev Tₙ (c : Dev nD) : sProp 𝕄 := iprop(StableHlo.held (c : Thread nD τ) (Pipeline.ucRefs τ sig) (W14 m c) ∗ ∃ r, prngReg c r)

/-! ## The regions as segments -/

set_option backward.isDefEq.respectTransparency.types false in
/-- Region 0 over the thread state: entered from every unscoped buffer at `W1`, left at `W2`. Its arrays are split
    out of the unscoped buffers at the entry and put back at the exit contents; the generator register goes into the
    region's invariant and comes back; nothing is owed; the kernel has no semaphore of its own. -/
def R0 : Pipeline.RegionSeg (pcfgs (F := F)) adm (pdats m) () defs₀ Variants.none runL runLv 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ runL runLv 0 fun _ _ => rfl
  pre c := iprop(StableHlo.held (c : Thread nD τ) (Pipeline.ucRefs τ sig) (W1 m c) ∗ Rst c)
  post c := iprop(StableHlo.held (c : Thread nD τ) (Pipeline.ucRefs τ sig) (W2 m c) ∗ Rst c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Vin0 m) c)
    unfold Pipeline.ΦA
    iintro ⟨Hp, -, Hr⟩
    isplitl [Hr]; · iexact Hr
    iexact Hp
  hout c := by
    rw [Pipeline.ownSems0_none]
    refine BIBase.Entails.trans (hout0 (Vin0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers at the entry and put back at the exit contents; the generator register goes into the
    region's invariant and comes back; nothing is owed; the kernel has no semaphore of its own. -/
def R1 : Pipeline.RegionSeg (pcfgs (F := F)) adm (pdats m) () defs₀ Variants.none runL runLv 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ runL runLv 1 fun _ _ => rfl
  pre c := iprop(StableHlo.held (c : Thread nD τ) (Pipeline.ucRefs τ sig) (W3 m c) ∗ Rst c)
  post c := iprop(StableHlo.held (c : Thread nD τ) (Pipeline.ucRefs τ sig) (W4 m c) ∗ Rst c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Vin1 m) c)
    unfold Pipeline.ΦA
    iintro ⟨Hp, -, Hr⟩
    isplitl [Hr]; · iexact Hr
    iexact Hp
  hout c := by
    rw [Pipeline.ownSems0_none]
    refine BIBase.Entails.trans (hout1 (Vin1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers at the entry and put back at the exit contents; the generator register goes into the
    region's invariant and comes back; nothing is owed; the kernel has no semaphore of its own. -/
def R2 : Pipeline.RegionSeg (pcfgs (F := F)) adm (pdats m) () defs₀ Variants.none runL runLv 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ runL runLv 2 fun _ _ => rfl
  pre c := iprop(StableHlo.held (c : Thread nD τ) (Pipeline.ucRefs τ sig) (W5 m c) ∗ Rst c)
  post c := iprop(StableHlo.held (c : Thread nD τ) (Pipeline.ucRefs τ sig) (W6 m c) ∗ Rst c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Vin2 m) c)
    unfold Pipeline.ΦA
    iintro ⟨Hp, -, Hr⟩
    isplitl [Hr]; · iexact Hr
    iexact Hp
  hout c := by
    rw [Pipeline.ownSems0_none]
    refine BIBase.Entails.trans (hout2 (Vin2 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W11`, left at `W12`. Its arrays are split
    out of the unscoped buffers at the entry and put back at the exit contents; the generator register goes into the
    region's invariant and comes back; nothing is owed; the kernel has no semaphore of its own. -/
def R3 : Pipeline.RegionSeg (pcfgs (F := F)) adm (pdats m) () defs₀ Variants.none runL runLv 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ runL runLv 3 fun _ _ => rfl
  pre c := iprop(StableHlo.held (c : Thread nD τ) (Pipeline.ucRefs τ sig) (W11 m c) ∗ Rst c)
  post c := iprop(StableHlo.held (c : Thread nD τ) (Pipeline.ucRefs τ sig) (W12 m c) ∗ Rst c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Vin3 m) c)
    unfold Pipeline.ΦA
    iintro ⟨Hp, -, Hr⟩
    isplitl [Hr]; · iexact Hr
    iexact Hp
  hout c := by
    rw [Pipeline.ownSems0_none]
    refine BIBase.Entails.trans (hout3 (Vin3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b => W12 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W13`, left at `W14`. Its two input windows
    read one array. -/
def R4 : Pipeline.RegionSeg (pcfgs (F := F)) adm (pdats m) () defs₀ Variants.none runL runLv 4 where
  win := winFacts₀4
  block_pos := block_pos4
  stage_whole := stage_whole4
  K := PEmpty
  osem k := k.elim
  ho := Pipeline.OwnSemFacts.none _
  hbody c := (body_obligation4 (Vin4 m) c).loose
  hwaits := Pipeline.hwaits_of_owed_zero _ _ _ _ runL runLv 4 fun _ _ => rfl
  pre c := iprop(StableHlo.held (c : Thread nD τ) (Pipeline.ucRefs τ sig) (W13 m c) ∗ Rst c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit : (unscopedBufs c (Vin4 m c) : sProp 𝕄)
        ⊢ iprop((pdats m 4 c).arrays ((pdats m 4 c).arrAt · 0) ∗ Pipeline.unscopedRest spec4 c (Vin4 m c)) := entry4 (Vin4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : (iprop((pdats m 4 c).arrays ((pdats m 4 c).arrAt · cfg4.N) ∗ Pipeline.unscopedRest spec4 c (Vin4 m c)) : sProp 𝕄)
        ⊢ unscopedBufs c (fun b => W14 m c b) :=
      exit4 (Vin4 m) c (fun b => W14 m c b) (W14_main_v76 m c) (fun b hb => W14_of m c b fun h => hb (List.mem_singleton.mp h))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's fourteen segments in order: a host segment per stretch from its boundary's contents, a region per kernel call. -/
abbrev runSegs : List (Pipeline.Seg (pcfgs (F := F)) adm (pdats m) () defs₀ Variants.none runL runLv) :=
  [ .host (hseg hostOps0 hostOps0_sub hostOps0_fresh (W0 m)),
    .region (R0 m),
    .host (hseg hostOps1 hostOps1_sub hostOps1_fresh (W2 m)),
    .region (R1 m),
    .host (hseg hostOps2 hostOps2_sub hostOps2_fresh (W4 m)),
    .region (R2 m),
    .host (hseg hostOps3 hostOps3_sub hostOps3_fresh (W6 m)),
    .host (hseg hostOps3_1 hostOps3_1_sub hostOps3_1_fresh (W7 m)),
    .host (hseg hostOps3_2 hostOps3_2_sub hostOps3_2_fresh (W8 m)),
    .host (hseg hostOps3_3 hostOps3_3_sub hostOps3_3_fresh (W9 m)),
    .host (hseg hostOps3_4 hostOps3_4_sub hostOps3_4_fresh (W10 m)),
    .region (R3 m),
    .host (hseg hostOps4 hostOps4_sub hostOps4_fresh (W12 m)),
    .region (R4 m) ]

/-- @main is the run of the segments. -/
theorem main_run (c : Dev nD) : main (F := F) c = Pipeline.Seg.run (runSegs m) := (main_chain c).trans (by chain_rfl)

set_option backward.isDefEq.respectTransparency.types false in
/-- THE RUN. From any memory with zero counters every weakly fair execution of @main on the TensorCores terminates and
    every final memory holds each unscoped buffer at the last boundary's contents `W14`. -/
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W14 m c b) :=
  Pipeline.θ_run_regions_kit (pcfgs (F := F)) adm (pdats m) () cellOf_inj emb₁ defs₀ Variants.none runL runLv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rst c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩)
    (hinit := by
      refine Pipeline.initEach runL runLv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

/-- THE FRAME: every argument array ends holding its launch contents. -/
theorem frame_all (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (run_all m ρ).mono fun r h c =>
    ⟨(h c _ (mem_uc main_arg0 (by decide))).trans (W14_main_arg0 m c),
     (h c _ (mem_uc main_arg1 (by decide))).trans (W14_main_arg1 m c),
     (h c _ (mem_uc main_arg2 (by decide))).trans (W14_main_arg2 m c),
     (h c _ (mem_uc main_arg3 (by decide))).trans (W14_main_arg3 m c),
     (h c _ (mem_uc main_arg4 (by decide))).trans (W14_main_arg4 m c),
     (h c _ (mem_uc main_arg5 (by decide))).trans (W14_main_arg5 m c),
     (h c _ (mem_uc main_arg6 (by decide))).trans (W14_main_arg6 m c),
     (h c _ (mem_uc main_arg7 (by decide))).trans (W14_main_arg7 m c),
     (h c _ (mem_uc main_arg8 (by decide))).trans (W14_main_arg8 m c),
     (h c _ (mem_uc main_arg9 (by decide))).trans (W14_main_arg9 m c),
     (h c _ (mem_uc main_arg10 (by decide))).trans (W14_main_arg10 m c),
     (h c _ (mem_uc main_arg11 (by decide))).trans (W14_main_arg11 m c),
     (h c _ (mem_uc main_arg12 (by decide))).trans (W14_main_arg12 m c)⟩

end Cert.Kernel.Gen

end
-- ==== Proof.RefConv.lean ====
/-
  The reference's graph convolution as one function.

  The reference runs five graph-convolution layers over one edge list.  The edge list is the given one with a self
  loop appended for every node; a node's degree is the number of edges that end in it; an edge's weight is the
  product of the inverse square roots of the degrees of its two ends.  One layer takes a feature table that has
  already been multiplied by the layer's weight matrix, gathers the row of each edge's source, scales it by the
  edge's weight, adds the scaled rows up at each edge's destination, and adds the bias row.

  This module names those pieces once, as the operations the program text spells, at the exact (extended-real)
  instance.  The layer takes the destination column, the source column and the edge weights as parameters, so that
  a statement about a layer never opens how they were computed.
-/
import proofs.«420824_j61512521613989_2_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-! ## The edge list, the degrees and the edge weights -/

/-- An end column of the edge list with the self loops appended: the given ends, then every node once. -/
def withLoops (v : IVec S393216 32) : IVec S405504 32 :=
  concatenate S405504 0 [⟨S393216, v⟩, ⟨S12288, (iotaInDim S12288 32 0)⟩] concatenates_S393216_S12288_S405504_d0

/-- The sources with the self loops appended. -/
def srcSl (src : IVec S393216 32) : IVec S405504 32 := withLoops src

/-- The destinations with the self loops appended. -/
def dstSl (dst : IVec S393216 32) : IVec S405504 32 := withLoops dst

/-- A node column with its negative entries moved up by the number of nodes (an index counted from the end). -/
def wrap (v : IVec S405504 32) : IVec S405504 32 :=
  select (cmpi .slt v (broadcastInDim S405504 ![] bcast_S_S405504 (constantI S_ 32 0#32)))
    (addi v (broadcastInDim S405504 ![] bcast_S_S405504 (constantI S_ 32 12288#32))) v

/-- The sources, self loops appended, negatives wrapped: the rows a layer gathers. -/
def srcW (src : IVec S393216 32) : IVec S405504 32 := wrap (srcSl src)

/-- The destinations, self loops appended, negatives wrapped. -/
def dstW (dst : IVec S393216 32) : IVec S405504 32 := wrap (dstSl dst)

/-- A node column as the one-column table a gather or a scatter takes its positions from. -/
def col (v : IVec S405504 32) : IVec S405504x1 32 :=
  broadcastInDim S405504x1 ![0] bcast_S405504_S405504x1_0 v

/-- A node's degree: one for every edge, self loops included, that ends in it. -/
def deg (dst : IVec S393216 32) : FVec Ideal S12288 .f32 :=
  Host.scatterAdd scatter_S12288_S405504x1_S405504_n_0_0_1
    (broadcastInDim S12288 ![] bcast_S_S12288 (constant (F := Ideal) S_ .f32 0x00000000#32))
    (col (dstSl dst))
    (broadcastInDim S405504 ![] bcast_S_S405504 (constant (F := Ideal) S_ .f32 0x3F800000#32))

/-- The inverse square root of the degrees. -/
def dis (dst : IVec S393216 32) : FVec Ideal S12288 .f32 := Host.rsqrt (deg dst)

/-- An edge's weight: the inverse square roots of the degrees of its source and of its destination, multiplied. -/
def norm (src dst : IVec S393216 32) : FVec Ideal S405504 .f32 :=
  mulf (Host.gather gather_S12288_S405504x1_S405504_n_0_n_n_0_1_1 (dis dst) (col (srcW src)))
    (Host.gather gather_S12288_S405504x1_S405504_n_0_n_n_0_1_1 (dis dst) (col (dstW dst)))

/-! ## One layer, after its weight matrix -/

/-- A layer on 64 features: the rows of `hw` at the sources `sW`, each scaled by its edge's weight `nrm`, added up at
    the destinations `dS` from zero, plus the bias row `b`. -/
def refConv64 (dS sW : IVec S405504 32) (nrm : FVec Ideal S405504 .f32) (hw : FVec Ideal S12288x64 .f32)
    (b : FVec Ideal S64 .f32) : FVec Ideal S12288x64 .f32 :=
  addf
    (Host.scatterAdd scatter_S12288x64_S405504x1_S405504x64_1_0_0_1
      (broadcastInDim S12288x64 ![] bcast_S_S12288x64 (constant (F := Ideal) S_ .f32 0x00000000#32))
      (col dS)
      (mulf (Host.gather gather_S12288x64_S405504x1_S405504x64_1_0_n_n_0_1_164 hw (col sW))
        (broadcastInDim S405504x64 ![0, 1] bcast_S405504x1_S405504x64_0_1
          (broadcastInDim S405504x1 ![0] bcast_S405504_S405504x1_0 nrm))))
    (broadcastInDim S12288x64 ![0, 1] bcast_S1x64_S12288x64_0_1 (broadcastInDim S1x64 ![1] bcast_S64_S1x64_1 b))

/-- The same layer on 500 features. -/
def refConv500 (dS sW : IVec S405504 32) (nrm : FVec Ideal S405504 .f32) (hw : FVec Ideal S12288x500 .f32)
    (b : FVec Ideal S500 .f32) : FVec Ideal S12288x500 .f32 :=
  addf
    (Host.scatterAdd scatter_S12288x500_S405504x1_S405504x500_1_0_0_1
      (broadcastInDim S12288x500 ![] bcast_S_S12288x500 (constant (F := Ideal) S_ .f32 0x00000000#32))
      (col dS)
      (mulf (Host.gather gather_S12288x500_S405504x1_S405504x500_1_0_n_n_0_1_1500 hw (col sW))
        (broadcastInDim S405504x500 ![0, 1] bcast_S405504x1_S405504x500_0_1
          (broadcastInDim S405504x1 ![0] bcast_S405504_S405504x1_0 nrm))))
    (broadcastInDim S12288x500 ![0, 1] bcast_S1x500_S12288x500_0_1 (broadcastInDim S1x500 ![1] bcast_S500_S1x500_1 b))

/-- The rectifier on a 64-feature table: the larger of the entry and zero. -/
def relu64 (y : FVec Ideal S12288x64 .f32) : FVec Ideal S12288x64 .f32 :=
  maximumf y (broadcastInDim S12288x64 ![] bcast_S_S12288x64 (constant (F := Ideal) S_ .f32 0x00000000#32))

/-! ## The five layers -/

section Layers

variable (src dst : IVec S393216 32)

/-- A 64-feature layer over this edge list. -/
def layer64 (hw : FVec Ideal S12288x64 .f32) (b : FVec Ideal S64 .f32) : FVec Ideal S12288x64 .f32 :=
  refConv64 (dstSl dst) (srcW src) (norm src dst) hw b

/-- A 500-feature layer over this edge list. -/
def layer500 (hw : FVec Ideal S12288x500 .f32) (b : FVec Ideal S500 .f32) : FVec Ideal S12288x500 .f32 :=
  refConv500 (dstSl dst) (srcW src) (norm src dst) hw b

/-- The first encoder layer, rectified. -/
def h1 (x : FVec Ideal S12288x500 .f32) (w1 : FVec Ideal S500x64 .f32) (b1 : FVec Ideal S64 .f32) :
    FVec Ideal S12288x64 .f32 :=
  relu64 (layer64 src dst (Host.dotGeneral dot_S12288x500_S500x64_S12288x64_1_0_0_1_n_n none x w1) b1)

/-- The embedding: the second encoder layer on the first. -/
def emb (x : FVec Ideal S12288x500 .f32) (w1 : FVec Ideal S500x64 .f32) (b1 : FVec Ideal S64 .f32)
    (w2 : FVec Ideal S64x64 .f32) (b2 : FVec Ideal S64 .f32) : FVec Ideal S12288x64 .f32 :=
  layer64 src dst (Host.dotGeneral dot_S12288x64_S64x64_S12288x64_1_0_0_1_n_n none (h1 src dst x w1 b1) w2) b2

/-- The attribute decoder: a rectified 64-feature layer on an embedding `em`, then a 500-feature layer. -/
def xHat (em : FVec Ideal S12288x64 .f32) (aw1 : FVec Ideal S64x64 .f32) (ab1 : FVec Ideal S64 .f32)
    (aw2 : FVec Ideal S64x500 .f32) (ab2 : FVec Ideal S500 .f32) : FVec Ideal S12288x500 .f32 :=
  layer500 src dst
    (Host.dotGeneral dot_S12288x64_S64x500_S12288x500_1_0_0_1_n_n none
      (relu64 (layer64 src dst (Host.dotGeneral dot_S12288x64_S64x64_S12288x64_1_0_0_1_n_n none em aw1) ab1)) aw2) ab2

/-- The structure decoder's features: one 64-feature layer on an embedding `em`. -/
def zRef (em : FVec Ideal S12288x64 .f32) (sw1 : FVec Ideal S64x64 .f32) (sb1 : FVec Ideal S64 .f32) :
    FVec Ideal S12288x64 .f32 :=
  layer64 src dst (Host.dotGeneral dot_S12288x64_S64x64_S12288x64_1_0_0_1_n_n none em sw1) sb1

end Layers

/-- The structure decoder's result: every pair of nodes' feature rows multiplied entry by entry and summed, spelt as
    the product of the feature table and its transpose. -/
def sHat (z : FVec Ideal S12288x64 .f32) : FVec Ideal S12288x12288 .f32 :=
  Host.dotGeneral dot_S12288x64_S64x12288_S12288x12288_1_0_0_1_n_n none z
    (transpose S64x12288 [1, 0] z transposes_S12288x64_S64x12288_1_0)

end Cert.ReferenceIdeal.RefValue

end
-- ==== Proof.RefLayers.lean ====
/-
  The reference's two results as five layers of one graph convolution.

  The reference's run ends with its two results at the composed term of its operations.  Read stage by stage, that
  term is: the edge list with self loops, the degrees and the edge weights, computed once; then the same layer
  (gather the sources' rows, scale by the edge weight, add up at the destinations, add the bias) five times, each
  after a multiplication by the layer's weight matrix, with a rectifier after the first and the third; and the
  product of the last features with their transpose.  Every step below is the unfolding of one name.
-/
import proofs.«420824_j61512521613989_2_alg».proof.Proof.RefConv
import proofs.«420824_j61512521613989_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo

variable (x0 : FVec Ideal S12288x500 .f32) (x1 x2 : IVec S393216 32)
  (x3 : FVec Ideal S500x64 .f32) (x4 : FVec Ideal S64 .f32) (x5 : FVec Ideal S64x64 .f32) (x6 : FVec Ideal S64 .f32)
  (x7 : FVec Ideal S64x64 .f32) (x8 : FVec Ideal S64 .f32) (x9 : FVec Ideal S64x500 .f32) (x10 : FVec Ideal S500 .f32)
  (x11 : FVec Ideal S64x64 .f32) (x12 : FVec Ideal S64 .f32)

/-! ## The shared chain: the stages that compute the edge list and the edge weights -/

theorem stage_srcSl : val_main_v1 (F := Ideal) x1 = srcSl x1 := rfl
theorem stage_dstSl : val_main_v2 (F := Ideal) x2 = dstSl x2 := rfl
theorem stage_norm : val_main_v22 (F := Ideal) x1 x2 = norm x1 x2 := rfl

/-! ## The layers, one stage each -/

/-- The first layer before its rectifier. -/
theorem stage_layer1 : val_main_v39 (F := Ideal) x0 x1 x2 x3 x4
    = layer64 x1 x2 (Host.dotGeneral dot_S12288x500_S500x64_S12288x64_1_0_0_1_n_n none x0 x3) x4 := rfl

/-- The first layer, rectified. -/
theorem stage_h1 : val_main_v40 (F := Ideal) x0 x1 x2 x3 x4 = h1 x1 x2 x0 x3 x4 := rfl

/-- The embedding. -/
theorem stage_emb : val_main_v57 (F := Ideal) x0 x1 x2 x3 x4 x5 x6 = emb x1 x2 x0 x3 x4 x5 x6 := rfl

/-- The attribute decoder's result: a rectified layer on the embedding, then the 500-feature layer. -/
theorem stage_xHat : val_main_v92 (F := Ideal) x0 x1 x2 x3 x4 x5 x6 x7 x8 x9 x10
    = xHat x1 x2 (emb x1 x2 x0 x3 x4 x5 x6) x7 x8 x9 x10 := rfl

/-- The structure decoder's features: one layer on the embedding. -/
theorem stage_z : val_main_v109 (F := Ideal) x0 x1 x2 x3 x4 x5 x6 x11 x12
    = zRef x1 x2 (emb x1 x2 x0 x3 x4 x5 x6) x11 x12 := rfl

/-- The structure decoder's result: the features times their transpose. -/
theorem stage_sHat : val_main_v111 (F := Ideal) x0 x1 x2 x3 x4 x5 x6 x11 x12
    = sHat (zRef x1 x2 (emb x1 x2 x0 x3 x4 x5 x6) x11 x12) := rfl

/-! ## The run's two results -/

/-- The first result of the reference's run is the attribute decoder on the embedding. -/
theorem res_x_hat (m : (ℓ : Loc nD τ sig) → Buf (Elt Ideal) ℓ) (c : Dev nD) :
    Cert.ReferenceIdeal.Value.res_out0 (F := Ideal) m c
      = xHat (m ((c.tc : Thread nD τ).loc main_arg1)) (m ((c.tc : Thread nD τ).loc main_arg2))
          (emb (m ((c.tc : Thread nD τ).loc main_arg1)) (m ((c.tc : Thread nD τ).loc main_arg2))
            (m ((c.tc : Thread nD τ).loc main_arg0)) (m ((c.tc : Thread nD τ).loc main_arg3))
            (m ((c.tc : Thread nD τ).loc main_arg4)) (m ((c.tc : Thread nD τ).loc main_arg5))
            (m ((c.tc : Thread nD τ).loc main_arg6)))
          (m ((c.tc : Thread nD τ).loc main_arg7)) (m ((c.tc : Thread nD τ).loc main_arg8))
          (m ((c.tc : Thread nD τ).loc main_arg9)) (m ((c.tc : Thread nD τ).loc main_arg10)) :=
  (val_main_v92_eq (F := Ideal) m c).trans (stage_xHat _ _ _ _ _ _ _ _ _ _ _)

/-- The second result of the reference's run is the product of the structure decoder's features with their
    transpose. -/
theorem res_s_hat (m : (ℓ : Loc nD τ sig) → Buf (Elt Ideal) ℓ) (c : Dev nD) :
    Cert.ReferenceIdeal.Value.res_out1 (F := Ideal) m c
      = sHat (zRef (m ((c.tc : Thread nD τ).loc main_arg1)) (m ((c.tc : Thread nD τ).loc main_arg2))
          (emb (m ((c.tc : Thread nD τ).loc main_arg1)) (m ((c.tc : Thread nD τ).loc main_arg2))
            (m ((c.tc : Thread nD τ).loc main_arg0)) (m ((c.tc : Thread nD τ).loc main_arg3))
            (m ((c.tc : Thread nD τ).loc main_arg4)) (m ((c.tc : Thread nD τ).loc main_arg5))
            (m ((c.tc : Thread nD τ).loc main_arg6)))
          (m ((c.tc : Thread nD τ).loc main_arg11)) (m ((c.tc : Thread nD τ).loc main_arg12))) :=
  (val_main_v111_eq (F := Ideal) m c).trans (stage_sHat _ _ _ _ _ _ _ _ _)

/-! ## The product with the transpose, read at an entry -/

open Idealize.ShloMosaic.ValueIdx in
/-- Entry (i, j) of the features times their transpose: rows i and j multiplied entry by entry and summed. -/
theorem sHat_apply (z : FVec Ideal S12288x64 .f32) (i j : Fin 12288) :
    sHat z (ix2 i j) = ∑ k : Fin 64, (z (ix2 i k) : EReal) * z (ix2 j k) := by
  unfold sHat
  simp only [Host.dotGeneral]
  rw [Ideal.dotGeneral_apply, ← Equiv.sum_comp (ValueIdx.contrEquiv1 dot_S12288x64_S64x12288_S12288x12288_1_0_0_1_n_n 64 rfl rfl).symm]
  refine Finset.sum_congr rfl fun k _ => ?_
  have hk := ValueIdx.contrEquiv1_symm_val dot_S12288x64_S64x12288_S12288x12288_1_0_0_1_n_n 64 rfl rfl k
  have el : dot_S12288x64_S64x12288_S12288x12288_1_0_0_1_n_n.lhsIdx (ix2 i j) ((ValueIdx.contrEquiv1 dot_S12288x64_S64x12288_S12288x12288_1_0_0_1_n_n 64 rfl rfl).symm k) = ix2 i k := funext fun a => Fin.ext (by
    match a with
    | ⟨0, _⟩ => exact lhs_main_v111_0 _ _
    | ⟨1, _⟩ => exact (lhs_main_v111_1 _ _).trans hk)
  have er : dot_S12288x64_S64x12288_S12288x12288_1_0_0_1_n_n.rhsIdx (ix2 i j) ((ValueIdx.contrEquiv1 dot_S12288x64_S64x12288_S12288x12288_1_0_0_1_n_n 64 rfl rfl).symm k) = ix2 k j := funext fun a => Fin.ext (by
    match a with
    | ⟨0, _⟩ => exact (rhs_main_v111_0 _ _).trans hk
    | ⟨1, _⟩ => exact rhs_main_v111_1 _ _)
  rw [el, er, transpose_apply [1, 0] z transposes_S12288x64_S64x12288_1_0 (ix2 k j) (ix2 j k) (fun b => match b with
    | ⟨0, _⟩ => rfl
    | ⟨1, _⟩ => rfl)]

end Cert.ReferenceIdeal.RefValue

end
-- ==== Proof.IndexRange.lean ====
/-
  Index ranges.

  The stated precondition ends in two conjuncts that say every entry of the two edge-endpoint arrays, read signed,
  lies in [0, 12288): each prints as an "all" (a reduction by "and" from 1) of the elementwise "and" of a signed
  "greater or equal 0" and a signed "less than 12288". Read back, they bound every entry.

  The programs append the self loops 0, 1, …, 12287 to each endpoint array. Every entry of the longer array is again
  in [0, 12288); so adding 12288 to the negative entries changes nothing, a clamp into [0, 12287] changes nothing, and
  no entry falls outside an array with 12288 rows. An in-range index array is therefore a function into the nodes,
  and its one-column and two-column layouts read back that function.
-/
import proofs.«420824_j61512521613989_2_alg».proof.Pre_finite_inputs
import Idealize.ShloMosaic.Lib.ReduceAll
import Idealize.ShloMosaic.Lib.ValueIdx
import Idealize.ShloMosaic.Lib.Pipeline.Value
import Idealize.ShloMosaic.Lib.StableHlo.Predicate

noncomputable section

namespace Cert.IndexRange

open Idealize.ShloMosaic Idealize.ShloMosaic.ValueIdx

/-! ## Words and arrays -/

/-- A word that tests signed "at least 0" and signed "below 12288" reads, signed, in [0, 12288). -/
theorem word_range {x : BitVec 32} (h1 : IntOp.cmpi .sge x 0#32 = 1#1) (h2 : IntOp.cmpi .slt x 12288#32 = 1#1) :
    0 ≤ x.toInt ∧ x.toInt < 12288 := by
  rw [IntOp.cmpi_sge] at h1
  rw [IntOp.cmpi_slt] at h2
  have e0 : (0#32 : BitVec 32).toInt = 0 := by decide
  have e1 : (12288#32 : BitVec 32).toInt = 12288 := by decide
  rw [e0] at h1
  rw [e1] at h2
  exact ⟨h1, h2⟩

/-- Replacing the negative entries of an array of words by something else does nothing when no entry is negative:
    the select on "entry below zero" keeps every entry. -/
theorem wrap_eq_self {s : Shape} (v z k : IVec s 32) (hz : ∀ i, z i = 0#32) (hv : ∀ i, 0 ≤ (v i).toInt) :
    select (cmpi .slt v z) (addi v k) v = v := by
  funext i
  show Scalar.select (IntOp.cmpi .slt (v i) (z i)) (IntOp.addi (v i) (k i)) (v i) = v i
  have hn : ¬ IntOp.cmpi .slt (v i) (z i) = 1#1 := by
    rw [IntOp.cmpi_slt, hz i]
    have e0 : (0#32 : BitVec 32).toInt = 0 := by decide
    rw [e0]
    exact not_lt.mpr (hv i)
  rw [eq_zero_of_ne_one hn, select_zero]

/-- A vector laid out as a one-column matrix reads, at (e, 0), the vector at e. -/
theorem col_apply {α : Type} {E : Nat} (bc : (⟨1, ![E]⟩ : Shape).BroadcastsInDim ⟨2, ![E, 1]⟩ ![0])
    (v : (⟨1, ![E]⟩ : Shape).Idx → α) (e : Fin E) :
    broadcastInDim ⟨2, ![E, 1]⟩ ![0] bc v (ix2 e (0 : Fin 1)) = v (ix1 e) := by
  refine broadcastInDim_apply _ bc v _ (ix1 e) (fun a => ?_)
  match a with
  | ⟨0, _⟩ =>
    show e.val = if E = 1 then 0 else e.val
    split_ifs with h
    · have := e.isLt; omega
    · rfl

/-- Two one-column matrices set side by side read, in column 0, the first. -/
theorem pair_col0 {α : Type} {E : Nat}
    (hc : Shape.Concatenates [(⟨2, ![E, 1]⟩ : Shape), ⟨2, ![E, 1]⟩] ⟨2, ![E, 2]⟩ (1 : Fin 2))
    (a b : (⟨2, ![E, 1]⟩ : Shape).Idx → α) (e : Fin E) :
    concatenate ⟨2, ![E, 2]⟩ (1 : Fin 2) [⟨⟨2, ![E, 1]⟩, a⟩, ⟨⟨2, ![E, 1]⟩, b⟩] hc (ix2 e (0 : Fin 2))
      = a (ix2 e (0 : Fin 1)) :=
  concatenate_pair_apply_left (1 : Fin 2) a b hc (ix2 e (0 : Fin 2)) rfl (ix2 e (0 : Fin 1))
    (fun b => by match b with | ⟨0, _⟩ => rfl | ⟨1, _⟩ => rfl)

/-- … and, in column 1, the second. -/
theorem pair_col1 {α : Type} {E : Nat}
    (hc : Shape.Concatenates [(⟨2, ![E, 1]⟩ : Shape), ⟨2, ![E, 1]⟩] ⟨2, ![E, 2]⟩ (1 : Fin 2))
    (a b : (⟨2, ![E, 1]⟩ : Shape).Idx → α) (e : Fin E) :
    concatenate ⟨2, ![E, 2]⟩ (1 : Fin 2) [⟨⟨2, ![E, 1]⟩, a⟩, ⟨⟨2, ![E, 1]⟩, b⟩] hc (ix2 e (1 : Fin 2))
      = b (ix2 e (0 : Fin 1)) :=
  concatenate_pair_apply_right (1 : Fin 2) a b hc (ix2 e (1 : Fin 2)) rfl rfl (ix2 e (0 : Fin 1))
    (fun b hb => by match b with | ⟨0, _⟩ => rfl | ⟨1, _⟩ => exact absurd rfl hb)
    rfl

/-- Two vectors joined end to end read the first below its length … -/
theorem cat_left {α : Type} {N n m : Nat}
    (hc : Shape.Concatenates [(⟨1, ![n]⟩ : Shape), ⟨1, ![m]⟩] ⟨1, ![N]⟩ (0 : Fin 1))
    (X : (⟨1, ![n]⟩ : Shape).Idx → α) (Y : (⟨1, ![m]⟩ : Shape).Idx → α) (k : Fin N) (hk : k.val < n) :
    concatenate ⟨1, ![N]⟩ (0 : Fin 1) [⟨⟨1, ![n]⟩, X⟩, ⟨⟨1, ![m]⟩, Y⟩] hc (ix1 k) = X (ix1 ⟨k.val, hk⟩) :=
  concatenate_pair_apply_left (0 : Fin 1) X Y hc (ix1 k) rfl (ix1 ⟨k.val, hk⟩)
    (fun b => by match b with | ⟨0, _⟩ => rfl)

/-- … and the second, that many places up, from there on. -/
theorem cat_right {α : Type} {N n m : Nat}
    (hc : Shape.Concatenates [(⟨1, ![n]⟩ : Shape), ⟨1, ![m]⟩] ⟨1, ![N]⟩ (0 : Fin 1))
    (X : (⟨1, ![n]⟩ : Shape).Idx → α) (Y : (⟨1, ![m]⟩ : Shape).Idx → α) (k : Fin N) (hk : n ≤ k.val)
    (hkm : k.val - n < m) :
    concatenate ⟨1, ![N]⟩ (0 : Fin 1) [⟨⟨1, ![n]⟩, X⟩, ⟨⟨1, ![m]⟩, Y⟩] hc (ix1 k) = Y (ix1 ⟨k.val - n, hkm⟩) :=
  concatenate_pair_apply_right (0 : Fin 1) X Y hc (ix1 k) rfl rfl (ix1 ⟨k.val - n, hkm⟩)
    (fun b hb => by match b with | ⟨0, _⟩ => exact absurd rfl hb)
    (by show k.val - n + n = k.val; omega)

/-! ## An in-range index array as a function into the nodes -/

/-- The node an in-range index array names at each position. -/
def nodeOf {E N : Nat} (v : IVec ⟨1, ![E]⟩ 32)
    (hv : ∀ e : Fin E, 0 ≤ (v (ix1 e)).toInt ∧ (v (ix1 e)).toInt < (N : Int)) : Fin E → Fin N :=
  fun e => ⟨(v (ix1 e)).toInt.toNat, by have := hv e; omega⟩

/-- The array's entry, read signed, is that node. -/
theorem nodeOf_spec {E N : Nat} (v : IVec ⟨1, ![E]⟩ 32)
    (hv : ∀ e : Fin E, 0 ≤ (v (ix1 e)).toInt ∧ (v (ix1 e)).toInt < (N : Int)) (e : Fin E) :
    (v (ix1 e)).toInt = ((nodeOf v hv e).val : Int) := by
  show _ = (((v (ix1 e)).toInt.toNat : Nat) : Int)
  have := hv e
  omega

/-- So is the entry of its one-column layout. -/
theorem nodeOf_col {E N : Nat} (bc : (⟨1, ![E]⟩ : Shape).BroadcastsInDim ⟨2, ![E, 1]⟩ ![0]) (v : IVec ⟨1, ![E]⟩ 32)
    (hv : ∀ e : Fin E, 0 ≤ (v (ix1 e)).toInt ∧ (v (ix1 e)).toInt < (N : Int)) (e : Fin E) :
    (broadcastInDim ⟨2, ![E, 1]⟩ ![0] bc v (ix2 e (0 : Fin 1))).toInt = ((nodeOf v hv e).val : Int) := by
  rw [col_apply bc v e]
  exact nodeOf_spec v hv e

/-- Column 0 of two index arrays laid side by side as columns names the first array's node … -/
theorem nodeOf_pair0 {E N : Nat} (bc : (⟨1, ![E]⟩ : Shape).BroadcastsInDim ⟨2, ![E, 1]⟩ ![0])
    (hc : Shape.Concatenates [(⟨2, ![E, 1]⟩ : Shape), ⟨2, ![E, 1]⟩] ⟨2, ![E, 2]⟩ (1 : Fin 2))
    (vd vs : IVec ⟨1, ![E]⟩ 32)
    (hd : ∀ e : Fin E, 0 ≤ (vd (ix1 e)).toInt ∧ (vd (ix1 e)).toInt < (N : Int)) (e : Fin E) :
    (concatenate ⟨2, ![E, 2]⟩ (1 : Fin 2) [⟨⟨2, ![E, 1]⟩, broadcastInDim ⟨2, ![E, 1]⟩ ![0] bc vd⟩,
        ⟨⟨2, ![E, 1]⟩, broadcastInDim ⟨2, ![E, 1]⟩ ![0] bc vs⟩] hc (ix2 e (0 : Fin 2))).toInt
      = ((nodeOf vd hd e).val : Int) := by
  rw [pair_col0 hc _ _ e]
  exact nodeOf_col bc vd hd e

/-- … and column 1 the second's. -/
theorem nodeOf_pair1 {E M : Nat} (bc : (⟨1, ![E]⟩ : Shape).BroadcastsInDim ⟨2, ![E, 1]⟩ ![0])
    (hc : Shape.Concatenates [(⟨2, ![E, 1]⟩ : Shape), ⟨2, ![E, 1]⟩] ⟨2, ![E, 2]⟩ (1 : Fin 2))
    (vd vs : IVec ⟨1, ![E]⟩ 32)
    (hs : ∀ e : Fin E, 0 ≤ (vs (ix1 e)).toInt ∧ (vs (ix1 e)).toInt < (M : Int)) (e : Fin E) :
    (concatenate ⟨2, ![E, 2]⟩ (1 : Fin 2) [⟨⟨2, ![E, 1]⟩, broadcastInDim ⟨2, ![E, 1]⟩ ![0] bc vd⟩,
        ⟨⟨2, ![E, 1]⟩, broadcastInDim ⟨2, ![E, 1]⟩ ![0] bc vs⟩] hc (ix2 e (1 : Fin 2))).toInt
      = ((nodeOf vs hs e).val : Int) := by
  rw [pair_col1 hc _ _ e]
  exact nodeOf_col bc vs hs e

/-! ## The endpoint arrays with the self loops appended -/

/-- An endpoint array in [0, 12288) with 0, 1, …, 12287 appended is in [0, 12288) at every position. -/
theorem withLoops_range
    (hc : Shape.Concatenates [(⟨1, ![393216]⟩ : Shape), ⟨1, ![12288]⟩] ⟨1, ![405504]⟩ (0 : Fin 1))
    (a : IVec ⟨1, ![393216]⟩ 32)
    (ha : ∀ e : Fin 393216, 0 ≤ (a (ix1 e)).toInt ∧ (a (ix1 e)).toInt < 12288) (e : Fin 405504) :
    0 ≤ (concatenate ⟨1, ![405504]⟩ (0 : Fin 1)
          [⟨⟨1, ![393216]⟩, a⟩, ⟨⟨1, ![12288]⟩, iotaInDim ⟨1, ![12288]⟩ 32 0⟩] hc (ix1 e)).toInt
      ∧ (concatenate ⟨1, ![405504]⟩ (0 : Fin 1)
          [⟨⟨1, ![393216]⟩, a⟩, ⟨⟨1, ![12288]⟩, iotaInDim ⟨1, ![12288]⟩ 32 0⟩] hc (ix1 e)).toInt < ((12288 : Nat) : Int) := by
  by_cases hk : e.val < 393216
  · rw [cat_left hc a _ e hk]
    exact ha ⟨e.val, hk⟩
  · have hkm : e.val - 393216 < 12288 := by have := e.isLt; omega
    rw [cat_right hc a _ e (not_lt.mp hk) hkm]
    show 0 ≤ (BitVec.ofNat 32 (e.val - 393216)).toInt ∧ (BitVec.ofNat 32 (e.val - 393216)).toInt < ((12288 : Nat) : Int)
    rw [StableHlo.Predicate.toInt_ofNat_small _ (by omega)]
    omega

/-- … so adding 12288 to its negative entries changes nothing: the wrapped array is the array. -/
theorem wrap_withLoops
    (hc : Shape.Concatenates [(⟨1, ![393216]⟩ : Shape), ⟨1, ![12288]⟩] ⟨1, ![405504]⟩ (0 : Fin 1))
    (a : IVec ⟨1, ![393216]⟩ 32)
    (ha : ∀ e : Fin 393216, 0 ≤ (a (ix1 e)).toInt ∧ (a (ix1 e)).toInt < 12288)
    (z k : IVec ⟨1, ![405504]⟩ 32) (hz : ∀ i, z i = 0#32) :
    select (cmpi .slt (concatenate ⟨1, ![405504]⟩ (0 : Fin 1)
          [⟨⟨1, ![393216]⟩, a⟩, ⟨⟨1, ![12288]⟩, iotaInDim ⟨1, ![12288]⟩ 32 0⟩] hc) z)
        (addi (concatenate ⟨1, ![405504]⟩ (0 : Fin 1)
          [⟨⟨1, ![393216]⟩, a⟩, ⟨⟨1, ![12288]⟩, iotaInDim ⟨1, ![12288]⟩ 32 0⟩] hc) k)
        (concatenate ⟨1, ![405504]⟩ (0 : Fin 1)
          [⟨⟨1, ![393216]⟩, a⟩, ⟨⟨1, ![12288]⟩, iotaInDim ⟨1, ![12288]⟩ 32 0⟩] hc)
      = concatenate ⟨1, ![405504]⟩ (0 : Fin 1)
          [⟨⟨1, ![393216]⟩, a⟩, ⟨⟨1, ![12288]⟩, iotaInDim ⟨1, ![12288]⟩ 32 0⟩] hc :=
  wrap_eq_self _ z k hz (fun i => by rw [eq_ix1 i]; exact (withLoops_range hc a ha (i 0)).1)

/-! ## The stated precondition read back -/

section Pre

variable [Cert.Pre_finite_inputs.Facts]

open Cert.Pre_finite_inputs

instance : Subsingleton S_.Idx := ⟨fun a b => funext fun d => d.elim0⟩

/-- The last part of the precondition's chain holds only if both endpoint arrays are in range. -/
theorem part3_range {F : FTy → Type} [FloatOps F] (a1 a2 : IVec S393216 32) (v48 : IVec S_ 1)
    (v49 v50 : FVec F S64 .f32) (h : fn_part3 (F := F) a1 a2 v48 v49 v50 = fun _ => 1#1) :
    (∀ e : Fin 393216, 0 ≤ (a1 (ix1 e)).toInt ∧ (a1 (ix1 e)).toInt < 12288)
      ∧ (∀ e : Fin 393216, 0 ≤ (a2 (ix1 e)).toInt ∧ (a2 (ix1 e)).toInt < 12288) := by
  have h0 := congrFun h ix0
  unfold fn_part3 at h0
  dsimp only at h0
  obtain ⟨h1, hdst⟩ := IntOp.andi_eq_one.1 h0
  obtain ⟨_, hsrc⟩ := IntOp.andi_eq_one.1 h1
  constructor
  · intro e
    have hh := Host.reduce_andi_all _ _ _ _ ix0 hsrc (ix1 e)
    obtain ⟨ha, hb⟩ := IntOp.andi_eq_one.1 hh
    exact word_range ha hb
  · intro e
    have hh := Host.reduce_andi_all _ _ _ _ ix0 hdst (ix1 e)
    obtain ⟨ha, hb⟩ := IntOp.andi_eq_one.1 hh
    exact word_range ha hb

/-- THE PRECONDITION BOUNDS THE ENDPOINTS: where it is all ones, every entry of the two endpoint arrays, read signed,
    is in [0, 12288). -/
theorem src_dst_range {F : FTy → Type} [FloatOps F] (a0 : FVec F S12288x500 .f32) (a1 a2 : IVec S393216 32)
    (a3 : FVec F S500x64 .f32) (a4 : FVec F S64 .f32) (a5 : FVec F S64x64 .f32) (a6 : FVec F S64 .f32)
    (a7 : FVec F S64x64 .f32) (a8 : FVec F S64 .f32) (a9 : FVec F S64x500 .f32) (a10 : FVec F S500 .f32)
    (a11 : FVec F S64x64 .f32) (a12 : FVec F S64 .f32)
    (h : fn (F := F) a0 a1 a2 a3 a4 a5 a6 a7 a8 a9 a10 a11 a12 = fun _ => 1#1) :
    (∀ e : Fin 393216, 0 ≤ (a1 (ix1 e)).toInt ∧ (a1 (ix1 e)).toInt < 12288)
      ∧ (∀ e : Fin 393216, 0 ≤ (a2 (ix1 e)).toInt ∧ (a2 (ix1 e)).toInt < 12288) := by
  unfold fn fn_part1 fn_part2 at h
  exact part3_range a1 a2 _ _ _ h

end Pre

end Cert.IndexRange

end
-- ==== Proof.HostGlue.lean ====
/-
  What the host stretches of the kernel program compute, as equations on the buffer contents after each stretch over an
  arbitrary entry valuation: the normalised dense adjacency (one chain of the printed operations, as a function of the two
  edge-index arrays), each layer's feature product and reshaped bias, the side-by-side products of the two decoders' first
  layers, the split of the third region's output, the zero-padded last weight and bias, and the final cut to 500 columns.
  Every equation is generic in the float instance; the index-level readings at the ideal values are in HostGlueIdx.
-/
import proofs.«420824_j61512521613989_2_alg».proof.Proof.Gen.KernelIdeal.Regions

set_option maxRecDepth 1088

noncomputable section

namespace Cert.KernelIdeal.Gen

open Idealize.ShloMosaic Idealize.ShloMosaic.TcCoe

variable {F : FTy → Type} [FloatOps F]

/-- Two shape-tagged pieces with equal arrays are equal (lets a rewriting pass enter the operand list of a concatenate). -/
theorem piece_congr {α : Type} (s : Shape) {x y : s.Idx → α} (h : x = y) :
    (⟨s, x⟩ : (s : Shape) × (s.Idx → α)) = ⟨s, y⟩ := h ▸ rfl

attribute [local congr] piece_congr

/-! ## The normalised adjacency as one chain of the printed operations

The edge lists with self loops, the degree, its inverse square root, the per-edge weight and the dense scatter, exactly
as the host operations before the first region print them, as functions of the two edge-index arrays. -/

/-- The source list followed by the self loops `0 … 12287`. -/
def srcSlTerm (src : Vec F S393216 .i32) : Vec F S405504 .i32 :=
  concatenate S405504 0 [⟨S393216, src⟩, ⟨S12288, (iotaInDim S12288 32 0 : Vec F S12288 .i32)⟩] concatenates_S393216_S12288_S405504_d0

/-- The destination list followed by the self loops. -/
def dstSlTerm (dst : Vec F S393216 .i32) : Vec F S405504 .i32 :=
  concatenate S405504 0 [⟨S393216, dst⟩, ⟨S12288, (iotaInDim S12288 32 0 : Vec F S12288 .i32)⟩] concatenates_S393216_S12288_S405504_d0

/-- A negative index moved up by the node count, any other left as it is. -/
def wrapTerm (x : Vec F S405504 .i32) : Vec F S405504 .i32 :=
  select (cmpi .slt x (broadcastInDim S405504 ![] bcast_S_S405504 (constantI S_ 32 0#32 : Vec F S_ .i32)))
    (addi x (broadcastInDim S405504 ![] bcast_S_S405504 (constantI S_ 32 12288#32 : Vec F S_ .i32))) x

/-- The in-degree with self loops: ones scattered at the destinations. -/
def degTerm (dst : Vec F S393216 .i32) : Vec F S12288 .f32 :=
  Host.scatterAdd scatter_S12288_S405504x1_S405504_n_0_0_1
    (broadcastInDim S12288 ![] bcast_S_S12288 (constant S_ .f32 0x00000000#32 : Vec F S_ .f32))
    (broadcastInDim S405504x1 ![0] bcast_S405504_S405504x1_0 (dstSlTerm dst))
    (broadcastInDim S405504 ![] bcast_S_S405504 (constant S_ .f32 0x3F800000#32 : Vec F S_ .f32))

/-- The inverse square root of the degree. -/
def disTerm (dst : Vec F S393216 .i32) : Vec F S12288 .f32 := Host.rsqrt (degTerm dst)

/-- The weight of each edge: the product of the two end points' inverse square root degrees. -/
def normTerm (src dst : Vec F S393216 .i32) : Vec F S405504 .f32 :=
  mulf
    (Host.gather gather_S12288_S405504x1_S405504_n_0_n_n_0_1_1 (disTerm dst)
      (broadcastInDim S405504x1 ![0] bcast_S405504_S405504x1_0 (wrapTerm (srcSlTerm src))))
    (Host.gather gather_S12288_S405504x1_S405504_n_0_n_n_0_1_1 (disTerm dst)
      (broadcastInDim S405504x1 ![0] bcast_S405504_S405504x1_0 (wrapTerm (dstSlTerm dst))))

/-- The scatter's index pairs: column 0 the destination, column 1 the source. -/
def adjIdxTerm (src dst : Vec F S393216 .i32) : Vec F S405504x2 .i32 :=
  concatenate S405504x2 1
    [⟨S405504x1, broadcastInDim S405504x1 ![0] bcast_S405504_S405504x1_0 (wrapTerm (dstSlTerm dst))⟩,
     ⟨S405504x1, broadcastInDim S405504x1 ![0] bcast_S405504_S405504x1_0 (wrapTerm (srcSlTerm src))⟩]
    concatenates_S405504x1_S405504x1_S405504x2_d1

/-- The dense weighted adjacency before its cast. -/
def adjF32Term (src dst : Vec F S393216 .i32) : Vec F S12288x12288 .f32 :=
  Host.scatterAdd scatter_S12288x12288_S405504x2_S405504_n_01_01_1
    (broadcastInDim S12288x12288 ![] bcast_S_S12288x12288 (constant S_ .f32 0x00000000#32 : Vec F S_ .f32))
    (adjIdxTerm src dst) (normTerm src dst)

/-- The dense weighted adjacency the regions read. -/
def adjTerm (src dst : Vec F S393216 .i32) : Vec F S12288x12288 .bf16 :=
  truncf .bf16 (adjF32Term src dst) bitsLt_bf16_f32

/-! ## The first stretch -/

set_option maxHeartbeats 1000000 in
theorem hostOps0_main_v38 (W₀ : Valuation τ sig (Elt F)) :
    (StableHlo.after hostOps0 W₀ (Proc.devRef .tc main_v38) : Vec F S12288x12288 .bf16)
      = adjTerm (W₀ (Proc.devRef .tc main_arg1)) (W₀ (Proc.devRef .tc main_arg2)) := by
  after_results_simp
  rfl

theorem hostOps0_main_v42 (W₀ : Valuation τ sig (Elt F)) :
    (StableHlo.after hostOps0 W₀ (Proc.devRef .tc main_v42) : Vec F S12288x64 .bf16)
      = truncf .bf16 (Host.dotGeneral dot_S12288x500_S500x64_S12288x64_1_0_0_1_n_n none
          (truncf .bf16 (W₀ (Proc.devRef .tc main_arg0) : Vec F S12288x500 .f32) bitsLt_bf16_f32)
          (truncf .bf16 (W₀ (Proc.devRef .tc main_arg3) : Vec F S500x64 .f32) bitsLt_bf16_f32)) bitsLt_bf16_f32 := by
  after_results_simp <;> rfl

theorem hostOps0_main_v43 (W₀ : Valuation τ sig (Elt F)) :
    (StableHlo.after hostOps0 W₀ (Proc.devRef .tc main_v43) : Vec F S1x64 .f32)
      = shapeCast S1x64 (W₀ (Proc.devRef .tc main_arg4) : Vec F S64 .f32) shapeCasts_S64_S1x64 := by
  after_results_simp <;> rfl

/-- What the first stretch does not write it leaves as it was. -/
theorem hostOps0_of (W₀ : Valuation τ sig (Elt F)) (r : Ref sig .tc) (h : r ∉ hostOps0_W) :
    StableHlo.after hostOps0 W₀ (Proc.devRef .tc r) = W₀ (Proc.devRef .tc r) :=
  StableHlo.after_of_writes_sub hostOps0 _ hostOps0_writes h

/-! ## The second stretch: the first layer's output times the second encoder weight -/

theorem hostOps1_main_v48 (W₀ : Valuation τ sig (Elt F)) :
    (StableHlo.after hostOps1 W₀ (Proc.devRef .tc main_v48) : Vec F S12288x64 .bf16)
      = truncf .bf16 (Host.dotGeneral dot_S12288x64_S64x64_S12288x64_1_0_0_1_n_n none
          (truncf .bf16 (W₀ (Proc.devRef .tc main_v44) : Vec F S12288x64 .f32) bitsLt_bf16_f32)
          (truncf .bf16 (W₀ (Proc.devRef .tc main_arg5) : Vec F S64x64 .f32) bitsLt_bf16_f32)) bitsLt_bf16_f32 := by
  after_results_simp <;> rfl

theorem hostOps1_main_v49 (W₀ : Valuation τ sig (Elt F)) :
    (StableHlo.after hostOps1 W₀ (Proc.devRef .tc main_v49) : Vec F S1x64 .f32)
      = shapeCast S1x64 (W₀ (Proc.devRef .tc main_arg6) : Vec F S64 .f32) shapeCasts_S64_S1x64 := by
  after_results_simp <;> rfl

/-- What the second stretch does not write it leaves as it was. -/
theorem hostOps1_of (W₀ : Valuation τ sig (Elt F)) (r : Ref sig .tc) (h : r ∉ hostOps1_W) :
    StableHlo.after hostOps1 W₀ (Proc.devRef .tc r) = W₀ (Proc.devRef .tc r) :=
  StableHlo.after_of_writes_sub hostOps1 _ hostOps1_writes h

/-! ## The third stretch: the embedding times the two decoders' first weights, side by side -/

theorem hostOps2_main_v58 (W₀ : Valuation τ sig (Elt F)) :
    (StableHlo.after hostOps2 W₀ (Proc.devRef .tc main_v58) : Vec F S12288x128 .bf16)
      = truncf .bf16 (concatenate S12288x128 1
          [⟨S12288x64, Host.dotGeneral dot_S12288x64_S64x64_S12288x64_1_0_0_1_n_n none
              (truncf .bf16 (W₀ (Proc.devRef .tc main_v50) : Vec F S12288x64 .f32) bitsLt_bf16_f32)
              (truncf .bf16 (W₀ (Proc.devRef .tc main_arg7) : Vec F S64x64 .f32) bitsLt_bf16_f32)⟩,
           ⟨S12288x64, Host.dotGeneral dot_S12288x64_S64x64_S12288x64_1_0_0_1_n_n none
              (truncf .bf16 (W₀ (Proc.devRef .tc main_v50) : Vec F S12288x64 .f32) bitsLt_bf16_f32)
              (truncf .bf16 (W₀ (Proc.devRef .tc main_arg11) : Vec F S64x64 .f32) bitsLt_bf16_f32)⟩]
          concatenates_S12288x64_S12288x64_S12288x128_d1) bitsLt_bf16_f32 := by
  after_results <;> rfl

theorem hostOps2_main_v60 (W₀ : Valuation τ sig (Elt F)) :
    (StableHlo.after hostOps2 W₀ (Proc.devRef .tc main_v60) : Vec F S1x128 .f32)
      = shapeCast S1x128 (concatenate S128 0
          [⟨S64, (W₀ (Proc.devRef .tc main_arg8) : Vec F S64 .f32)⟩, ⟨S64, (W₀ (Proc.devRef .tc main_arg12) : Vec F S64 .f32)⟩]
          concatenates_S64_S64_S128_d0) shapeCasts_S128_S1x128 := by
  after_results <;> rfl

theorem hostOps2_of (W₀ : Valuation τ sig (Elt F)) (r : Ref sig .tc) (h : r ∉ hostOps2_W) :
    StableHlo.after hostOps2 W₀ (Proc.devRef .tc r) = W₀ (Proc.devRef .tc r) :=
  StableHlo.after_of_writes_sub hostOps2 _ hostOps2_writes h

/-! ## The stretches between the third and the fourth region

The third region's output split into its two halves of 64 columns, the first half clamped below at zero; the attribute
decoder's second weight and bias padded with twelve zero columns; and the clamped half times the padded weight. -/

theorem hostOps3_main_v64 (W₀ : Valuation τ sig (Elt F)) :
    (StableHlo.after hostOps3 W₀ (Proc.devRef .tc main_v64) : Vec F S12288x64 .f32)
      = maximumf (extractStridedSlice S12288x64 ![0, 0] (W₀ (Proc.devRef .tc main_v61) : Vec F S12288x128 .f32) slices_S12288x128_S12288x64_0_0)
          (broadcastInDim S12288x64 ![] bcast_S_S12288x64 (constant S_ .f32 0x00000000#32 : Vec F S_ .f32)) := by
  after_results_simp <;> rfl

theorem hostOps3_main_v65 (W₀ : Valuation τ sig (Elt F)) :
    (StableHlo.after hostOps3 W₀ (Proc.devRef .tc main_v65) : Vec F S12288x64 .f32)
      = extractStridedSlice S12288x64 ![0, 64] (W₀ (Proc.devRef .tc main_v61) : Vec F S12288x128 .f32) slices_S12288x128_S12288x64_0_64 := by
  after_results_simp <;> rfl

theorem hostOps3_main_c_10 (W₀ : Valuation τ sig (Elt F)) :
    (StableHlo.after hostOps3 W₀ (Proc.devRef .tc main_c_10) : Vec F S_ .i32) = constantI S_ 32 0#32 := by
  after_results_simp <;> rfl

theorem hostOps3_of (W₀ : Valuation τ sig (Elt F)) (r : Ref sig .tc) (h : r ∉ hostOps3_W) :
    StableHlo.after hostOps3 W₀ (Proc.devRef .tc r) = W₀ (Proc.devRef .tc r) :=
  StableHlo.after_of_writes_sub hostOps3 _ hostOps3_writes h

theorem hostOps3_1_main_v66 (W₀ : Valuation τ sig (Elt F)) :
    (StableHlo.after hostOps3_1 W₀ (Proc.devRef .tc main_v66) : Vec F S64x512 .f32)
      = pad S64x512 ![0, 0] ![0, 12] ![0, 0] (W₀ (Proc.devRef .tc main_arg9) : Vec F S64x500 .f32)
          (sitofp .f32 (W₀ (Proc.devRef .tc main_c_10) : Vec F S_ .i32) : Vec F S_ .f32) pads_S64x500_S64x512_000_0120 h_S_ := by
  after_results_simp <;> rfl

theorem hostOps3_1_of (W₀ : Valuation τ sig (Elt F)) (r : Ref sig .tc) (h : r ∉ hostOps3_1_W) :
    StableHlo.after hostOps3_1 W₀ (Proc.devRef .tc r) = W₀ (Proc.devRef .tc r) :=
  StableHlo.after_of_writes_sub hostOps3_1 _ hostOps3_1_writes h

theorem hostOps3_2_main_c_11 (W₀ : Valuation τ sig (Elt F)) :
    (StableHlo.after hostOps3_2 W₀ (Proc.devRef .tc main_c_11) : Vec F S_ .i32) = constantI S_ 32 0#32 := by
  after_results_simp <;> rfl

theorem hostOps3_2_of (W₀ : Valuation τ sig (Elt F)) (r : Ref sig .tc) (h : r ∉ hostOps3_2_W) :
    StableHlo.after hostOps3_2 W₀ (Proc.devRef .tc r) = W₀ (Proc.devRef .tc r) :=
  StableHlo.after_of_writes_sub hostOps3_2 _ hostOps3_2_writes h

theorem hostOps3_3_main_v67 (W₀ : Valuation τ sig (Elt F)) :
    (StableHlo.after hostOps3_3 W₀ (Proc.devRef .tc main_v67) : Vec F S512 .f32)
      = pad S512 ![0] ![12] ![0] (W₀ (Proc.devRef .tc main_arg10) : Vec F S500 .f32)
          (sitofp .f32 (W₀ (Proc.devRef .tc main_c_11) : Vec F S_ .i32) : Vec F S_ .f32) pads_S500_S512_0120 h_S_ := by
  after_results_simp <;> rfl

theorem hostOps3_3_of (W₀ : Valuation τ sig (Elt F)) (r : Ref sig .tc) (h : r ∉ hostOps3_3_W) :
    StableHlo.after hostOps3_3 W₀ (Proc.devRef .tc r) = W₀ (Proc.devRef .tc r) :=
  StableHlo.after_of_writes_sub hostOps3_3 _ hostOps3_3_writes h

theorem hostOps3_4_main_v71 (W₀ : Valuation τ sig (Elt F)) :
    (StableHlo.after hostOps3_4 W₀ (Proc.devRef .tc main_v71) : Vec F S12288x512 .bf16)
      = truncf .bf16 (Host.dotGeneral dot_S12288x64_S64x512_S12288x512_1_0_0_1_n_n none
          (truncf .bf16 (W₀ (Proc.devRef .tc main_v64) : Vec F S12288x64 .f32) bitsLt_bf16_f32)
          (truncf .bf16 (W₀ (Proc.devRef .tc main_v66) : Vec F S64x512 .f32) bitsLt_bf16_f32)) bitsLt_bf16_f32 := by
  after_results_simp <;> rfl

theorem hostOps3_4_main_v72 (W₀ : Valuation τ sig (Elt F)) :
    (StableHlo.after hostOps3_4 W₀ (Proc.devRef .tc main_v72) : Vec F S1x512 .f32)
      = shapeCast S1x512 (W₀ (Proc.devRef .tc main_v67) : Vec F S512 .f32) shapeCasts_S512_S1x512 := by
  after_results_simp <;> rfl

theorem hostOps3_4_of (W₀ : Valuation τ sig (Elt F)) (r : Ref sig .tc) (h : r ∉ hostOps3_4_W) :
    StableHlo.after hostOps3_4 W₀ (Proc.devRef .tc r) = W₀ (Proc.devRef .tc r) :=
  StableHlo.after_of_writes_sub hostOps3_4 _ hostOps3_4_writes h

/-! ## The last stretch: the fourth region's output cut back to 500 columns, and the structure half cast -/

theorem hostOps4_main_v74 (W₀ : Valuation τ sig (Elt F)) :
    (StableHlo.after hostOps4 W₀ (Proc.devRef .tc main_v74) : Vec F S12288x500 .f32)
      = extractStridedSlice S12288x500 ![0, 0] (W₀ (Proc.devRef .tc main_v73) : Vec F S12288x512 .f32) slices_S12288x512_S12288x500_0_0 := by
  after_results_simp <;> rfl

theorem hostOps4_main_v75 (W₀ : Valuation τ sig (Elt F)) :
    (StableHlo.after hostOps4 W₀ (Proc.devRef .tc main_v75) : Vec F S12288x64 .bf16)
      = truncf .bf16 (W₀ (Proc.devRef .tc main_v65) : Vec F S12288x64 .f32) bitsLt_bf16_f32 := by
  after_results_simp <;> rfl

theorem hostOps4_of (W₀ : Valuation τ sig (Elt F)) (r : Ref sig .tc) (h : r ∉ hostOps4_W) :
    StableHlo.after hostOps4 W₀ (Proc.devRef .tc r) = W₀ (Proc.devRef .tc r) :=
  StableHlo.after_of_writes_sub hostOps4 _ hostOps4_writes h

end Cert.KernelIdeal.Gen

end
-- ==== Proof.LibConcatPair.lean ====
/-
  A concatenation of two equal-shaped pieces read at coordinates.

  `concatenate` of two rank-2 arrays of shape [n, c] along the rows is the first piece on rows below `n` and the second,
  `n` rows up, from there on; along the columns likewise; and of two rank-1 arrays of length `n` the same on the one
  axis. Stated over any extents (the result's extent `N` with `N = n + n` as a hypothesis, so that a literal result
  shape matches as it stands) and over the program's own shape relation `h`.
-/
import Idealize.ShloMosaic.Lib.Pipeline.Value
import Idealize.ShloMosaic.Lib.ValueIdx

noncomputable section

namespace Cert.Lib

open Idealize.ShloMosaic Idealize.ShloMosaic.ValueIdx

variable {α : Type}

/-- Two [n, c] pieces stacked along the rows, read at row `k` and column `l`. -/
theorem concat_rows_apply (N n c : Nat) (hN : N = n + n) (X Y : (⟨2, ![n, c]⟩ : Shape).Idx → α)
    (h : Shape.Concatenates [(⟨2, ![n, c]⟩ : Shape), ⟨2, ![n, c]⟩] ⟨2, ![N, c]⟩ (0 : Fin 2)) (k : Fin N) (l : Fin c) :
    concatenate ⟨2, ![N, c]⟩ (0 : Fin 2) [⟨⟨2, ![n, c]⟩, X⟩, ⟨⟨2, ![n, c]⟩, Y⟩] h (ix2 k l)
      = if hk : k.val < n then X (ix2 ⟨k.val, hk⟩ l) else Y (ix2 ⟨k.val - n, by have := k.isLt; omega⟩ l) := by
  by_cases hk : k.val < n
  · rw [dif_pos hk]
    exact concatenate_pair_apply_left (0 : Fin 2) X Y h (ix2 k l) rfl (ix2 ⟨k.val, hk⟩ l)
      (fun b => by match b with | ⟨0, _⟩ => rfl | ⟨1, _⟩ => rfl)
  · rw [dif_neg hk]
    exact concatenate_pair_apply_right (0 : Fin 2) X Y h (ix2 k l) rfl rfl (ix2 ⟨k.val - n, by have := k.isLt; omega⟩ l)
      (fun b hb => by match b with | ⟨0, _⟩ => exact absurd rfl hb | ⟨1, _⟩ => rfl)
      (by show k.val - n + n = k.val; omega)

/-- Two [n, c] pieces set side by side along the columns, read at row `k` and column `l`. -/
theorem concat_cols_apply (C n c : Nat) (hC : C = c + c) (X Y : (⟨2, ![n, c]⟩ : Shape).Idx → α)
    (h : Shape.Concatenates [(⟨2, ![n, c]⟩ : Shape), ⟨2, ![n, c]⟩] ⟨2, ![n, C]⟩ (1 : Fin 2)) (k : Fin n) (l : Fin C) :
    concatenate ⟨2, ![n, C]⟩ (1 : Fin 2) [⟨⟨2, ![n, c]⟩, X⟩, ⟨⟨2, ![n, c]⟩, Y⟩] h (ix2 k l)
      = if hl : l.val < c then X (ix2 k ⟨l.val, hl⟩) else Y (ix2 k ⟨l.val - c, by have := l.isLt; omega⟩) := by
  by_cases hl : l.val < c
  · rw [dif_pos hl]
    exact concatenate_pair_apply_left (1 : Fin 2) X Y h (ix2 k l) rfl (ix2 k ⟨l.val, hl⟩)
      (fun b => by match b with | ⟨0, _⟩ => rfl | ⟨1, _⟩ => rfl)
  · rw [dif_neg hl]
    exact concatenate_pair_apply_right (1 : Fin 2) X Y h (ix2 k l) rfl rfl (ix2 k ⟨l.val - c, by have := l.isLt; omega⟩)
      (fun b hb => by match b with | ⟨0, _⟩ => rfl | ⟨1, _⟩ => exact absurd rfl hb)
      (by show l.val - c + c = l.val; omega)

/-- Two length-`n` vectors joined end to end, read at position `k`. -/
theorem concat_vec_apply (N n : Nat) (hN : N = n + n) (X Y : (⟨1, ![n]⟩ : Shape).Idx → α)
    (h : Shape.Concatenates [(⟨1, ![n]⟩ : Shape), ⟨1, ![n]⟩] ⟨1, ![N]⟩ (0 : Fin 1)) (k : Fin N) :
    concatenate ⟨1, ![N]⟩ (0 : Fin 1) [⟨⟨1, ![n]⟩, X⟩, ⟨⟨1, ![n]⟩, Y⟩] h (ix1 k)
      = if hk : k.val < n then X (ix1 ⟨k.val, hk⟩) else Y (ix1 ⟨k.val - n, by have := k.isLt; omega⟩) := by
  by_cases hk : k.val < n
  · rw [dif_pos hk]
    exact concatenate_pair_apply_left (0 : Fin 1) X Y h (ix1 k) rfl (ix1 ⟨k.val, hk⟩)
      (fun b => by match b with | ⟨0, _⟩ => rfl)
  · rw [dif_neg hk]
    exact concatenate_pair_apply_right (0 : Fin 1) X Y h (ix1 k) rfl rfl (ix1 ⟨k.val - n, by have := k.isLt; omega⟩)
      (fun b hb => by match b with | ⟨0, _⟩ => exact absurd rfl hb)
      (by show k.val - n + n = k.val; omega)

end Cert.Lib

end
-- ==== Proof.HostGlueIdx.lean ====
/-
  Layout operations of the host stretches read at an index: a plain matrix product at the ideal values is the sum over the
  contracted coordinate of the products of the entries (the casts to and from the narrow format are the identity there), a
  bias reshaped to one row is the bias at the column, and two 64-column arrays (or two 64-entry vectors) set side by side
  split at column 64 into the first and the second.
-/
import proofs.«420824_j61512521613989_2_alg».proof.Proof.Gen.KernelIdeal
import proofs.«420824_j61512521613989_2_alg».proof.Proof.LibConcatPair
import Idealize.ShloMosaic.Lib.ValueIdx
import Idealize.ShloMosaic.Lib.ValueLayout
import Idealize.ShloMosaic.Lib.StackMember
import Idealize.ShloMosaic.PureOps.Ideal.Laws

set_option maxRecDepth 1088

noncomputable section

namespace Cert.KernelIdeal.Gen

open Idealize.ShloMosaic Idealize.ShloMosaic.TcCoe Idealize.ShloMosaic.ValueIdx
open scoped BigOperators

/-! ## Array-level readings -/

/-- A plain matrix product at the ideal values, read at an index: the sum over the contracted coordinate. -/
theorem dotPlain_apply {m k n : ℕ} {φ₁ φ₂ : FTy} (D : DotDims ⟨2, ![m, k]⟩ ⟨2, ![k, n]⟩ ⟨2, ![m, n]⟩)
    (hD : D = DotDims.plain m k n) (A : FVec Ideal ⟨2, ![m, k]⟩ φ₁) (B : FVec Ideal ⟨2, ![k, n]⟩ φ₂) (a : Fin m) (b : Fin n) :
    Host.dotGeneral D none A B (ix2 a b) = ∑ c : Fin k, A (ix2 a c) * B (ix2 c b) := by
  subst hD
  exact StackMember.dotGeneral_plain_apply none A B a b

/-- The same product with both operands and the result passed through the narrow format, which at the ideal values
    changes nothing. -/
theorem dotPlainCast_apply {m k n : ℕ} (D : DotDims ⟨2, ![m, k]⟩ ⟨2, ![k, n]⟩ ⟨2, ![m, n]⟩)
    (hD : D = DotDims.plain m k n) (A : FVec Ideal ⟨2, ![m, k]⟩ .f32) (B : FVec Ideal ⟨2, ![k, n]⟩ .f32)
    (h : FTy.bf16.bits < FTy.f32.bits) (a : Fin m) (b : Fin n) :
    (truncf .bf16 (Host.dotGeneral D none (truncf .bf16 A h) (truncf .bf16 B h)) h : FVec Ideal ⟨2, ![m, n]⟩ .bf16) (ix2 a b)
      = ∑ c : Fin k, A (ix2 a c) * B (ix2 c b) :=
  dotPlain_apply D hD (truncf .bf16 A h) (truncf .bf16 B h) a b

/-- At the ideal values the cast to the narrow format changes nothing. -/
theorem truncf_bf16_ideal {s : Shape} (x : FVec Ideal s .f32) (h : FTy.bf16.bits < FTy.f32.bits) :
    (truncf .bf16 x h : FVec Ideal s .bf16) = x := rfl

/-- A bias of 64 entries reshaped to one row, read at a column. -/
theorem reshape_S1x64_apply {α : Type} (b : S64.Idx → α) (h : S64.ShapeCasts S1x64) (u : Fin 1) (o : Fin 64) :
    shapeCast S1x64 b h (ix2 u o) = b (ix1 o) :=
  shapeCast_a_1a_apply b h u o

/-- A bias of 128 entries reshaped to one row, read at a column. -/
theorem reshape_S1x128_apply {α : Type} (b : S128.Idx → α) (h : S128.ShapeCasts S1x128) (u : Fin 1) (o : Fin 128) :
    shapeCast S1x128 b h (ix2 u o) = b (ix1 o) :=
  shapeCast_a_1a_apply b h u o

/-- Two 64-column arrays side by side: a column below 64 reads the first. -/
theorem concat_S12288x128_lo {α : Type} (a b : S12288x64.Idx → α)
    (h : Shape.Concatenates [S12288x64, S12288x64] S12288x128 1) (r : Fin 12288) (o : Fin 128) (ho : o.val < 64) :
    concatenate S12288x128 1 [⟨S12288x64, a⟩, ⟨S12288x64, b⟩] h (ix2 r o) = a (ix2 r ⟨o.val, ho⟩) := by
  rw [Cert.Lib.concat_cols_apply 128 12288 64 rfl a b h r o, dif_pos ho]

/-- Two 64-column arrays side by side: a column from 64 on reads the second, 64 columns down. -/
theorem concat_S12288x128_hi {α : Type} (a b : S12288x64.Idx → α)
    (h : Shape.Concatenates [S12288x64, S12288x64] S12288x128 1) (r : Fin 12288) (o : Fin 128) (ho : 64 ≤ o.val) :
    concatenate S12288x128 1 [⟨S12288x64, a⟩, ⟨S12288x64, b⟩] h (ix2 r o)
      = b (ix2 r ⟨o.val - 64, by have := o.isLt; omega⟩) := by
  rw [Cert.Lib.concat_cols_apply 128 12288 64 rfl a b h r o, dif_neg (by omega)]

/-- The same two halves named by a column of the half: column `o` of the first, column `64 + o` of the second. -/
theorem concat_S12288x128_left {α : Type} (a b : S12288x64.Idx → α)
    (h : Shape.Concatenates [S12288x64, S12288x64] S12288x128 1) (r : Fin 12288) (o : Fin 64) :
    concatenate S12288x128 1 [⟨S12288x64, a⟩, ⟨S12288x64, b⟩] h (ix2 r ⟨o.val, by have := o.isLt; omega⟩) = a (ix2 r o) :=
  concat_S12288x128_lo a b h r ⟨o.val, by have := o.isLt; omega⟩ o.isLt

theorem concat_S12288x128_right {α : Type} (a b : S12288x64.Idx → α)
    (h : Shape.Concatenates [S12288x64, S12288x64] S12288x128 1) (r : Fin 12288) (o : Fin 64) :
    concatenate S12288x128 1 [⟨S12288x64, a⟩, ⟨S12288x64, b⟩] h (ix2 r ⟨64 + o.val, by have := o.isLt; omega⟩) = b (ix2 r o) := by
  rw [concat_S12288x128_hi a b h r ⟨64 + o.val, by have := o.isLt; omega⟩ (by show 64 ≤ 64 + o.val; omega)]
  exact congrArg (fun c => b (ix2 r c)) (Fin.ext (by show 64 + o.val - 64 = o.val; omega))

/-- Two 64-entry vectors end to end: a position below 64 reads the first. -/
theorem concat_S128_lo {α : Type} (a b : S64.Idx → α) (h : Shape.Concatenates [S64, S64] S128 0) (o : Fin 128) (ho : o.val < 64) :
    concatenate S128 0 [⟨S64, a⟩, ⟨S64, b⟩] h (ix1 o) = a (ix1 ⟨o.val, ho⟩) := by
  rw [Cert.Lib.concat_vec_apply 128 64 rfl a b h o, dif_pos ho]

/-- Two 64-entry vectors end to end: a position from 64 on reads the second, 64 down. -/
theorem concat_S128_hi {α : Type} (a b : S64.Idx → α) (h : Shape.Concatenates [S64, S64] S128 0) (o : Fin 128) (ho : 64 ≤ o.val) :
    concatenate S128 0 [⟨S64, a⟩, ⟨S64, b⟩] h (ix1 o) = b (ix1 ⟨o.val - 64, by have := o.isLt; omega⟩) := by
  rw [Cert.Lib.concat_vec_apply 128 64 rfl a b h o, dif_neg (by omega)]

theorem concat_S128_left {α : Type} (a b : S64.Idx → α) (h : Shape.Concatenates [S64, S64] S128 0) (o : Fin 64) :
    concatenate S128 0 [⟨S64, a⟩, ⟨S64, b⟩] h (ix1 ⟨o.val, by have := o.isLt; omega⟩) = a (ix1 o) :=
  concat_S128_lo a b h ⟨o.val, by have := o.isLt; omega⟩ o.isLt

theorem concat_S128_right {α : Type} (a b : S64.Idx → α) (h : Shape.Concatenates [S64, S64] S128 0) (o : Fin 64) :
    concatenate S128 0 [⟨S64, a⟩, ⟨S64, b⟩] h (ix1 ⟨64 + o.val, by have := o.isLt; omega⟩) = b (ix1 o) := by
  rw [concat_S128_hi a b h ⟨64 + o.val, by have := o.isLt; omega⟩ (by show 64 ≤ 64 + o.val; omega)]
  exact congrArg (fun c => b (ix1 c)) (Fin.ext (by show 64 + o.val - 64 = o.val; omega))

end Cert.KernelIdeal.Gen

end
-- ==== Proof.Reg0Pay.lean ====
/-
  One grid step of the blocked product A·H + b, read at a single element.

  The accumulator block starts a row sweep at zero; each step adds the product of the current
  [2048,2048] block of A with the current [2048,64] block of H, whose (r, o) element is the sum over
  the block's 2048 inner positions of a(r, j) · h(j, o); the last step of a sweep adds the bias row
  and applies the layer's closing function. Over the extended reals every operation is exact, and the
  changes of float format are the identity.
-/
import proofs.«420824_j61512521613989_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-! ## The product of two blocks at an element -/

theorem lhs_pay0_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_pay0_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhs_pay0_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs_pay0_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The block product into a zero accumulator: element (r, o) is the sum over the inner position j of a(r, j) · h(j, o). -/
theorem mat0_apply (a : S2048x2048.Idx → EReal) (h : S2048x64.Idx → EReal) (r : Fin 2048) (o : Fin 64) :
    matmul (F := Ideal) (φ₁ := .bf16) (φ₂ := .bf16) dot_S2048x2048_S2048x64_S2048x64_1_0_0_1_n_n none a h (constant S2048x64 .f32 0x00000000#32) (ix2 r o)
      = ∑ j : Fin 2048, a (ix2 r j) * h (ix2 j o) := by
  simp only [matmul]
  rw [Ideal.matmul_constant_zero_apply, ← Equiv.sum_comp (ValueIdx.contrEquiv1 dot_S2048x2048_S2048x64_S2048x64_1_0_0_1_n_n 2048 rfl rfl).symm]
  refine Finset.sum_congr rfl fun k _ => ?_
  have hk := ValueIdx.contrEquiv1_symm_val dot_S2048x2048_S2048x64_S2048x64_1_0_0_1_n_n 2048 rfl rfl k
  have el : dot_S2048x2048_S2048x64_S2048x64_1_0_0_1_n_n.lhsIdx (ix2 r o) ((ValueIdx.contrEquiv1 dot_S2048x2048_S2048x64_S2048x64_1_0_0_1_n_n 2048 rfl rfl).symm k) = ix2 r k := funext fun x => Fin.ext (by
    match x with
    | ⟨0, _⟩ => exact lhs_pay0_0 _ _
    | ⟨1, _⟩ => exact (lhs_pay0_1 _ _).trans hk)
  have er : dot_S2048x2048_S2048x64_S2048x64_1_0_0_1_n_n.rhsIdx (ix2 r o) ((ValueIdx.contrEquiv1 dot_S2048x2048_S2048x64_S2048x64_1_0_0_1_n_n 2048 rfl rfl).symm k) = ix2 k o := funext fun x => Fin.ext (by
    match x with
    | ⟨0, _⟩ => exact (rhs_pay0_0 _ _).trans hk
    | ⟨1, _⟩ => exact rhs_pay0_1 _ _)
  rw [el, er]

/-! ## The three stored values at an element -/

/-- The value a row sweep starts from: zero everywhere. -/
theorem pay0_1_apply (idx : S2048x64.Idx) : k0_pay1 (F := Ideal) idx = 0 := by
  unfold k0_pay1
  simp only [shapeCast_self]
  exact Ideal.ofBits_zero_f32

/-- One accumulation step: the old value plus the block product, at element (r, o). -/
theorem pay0_2_apply (acc : S2048x64.Idx → EReal) (a : S2048x2048.Idx → EReal) (h : S2048x64.Idx → EReal) (r : Fin 2048) (o : Fin 64) :
    k0_pay2 (F := Ideal) acc a h (ix2 r o) = acc (ix2 r o) + ∑ j : Fin 2048, a (ix2 r j) * h (ix2 j o) := by
  unfold k0_pay2
  simp only [shapeCast_self]
  exact congrArg (acc (ix2 r o) + ·) (mat0_apply a h r o)

/-! ## The closing step of a row sweep -/

/-- The closing function of this layer at an element: the rectifier, the larger of the value and zero. -/
def epi0 (x : EReal) : EReal := max x (Ideal.ofBits .f32 0x00000000#32)

/-- The bias row spread over the block's rows reads, at (r, o), the bias at column o. -/
theorem bias0_apply (b : S1x64.Idx → EReal) (r : Fin 2048) (o : Fin 64) :
    broadcastTo S2048x64 b broadcasts_S1x64_S2048x64 (ix2 r o) = b (ix2 0 o) := by
  refine broadcastTo_apply b broadcasts_S1x64_S2048x64 (ix2 r o) (ix2 0 o) fun x => ?_
  match x with
  | ⟨0, _⟩ => show (0 : ℕ) = if (1 : ℕ) = 1 then 0 else _; rw [if_pos rfl]
  | ⟨1, _⟩ => show o.val = if (64 : ℕ) = 1 then 0 else o.val; rw [if_neg (by decide)]

/-- The closing step at element (r, o): the closing function of (accumulated sum + bias at column o). -/
theorem pay0_3_apply (acc : S2048x64.Idx → EReal) (b : S1x64.Idx → EReal) (r : Fin 2048) (o : Fin 64) :
    k0_pay3 (F := Ideal) acc b (ix2 r o) = epi0 (acc (ix2 r o) + b (ix2 0 o)) := by
  unfold k0_pay3 epi0
  simp only [shapeCast_self]
  exact congrArg (fun x => max (acc (ix2 r o) + x) (Ideal.ofBits .f32 0x00000000#32)) (bias0_apply b r o)

end Cert.KernelIdeal.Gen

end
-- ==== Proof.LibTileSum.lean ====
/-
  Sums over consecutive tiles, and a 0/1 factor in a product of extended reals.

  A kernel that sweeps an axis of T·S elements in S tiles of T produces a sum grouped by tile; a reference sums the
  axis in one go.  `sum_range_tiles` and `sum_fin_tiles` join the two groupings, in any commutative monoid (for the
  extended reals no finiteness is needed).  `indicator_mul` turns the product of a 0/1 factor with an extended real
  into a choice between that real and 0: what a one-hot matrix product contributes term by term.
-/
import Idealize.ShloMosaic.Lib.ValueIdx

noncomputable section

namespace Cert.Lib

/-- A 0/1 factor times an extended real x is x where the factor is 1 and 0 where it is 0 (0 · x = 0 also at ±∞). The
    two conditions may be spelt differently (`hpq`). -/
theorem indicator_mul {p q : Prop} [Decidable p] [Decidable q] (hpq : p ↔ q) (x : EReal) :
    (if p then (1 : EReal) else 0) * x = if q then x else 0 := by
  by_cases h : p
  · rw [if_pos h, if_pos (hpq.mp h), one_mul]
  · rw [if_neg h, if_neg (fun hq => h (hpq.mpr hq)), zero_mul]

/-- A sum over S consecutive stretches of T naturals each is the sum over the first T·S naturals. -/
theorem sum_range_tiles {M : Type*} [AddCommMonoid M] (T : ℕ) (H : ℕ → M) :
    ∀ S : ℕ, ∑ s ∈ Finset.range S, ∑ k ∈ Finset.range T, H (T * s + k) = ∑ e ∈ Finset.range (T * S), H e
  | 0 => by simp
  | S + 1 => by
    rw [Finset.sum_range_succ, sum_range_tiles T H S, Nat.mul_succ, Finset.sum_range_add]

/-- The same with the position inside a tile, and the position on the whole axis, as `Fin` indices: S tiles of T
    elements are the T·S elements. -/
theorem sum_fin_tiles {M : Type*} [AddCommMonoid M] (T S : ℕ) (H : ℕ → M) :
    ∑ s ∈ Finset.range S, ∑ k : Fin T, H (T * s + k.val) = ∑ e : Fin (T * S), H e.val := by
  rw [Fin.sum_univ_eq_sum_range H (T * S), ← sum_range_tiles T H S]
  refine Finset.sum_congr rfl fun s _ => ?_
  exact Fin.sum_univ_eq_sum_range (fun x => H (T * s + x)) T

end Cert.Lib

end
-- ==== Proof.Reg0Value.lean ====
/-
  The value of one graph-convolution region: the array its output window ends holding.

  The grid walks the row blocks i of A (2048 rows each) and, inside a row block, the six column blocks k of A
  together with the matching row blocks of H. The carried accumulator is reset at k = 0 and gains the block
  product at every k, so after the step (i, k) it holds, at (r, o), the sum over the first k + 1 column blocks of
  the 2048 products a(2048 i + r, 2048 s + j) · h(2048 s + j, o). At k = 5 the bias row is added, the closing
  function applied and the block written to rows 2048 i … 2048 i + 2047 of the result. Six tiles of 2048 inner
  positions are the 12288 inner positions of the full product, and the six row blocks cover the result; addition of
  extended reals is associative and commutative without any finiteness, so nothing is asked of the entries.
-/
import proofs.«420824_j61512521613989_2_alg».proof.Proof.Reg0
import proofs.«420824_j61512521613989_2_alg».proof.Proof.Reg0Pay
import proofs.«420824_j61512521613989_2_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row r, column o of the layer's dense form: the closing function of (the product A·H at (r, o) plus the bias at o). -/
def G0 (A : S12288x12288.Idx → EReal) (H : S12288x64.Idx → EReal) (B : S1x64.Idx → EReal) : S12288x64.Idx → EReal :=
  fun idx => epi0 ((∑ j : Fin 12288, A (ix2 (idx 0) j) * H (ix2 j (idx 1))) + B (ix2 0 (idx 1)))

/-! ## The arrays and the blocks, as functions into the extended reals -/

/-- The left factor A, [12288,12288]. -/
abbrev val0_A (c : Dev nD) : S12288x12288.Idx → EReal := V c (Pipeline.arrRef spec0 0)
/-- The right factor H, [12288,64]. -/
abbrev val0_H (c : Dev nD) : S12288x64.Idx → EReal := V c (Pipeline.arrRef spec0 1)
/-- The bias row, [1,64]. -/
abbrev val0_B (c : Dev nD) : S1x64.Idx → EReal := V c (Pipeline.arrRef spec0 2)

/-- A at a pair of naturals (zero outside the array): the form in which tiles of an axis are joined. -/
def val0_natA (c : Dev nD) (x y : ℕ) : EReal :=
  if h : x < 12288 ∧ y < 12288 then val0_A V c (ix2 ⟨x, h.1⟩ ⟨y, h.2⟩) else 0
/-- H at a natural row (zero outside the array) and a column. -/
def val0_natH (c : Dev nD) (y : ℕ) (o : Fin 64) : EReal :=
  if h : y < 12288 then val0_H V c (ix2 ⟨y, h⟩ o) else 0

/-- The block of A the step t reads. -/
abbrev blk0_A (c : Dev nD) (t : Fin cfg0.N) : S2048x2048.Idx → EReal := iblk0 V c 0 t
/-- The block of H the step t reads. -/
abbrev blk0_H (c : Dev nD) (t : Fin cfg0.N) : S2048x64.Idx → EReal := iblk0 V c 1 t
/-- The bias row as the step t reads it. -/
abbrev blk0_B (c : Dev nD) (t : Fin cfg0.N) : S1x64.Idx → EReal := iblk0 V c 2 t

/-- Where each window's block sits at step t = 6 i + k: A at block (i, k), H at block (k, 0), the bias at (0, 0),
    the result at block (i, 0). Decided over the 36 steps. -/
theorem blk0_facts : ∀ t : Fin cfg0.N,
    win0_0.index t (0 : Fin 2) = t.val / 6 ∧ win0_0.index t (1 : Fin 2) = t.val % 6
    ∧ win0_1.index t (0 : Fin 2) = t.val % 6 ∧ win0_1.index t (1 : Fin 2) = 0
    ∧ win0_2.index t (0 : Fin 2) = 0 ∧ win0_2.index t (1 : Fin 2) = 0
    ∧ win0_3.index t (0 : Fin 2) = t.val / 6 ∧ win0_3.index t (1 : Fin 2) = 0 :=
  (by decide +kernel : ∀ t : Fin grid0.N, _)

theorem blk0_A_apply (c : Dev nD) (t : Fin cfg0.N) (r j : Fin 2048) :
    blk0_A V c t (ix2 r j) = val0_natA V c (2048 * (t.val / 6) + r.val) (2048 * (t.val % 6) + j.val) := by
  have ht : t.val < 36 := t.isLt
  obtain ⟨e0, e1, -⟩ := blk0_facts t
  unfold val0_natA
  rw [dif_pos ⟨by omega, by omega⟩]
  unfold blk0_A val0_A iblk0
  rw [View.read_apply]
  show V c (Pipeline.arrRef spec0 0) _ = V c (Pipeline.arrRef spec0 0) _
  congr 1
  funext a
  apply Fin.ext
  match a with
  | ⟨0, _⟩ => show win0_0.index t (0 : Fin 2) * 2048 + 1 * r.val = 2048 * (t.val / 6) + r.val; rw [e0]; omega
  | ⟨1, _⟩ => show win0_0.index t (1 : Fin 2) * 2048 + 1 * j.val = 2048 * (t.val % 6) + j.val; rw [e1]; omega

theorem blk0_H_apply (c : Dev nD) (t : Fin cfg0.N) (j : Fin 2048) (o : Fin 64) :
    blk0_H V c t (ix2 j o) = val0_natH V c (2048 * (t.val % 6) + j.val) o := by
  have ht : t.val < 36 := t.isLt
  obtain ⟨-, -, e2, e3, -⟩ := blk0_facts t
  unfold val0_natH
  rw [dif_pos (by omega)]
  unfold blk0_H val0_H iblk0
  rw [View.read_apply]
  show V c (Pipeline.arrRef spec0 1) _ = V c (Pipeline.arrRef spec0 1) _
  congr 1
  funext a
  apply Fin.ext
  match a with
  | ⟨0, _⟩ => show win0_1.index t (0 : Fin 2) * 2048 + 1 * j.val = 2048 * (t.val % 6) + j.val; rw [e2]; omega
  | ⟨1, _⟩ => show win0_1.index t (1 : Fin 2) * 64 + 1 * o.val = o.val; rw [e3]; omega

theorem blk0_B_apply (c : Dev nD) (t : Fin cfg0.N) (o : Fin 64) :
    blk0_B V c t (ix2 0 o) = val0_B V c (ix2 0 o) := by
  obtain ⟨-, -, -, -, e4, e5, -⟩ := blk0_facts t
  unfold blk0_B val0_B iblk0
  rw [View.read_apply]
  show V c (Pipeline.arrRef spec0 2) _ = V c (Pipeline.arrRef spec0 2) _
  congr 1
  funext a
  apply Fin.ext
  match a with
  | ⟨0, _⟩ => show win0_2.index t (0 : Fin 2) * 1 + 1 * 0 = 0; rw [e4]
  | ⟨1, _⟩ => show win0_2.index t (1 : Fin 2) * 64 + 1 * o.val = o.val; rw [e5]; omega

/-! ## The accumulator after a step -/

/-- What step n adds at (r, o): the product of its block of A with its block of H there. -/
def acc0_M (c : Dev nD) (n : ℕ) : S2048x64.Idx → EReal := fun idx =>
  ∑ j : Fin 2048, val0_natA V c (2048 * (n / 6) + (idx 0).val) (2048 * (n % 6) + j.val) * val0_natH V c (2048 * (n % 6) + j.val) (idx 1)

/-- After step t = 6 i + k the accumulator holds, at each element, the sum of what the steps 6 i … 6 i + k added. -/
theorem acc0_apply (c : Dev nD) (t : Fin cfg0.N) (idx : S2048x64.Idx) :
    acc0 V c t.val t.isLt idx = 0 + ∑ s ∈ Finset.range (t.val % 6 + 1), acc0_M V c (6 * (t.val / 6) + s) idx := by
  have h' : 6 * (t.val / 6) + t.val % 6 < cfg0.N := by rw [Nat.div_add_mod]; exact t.isLt
  rw [Pipeline.eq_accAt_of_mod (acc0 V c) 6
    (fun n h => k0_pay2 (F := Ideal) (k0_pay1 (F := Ideal)) (blk0_A V c ⟨n, h⟩) (blk0_H V c ⟨n, h⟩))
    (fun n h x => k0_pay2 (F := Ideal) x (blk0_A V c ⟨n, h⟩) (blk0_H V c ⟨n, h⟩))
    (fun n h hn => acc0_reset V c ⟨n, h⟩ hn)
    (fun n h hn => acc0_step V c ⟨n + 1, h⟩ hn)
    (by decide) t.val t.isLt h']
  refine Pipeline.accAt_add_apply _ _ (fun _ => 0) (acc0_M V c) (6 * (t.val / 6)) 5 ?_ ?_ (t.val % 6) (by omega) h' idx
  · intro h i
    obtain ⟨r, o, rfl⟩ : ∃ (r : Fin 2048) (o : Fin 64), i = ix2 r o := ⟨i 0, i 1, eq_ix2 i⟩
    refine (pay0_2_apply (k0_pay1 (F := Ideal)) (blk0_A V c ⟨6 * (t.val / 6), h⟩) (blk0_H V c ⟨6 * (t.val / 6), h⟩) r o).trans ?_
    rw [pay0_1_apply]
    refine congrArg (0 + ·) (Finset.sum_congr rfl fun j _ => ?_)
    rw [blk0_A_apply, blk0_H_apply]
  · intro n h x i _ _
    obtain ⟨r, o, rfl⟩ : ∃ (r : Fin 2048) (o : Fin 64), i = ix2 r o := ⟨i 0, i 1, eq_ix2 i⟩
    refine (pay0_2_apply x (blk0_A V c ⟨n, h⟩) (blk0_H V c ⟨n, h⟩) r o).trans ?_
    refine congrArg (x (ix2 r o) + ·) (Finset.sum_congr rfl fun j _ => ?_)
    rw [blk0_A_apply, blk0_H_apply]

/-- At the last step of row block i (k = 5) the accumulator holds the full product's element: the six tiles of
    2048 inner positions are the 12288 inner positions. -/
theorem acc0_last (c : Dev nD) (t : Fin cfg0.N) (h5 : t.val % 6 = 5) (r : Fin 2048) (o : Fin 64)
    (hR : 2048 * (t.val / 6) + r.val < 12288) :
    acc0 V c t.val t.isLt (ix2 r o)
      = ∑ j : Fin 12288, val0_A V c (ix2 ⟨2048 * (t.val / 6) + r.val, hR⟩ j) * val0_H V c (ix2 j o) := by
  rw [acc0_apply, zero_add, h5]
  have e : ∀ s ∈ Finset.range (5 + 1), acc0_M V c (6 * (t.val / 6) + s) (ix2 r o)
      = ∑ j : Fin 2048, (fun y => val0_natA V c (2048 * (t.val / 6) + r.val) y * val0_natH V c y o) (2048 * s + j.val) := by
    intro s hs
    have hs' : s < 6 := Finset.mem_range.mp hs
    unfold acc0_M
    rw [show (6 * (t.val / 6) + s) / 6 = t.val / 6 by omega, show (6 * (t.val / 6) + s) % 6 = s by omega]
  rw [Finset.sum_congr rfl e]
  rw [Cert.Lib.sum_fin_tiles 2048 6 (fun y => val0_natA V c (2048 * (t.val / 6) + r.val) y * val0_natH V c y o)]
  show ∑ j : Fin 12288, _ = _
  refine Finset.sum_congr rfl fun j _ => ?_
  unfold val0_natA val0_natH
  rw [dif_pos ⟨hR, j.isLt⟩, dif_pos j.isLt]

/-! ## What a row block's last step writes, and the result array -/

/-- The closing step at (r, o) of row block i is the layer's element (2048 i + r, o). -/
theorem flushed0_val (c : Dev nD) (t : Fin cfg0.N) (h5 : t.val % 6 = 5) (r : Fin 2048) (o : Fin 64)
    (hR : 2048 * (t.val / 6) + r.val < 12288) :
    k0_pay3 (F := Ideal) (acc0 V c t.val t.isLt) (blk0_B V c t) (ix2 r o)
      = G0 (val0_A V c) (val0_H V c) (val0_B V c) (ix2 ⟨2048 * (t.val / 6) + r.val, hR⟩ o) := by
  refine (pay0_3_apply (acc0 V c t.val t.isLt) (blk0_B V c t) r o).trans ?_
  rw [acc0_last V c t h5 r o hR, blk0_B_apply]
  rfl

/-- What the write-back at the last step of a row block writes is that block of the layer's dense form. -/
theorem flushed0_eq (c : Dev nD) (t : Fin cfg0.N) (hf : (cfg0.win 3).flush t = true) :
    (dat0 (F := Ideal) V c).flushed 3 t
      = ((cfg0.win 3).blk t).view.read (Elt Ideal) (G0 (val0_A V c) (val0_H V c) (val0_B V c)) := by
  have h5 : t.val % 6 = 5 := (flush0_3 t).mp hf
  have ht : t.val < 36 := t.isLt
  obtain ⟨-, -, -, -, -, -, e6, e7⟩ := blk0_facts t
  show (cfg0.win 3).cut (grid0.coords t) ((dat0 (F := Ideal) V c).after 3 t) = _
  rw [after0_3 V c t h5]
  funext y
  obtain ⟨r, o, rfl⟩ : ∃ (r : Fin 2048) (o : Fin 64), (y : S2048x64.Idx) = ix2 r o := ⟨y 0, y 1, eq_ix2 (n0 := 2048) (n1 := 64) y⟩
  have hR : 2048 * (t.val / 6) + r.val < 12288 := by omega
  rw [View.read_apply]
  show k0_pay3 (F := Ideal) (acc0 V c t.val t.isLt) (blk0_B V c t) (ix2 r o) = G0 (val0_A V c) (val0_H V c) (val0_B V c) _
  rw [flushed0_val V c t h5 r o hR]
  congr 1
  funext a
  apply Fin.ext
  match a with
  | ⟨0, _⟩ => show 2048 * (t.val / 6) + r.val = win0_3.index t (0 : Fin 2) * 2048 + 1 * r.val; rw [e6]; omega
  | ⟨1, _⟩ => show o.val = win0_3.index t (1 : Fin 2) * 64 + 1 * o.val; rw [e7]; omega

/-- An element of the result lies in the block written at step t iff each coordinate lies in the block's range. -/
theorem rows0_mem (t : Fin cfg0.N) (i : S12288x64.Idx) :
    i ∈ ((cfg0.win 3).blk t).view.set ↔ ∀ a : Fin 2, win0_3.index t a * S2048x64.size a ≤ (i a).val ∧ (i a).val < win0_3.index t a * S2048x64.size a + S2048x64.size a := by
  show i ∈ ((View.whole (Pipeline.arrRef spec0 3)).slice (win0_3.rect t)).set ↔ _
  rw [View.set_slice_whole, Rect.mem_set_unit]
  exact Iff.rfl

/-- Every row of the result lies in the block some row block's last step writes: row x in that of i = x / 2048. -/
theorem rows0_cover (i : S12288x64.Idx) :
    ∃ t : Fin cfg0.N, (cfg0.win 3).flush t = true ∧ i ∈ ((cfg0.win 3).blk t).view.set := by
  have hi : (i 0).val < 12288 := (i 0).isLt
  have ho : (i 1).val < 64 := (i 1).isLt
  have hlt : 6 * ((i 0).val / 2048) + 5 < cfg0.N := by show _ < 36; omega
  obtain ⟨-, -, -, -, -, -, e6, e7⟩ := blk0_facts ⟨6 * ((i 0).val / 2048) + 5, hlt⟩
  refine ⟨⟨6 * ((i 0).val / 2048) + 5, hlt⟩, (flush0_3 _).mpr (by show (6 * ((i 0).val / 2048) + 5) % 6 = 5; omega), ?_⟩
  rw [rows0_mem]
  intro a
  match a with
  | ⟨0, _⟩ =>
    show win0_3.index _ (0 : Fin 2) * 2048 ≤ (i 0).val ∧ (i 0).val < win0_3.index _ (0 : Fin 2) * 2048 + 2048
    rw [e6]; dsimp only; omega
  | ⟨1, _⟩ =>
    show win0_3.index _ (1 : Fin 2) * 64 ≤ (i 1).val ∧ (i 1).val < win0_3.index _ (1 : Fin 2) * 64 + 64
    rw [e7]; omega

/-- THE REGION'S VALUE: its result array ends holding the layer's dense form of the three arrays it reads. -/
theorem region0_value (c : Dev nD) :
    (dat0 (F := Ideal) V c).arrAt 3 cfg0.N
      = G0 (V c (Pipeline.arrRef spec0 0)) (V c (Pipeline.arrRef spec0 1)) (V c (Pipeline.arrRef spec0 2)) :=
  (dat0 (F := Ideal) V c).arrAt_eq_of_cover 3 (G0 (val0_A V c) (val0_H V c) (val0_B V c))
    (fun t hf => flushed0_eq V c t hf) rows0_cover

end Cert.KernelIdeal.Gen

end
-- ==== Proof.Reg1Pay.lean ====
/-
  One grid step of the blocked product A·H + b, read at a single element.

  The accumulator block starts a row sweep at zero; each step adds the product of the current
  [2048,2048] block of A with the current [2048,64] block of H, whose (r, o) element is the sum over
  the block's 2048 inner positions of a(r, j) · h(j, o); the last step of a sweep adds the bias row
  and applies the layer's closing function. Over the extended reals every operation is exact, and the
  changes of float format are the identity.
-/
import proofs.«420824_j61512521613989_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-! ## The product of two blocks at an element -/

theorem lhs_pay1_0 (i : S2048x64.Idx) (q : dot_S2048x2048_S2048x64_S2048x64_1_0_0_1_n_n.contr.Idx) :
    (dot_S2048x2048_S2048x64_S2048x64_1_0_0_1_n_n.lhsIdx i q 0).val = (i 0).val := by
  unfold DotDims.lhsIdx
  rw [dif_neg (show ¬(0 : Fin S2048x2048.rank) ∈ dot_S2048x2048_S2048x64_S2048x64_1_0_0_1_n_n.lhsBatch by decide), dif_pos (show (0 : Fin S2048x2048.rank) ∈ dot_S2048x2048_S2048x64_S2048x64_1_0_0_1_n_n.lhsNonContracting by decide)]
  rfl
theorem lhs_pay1_1 (i : S2048x64.Idx) (q : dot_S2048x2048_S2048x64_S2048x64_1_0_0_1_n_n.contr.Idx) :
    (dot_S2048x2048_S2048x64_S2048x64_1_0_0_1_n_n.lhsIdx i q 1).val = (q ⟨0, by decide⟩).val :=
  dot_S2048x2048_S2048x64_S2048x64_1_0_0_1_n_n.lhsIdx_val_of_single rfl i q
theorem rhs_pay1_0 (i : S2048x64.Idx) (q : dot_S2048x2048_S2048x64_S2048x64_1_0_0_1_n_n.contr.Idx) :
    (dot_S2048x2048_S2048x64_S2048x64_1_0_0_1_n_n.rhsIdx i q 0).val = (q ⟨0, by decide⟩).val :=
  dot_S2048x2048_S2048x64_S2048x64_1_0_0_1_n_n.rhsIdx_val_of_single rfl i q
theorem rhs_pay1_1 (i : S2048x64.Idx) (q : dot_S2048x2048_S2048x64_S2048x64_1_0_0_1_n_n.contr.Idx) :
    (dot_S2048x2048_S2048x64_S2048x64_1_0_0_1_n_n.rhsIdx i q 1).val = (i 1).val := by
  unfold DotDims.rhsIdx
  rw [dif_neg (show ¬(1 : Fin S2048x64.rank) ∈ dot_S2048x2048_S2048x64_S2048x64_1_0_0_1_n_n.rhsBatch by decide), dif_pos (show (1 : Fin S2048x64.rank) ∈ dot_S2048x2048_S2048x64_S2048x64_1_0_0_1_n_n.rhsNonContracting by decide)]
  rfl

/-- The block product into a zero accumulator: element (r, o) is the sum over the inner position j of a(r, j) · h(j, o). -/
theorem mat1_apply (a : S2048x2048.Idx → EReal) (h : S2048x64.Idx → EReal) (r : Fin 2048) (o : Fin 64) :
    matmul (F := Ideal) (φ₁ := .bf16) (φ₂ := .bf16) dot_S2048x2048_S2048x64_S2048x64_1_0_0_1_n_n none a h (constant S2048x64 .f32 0x00000000#32) (ix2 r o)
      = ∑ j : Fin 2048, a (ix2 r j) * h (ix2 j o) := by
  simp only [matmul]
  rw [Ideal.matmul_constant_zero_apply, ← Equiv.sum_comp (ValueIdx.contrEquiv1 dot_S2048x2048_S2048x64_S2048x64_1_0_0_1_n_n 2048 rfl rfl).symm]
  refine Finset.sum_congr rfl fun k _ => ?_
  have hk := ValueIdx.contrEquiv1_symm_val dot_S2048x2048_S2048x64_S2048x64_1_0_0_1_n_n 2048 rfl rfl k
  have el : dot_S2048x2048_S2048x64_S2048x64_1_0_0_1_n_n.lhsIdx (ix2 r o) ((ValueIdx.contrEquiv1 dot_S2048x2048_S2048x64_S2048x64_1_0_0_1_n_n 2048 rfl rfl).symm k) = ix2 r k := funext fun x => Fin.ext (by
    match x with
    | ⟨0, _⟩ => exact lhs_pay1_0 _ _
    | ⟨1, _⟩ => exact (lhs_pay1_1 _ _).trans hk)
  have er : dot_S2048x2048_S2048x64_S2048x64_1_0_0_1_n_n.rhsIdx (ix2 r o) ((ValueIdx.contrEquiv1 dot_S2048x2048_S2048x64_S2048x64_1_0_0_1_n_n 2048 rfl rfl).symm k) = ix2 k o := funext fun x => Fin.ext (by
    match x with
    | ⟨0, _⟩ => exact (rhs_pay1_0 _ _).trans hk
    | ⟨1, _⟩ => exact rhs_pay1_1 _ _)
  rw [el, er]

/-! ## The three stored values at an element -/

/-- The value a row sweep starts from: zero everywhere. -/
theorem pay1_1_apply (idx : S2048x64.Idx) : k1_pay1 (F := Ideal) idx = 0 := by
  unfold k1_pay1
  simp only [shapeCast_self]
  exact Ideal.ofBits_zero_f32

/-- One accumulation step: the old value plus the block product, at element (r, o). -/
theorem pay1_2_apply (acc : S2048x64.Idx → EReal) (a : S2048x2048.Idx → EReal) (h : S2048x64.Idx → EReal) (r : Fin 2048) (o : Fin 64) :
    k1_pay2 (F := Ideal) acc a h (ix2 r o) = acc (ix2 r o) + ∑ j : Fin 2048, a (ix2 r j) * h (ix2 j o) := by
  unfold k1_pay2
  simp only [shapeCast_self]
  exact congrArg (acc (ix2 r o) + ·) (mat1_apply a h r o)

/-! ## The closing step of a row sweep -/

/-- The closing function of this layer at an element: none, the value itself. -/
def epi1 (x : EReal) : EReal := x

/-- The bias row spread over the block's rows reads, at (r, o), the bias at column o. -/
theorem bias1_apply (b : S1x64.Idx → EReal) (r : Fin 2048) (o : Fin 64) :
    broadcastTo S2048x64 b broadcasts_S1x64_S2048x64 (ix2 r o) = b (ix2 0 o) := by
  refine broadcastTo_apply b broadcasts_S1x64_S2048x64 (ix2 r o) (ix2 0 o) fun x => ?_
  match x with
  | ⟨0, _⟩ => show (0 : ℕ) = if (1 : ℕ) = 1 then 0 else _; rw [if_pos rfl]
  | ⟨1, _⟩ => show o.val = if (64 : ℕ) = 1 then 0 else o.val; rw [if_neg (by decide)]

/-- The closing step at element (r, o): the closing function of (accumulated sum + bias at column o). -/
theorem pay1_3_apply (acc : S2048x64.Idx → EReal) (b : S1x64.Idx → EReal) (r : Fin 2048) (o : Fin 64) :
    k1_pay3 (F := Ideal) acc b (ix2 r o) = epi1 (acc (ix2 r o) + b (ix2 0 o)) := by
  unfold k1_pay3 epi1
  simp only [shapeCast_self]
  exact congrArg (fun x => acc (ix2 r o) + x) (bias1_apply b r o)

end Cert.KernelIdeal.Gen

end
-- ==== Proof.Reg1Value.lean ====
/-
  The value of one graph-convolution region: the array its output window ends holding.

  The grid walks the row blocks i of A (2048 rows each) and, inside a row block, the six column blocks k of A
  together with the matching row blocks of H. The carried accumulator is reset at k = 0 and gains the block
  product at every k, so after the step (i, k) it holds, at (r, o), the sum over the first k + 1 column blocks of
  the 2048 products a(2048 i + r, 2048 s + j) · h(2048 s + j, o). At k = 5 the bias row is added, the closing
  function applied and the block written to rows 2048 i … 2048 i + 2047 of the result. Six tiles of 2048 inner
  positions are the 12288 inner positions of the full product, and the six row blocks cover the result; addition of
  extended reals is associative and commutative without any finiteness, so nothing is asked of the entries.
-/
import proofs.«420824_j61512521613989_2_alg».proof.Proof.Reg1
import proofs.«420824_j61512521613989_2_alg».proof.Proof.Reg1Pay
import proofs.«420824_j61512521613989_2_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row r, column o of the layer's dense form: the closing function of (the product A·H at (r, o) plus the bias at o). -/
def G1 (A : S12288x12288.Idx → EReal) (H : S12288x64.Idx → EReal) (B : S1x64.Idx → EReal) : S12288x64.Idx → EReal :=
  fun idx => epi1 ((∑ j : Fin 12288, A (ix2 (idx 0) j) * H (ix2 j (idx 1))) + B (ix2 0 (idx 1)))

/-! ## The arrays and the blocks, as functions into the extended reals -/

/-- The left factor A, [12288,12288]. -/
abbrev val1_A (c : Dev nD) : S12288x12288.Idx → EReal := V c (Pipeline.arrRef spec1 0)
/-- The right factor H, [12288,64]. -/
abbrev val1_H (c : Dev nD) : S12288x64.Idx → EReal := V c (Pipeline.arrRef spec1 1)
/-- The bias row, [1,64]. -/
abbrev val1_B (c : Dev nD) : S1x64.Idx → EReal := V c (Pipeline.arrRef spec1 2)

/-- A at a pair of naturals (zero outside the array): the form in which tiles of an axis are joined. -/
def val1_natA (c : Dev nD) (x y : ℕ) : EReal :=
  if h : x < 12288 ∧ y < 12288 then val1_A V c (ix2 ⟨x, h.1⟩ ⟨y, h.2⟩) else 0
/-- H at a natural row (zero outside the array) and a column. -/
def val1_natH (c : Dev nD) (y : ℕ) (o : Fin 64) : EReal :=
  if h : y < 12288 then val1_H V c (ix2 ⟨y, h⟩ o) else 0

/-- The block of A the step t reads. -/
abbrev blk1_A (c : Dev nD) (t : Fin cfg1.N) : S2048x2048.Idx → EReal := iblk1 V c 0 t
/-- The block of H the step t reads. -/
abbrev blk1_H (c : Dev nD) (t : Fin cfg1.N) : S2048x64.Idx → EReal := iblk1 V c 1 t
/-- The bias row as the step t reads it. -/
abbrev blk1_B (c : Dev nD) (t : Fin cfg1.N) : S1x64.Idx → EReal := iblk1 V c 2 t

/-- Where each window's block sits at step t = 6 i + k: A at block (i, k), H at block (k, 0), the bias at (0, 0),
    the result at block (i, 0). Decided over the 36 steps. -/
theorem blk1_facts : ∀ t : Fin cfg1.N,
    win1_0.index t (0 : Fin 2) = t.val / 6 ∧ win1_0.index t (1 : Fin 2) = t.val % 6
    ∧ win1_1.index t (0 : Fin 2) = t.val % 6 ∧ win1_1.index t (1 : Fin 2) = 0
    ∧ win1_2.index t (0 : Fin 2) = 0 ∧ win1_2.index t (1 : Fin 2) = 0
    ∧ win1_3.index t (0 : Fin 2) = t.val / 6 ∧ win1_3.index t (1 : Fin 2) = 0 :=
  (by decide +kernel : ∀ t : Fin grid1.N, _)

theorem blk1_A_apply (c : Dev nD) (t : Fin cfg1.N) (r j : Fin 2048) :
    blk1_A V c t (ix2 r j) = val1_natA V c (2048 * (t.val / 6) + r.val) (2048 * (t.val % 6) + j.val) := by
  have ht : t.val < 36 := t.isLt
  obtain ⟨e0, e1, -⟩ := blk1_facts t
  unfold val1_natA
  rw [dif_pos ⟨by omega, by omega⟩]
  unfold blk1_A val1_A iblk1
  rw [View.read_apply]
  show V c (Pipeline.arrRef spec1 0) _ = V c (Pipeline.arrRef spec1 0) _
  congr 1
  funext a
  apply Fin.ext
  match a with
  | ⟨0, _⟩ => show win1_0.index t (0 : Fin 2) * 2048 + 1 * r.val = 2048 * (t.val / 6) + r.val; rw [e0]; omega
  | ⟨1, _⟩ => show win1_0.index t (1 : Fin 2) * 2048 + 1 * j.val = 2048 * (t.val % 6) + j.val; rw [e1]; omega

theorem blk1_H_apply (c : Dev nD) (t : Fin cfg1.N) (j : Fin 2048) (o : Fin 64) :
    blk1_H V c t (ix2 j o) = val1_natH V c (2048 * (t.val % 6) + j.val) o := by
  have ht : t.val < 36 := t.isLt
  obtain ⟨-, -, e2, e3, -⟩ := blk1_facts t
  unfold val1_natH
  rw [dif_pos (by omega)]
  unfold blk1_H val1_H iblk1
  rw [View.read_apply]
  show V c (Pipeline.arrRef spec1 1) _ = V c (Pipeline.arrRef spec1 1) _
  congr 1
  funext a
  apply Fin.ext
  match a with
  | ⟨0, _⟩ => show win1_1.index t (0 : Fin 2) * 2048 + 1 * j.val = 2048 * (t.val % 6) + j.val; rw [e2]; omega
  | ⟨1, _⟩ => show win1_1.index t (1 : Fin 2) * 64 + 1 * o.val = o.val; rw [e3]; omega

theorem blk1_B_apply (c : Dev nD) (t : Fin cfg1.N) (o : Fin 64) :
    blk1_B V c t (ix2 0 o) = val1_B V c (ix2 0 o) := by
  obtain ⟨-, -, -, -, e4, e5, -⟩ := blk1_facts t
  unfold blk1_B val1_B iblk1
  rw [View.read_apply]
  show V c (Pipeline.arrRef spec1 2) _ = V c (Pipeline.arrRef spec1 2) _
  congr 1
  funext a
  apply Fin.ext
  match a with
  | ⟨0, _⟩ => show win1_2.index t (0 : Fin 2) * 1 + 1 * 0 = 0; rw [e4]
  | ⟨1, _⟩ => show win1_2.index t (1 : Fin 2) * 64 + 1 * o.val = o.val; rw [e5]; omega

/-! ## The accumulator after a step -/

/-- What step n adds at (r, o): the product of its block of A with its block of H there. -/
def acc1_M (c : Dev nD) (n : ℕ) : S2048x64.Idx → EReal := fun idx =>
  ∑ j : Fin 2048, val1_natA V c (2048 * (n / 6) + (idx 0).val) (2048 * (n % 6) + j.val) * val1_natH V c (2048 * (n % 6) + j.val) (idx 1)

/-- After step t = 6 i + k the accumulator holds, at each element, the sum of what the steps 6 i … 6 i + k added. -/
theorem acc1_apply (c : Dev nD) (t : Fin cfg1.N) (idx : S2048x64.Idx) :
    acc1 V c t.val t.isLt idx = 0 + ∑ s ∈ Finset.range (t.val % 6 + 1), acc1_M V c (6 * (t.val / 6) + s) idx := by
  have h' : 6 * (t.val / 6) + t.val % 6 < cfg1.N := by rw [Nat.div_add_mod]; exact t.isLt
  rw [Pipeline.eq_accAt_of_mod (acc1 V c) 6
    (fun n h => k1_pay2 (F := Ideal) (k1_pay1 (F := Ideal)) (blk1_A V c ⟨n, h⟩) (blk1_H V c ⟨n, h⟩))
    (fun n h x => k1_pay2 (F := Ideal) x (blk1_A V c ⟨n, h⟩) (blk1_H V c ⟨n, h⟩))
    (fun n h hn => acc1_reset V c ⟨n, h⟩ hn)
    (fun n h hn => acc1_step V c ⟨n + 1, h⟩ hn)
    (by decide) t.val t.isLt h']
  refine Pipeline.accAt_add_apply _ _ (fun _ => 0) (acc1_M V c) (6 * (t.val / 6)) 5 ?_ ?_ (t.val % 6) (by omega) h' idx
  · intro h i
    obtain ⟨r, o, rfl⟩ : ∃ (r : Fin 2048) (o : Fin 64), i = ix2 r o := ⟨i 0, i 1, eq_ix2 i⟩
    refine (pay1_2_apply (k1_pay1 (F := Ideal)) (blk1_A V c ⟨6 * (t.val / 6), h⟩) (blk1_H V c ⟨6 * (t.val / 6), h⟩) r o).trans ?_
    rw [pay1_1_apply]
    refine congrArg (0 + ·) (Finset.sum_congr rfl fun j _ => ?_)
    rw [blk1_A_apply, blk1_H_apply]
  · intro n h x i _ _
    obtain ⟨r, o, rfl⟩ : ∃ (r : Fin 2048) (o : Fin 64), i = ix2 r o := ⟨i 0, i 1, eq_ix2 i⟩
    refine (pay1_2_apply x (blk1_A V c ⟨n, h⟩) (blk1_H V c ⟨n, h⟩) r o).trans ?_
    refine congrArg (x (ix2 r o) + ·) (Finset.sum_congr rfl fun j _ => ?_)
    rw [blk1_A_apply, blk1_H_apply]

/-- At the last step of row block i (k = 5) the accumulator holds the full product's element: the six tiles of
    2048 inner positions are the 12288 inner positions. -/
theorem acc1_last (c : Dev nD) (t : Fin cfg1.N) (h5 : t.val % 6 = 5) (r : Fin 2048) (o : Fin 64)
    (hR : 2048 * (t.val / 6) + r.val < 12288) :
    acc1 V c t.val t.isLt (ix2 r o)
      = ∑ j : Fin 12288, val1_A V c (ix2 ⟨2048 * (t.val / 6) + r.val, hR⟩ j) * val1_H V c (ix2 j o) := by
  rw [acc1_apply, zero_add, h5]
  have e : ∀ s ∈ Finset.range (5 + 1), acc1_M V c (6 * (t.val / 6) + s) (ix2 r o)
      = ∑ j : Fin 2048, (fun y => val1_natA V c (2048 * (t.val / 6) + r.val) y * val1_natH V c y o) (2048 * s + j.val) := by
    intro s hs
    have hs' : s < 6 := Finset.mem_range.mp hs
    unfold acc1_M
    rw [show (6 * (t.val / 6) + s) / 6 = t.val / 6 by omega, show (6 * (t.val / 6) + s) % 6 = s by omega]
  rw [Finset.sum_congr rfl e]
  rw [Cert.Lib.sum_fin_tiles 2048 6 (fun y => val1_natA V c (2048 * (t.val / 6) + r.val) y * val1_natH V c y o)]
  show ∑ j : Fin 12288, _ = _
  refine Finset.sum_congr rfl fun j _ => ?_
  unfold val1_natA val1_natH
  rw [dif_pos ⟨hR, j.isLt⟩, dif_pos j.isLt]

/-! ## What a row block's last step writes, and the result array -/

/-- The closing step at (r, o) of row block i is the layer's element (2048 i + r, o). -/
theorem flushed1_val (c : Dev nD) (t : Fin cfg1.N) (h5 : t.val % 6 = 5) (r : Fin 2048) (o : Fin 64)
    (hR : 2048 * (t.val / 6) + r.val < 12288) :
    k1_pay3 (F := Ideal) (acc1 V c t.val t.isLt) (blk1_B V c t) (ix2 r o)
      = G1 (val1_A V c) (val1_H V c) (val1_B V c) (ix2 ⟨2048 * (t.val / 6) + r.val, hR⟩ o) := by
  refine (pay1_3_apply (acc1 V c t.val t.isLt) (blk1_B V c t) r o).trans ?_
  rw [acc1_last V c t h5 r o hR, blk1_B_apply]
  rfl

/-- What the write-back at the last step of a row block writes is that block of the layer's dense form. -/
theorem flushed1_eq (c : Dev nD) (t : Fin cfg1.N) (hf : (cfg1.win 3).flush t = true) :
    (dat1 (F := Ideal) V c).flushed 3 t
      = ((cfg1.win 3).blk t).view.read (Elt Ideal) (G1 (val1_A V c) (val1_H V c) (val1_B V c)) := by
  have h5 : t.val % 6 = 5 := (flush1_3 t).mp hf
  have ht : t.val < 36 := t.isLt
  obtain ⟨-, -, -, -, -, -, e6, e7⟩ := blk1_facts t
  show (cfg1.win 3).cut (grid1.coords t) ((dat1 (F := Ideal) V c).after 3 t) = _
  rw [after1_3 V c t h5]
  funext y
  obtain ⟨r, o, rfl⟩ : ∃ (r : Fin 2048) (o : Fin 64), (y : S2048x64.Idx) = ix2 r o := ⟨y 0, y 1, eq_ix2 (n0 := 2048) (n1 := 64) y⟩
  have hR : 2048 * (t.val / 6) + r.val < 12288 := by omega
  rw [View.read_apply]
  show k1_pay3 (F := Ideal) (acc1 V c t.val t.isLt) (blk1_B V c t) (ix2 r o) = G1 (val1_A V c) (val1_H V c) (val1_B V c) _
  rw [flushed1_val V c t h5 r o hR]
  congr 1
  funext a
  apply Fin.ext
  match a with
  | ⟨0, _⟩ => show 2048 * (t.val / 6) + r.val = win1_3.index t (0 : Fin 2) * 2048 + 1 * r.val; rw [e6]; omega
  | ⟨1, _⟩ => show o.val = win1_3.index t (1 : Fin 2) * 64 + 1 * o.val; rw [e7]; omega

/-- An element of the result lies in the block written at step t iff each coordinate lies in the block's range. -/
theorem rows1_mem (t : Fin cfg1.N) (i : S12288x64.Idx) :
    i ∈ ((cfg1.win 3).blk t).view.set ↔ ∀ a : Fin 2, win1_3.index t a * S2048x64.size a ≤ (i a).val ∧ (i a).val < win1_3.index t a * S2048x64.size a + S2048x64.size a := by
  show i ∈ ((View.whole (Pipeline.arrRef spec1 3)).slice (win1_3.rect t)).set ↔ _
  rw [View.set_slice_whole, Rect.mem_set_unit]
  exact Iff.rfl

/-- Every row of the result lies in the block some row block's last step writes: row x in that of i = x / 2048. -/
theorem rows1_cover (i : S12288x64.Idx) :
    ∃ t : Fin cfg1.N, (cfg1.win 3).flush t = true ∧ i ∈ ((cfg1.win 3).blk t).view.set := by
  have hi : (i 0).val < 12288 := (i 0).isLt
  have ho : (i 1).val < 64 := (i 1).isLt
  have hlt : 6 * ((i 0).val / 2048) + 5 < cfg1.N := by show _ < 36; omega
  obtain ⟨-, -, -, -, -, -, e6, e7⟩ := blk1_facts ⟨6 * ((i 0).val / 2048) + 5, hlt⟩
  refine ⟨⟨6 * ((i 0).val / 2048) + 5, hlt⟩, (flush1_3 _).mpr (by show (6 * ((i 0).val / 2048) + 5) % 6 = 5; omega), ?_⟩
  rw [rows1_mem]
  intro a
  match a with
  | ⟨0, _⟩ =>
    show win1_3.index _ (0 : Fin 2) * 2048 ≤ (i 0).val ∧ (i 0).val < win1_3.index _ (0 : Fin 2) * 2048 + 2048
    rw [e6]; dsimp only; omega
  | ⟨1, _⟩ =>
    show win1_3.index _ (1 : Fin 2) * 64 ≤ (i 1).val ∧ (i 1).val < win1_3.index _ (1 : Fin 2) * 64 + 64
    rw [e7]; omega

/-- THE REGION'S VALUE: its result array ends holding the layer's dense form of the three arrays it reads. -/
theorem region1_value (c : Dev nD) :
    (dat1 (F := Ideal) V c).arrAt 3 cfg1.N
      = G1 (V c (Pipeline.arrRef spec1 0)) (V c (Pipeline.arrRef spec1 1)) (V c (Pipeline.arrRef spec1 2)) :=
  (dat1 (F := Ideal) V c).arrAt_eq_of_cover 3 (G1 (val1_A V c) (val1_H V c) (val1_B V c))
    (fun t hf => flushed1_eq V c t hf) rows1_cover

end Cert.KernelIdeal.Gen

end
-- ==== Proof.Reg2Pay.lean ====
/-
  One grid step of the blocked product A·H + b, read at a single element.

  The accumulator block starts a row sweep at zero; each step adds the product of the current
  [2048,2048] block of A with the current [2048,128] block of H, whose (r, o) element is the sum over
  the block's 2048 inner positions of a(r, j) · h(j, o); the last step of a sweep adds the bias row
  and applies the layer's closing function. Over the extended reals every operation is exact, and the
  changes of float format are the identity.
-/
import proofs.«420824_j61512521613989_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-! ## The product of two blocks at an element -/

theorem lhs_pay2_0 (i : S2048x128.Idx) (q : dot_S2048x2048_S2048x128_S2048x128_1_0_0_1_n_n.contr.Idx) :
    (dot_S2048x2048_S2048x128_S2048x128_1_0_0_1_n_n.lhsIdx i q 0).val = (i 0).val := by
  unfold DotDims.lhsIdx
  rw [dif_neg (show ¬(0 : Fin S2048x2048.rank) ∈ dot_S2048x2048_S2048x128_S2048x128_1_0_0_1_n_n.lhsBatch by decide), dif_pos (show (0 : Fin S2048x2048.rank) ∈ dot_S2048x2048_S2048x128_S2048x128_1_0_0_1_n_n.lhsNonContracting by decide)]
  rfl
theorem lhs_pay2_1 (i : S2048x128.Idx) (q : dot_S2048x2048_S2048x128_S2048x128_1_0_0_1_n_n.contr.Idx) :
    (dot_S2048x2048_S2048x128_S2048x128_1_0_0_1_n_n.lhsIdx i q 1).val = (q ⟨0, by decide⟩).val :=
  dot_S2048x2048_S2048x128_S2048x128_1_0_0_1_n_n.lhsIdx_val_of_single rfl i q
theorem rhs_pay2_0 (i : S2048x128.Idx) (q : dot_S2048x2048_S2048x128_S2048x128_1_0_0_1_n_n.contr.Idx) :
    (dot_S2048x2048_S2048x128_S2048x128_1_0_0_1_n_n.rhsIdx i q 0).val = (q ⟨0, by decide⟩).val :=
  dot_S2048x2048_S2048x128_S2048x128_1_0_0_1_n_n.rhsIdx_val_of_single rfl i q
theorem rhs_pay2_1 (i : S2048x128.Idx) (q : dot_S2048x2048_S2048x128_S2048x128_1_0_0_1_n_n.contr.Idx) :
    (dot_S2048x2048_S2048x128_S2048x128_1_0_0_1_n_n.rhsIdx i q 1).val = (i 1).val := by
  unfold DotDims.rhsIdx
  rw [dif_neg (show ¬(1 : Fin S2048x128.rank) ∈ dot_S2048x2048_S2048x128_S2048x128_1_0_0_1_n_n.rhsBatch by decide), dif_pos (show (1 : Fin S2048x128.rank) ∈ dot_S2048x2048_S2048x128_S2048x128_1_0_0_1_n_n.rhsNonContracting by decide)]
  rfl

/-- The block product into a zero accumulator: element (r, o) is the sum over the inner position j of a(r, j) · h(j, o). -/
theorem mat2_apply (a : S2048x2048.Idx → EReal) (h : S2048x128.Idx → EReal) (r : Fin 2048) (o : Fin 128) :
    matmul (F := Ideal) (φ₁ := .bf16) (φ₂ := .bf16) dot_S2048x2048_S2048x128_S2048x128_1_0_0_1_n_n none a h (constant S2048x128 .f32 0x00000000#32) (ix2 r o)
      = ∑ j : Fin 2048, a (ix2 r j) * h (ix2 j o) := by
  simp only [matmul]
  rw [Ideal.matmul_constant_zero_apply, ← Equiv.sum_comp (ValueIdx.contrEquiv1 dot_S2048x2048_S2048x128_S2048x128_1_0_0_1_n_n 2048 rfl rfl).symm]
  refine Finset.sum_congr rfl fun k _ => ?_
  have hk := ValueIdx.contrEquiv1_symm_val dot_S2048x2048_S2048x128_S2048x128_1_0_0_1_n_n 2048 rfl rfl k
  have el : dot_S2048x2048_S2048x128_S2048x128_1_0_0_1_n_n.lhsIdx (ix2 r o) ((ValueIdx.contrEquiv1 dot_S2048x2048_S2048x128_S2048x128_1_0_0_1_n_n 2048 rfl rfl).symm k) = ix2 r k := funext fun x => Fin.ext (by
    match x with
    | ⟨0, _⟩ => exact lhs_pay2_0 _ _
    | ⟨1, _⟩ => exact (lhs_pay2_1 _ _).trans hk)
  have er : dot_S2048x2048_S2048x128_S2048x128_1_0_0_1_n_n.rhsIdx (ix2 r o) ((ValueIdx.contrEquiv1 dot_S2048x2048_S2048x128_S2048x128_1_0_0_1_n_n 2048 rfl rfl).symm k) = ix2 k o := funext fun x => Fin.ext (by
    match x with
    | ⟨0, _⟩ => exact (rhs_pay2_0 _ _).trans hk
    | ⟨1, _⟩ => exact rhs_pay2_1 _ _)
  rw [el, er]

/-! ## The three stored values at an element -/

/-- The value a row sweep starts from: zero everywhere. -/
theorem pay2_1_apply (idx : S2048x128.Idx) : k2_pay1 (F := Ideal) idx = 0 := by
  unfold k2_pay1
  simp only [shapeCast_self]
  exact Ideal.ofBits_zero_f32

/-- One accumulation step: the old value plus the block product, at element (r, o). -/
theorem pay2_2_apply (acc : S2048x128.Idx → EReal) (a : S2048x2048.Idx → EReal) (h : S2048x128.Idx → EReal) (r : Fin 2048) (o : Fin 128) :
    k2_pay2 (F := Ideal) acc a h (ix2 r o) = acc (ix2 r o) + ∑ j : Fin 2048, a (ix2 r j) * h (ix2 j o) := by
  unfold k2_pay2
  simp only [shapeCast_self]
  exact congrArg (acc (ix2 r o) + ·) (mat2_apply a h r o)

/-! ## The closing step of a row sweep -/

/-- The closing function of this layer at an element: none, the value itself. -/
def epi2 (x : EReal) : EReal := x

/-- The bias row spread over the block's rows reads, at (r, o), the bias at column o. -/
theorem bias2_apply (b : S1x128.Idx → EReal) (r : Fin 2048) (o : Fin 128) :
    broadcastTo S2048x128 b broadcasts_S1x128_S2048x128 (ix2 r o) = b (ix2 0 o) := by
  refine broadcastTo_apply b broadcasts_S1x128_S2048x128 (ix2 r o) (ix2 0 o) fun x => ?_
  match x with
  | ⟨0, _⟩ => show (0 : ℕ) = if (1 : ℕ) = 1 then 0 else _; rw [if_pos rfl]
  | ⟨1, _⟩ => show o.val = if (128 : ℕ) = 1 then 0 else o.val; rw [if_neg (by decide)]

/-- The closing step at element (r, o): the closing function of (accumulated sum + bias at column o). -/
theorem pay2_3_apply (acc : S2048x128.Idx → EReal) (b : S1x128.Idx → EReal) (r : Fin 2048) (o : Fin 128) :
    k2_pay3 (F := Ideal) acc b (ix2 r o) = epi2 (acc (ix2 r o) + b (ix2 0 o)) := by
  unfold k2_pay3 epi2
  simp only [shapeCast_self]
  exact congrArg (fun x => acc (ix2 r o) + x) (bias2_apply b r o)

end Cert.KernelIdeal.Gen

end
-- ==== Proof.Reg2Value.lean ====
/-
  The value of one graph-convolution region: the array its output window ends holding.

  The grid walks the row blocks i of A (2048 rows each) and, inside a row block, the six column blocks k of A
  together with the matching row blocks of H. The carried accumulator is reset at k = 0 and gains the block
  product at every k, so after the step (i, k) it holds, at (r, o), the sum over the first k + 1 column blocks of
  the 2048 products a(2048 i + r, 2048 s + j) · h(2048 s + j, o). At k = 5 the bias row is added, the closing
  function applied and the block written to rows 2048 i … 2048 i + 2047 of the result. Six tiles of 2048 inner
  positions are the 12288 inner positions of the full product, and the six row blocks cover the result; addition of
  extended reals is associative and commutative without any finiteness, so nothing is asked of the entries.
-/
import proofs.«420824_j61512521613989_2_alg».proof.Proof.Reg2
import proofs.«420824_j61512521613989_2_alg».proof.Proof.Reg2Pay
import proofs.«420824_j61512521613989_2_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row r, column o of the layer's dense form: the closing function of (the product A·H at (r, o) plus the bias at o). -/
def G2 (A : S12288x12288.Idx → EReal) (H : S12288x128.Idx → EReal) (B : S1x128.Idx → EReal) : S12288x128.Idx → EReal :=
  fun idx => epi2 ((∑ j : Fin 12288, A (ix2 (idx 0) j) * H (ix2 j (idx 1))) + B (ix2 0 (idx 1)))

/-! ## The arrays and the blocks, as functions into the extended reals -/

/-- The left factor A, [12288,12288]. -/
abbrev val2_A (c : Dev nD) : S12288x12288.Idx → EReal := V c (Pipeline.arrRef spec2 0)
/-- The right factor H, [12288,128]. -/
abbrev val2_H (c : Dev nD) : S12288x128.Idx → EReal := V c (Pipeline.arrRef spec2 1)
/-- The bias row, [1,128]. -/
abbrev val2_B (c : Dev nD) : S1x128.Idx → EReal := V c (Pipeline.arrRef spec2 2)

/-- A at a pair of naturals (zero outside the array): the form in which tiles of an axis are joined. -/
def val2_natA (c : Dev nD) (x y : ℕ) : EReal :=
  if h : x < 12288 ∧ y < 12288 then val2_A V c (ix2 ⟨x, h.1⟩ ⟨y, h.2⟩) else 0
/-- H at a natural row (zero outside the array) and a column. -/
def val2_natH (c : Dev nD) (y : ℕ) (o : Fin 128) : EReal :=
  if h : y < 12288 then val2_H V c (ix2 ⟨y, h⟩ o) else 0

/-- The block of A the step t reads. -/
abbrev blk2_A (c : Dev nD) (t : Fin cfg2.N) : S2048x2048.Idx → EReal := iblk2 V c 0 t
/-- The block of H the step t reads. -/
abbrev blk2_H (c : Dev nD) (t : Fin cfg2.N) : S2048x128.Idx → EReal := iblk2 V c 1 t
/-- The bias row as the step t reads it. -/
abbrev blk2_B (c : Dev nD) (t : Fin cfg2.N) : S1x128.Idx → EReal := iblk2 V c 2 t

/-- Where each window's block sits at step t = 6 i + k: A at block (i, k), H at block (k, 0), the bias at (0, 0),
    the result at block (i, 0). Decided over the 36 steps. -/
theorem blk2_facts : ∀ t : Fin cfg2.N,
    win2_0.index t (0 : Fin 2) = t.val / 6 ∧ win2_0.index t (1 : Fin 2) = t.val % 6
    ∧ win2_1.index t (0 : Fin 2) = t.val % 6 ∧ win2_1.index t (1 : Fin 2) = 0
    ∧ win2_2.index t (0 : Fin 2) = 0 ∧ win2_2.index t (1 : Fin 2) = 0
    ∧ win2_3.index t (0 : Fin 2) = t.val / 6 ∧ win2_3.index t (1 : Fin 2) = 0 :=
  (by decide +kernel : ∀ t : Fin grid2.N, _)

theorem blk2_A_apply (c : Dev nD) (t : Fin cfg2.N) (r j : Fin 2048) :
    blk2_A V c t (ix2 r j) = val2_natA V c (2048 * (t.val / 6) + r.val) (2048 * (t.val % 6) + j.val) := by
  have ht : t.val < 36 := t.isLt
  obtain ⟨e0, e1, -⟩ := blk2_facts t
  unfold val2_natA
  rw [dif_pos ⟨by omega, by omega⟩]
  unfold blk2_A val2_A iblk2
  rw [View.read_apply]
  show V c (Pipeline.arrRef spec2 0) _ = V c (Pipeline.arrRef spec2 0) _
  congr 1
  funext a
  apply Fin.ext
  match a with
  | ⟨0, _⟩ => show win2_0.index t (0 : Fin 2) * 2048 + 1 * r.val = 2048 * (t.val / 6) + r.val; rw [e0]; omega
  | ⟨1, _⟩ => show win2_0.index t (1 : Fin 2) * 2048 + 1 * j.val = 2048 * (t.val % 6) + j.val; rw [e1]; omega

theorem blk2_H_apply (c : Dev nD) (t : Fin cfg2.N) (j : Fin 2048) (o : Fin 128) :
    blk2_H V c t (ix2 j o) = val2_natH V c (2048 * (t.val % 6) + j.val) o := by
  have ht : t.val < 36 := t.isLt
  obtain ⟨-, -, e2, e3, -⟩ := blk2_facts t
  unfold val2_natH
  rw [dif_pos (by omega)]
  unfold blk2_H val2_H iblk2
  rw [View.read_apply]
  show V c (Pipeline.arrRef spec2 1) _ = V c (Pipeline.arrRef spec2 1) _
  congr 1
  funext a
  apply Fin.ext
  match a with
  | ⟨0, _⟩ => show win2_1.index t (0 : Fin 2) * 2048 + 1 * j.val = 2048 * (t.val % 6) + j.val; rw [e2]; omega
  | ⟨1, _⟩ => show win2_1.index t (1 : Fin 2) * 128 + 1 * o.val = o.val; rw [e3]; omega

theorem blk2_B_apply (c : Dev nD) (t : Fin cfg2.N) (o : Fin 128) :
    blk2_B V c t (ix2 0 o) = val2_B V c (ix2 0 o) := by
  obtain ⟨-, -, -, -, e4, e5, -⟩ := blk2_facts t
  unfold blk2_B val2_B iblk2
  rw [View.read_apply]
  show V c (Pipeline.arrRef spec2 2) _ = V c (Pipeline.arrRef spec2 2) _
  congr 1
  funext a
  apply Fin.ext
  match a with
  | ⟨0, _⟩ => show win2_2.index t (0 : Fin 2) * 1 + 1 * 0 = 0; rw [e4]
  | ⟨1, _⟩ => show win2_2.index t (1 : Fin 2) * 128 + 1 * o.val = o.val; rw [e5]; omega

/-! ## The accumulator after a step -/

/-- What step n adds at (r, o): the product of its block of A with its block of H there. -/
def acc2_M (c : Dev nD) (n : ℕ) : S2048x128.Idx → EReal := fun idx =>
  ∑ j : Fin 2048, val2_natA V c (2048 * (n / 6) + (idx 0).val) (2048 * (n % 6) + j.val) * val2_natH V c (2048 * (n % 6) + j.val) (idx 1)

/-- After step t = 6 i + k the accumulator holds, at each element, the sum of what the steps 6 i … 6 i + k added. -/
theorem acc2_apply (c : Dev nD) (t : Fin cfg2.N) (idx : S2048x128.Idx) :
    acc2 V c t.val t.isLt idx = 0 + ∑ s ∈ Finset.range (t.val % 6 + 1), acc2_M V c (6 * (t.val / 6) + s) idx := by
  have h' : 6 * (t.val / 6) + t.val % 6 < cfg2.N := by rw [Nat.div_add_mod]; exact t.isLt
  rw [Pipeline.eq_accAt_of_mod (acc2 V c) 6
    (fun n h => k2_pay2 (F := Ideal) (k2_pay1 (F := Ideal)) (blk2_A V c ⟨n, h⟩) (blk2_H V c ⟨n, h⟩))
    (fun n h x => k2_pay2 (F := Ideal) x (blk2_A V c ⟨n, h⟩) (blk2_H V c ⟨n, h⟩))
    (fun n h hn => acc2_reset V c ⟨n, h⟩ hn)
    (fun n h hn => acc2_step V c ⟨n + 1, h⟩ hn)
    (by decide) t.val t.isLt h']
  refine Pipeline.accAt_add_apply _ _ (fun _ => 0) (acc2_M V c) (6 * (t.val / 6)) 5 ?_ ?_ (t.val % 6) (by omega) h' idx
  · intro h i
    obtain ⟨r, o, rfl⟩ : ∃ (r : Fin 2048) (o : Fin 128), i = ix2 r o := ⟨i 0, i 1, eq_ix2 i⟩
    refine (pay2_2_apply (k2_pay1 (F := Ideal)) (blk2_A V c ⟨6 * (t.val / 6), h⟩) (blk2_H V c ⟨6 * (t.val / 6), h⟩) r o).trans ?_
    rw [pay2_1_apply]
    refine congrArg (0 + ·) (Finset.sum_congr rfl fun j _ => ?_)
    rw [blk2_A_apply, blk2_H_apply]
  · intro n h x i _ _
    obtain ⟨r, o, rfl⟩ : ∃ (r : Fin 2048) (o : Fin 128), i = ix2 r o := ⟨i 0, i 1, eq_ix2 i⟩
    refine (pay2_2_apply x (blk2_A V c ⟨n, h⟩) (blk2_H V c ⟨n, h⟩) r o).trans ?_
    refine congrArg (x (ix2 r o) + ·) (Finset.sum_congr rfl fun j _ => ?_)
    rw [blk2_A_apply, blk2_H_apply]

/-- At the last step of row block i (k = 5) the accumulator holds the full product's element: the six tiles of
    2048 inner positions are the 12288 inner positions. -/
theorem acc2_last (c : Dev nD) (t : Fin cfg2.N) (h5 : t.val % 6 = 5) (r : Fin 2048) (o : Fin 128)
    (hR : 2048 * (t.val / 6) + r.val < 12288) :
    acc2 V c t.val t.isLt (ix2 r o)
      = ∑ j : Fin 12288, val2_A V c (ix2 ⟨2048 * (t.val / 6) + r.val, hR⟩ j) * val2_H V c (ix2 j o) := by
  rw [acc2_apply, zero_add, h5]
  have e : ∀ s ∈ Finset.range (5 + 1), acc2_M V c (6 * (t.val / 6) + s) (ix2 r o)
      = ∑ j : Fin 2048, (fun y => val2_natA V c (2048 * (t.val / 6) + r.val) y * val2_natH V c y o) (2048 * s + j.val) := by
    intro s hs
    have hs' : s < 6 := Finset.mem_range.mp hs
    unfold acc2_M
    rw [show (6 * (t.val / 6) + s) / 6 = t.val / 6 by omega, show (6 * (t.val / 6) + s) % 6 = s by omega]
  rw [Finset.sum_congr rfl e]
  rw [Cert.Lib.sum_fin_tiles 2048 6 (fun y => val2_natA V c (2048 * (t.val / 6) + r.val) y * val2_natH V c y o)]
  show ∑ j : Fin 12288, _ = _
  refine Finset.sum_congr rfl fun j _ => ?_
  unfold val2_natA val2_natH
  rw [dif_pos ⟨hR, j.isLt⟩, dif_pos j.isLt]

/-! ## What a row block's last step writes, and the result array -/

/-- The closing step at (r, o) of row block i is the layer's element (2048 i + r, o). -/
theorem flushed2_val (c : Dev nD) (t : Fin cfg2.N) (h5 : t.val % 6 = 5) (r : Fin 2048) (o : Fin 128)
    (hR : 2048 * (t.val / 6) + r.val < 12288) :
    k2_pay3 (F := Ideal) (acc2 V c t.val t.isLt) (blk2_B V c t) (ix2 r o)
      = G2 (val2_A V c) (val2_H V c) (val2_B V c) (ix2 ⟨2048 * (t.val / 6) + r.val, hR⟩ o) := by
  refine (pay2_3_apply (acc2 V c t.val t.isLt) (blk2_B V c t) r o).trans ?_
  rw [acc2_last V c t h5 r o hR, blk2_B_apply]
  rfl

/-- What the write-back at the last step of a row block writes is that block of the layer's dense form. -/
theorem flushed2_eq (c : Dev nD) (t : Fin cfg2.N) (hf : (cfg2.win 3).flush t = true) :
    (dat2 (F := Ideal) V c).flushed 3 t
      = ((cfg2.win 3).blk t).view.read (Elt Ideal) (G2 (val2_A V c) (val2_H V c) (val2_B V c)) := by
  have h5 : t.val % 6 = 5 := (flush2_3 t).mp hf
  have ht : t.val < 36 := t.isLt
  obtain ⟨-, -, -, -, -, -, e6, e7⟩ := blk2_facts t
  show (cfg2.win 3).cut (grid2.coords t) ((dat2 (F := Ideal) V c).after 3 t) = _
  rw [after2_3 V c t h5]
  funext y
  obtain ⟨r, o, rfl⟩ : ∃ (r : Fin 2048) (o : Fin 128), (y : S2048x128.Idx) = ix2 r o := ⟨y 0, y 1, eq_ix2 (n0 := 2048) (n1 := 128) y⟩
  have hR : 2048 * (t.val / 6) + r.val < 12288 := by omega
  rw [View.read_apply]
  show k2_pay3 (F := Ideal) (acc2 V c t.val t.isLt) (blk2_B V c t) (ix2 r o) = G2 (val2_A V c) (val2_H V c) (val2_B V c) _
  rw [flushed2_val V c t h5 r o hR]
  congr 1
  funext a
  apply Fin.ext
  match a with
  | ⟨0, _⟩ => show 2048 * (t.val / 6) + r.val = win2_3.index t (0 : Fin 2) * 2048 + 1 * r.val; rw [e6]; omega
  | ⟨1, _⟩ => show o.val = win2_3.index t (1 : Fin 2) * 128 + 1 * o.val; rw [e7]; omega

/-- An element of the result lies in the block written at step t iff each coordinate lies in the block's range. -/
theorem rows2_mem (t : Fin cfg2.N) (i : S12288x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole (Pipeline.arrRef spec2 3)).slice (win2_3.rect t)).set ↔ _
  rw [View.set_slice_whole, Rect.mem_set_unit]
  exact Iff.rfl

/-- Every row of the result lies in the block some row block's last step writes: row x in that of i = x / 2048. -/
theorem rows2_cover (i : S12288x128.Idx) :
    ∃ t : Fin cfg2.N, (cfg2.win 3).flush t = true ∧ i ∈ ((cfg2.win 3).blk t).view.set := by
  have hi : (i 0).val < 12288 := (i 0).isLt
  have ho : (i 1).val < 128 := (i 1).isLt
  have hlt : 6 * ((i 0).val / 2048) + 5 < cfg2.N := by show _ < 36; omega
  obtain ⟨-, -, -, -, -, -, e6, e7⟩ := blk2_facts ⟨6 * ((i 0).val / 2048) + 5, hlt⟩
  refine ⟨⟨6 * ((i 0).val / 2048) + 5, hlt⟩, (flush2_3 _).mpr (by show (6 * ((i 0).val / 2048) + 5) % 6 = 5; omega), ?_⟩
  rw [rows2_mem]
  intro a
  match a with
  | ⟨0, _⟩ =>
    show win2_3.index _ (0 : Fin 2) * 2048 ≤ (i 0).val ∧ (i 0).val < win2_3.index _ (0 : Fin 2) * 2048 + 2048
    rw [e6]; dsimp only; omega
  | ⟨1, _⟩ =>
    show win2_3.index _ (1 : Fin 2) * 128 ≤ (i 1).val ∧ (i 1).val < win2_3.index _ (1 : Fin 2) * 128 + 128
    rw [e7]; omega

/-- THE REGION'S VALUE: its result array ends holding the layer's dense form of the three arrays it reads. -/
theorem region2_value (c : Dev nD) :
    (dat2 (F := Ideal) V c).arrAt 3 cfg2.N
      = G2 (V c (Pipeline.arrRef spec2 0)) (V c (Pipeline.arrRef spec2 1)) (V c (Pipeline.arrRef spec2 2)) :=
  (dat2 (F := Ideal) V c).arrAt_eq_of_cover 3 (G2 (val2_A V c) (val2_H V c) (val2_B V c))
    (fun t hf => flushed2_eq V c t hf) rows2_cover

end Cert.KernelIdeal.Gen

end
-- ==== Proof.LibScatterAdd.lean ====
/-
  An accumulating scatter read at an entry.

  jnp's `x.at[idx].add(u)` (or a segment sum) over a vector of E positions prints as a `stablehlo.scatter` with an
  `add` body whose scatter indices are the [E, 1] column of positions, with the index vector on axis 1, operand
  axis 0 both inserted and named by the scatter-dims-to-operand-dims map, and no batching axes.  Two shapes occur.
  Over a vector operand [N] with updates [E] there is no window axis; over a table [N, C] with updates [E, C] the
  updates' axis 1 is the one window axis and goes to the operand's axis 1, so whole rows are added.

  Update e lands at the operand row its position names, the position read as a signed integer and NOT clamped:
  a position below 0 or at or past N lands nowhere and contributes nothing.  So at the exact (extended-real)
  instance the result's entry r (or (r, o)) is the operand's entry plus the sum, over all e, of update e (or of
  its entry o) when position e reads exactly r, and of 0 otherwise.
-/
import Idealize.ShloMosaic.PureOps.Ideal
import Idealize.ShloMosaic.Lib.ValueIdx
import Idealize.ShloMosaic.Lib.ValueIdxRank1

namespace Cert.Lib

open Idealize.ShloMosaic Idealize.ShloMosaic.ValueIdx
open scoped BigOperators

/-! ## A vector operand: operand [N], positions [E, 1], updates [E] -/

/-- The dimension numbers of a scatter into a vector: operand [N], start indices [E, 1], updates [E]. Their
    conditions `wf` are decided on a program's literal shapes. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The window of update j starts, on the operand's one axis, at position j's index word read signed. -/
theorem vec_start {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) :
    (vecScatterDims N E wf).start j idx (0 : Fin 1) = (idx (ix2 (j (0 : Fin 1)) (0 : Fin 1))).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j (0 : Fin 1)) (0 : Fin 1) := by
    funext b; refine Fin.ext ?_
    match b with
    | ⟨0, _⟩ => rfl
    | ⟨1, _⟩ => rfl
  rw [hsi]
  rfl

/-- The operand's one axis is inserted: the window coordinate on it is 0. -/
theorem vec_window {N E : Nat} (wf : ScatterDims.WF ⟨1, ![N]⟩ ⟨2, ![E, 1]⟩ ⟨1, ![E]⟩ [] [0] [0] 1)
    (j : (⟨1, ![E]⟩ : Shape).Idx) :
    (vecScatterDims N E wf).window j (0 : Fin 1) = 0 := by
  unfold ScatterDims.window
  rw [dif_neg]
  intro h
  simp [ScatterDims.sKept, Shape.kept] at h

/-- Update j lands on entry r exactly when position j's index word, read signed, is r. -/
theorem vec_resultIdx {N E w : Nat} (wf : ScatterDims.WF ⟨1, ![N]⟩ ⟨2, ![E, 1]⟩ ⟨1, ![E]⟩ [] [0] [0] 1)
    (j : (⟨1, ![E]⟩ : Shape).Idx) (idx : IVec ⟨2, ![E, 1]⟩ w) (r : Fin N) :
    (vecScatterDims N E wf).resultIdx? j idx = some (ix1 r)
      ↔ (idx (ix2 (j (0 : Fin 1)) (0 : Fin 1))).toInt = (r.val : Int) := by
  have hs := vec_start wf j idx
  have hw := vec_window wf j
  unfold ScatterDims.resultIdx?
  constructor
  · intro h
    split at h
    · rename_i hc
      have h0 := congrFun (Option.some.inj h) (0 : Fin 1)
      have h1 := congrArg Fin.val h0
      have hc0 := hc (0 : Fin 1)
      simp only [hs, hw] at h1 hc0
      change ((idx (ix2 (j (0 : Fin 1)) (0 : Fin 1))).toInt + ((0 : Nat) : Int)).toNat = r.val at h1
      omega
    · exact absurd h (by simp)
  · intro h
    have hc : ∀ a : Fin 1, 0 ≤ (vecScatterDims N E wf).start j idx a + (vecScatterDims N E wf).window j a ∧
        (vecScatterDims N E wf).start j idx a + (vecScatterDims N E wf).window j a < (⟨1, ![N]⟩ : Shape).size a := by
      intro a
      match a with
      | ⟨0, _⟩ =>
        show 0 ≤ (vecScatterDims N E wf).start j idx (0 : Fin 1) + (vecScatterDims N E wf).window j (0 : Fin 1) ∧
          (vecScatterDims N E wf).start j idx (0 : Fin 1) + (vecScatterDims N E wf).window j (0 : Fin 1) < (N : Int)
        rw [hs, hw, h]
        have := r.isLt
        omega
    rw [dif_pos hc]
    congr 1
    funext a
    refine Fin.ext ?_
    match a with
    | ⟨0, _⟩ =>
      show ((vecScatterDims N E wf).start j idx (0 : Fin 1) + (vecScatterDims N E wf).window j (0 : Fin 1)).toNat = r.val
      rw [hs, hw, h]
      omega

/-- THE VECTOR SCATTER READ AT r: the operand's entry plus the updates whose position reads exactly r. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal) (r : Fin N) :
    Ideal.hostScatterAdd (vecScatterDims N E wf) x idx upd (ix1 r)
      = x (ix1 r) + ∑ e : Fin E, if (idx (ix2 e (0 : Fin 1))).toInt = (r.val : Int) then upd (ix1 e) else 0 := by
  unfold Ideal.hostScatterAdd
  congr 1
  rw [Finset.sum_filter, ← Equiv.sum_comp (idxEquiv1 (n := E)).symm]
  refine Finset.sum_congr rfl (fun e _ => ?_)
  show (if (vecScatterDims N E wf).resultIdx? (ix1 e) idx = some (ix1 r) then upd (ix1 e) else 0) = _
  by_cases h : (idx (ix2 e (0 : Fin 1))).toInt = (r.val : Int)
  · rw [if_pos h, if_pos ((vec_resultIdx wf (ix1 e) idx r).mpr h)]
  · rw [if_neg h, if_neg (fun h' => h ((vec_resultIdx wf (ix1 e) idx r).mp h'))]

/-! ## A table operand: operand [N, C], positions [E, 1], updates [E, C] -/

/-- The dimension numbers of a scatter of whole rows: operand [N, C], start indices [E, 1], updates [E, C]: whole
    rows added at the rows the positions name. Their conditions `wf` are decided on a program's literal shapes. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the operand's axis 0 the window of update j starts at position (j 0)'s index word read signed. -/
theorem row_start0 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (0 : Fin 2) = (idx (ix2 (j (0 : Fin 2)) (0 : Fin 1))).toInt := by
  unfold ScatterDims.start
  rw [dif_pos (show (0 : Fin 2) ∈ (rowScatterDims N C E wf).scatterDimsToOperandDims from List.mem_singleton.mpr rfl)]
  have hsi : (rowScatterDims N C E wf).siIdx j ⟨List.idxOf (0 : Fin 2) (rowScatterDims N C E wf).scatterDimsToOperandDims,
      List.idxOf_lt_length_iff.2 (List.mem_singleton.mpr rfl)⟩ = ix2 (j (0 : Fin 2)) (0 : Fin 1) := by
    funext b; refine Fin.ext ?_
    match b with
    | ⟨0, _⟩ => rfl
    | ⟨1, _⟩ => rfl
  rw [hsi]
  rfl

/-- The map does not name the operand's axis 1: the window starts at 0 there. -/
theorem row_start1 {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) :
    (rowScatterDims N C E wf).start j idx (1 : Fin 2) = 0 := by
  unfold ScatterDims.start
  rw [dif_neg (show ¬ (1 : Fin 2) ∈ (rowScatterDims N C E wf).scatterDimsToOperandDims from
    fun h => absurd (List.mem_singleton.mp h) (by decide : (1 : Fin 2) ≠ 0))]

/-- The operand's axis 0 is inserted: the window coordinate on it is 0. -/
theorem row_window0 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (0 : Fin 2) = 0 := by
  unfold ScatterDims.window
  rw [dif_neg]
  intro h
  simp [ScatterDims.sKept, Shape.kept] at h

/-- The operand's axis 1 takes the updates' window axis: the window coordinate on it is j's second coordinate. -/
theorem row_window1 {N C E : Nat} (wf : ScatterDims.WF ⟨2, ![N, C]⟩ ⟨2, ![E, 1]⟩ ⟨2, ![E, C]⟩ [1] [0] [0] 1)
    (j : (⟨2, ![E, C]⟩ : Shape).Idx) :
    (rowScatterDims N C E wf).window j (1 : Fin 2) = (j (1 : Fin 2)).val := by
  unfold ScatterDims.window
  rw [dif_pos (show (1 : Fin 2) ∈ (rowScatterDims N C E wf).sKept by
    simp [ScatterDims.sKept, Shape.kept])]
  rfl

/-- Update (e, o') lands on entry (r, o) exactly when position e's index word, read signed, is r and o' = o. -/
theorem row_resultIdx {N C E w : Nat} (wf : ScatterDims.WF ⟨2, ![N, C]⟩ ⟨2, ![E, 1]⟩ ⟨2, ![E, C]⟩ [1] [0] [0] 1)
    (j : (⟨2, ![E, C]⟩ : Shape).Idx) (idx : IVec ⟨2, ![E, 1]⟩ w) (r : Fin N) (o : Fin C) :
    (rowScatterDims N C E wf).resultIdx? j idx = some (ix2 r o)
      ↔ (idx (ix2 (j (0 : Fin 2)) (0 : Fin 1))).toInt = (r.val : Int) ∧ j (1 : Fin 2) = o := by
  have hs0 := row_start0 wf j idx
  have hs1 := row_start1 wf j idx
  have hw0 := row_window0 wf j
  have hw1 := row_window1 wf j
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      simp only [hs0, hw0] at h0 hc0
      simp only [hs1, hw1] at h1
      change ((idx (ix2 (j (0 : Fin 2)) (0 : Fin 1))).toInt + ((0 : Nat) : Int)).toNat = r.val at h0
      change ((0 : Int) + (((j (1 : Fin 2)).val : Nat) : Int)).toNat = o.val at h1
      refine ⟨by omega, Fin.ext ?_⟩
      omega
    · exact absurd h (by simp)
  · rintro ⟨h, ho⟩
    have hc : ∀ a : Fin 2, 0 ≤ (rowScatterDims N C E wf).start j idx a + (rowScatterDims N C E wf).window j a ∧
        (rowScatterDims N C E wf).start j idx a + (rowScatterDims N C E wf).window j a < (⟨2, ![N, C]⟩ : Shape).size a := by
      intro a
      match a with
      | ⟨0, _⟩ =>
        show 0 ≤ (rowScatterDims N C E wf).start j idx (0 : Fin 2) + (rowScatterDims N C E wf).window j (0 : Fin 2) ∧
          (rowScatterDims N C E wf).start j idx (0 : Fin 2) + (rowScatterDims N C E wf).window j (0 : Fin 2) < (N : Int)
        rw [hs0, hw0, h]
        have := r.isLt
        omega
      | ⟨1, _⟩ =>
        show 0 ≤ (rowScatterDims N C E wf).start j idx (1 : Fin 2) + (rowScatterDims N C E wf).window j (1 : Fin 2) ∧
          (rowScatterDims N C E wf).start j idx (1 : Fin 2) + (rowScatterDims N C E wf).window j (1 : Fin 2) < (C : Int)
        rw [hs1, hw1, ho]
        have := o.isLt
        omega
    rw [dif_pos hc]
    congr 1
    funext a
    refine Fin.ext ?_
    match a with
    | ⟨0, _⟩ =>
      show ((rowScatterDims N C E wf).start j idx (0 : Fin 2) + (rowScatterDims N C E wf).window j (0 : Fin 2)).toNat = r.val
      rw [hs0, hw0, h]
      omega
    | ⟨1, _⟩ =>
      show ((rowScatterDims N C E wf).start j idx (1 : Fin 2) + (rowScatterDims N C E wf).window j (1 : Fin 2)).toNat = o.val
      rw [hs1, hw1, ho]
      omega

/-- THE ROW SCATTER READ AT (r, o): the operand's entry plus entry o of the update rows whose position reads exactly r. -/
theorem scatterAdd_rows_apply {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (r : Fin N) (o : Fin C) :
    Ideal.hostScatterAdd (rowScatterDims N C E wf) x idx upd (ix2 r o)
      = x (ix2 r o) + ∑ e : Fin E, if (idx (ix2 e (0 : Fin 1))).toInt = (r.val : Int) then upd (ix2 e o) else 0 := by
  unfold Ideal.hostScatterAdd
  congr 1
  rw [Finset.sum_filter, sum_idx2]
  refine Finset.sum_congr rfl (fun e _ => ?_)
  by_cases h : (idx (ix2 e (0 : Fin 1))).toInt = (r.val : Int)
  · rw [if_pos h]
    rw [Finset.sum_eq_single o]
    · rw [if_pos ((row_resultIdx wf (ix2 e o) idx r o).mpr ⟨h, rfl⟩)]
    · intro o' _ hne
      rw [if_neg (fun h' => hne ((row_resultIdx wf (ix2 e o') idx r o).mp h').2)]
    · intro hn
      exact absurd (Finset.mem_univ o) hn
  · rw [if_neg h]
    refine Finset.sum_eq_zero (fun o' _ => ?_)
    rw [if_neg (fun h' => h ((row_resultIdx wf (ix2 e o') idx r o).mp h').1)]

end Cert.Lib
-- ==== Proof.LibGatherRows.lean ====
/-
  A row gather read at an entry.

  jnp's `table[idx]` (or `jnp.take(table, idx, axis=0)`) over a rank-2 table [N, C] and a vector of E positions
  prints as a `stablehlo.gather` whose start indices are the [E, 1] column of positions, whose operand axis 0 is
  collapsed and start-indexed, whose operand axis 1 is the one offset axis (slice sizes [1, C]), with no batching
  axes and the index vector on axis 1.  Result entry (e, o) is the table's entry (r, o) where r is position e's
  start index read as a signed integer and clamped into [0, N − 1]: a negative index reads row 0, one past the
  end reads the last row.  So the result's row e is a whole row of the table, chosen by position e alone.
-/
import Idealize.ShloMosaic.PureOps.ShapeOps
import Idealize.ShloMosaic.Lib.ValueIdx

namespace Cert.Lib

open Idealize.ShloMosaic Idealize.ShloMosaic.ValueIdx

/-- The dimension numbers of a row gather: operand [N, C], start indices [E, 1], result [E, C]. Their
    conditions `wf` are decided on a program's literal shapes. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the table at (r, o), r the start index of position e read signed and clamped
    into [0, N − 1]. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowGatherDims N C E wf) x idx (ix2 e o)
      = x (ix2 (⟨min (idx (ix2 e (0 : Fin 1))).toInt.toNat (N - 1), by omega⟩ : Fin N) o) := by
  unfold Host.gather
  congr 1
  funext a
  refine Fin.ext ?_
  match a with
  | ⟨0, _⟩ =>
    show (rowGatherDims N C E wf).start (ix2 e o) idx 0 + (rowGatherDims N C E wf).batchCoord (ix2 e o) 0
      + (rowGatherDims N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e o) ⟨List.idxOf (0 : Fin 2) (rowGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N C E wf).start (ix2 e o) idx 1 + (rowGatherDims N C E wf).batchCoord (ix2 e o) 1
      + (rowGatherDims N C E wf).offCoord (ix2 e o) 1 = o.val
    rw [GatherDims.batchCoord_eq_zero _ _ _ List.not_mem_nil]
    unfold GatherDims.start
    rw [dif_neg (show ¬ (1 : Fin 2) ∈ (rowGatherDims N C E wf).startIndexMap from
      fun h => absurd (List.mem_singleton.mp h) (by decide : (1 : Fin 2) ≠ 0))]
    unfold GatherDims.offCoord
    rw [dif_pos (show (1 : Fin 2) ∈ (rowGatherDims N C E wf).sKept from
      (GatherDims.mem_sKept _ _).mpr ⟨fun h => absurd (List.mem_singleton.mp h) (by decide : (1 : Fin 2) ≠ 0), List.not_mem_nil⟩)]
    simp only [Nat.zero_add, Nat.add_zero]
    rfl

end Cert.Lib
-- ==== Proof.RefConvIdx.lean ====
/-
  One layer of the reference's graph convolution, read at an entry.

  Entry (r, o) of a layer's result is zero, plus, over every edge whose destination reads exactly r, entry o of the
  source's row of the layer's input times the edge's weight, plus entry o of the bias.  The source's row is the
  source read as a signed integer and clamped into the table (a gather clamps); the destination is read as a signed
  integer and not clamped (a scatter drops what falls outside).
-/
import proofs.«420824_j61512521613989_2_alg».proof.Proof.RefConv
import proofs.«420824_j61512521613989_2_alg».proof.Proof.LibScatterAdd
import proofs.«420824_j61512521613989_2_alg».proof.Proof.LibGatherRows
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## Broadcasts read at an entry -/

section Broadcasts

variable {α : Type}

/-- A scalar broadcast to any shape reads the scalar everywhere. -/
theorem bcast_scalar_apply {t : Shape} (h : S_.BroadcastsInDim t (![] : Fin 0 → Fin t.rank)) (v : S_.Idx → α) (j : t.Idx) :
    broadcastInDim t ![] h v j = v (fun a => a.elim0) :=
  broadcastInDim_apply _ h v j (fun a => a.elim0) (fun a => a.elim0)

/-- A vector as a one-column table reads, at (e, 0), the vector at e. -/
theorem bcast_col_apply {E : Nat} (h : (⟨1, ![E]⟩ : Shape).BroadcastsInDim ⟨2, ![E, 1]⟩ (![0] : Fin 1 → Fin 2))
    (v : (⟨1, ![E]⟩ : Shape).Idx → α) (e : Fin E) (u : Fin 1) :
    broadcastInDim ⟨2, ![E, 1]⟩ ![0] h v (ix2 e u) = v (ix1 e) :=
  broadcastInDim_apply _ h v (ix2 e u) (ix1 e) (fun a => match a with
    | ⟨0, _⟩ => by
      show e.val = if E = 1 then 0 else e.val
      split
      · have := e.isLt; omega
      · rfl)

/-- A one-column table spread across C columns reads, at (e, o), the column at e. -/
theorem bcast_across_apply {E C : Nat} (h : (⟨2, ![E, 1]⟩ : Shape).BroadcastsInDim ⟨2, ![E, C]⟩ (![0, 1] : Fin 2 → Fin 2))
    (v : (⟨2, ![E, 1]⟩ : Shape).Idx → α) (e : Fin E) (o : Fin C) :
    broadcastInDim ⟨2, ![E, C]⟩ ![0, 1] h v (ix2 e o) = v (ix2 e (0 : Fin 1)) :=
  broadcastInDim_apply _ h v (ix2 e o) (ix2 e (0 : Fin 1)) (fun a => match a with
    | ⟨0, _⟩ => by
      show e.val = if E = 1 then 0 else e.val
      split
      · have := e.isLt; omega
      · rfl
    | ⟨1, _⟩ => by
      show 0 = if (1 : Nat) = 1 then 0 else o.val
      rw [if_pos rfl])

/-- A vector as a one-row table reads, at (0, o), the vector at o. -/
theorem bcast_row_apply {C : Nat} (h : (⟨1, ![C]⟩ : Shape).BroadcastsInDim ⟨2, ![1, C]⟩ (![1] : Fin 1 → Fin 2))
    (v : (⟨1, ![C]⟩ : Shape).Idx → α) (u : Fin 1) (o : Fin C) :
    broadcastInDim ⟨2, ![1, C]⟩ ![1] h v (ix2 u o) = v (ix1 o) :=
  broadcastInDim_apply _ h v (ix2 u o) (ix1 o) (fun a => match a with
    | ⟨0, _⟩ => by
      show o.val = if C = 1 then 0 else o.val
      split
      · have := o.isLt; omega
      · rfl)

/-- A one-row table spread down N rows reads, at (r, o), the row at o. -/
theorem bcast_down_apply {N C : Nat} (h : (⟨2, ![1, C]⟩ : Shape).BroadcastsInDim ⟨2, ![N, C]⟩ (![0, 1] : Fin 2 → Fin 2))
    (v : (⟨2, ![1, C]⟩ : Shape).Idx → α) (r : Fin N) (o : Fin C) :
    broadcastInDim ⟨2, ![N, C]⟩ ![0, 1] h v (ix2 r o) = v (ix2 (0 : Fin 1) o) :=
  broadcastInDim_apply _ h v (ix2 r o) (ix2 (0 : Fin 1) o) (fun a => match a with
    | ⟨0, _⟩ => by
      show 0 = if (1 : Nat) = 1 then 0 else r.val
      rw [if_pos rfl]
    | ⟨1, _⟩ => by
      show o.val = if C = 1 then 0 else o.val
      split
      · have := o.isLt; omega
      · rfl)

end Broadcasts

/-- The positions column at (e, 0) is the node column at e. -/
theorem col_apply (v : IVec S405504 32) (e : Fin 405504) (u : Fin 1) : col v (ix2 e u) = v (ix1 e) :=
  bcast_col_apply bcast_S405504_S405504x1_0 v e u

/-- The row a gather reads for a position word: the word as a signed integer, clamped into the table's rows. -/
def clampRow (v : BitVec 32) : Fin 12288 := ⟨min v.toInt.toNat (12288 - 1), by omega⟩

/-- A position word that is a row number reads that row. -/
theorem clampRow_val_of_lt (v : BitVec 32) (h0 : 0 ≤ v.toInt) (h1 : v.toInt < 12288) :
    ((clampRow v).val : Int) = v.toInt := by
  unfold clampRow
  show ((min v.toInt.toNat (12288 - 1) : Nat) : Int) = v.toInt
  omega

/-! ## The operations of a layer, each read at an entry -/

/-- An entrywise sum at an entry. -/
theorem addf_apply {s : Shape} (X Y : FVec Ideal s .f32) (j : s.Idx) : addf X Y j = (X j : EReal) + Y j := rfl

/-- An entrywise product at an entry. -/
theorem mulf_apply {s : Shape} (X Y : FVec Ideal s .f32) (j : s.Idx) : mulf X Y j = (X j : EReal) * Y j := rfl

/-- The zero constant, anywhere. -/
theorem zero_const_apply (j : S_.Idx) : constant (F := Ideal) S_ .f32 0x00000000#32 j = (0 : EReal) :=
  Ideal.ofBits_zero_f32

/-- The accumulating scatter is, at the exact instance, the exact sum. -/
theorem scatterAdd_ideal {s si u : Shape} (d : ScatterDims s si u) (X : FVec Ideal s .f32) (I : IVec si 32)
    (U : FVec Ideal u .f32) : Host.scatterAdd d X I U = Ideal.hostScatterAdd d X I U := rfl

theorem sdims64 : scatter_S12288x64_S405504x1_S405504x64_1_0_0_1
    = Cert.Lib.rowScatterDims 12288 64 405504 scatter_S12288x64_S405504x1_S405504x64_1_0_0_1_wf := rfl

theorem gdims64 : gather_S12288x64_S405504x1_S405504x64_1_0_n_n_0_1_164
    = Cert.Lib.rowGatherDims 12288 64 405504 gather_S12288x64_S405504x1_S405504x64_1_0_n_n_0_1_164_wf := rfl

/-- The layer's row gather at (e, o): the table's row the position word of e names, clamped, at o. -/
theorem gather64_apply (hw : FVec Ideal S12288x64 .f32) (I : IVec S405504x1 32) (e : Fin 405504) (o : Fin 64) :
    Host.gather gather_S12288x64_S405504x1_S405504x64_1_0_n_n_0_1_164 hw I (ix2 e o)
      = hw (ix2 (clampRow (I (ix2 e (0 : Fin 1)))) o) := by
  rw [gdims64]
  exact Cert.Lib.gather_rows_apply (by decide) _ hw I e o

/-- What edge e adds at feature o: its source's row at o, times its weight. -/
theorem msg64_apply (sW : IVec S405504 32) (nrm : FVec Ideal S405504 .f32) (hw : FVec Ideal S12288x64 .f32)
    (e : Fin 405504) (o : Fin 64) :
    mulf (Host.gather gather_S12288x64_S405504x1_S405504x64_1_0_n_n_0_1_164 hw (col sW))
        (broadcastInDim S405504x64 ![0, 1] bcast_S405504x1_S405504x64_0_1
          (broadcastInDim S405504x1 ![0] bcast_S405504_S405504x1_0 nrm)) (ix2 e o)
      = (hw (ix2 (clampRow (sW (ix1 e))) o) : EReal) * nrm (ix1 e) := by
  rw [mulf_apply, gather64_apply, col_apply, bcast_across_apply, bcast_col_apply]

/-! ## The layer on 64 features -/

/-- THE LAYER READ AT (r, o). -/
theorem refConv64_apply (dS sW : IVec S405504 32) (nrm : FVec Ideal S405504 .f32) (hw : FVec Ideal S12288x64 .f32)
    (b : FVec Ideal S64 .f32) (r : Fin 12288) (o : Fin 64) :
    refConv64 dS sW nrm hw b (ix2 r o)
      = ((0 : EReal) + ∑ e : Fin 405504,
          if (dS (ix1 e)).toInt = (r.val : Int) then (hw (ix2 (clampRow (sW (ix1 e))) o) : EReal) * nrm (ix1 e) else 0)
        + b (ix1 o) := by
  unfold refConv64
  rw [addf_apply, scatterAdd_ideal, sdims64, Cert.Lib.scatterAdd_rows_apply, bcast_down_apply, bcast_row_apply,
    bcast_scalar_apply, zero_const_apply]
  refine congrArg (fun s : EReal => ((0 : EReal) + s) + b (ix1 o)) (Finset.sum_congr rfl fun e _ => ?_)
  rw [col_apply, msg64_apply]

/-! ## The layer on 500 features -/

theorem sdims500 : scatter_S12288x500_S405504x1_S405504x500_1_0_0_1
    = Cert.Lib.rowScatterDims 12288 500 405504 scatter_S12288x500_S405504x1_S405504x500_1_0_0_1_wf := rfl

theorem gdims500 : gather_S12288x500_S405504x1_S405504x500_1_0_n_n_0_1_1500
    = Cert.Lib.rowGatherDims 12288 500 405504 gather_S12288x500_S405504x1_S405504x500_1_0_n_n_0_1_1500_wf := rfl

/-- The layer's row gather at (e, o): the table's row the position word of e names, clamped, at o. -/
theorem gather500_apply (hw : FVec Ideal S12288x500 .f32) (I : IVec S405504x1 32) (e : Fin 405504) (o : Fin 500) :
    Host.gather gather_S12288x500_S405504x1_S405504x500_1_0_n_n_0_1_1500 hw I (ix2 e o)
      = hw (ix2 (clampRow (I (ix2 e (0 : Fin 1)))) o) := by
  rw [gdims500]
  exact Cert.Lib.gather_rows_apply (by decide) _ hw I e o

/-- What edge e adds at feature o: its source's row at o, times its weight. -/
theorem msg500_apply (sW : IVec S405504 32) (nrm : FVec Ideal S405504 .f32) (hw : FVec Ideal S12288x500 .f32)
    (e : Fin 405504) (o : Fin 500) :
    mulf (Host.gather gather_S12288x500_S405504x1_S405504x500_1_0_n_n_0_1_1500 hw (col sW))
        (broadcastInDim S405504x500 ![0, 1] bcast_S405504x1_S405504x500_0_1
          (broadcastInDim S405504x1 ![0] bcast_S405504_S405504x1_0 nrm)) (ix2 e o)
      = (hw (ix2 (clampRow (sW (ix1 e))) o) : EReal) * nrm (ix1 e) := by
  rw [mulf_apply, gather500_apply, col_apply, bcast_across_apply, bcast_col_apply]

/-- THE LAYER READ AT (r, o). -/
theorem refConv500_apply (dS sW : IVec S405504 32) (nrm : FVec Ideal S405504 .f32) (hw : FVec Ideal S12288x500 .f32)
    (b : FVec Ideal S500 .f32) (r : Fin 12288) (o : Fin 500) :
    refConv500 dS sW nrm hw b (ix2 r o)
      = ((0 : EReal) + ∑ e : Fin 405504,
          if (dS (ix1 e)).toInt = (r.val : Int) then (hw (ix2 (clampRow (sW (ix1 e))) o) : EReal) * nrm (ix1 e) else 0)
        + b (ix1 o) := by
  unfold refConv500
  rw [addf_apply, scatterAdd_ideal, sdims500, Cert.Lib.scatterAdd_rows_apply, bcast_down_apply, bcast_row_apply,
    bcast_scalar_apply, zero_const_apply]
  refine congrArg (fun s : EReal => ((0 : EReal) + s) + b (ix1 o)) (Finset.sum_congr rfl fun e _ => ?_)
  rw [col_apply, msg500_apply]

/-- The rectifier at an entry: the larger of the entry and zero. -/
theorem relu64_apply (y : FVec Ideal S12288x64 .f32) (j : S12288x64.Idx) : relu64 y j = max (y j : EReal) 0 := by
  unfold relu64
  show max (y j : EReal) (broadcastInDim S12288x64 ![] bcast_S_S12288x64 (constant (F := Ideal) S_ .f32 0x00000000#32) j) = _
  rw [bcast_scalar_apply, zero_const_apply]

end Cert.ReferenceIdeal.RefValue

end
-- ==== Proof.LibAdjacency.lean ====
/-
  The algebra that joins a dense normalized adjacency matrix to the edge list it was scattered from.

  A graph convolution sums, into each node i, the features of the sources of the edges into i, each scaled by the
  edge's weight. One program does it edge by edge: gather the source rows, scale, scatter-add into the destination
  rows. Another first scatters the weights into a dense matrix A, A (i, j) the sum of the weights of the edges from
  j to i, and then multiplies A against the features. With nonnegative weights the two agree at the exact
  (extended-real) values whatever the features are, infinite ones included: multiplication distributes over a sum of
  nonnegative terms, 0 times anything is 0, and addition is commutative and associative, so the double sum over
  (node, edge) regroups by fibres.

  Here: that identity over finite index types; the host's accumulating scatters (of scalars at pairs of positions,
  of scalars at positions, of rows at positions) and gathers (of rows, of scalars) read at an index, also in the form
  they take when every position names an entry of its operand; and the signs: degrees, their inverse square roots
  and the edge weights are nonnegative.
-/
import Idealize.ShloMosaic.PureOps.Ideal
import Idealize.ShloMosaic.Lib.ValueIdx
import Idealize.ShloMosaic.Lib.ValueIdxRank1
import proofs.«420824_j61512521613989_2_alg».proof.Proof.LibScatterAdd
import proofs.«420824_j61512521613989_2_alg».proof.Proof.LibGatherRows
import Mathlib.Data.EReal.Operations
import Mathlib.Algebra.Order.BigOperators.Group.Finset

noncomputable section

namespace Cert.Lib

open Idealize.ShloMosaic Idealize.ShloMosaic.ValueIdx
open scoped BigOperators

/-! ## Sums of nonnegative extended reals against a factor -/

/-- A finite sum of nonnegative extended reals times a factor is the sum of the products: multiplication
    distributes over the sum of two nonnegative terms whatever the factor, and the partial sums stay nonnegative. -/
theorem sum_mul_of_nonneg {ι : Type*} (s : Finset ι) (f : ι → EReal) (hf : ∀ e ∈ s, 0 ≤ f e) (c : EReal) :
    (∑ e ∈ s, f e) * c = ∑ e ∈ s, f e * c := by
  classical
  induction s using Finset.induction_on with
  | empty => simp
  | insert a s ha ih =>
    rw [Finset.sum_insert ha, Finset.sum_insert ha,
      EReal.right_distrib_of_nonneg (hf a (Finset.mem_insert_self a s))
        (Finset.sum_nonneg (fun e he => hf e (Finset.mem_insert_of_mem he))),
      ih (fun e he => hf e (Finset.mem_insert_of_mem he))]

/-- THE DENSE MATRIX AGAINST A VECTOR IS THE EDGE SUM. Row i of the matrix whose entry (i, j) collects the
    nonnegative weights of the edges from j to i, against a vector h, is the sum over the edges into i of h at the
    edge's source times the edge's weight. The vector's entries are arbitrary extended reals. -/
theorem adj_matvec {E N : Nat} (w : Fin E → EReal) (hw : ∀ e, 0 ≤ w e) (sIdx dIdx : Fin E → Fin N)
    (h : Fin N → EReal) (i : Fin N) :
    ∑ j : Fin N, (∑ e : Fin E, if dIdx e = i ∧ sIdx e = j then w e else 0) * h j
      = ∑ e : Fin E, if dIdx e = i then h (sIdx e) * w e else 0 := by
  have h1 : ∀ j : Fin N, (∑ e : Fin E, if dIdx e = i ∧ sIdx e = j then w e else 0) * h j
      = ∑ e : Fin E, if dIdx e = i ∧ sIdx e = j then w e * h j else 0 := by
    intro j
    rw [sum_mul_of_nonneg _ _ (fun e _ => by split_ifs; exacts [hw e, le_rfl])]
    refine Finset.sum_congr rfl (fun e _ => ?_)
    split_ifs
    · rfl
    · exact zero_mul _
  rw [Finset.sum_congr rfl (fun j _ => h1 j), Finset.sum_comm]
  refine Finset.sum_congr rfl (fun e _ => ?_)
  by_cases hd : dIdx e = i
  · simp only [hd, true_and, if_true]
    rw [Finset.sum_ite_eq]
    simp only [Finset.mem_univ, if_true]
    exact mul_comm _ _
  · simp only [hd, false_and, if_false]
    exact Finset.sum_const_zero

/-- The same with both accumulations started from zero, as a scatter into a zero array reads. -/
theorem adj_matvec_zero_add {E N : Nat} (w : Fin E → EReal) (hw : ∀ e, 0 ≤ w e) (sIdx dIdx : Fin E → Fin N)
    (h : Fin N → EReal) (i : Fin N) :
    ∑ j : Fin N, (0 + ∑ e : Fin E, if dIdx e = i ∧ sIdx e = j then w e else 0) * h j
      = 0 + ∑ e : Fin E, if dIdx e = i then h (sIdx e) * w e else 0 := by
  simp only [zero_add]
  exact adj_matvec w hw sIdx dIdx h i

/-- The same over the fibres written as filtered sums. -/
theorem adj_matvec_filter {E N : Nat} (w : Fin E → EReal) (hw : ∀ e, 0 ≤ w e) (sIdx dIdx : Fin E → Fin N)
    (h : Fin N → EReal) (i : Fin N) :
    ∑ j : Fin N, (∑ e ∈ Finset.univ.filter (fun e => dIdx e = i ∧ sIdx e = j), w e) * h j
      = ∑ e ∈ Finset.univ.filter (fun e => dIdx e = i), h (sIdx e) * w e := by
  simp only [Finset.sum_filter]
  exact adj_matvec w hw sIdx dIdx h i

/-! ## A scatter of scalars at pairs of positions: operand [N, M], positions [E, 2], updates [E] -/

/-- The dimension numbers of a scatter of scalars into a matrix: operand [N, M], start indices [E, 2] (column 0 the
    row, column 1 the column), updates [E]; both operand axes inserted and named by the map. -/
abbrev pairScatterDims (N M E : Nat) (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-- On operand axis 0 the window of update j starts at column 0 of position j's index row, read signed. -/
theorem pair_start0 {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) :
    (pairScatterDims N M E wf).start j idx (0 : Fin 2) = (idx (ix2 (j (0 : Fin 1)) (0 : Fin 2))).toInt := by
  unfold ScatterDims.start
  rw [dif_pos (show (0 : Fin 2) ∈ (pairScatterDims N M E wf).scatterDimsToOperandDims from by simp)]
  have hsi : (pairScatterDims N M E wf).siIdx j ⟨List.idxOf (0 : Fin 2) (pairScatterDims N M E wf).scatterDimsToOperandDims,
      List.idxOf_lt_length_iff.2 (by simp)⟩ = ix2 (j (0 : Fin 1)) (0 : Fin 2) := by
    funext b; refine Fin.ext ?_
    match b with
    | ⟨0, _⟩ => rfl
    | ⟨1, _⟩ => rfl
  rw [hsi]
  rfl

/-- On operand axis 1 it starts at column 1 of the index row. -/
theorem pair_start1 {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) :
    (pairScatterDims N M E wf).start j idx (1 : Fin 2) = (idx (ix2 (j (0 : Fin 1)) (1 : Fin 2))).toInt := by
  unfold ScatterDims.start
  rw [dif_pos (show (1 : Fin 2) ∈ (pairScatterDims N M E wf).scatterDimsToOperandDims from by simp)]
  have hsi : (pairScatterDims N M E wf).siIdx j ⟨List.idxOf (1 : Fin 2) (pairScatterDims N M E wf).scatterDimsToOperandDims,
      List.idxOf_lt_length_iff.2 (by simp)⟩ = ix2 (j (0 : Fin 1)) (1 : Fin 2) := by
    funext b; refine Fin.ext ?_
    match b with
    | ⟨0, _⟩ => rfl
    | ⟨1, _⟩ => rfl
  rw [hsi]
  rfl

/-- Both operand axes are inserted: the window coordinate is 0 on each. -/
theorem pair_window {N M E : Nat} (wf : ScatterDims.WF ⟨2, ![N, M]⟩ ⟨2, ![E, 2]⟩ ⟨1, ![E]⟩ [] [0, 1] [0, 1] 1)
    (j : (⟨1, ![E]⟩ : Shape).Idx) (a : Fin 2) :
    (pairScatterDims N M E wf).window j a = 0 := by
  unfold ScatterDims.window
  rw [dif_neg]
  intro h
  match a with
  | ⟨0, _⟩ => simp [ScatterDims.sKept, Shape.kept] at h
  | ⟨1, _⟩ => simp [ScatterDims.sKept, Shape.kept] at h

/-- Update j lands on entry (r, c) exactly when its index row, read signed, is (r, c). -/
theorem pair_resultIdx {N M E w : Nat} (wf : ScatterDims.WF ⟨2, ![N, M]⟩ ⟨2, ![E, 2]⟩ ⟨1, ![E]⟩ [] [0, 1] [0, 1] 1)
    (j : (⟨1, ![E]⟩ : Shape).Idx) (idx : IVec ⟨2, ![E, 2]⟩ w) (r : Fin N) (c : Fin M) :
    (pairScatterDims N M E wf).resultIdx? j idx = some (ix2 r c)
      ↔ (idx (ix2 (j (0 : Fin 1)) (0 : Fin 2))).toInt = (r.val : Int)
        ∧ (idx (ix2 (j (0 : Fin 1)) (1 : Fin 2))).toInt = (c.val : Int) := by
  have hs0 := pair_start0 wf j idx
  have hs1 := pair_start1 wf j idx
  have hw0 := pair_window wf j (0 : Fin 2)
  have hw1 := pair_window wf j (1 : Fin 2)
  unfold ScatterDims.resultIdx?
  constructor
  · intro h
    split at h
    · rename_i hc
      have hf := Option.some.inj h
      have h0 := congrArg Fin.val (congrFun hf (0 : Fin 2))
      have h1 := congrArg Fin.val (congrFun hf (1 : Fin 2))
      have hc0 := hc (0 : Fin 2)
      have hc1 := hc (1 : Fin 2)
      simp only [hs0, hw0] at h0 hc0
      simp only [hs1, hw1] at h1 hc1
      change ((idx (ix2 (j (0 : Fin 1)) (0 : Fin 2))).toInt + ((0 : Nat) : Int)).toNat = r.val at h0
      change ((idx (ix2 (j (0 : Fin 1)) (1 : Fin 2))).toInt + ((0 : Nat) : Int)).toNat = c.val at h1
      exact ⟨by omega, by omega⟩
    · exact absurd h (by simp)
  · rintro ⟨h, hcol⟩
    have hc : ∀ a : Fin 2, 0 ≤ (pairScatterDims N M E wf).start j idx a + (pairScatterDims N M E wf).window j a ∧
        (pairScatterDims N M E wf).start j idx a + (pairScatterDims N M E wf).window j a < (⟨2, ![N, M]⟩ : Shape).size a := by
      intro a
      match a with
      | ⟨0, _⟩ =>
        show 0 ≤ (pairScatterDims N M E wf).start j idx (0 : Fin 2) + (pairScatterDims N M E wf).window j (0 : Fin 2) ∧
          (pairScatterDims N M E wf).start j idx (0 : Fin 2) + (pairScatterDims N M E wf).window j (0 : Fin 2) < (N : Int)
        rw [hs0, hw0, h]
        have := r.isLt
        omega
      | ⟨1, _⟩ =>
        show 0 ≤ (pairScatterDims N M E wf).start j idx (1 : Fin 2) + (pairScatterDims N M E wf).window j (1 : Fin 2) ∧
          (pairScatterDims N M E wf).start j idx (1 : Fin 2) + (pairScatterDims N M E wf).window j (1 : Fin 2) < (M : Int)
        rw [hs1, hw1, hcol]
        have := c.isLt
        omega
    rw [dif_pos hc]
    congr 1
    funext a
    refine Fin.ext ?_
    match a with
    | ⟨0, _⟩ =>
      show ((pairScatterDims N M E wf).start j idx (0 : Fin 2) + (pairScatterDims N M E wf).window j (0 : Fin 2)).toNat = r.val
      rw [hs0, hw0, h]
      omega
    | ⟨1, _⟩ =>
      show ((pairScatterDims N M E wf).start j idx (1 : Fin 2) + (pairScatterDims N M E wf).window j (1 : Fin 2)).toNat = c.val
      rw [hs1, hw1, hcol]
      omega

/-- THE PAIR SCATTER READ AT (r, c): the operand's entry plus the updates whose index row reads exactly (r, c). -/
theorem scatterAdd_pair_apply {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (r : Fin N) (c : Fin M) :
    Ideal.hostScatterAdd (pairScatterDims N M E wf) x idx upd (ix2 r c)
      = x (ix2 r c) + ∑ e : Fin E, if (idx (ix2 e (0 : Fin 2))).toInt = (r.val : Int) ∧ (idx (ix2 e (1 : Fin 2))).toInt = (c.val : Int)
          then upd (ix1 e) else 0 := by
  unfold Ideal.hostScatterAdd
  congr 1
  rw [Finset.sum_filter, ← Equiv.sum_comp (idxEquiv1 (n := E)).symm]
  refine Finset.sum_congr rfl (fun e _ => ?_)
  show (if (pairScatterDims N M E wf).resultIdx? (ix1 e) idx = some (ix2 r c) then upd (ix1 e) else 0) = _
  by_cases h : (idx (ix2 e (0 : Fin 2))).toInt = (r.val : Int) ∧ (idx (ix2 e (1 : Fin 2))).toInt = (c.val : Int)
  · rw [if_pos h, if_pos ((pair_resultIdx wf (ix1 e) idx r c).mpr h)]
  · rw [if_neg h, if_neg (fun h' => h ((pair_resultIdx wf (ix1 e) idx r c).mp h'))]

/-- The same when every index row names an entry of the operand: position e's row is (dIdx e, sIdx e). -/
theorem scatterAdd_pair_apply_fin {N M E w : Nat} (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (dIdx : Fin E → Fin N) (sIdx : Fin E → Fin M)
    (hd : ∀ e, (idx (ix2 e (0 : Fin 2))).toInt = ((dIdx e).val : Int))
    (hs : ∀ e, (idx (ix2 e (1 : Fin 2))).toInt = ((sIdx e).val : Int))
    (r : Fin N) (c : Fin M) :
    Ideal.hostScatterAdd (pairScatterDims N M E wf) x idx upd (ix2 r c)
      = x (ix2 r c) + ∑ e : Fin E, if dIdx e = r ∧ sIdx e = c then upd (ix1 e) else 0 := by
  rw [scatterAdd_pair_apply]
  congr 1
  refine Finset.sum_congr rfl (fun e _ => ?_)
  rw [hd e, hs e]
  simp only [Nat.cast_inj, Fin.val_inj]

/-! ## Reads when every position names an entry of the operand -/

/-- The row scatter read at (r, o) when position e names row dIdx e. -/
theorem scatterAdd_rows_apply_fin {N C E w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (dIdx : Fin E → Fin N) (hd : ∀ e, (idx (ix2 e (0 : Fin 1))).toInt = ((dIdx e).val : Int))
    (r : Fin N) (o : Fin C) :
    Ideal.hostScatterAdd (rowScatterDims N C E wf) x idx upd (ix2 r o)
      = x (ix2 r o) + ∑ e : Fin E, if dIdx e = r then upd (ix2 e o) else 0 := by
  rw [scatterAdd_rows_apply]
  congr 1
  refine Finset.sum_congr rfl (fun e _ => ?_)
  rw [hd e]
  simp only [Nat.cast_inj, Fin.val_inj]

/-- The vector scatter read at r when position e names entry dIdx e. -/
theorem scatterAdd_vec_apply_fin {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (dIdx : Fin E → Fin N) (hd : ∀ e, (idx (ix2 e (0 : Fin 1))).toInt = ((dIdx e).val : Int)) (r : Fin N) :
    Ideal.hostScatterAdd (vecScatterDims N E wf) x idx upd (ix1 r)
      = x (ix1 r) + ∑ e : Fin E, if dIdx e = r then upd (ix1 e) else 0 := by
  rw [scatterAdd_vec_apply]
  congr 1
  refine Finset.sum_congr rfl (fun e _ => ?_)
  rw [hd e]
  simp only [Nat.cast_inj, Fin.val_inj]

/-- The row gather read at (e, o) when position e names row sIdx e: the clamp does nothing. -/
theorem gather_rows_apply_fin {α : Type} {N C E w : Nat}
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w)
    (sIdx : Fin E → Fin N) (hs : ∀ e, (idx (ix2 e (0 : Fin 1))).toInt = ((sIdx e).val : Int)) (e : Fin E) (o : Fin C) :
    Host.gather (rowGatherDims N C E wf) x idx (ix2 e o) = x (ix2 (sIdx e) o) := by
  have hN : 0 < N := Nat.lt_of_le_of_lt (Nat.zero_le _) (sIdx e).isLt
  rw [gather_rows_apply hN]
  congr 2
  refine Fin.ext ?_
  show min (idx (ix2 e (0 : Fin 1))).toInt.toNat (N - 1) = (sIdx e).val
  rw [hs e]
  have := (sIdx e).isLt
  omega

/-! ## A gather of scalars from a vector: operand [N], positions [E, 1], result [E] -/

/-- The dimension numbers of a gather of scalars from a vector: operand [N], start indices [E, 1], result [E]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT e: the vector at position e's start index read signed and clamped into [0, N − 1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e (0 : Fin 1))).toInt.toNat (N - 1), by omega⟩ : Fin N)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The vector gather read at e when position e names entry sIdx e: the clamp does nothing. -/
theorem gather_vec_apply_fin {α : Type} {N E w : Nat}
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w)
    (sIdx : Fin E → Fin N) (hs : ∀ e, (idx (ix2 e (0 : Fin 1))).toInt = ((sIdx e).val : Int)) (e : Fin E) :
    Host.gather (vecGatherDims N E wf) x idx (ix1 e) = x (ix1 (sIdx e)) := by
  have hN : 0 < N := Nat.lt_of_le_of_lt (Nat.zero_le _) (sIdx e).isLt
  rw [gather_vec_apply hN]
  congr 2
  refine Fin.ext ?_
  show min (idx (ix2 e (0 : Fin 1))).toInt.toNat (N - 1) = (sIdx e).val
  rw [hs e]
  have := (sIdx e).isLt
  omega

/-! ## Signs: degrees, their inverse square roots, and the edge weights -/

/-- The exact inverse square root of a nonnegative extended real is nonnegative (it is ⊤ at 0 and 0 at ⊤). -/
theorem rsqrt_nonneg {x : EReal} (hx : 0 ≤ x) : 0 ≤ Ideal.rsqrt x := by
  induction x using EReal.rec with
  | bot => exact absurd hx (by simp)
  | top => simp
  | coe r =>
    have hr : 0 ≤ r := by exact_mod_cast hx
    rw [Ideal.rsqrt_coe, if_neg (not_lt.mpr hr)]
    split_ifs
    · exact le_top
    · exact_mod_cast inv_nonneg.mpr (Real.sqrt_nonneg r)

/-- A product of two such roots is nonnegative. -/
theorem rsqrt_mul_rsqrt_nonneg {x y : EReal} (hx : 0 ≤ x) (hy : 0 ≤ y) : 0 ≤ Ideal.rsqrt x * Ideal.rsqrt y :=
  mul_nonneg (rsqrt_nonneg hx) (rsqrt_nonneg hy)

/-- A sum of nonnegative terms over a condition, started from zero, is nonnegative. -/
theorem zero_add_sum_ite_nonneg {ι : Type*} [Fintype ι] (P : ι → Prop) [DecidablePred P] (f : ι → EReal)
    (hf : ∀ e, 0 ≤ f e) : (0 : EReal) ≤ 0 + ∑ e : ι, if P e then f e else 0 := by
  rw [zero_add]
  exact Finset.sum_nonneg (fun e _ => by split_ifs; exacts [hf e, le_rfl])

/-- An accumulating scatter of nonnegative updates into a nonnegative operand is nonnegative at every entry,
    whatever its dimension numbers and positions. -/
theorem hostScatterAdd_nonneg {s si su : Shape} (d : ScatterDims s si su) {w : Nat} (x : s.Idx → EReal)
    (hx : ∀ i, 0 ≤ x i) (idx : IVec si w) (upd : su.Idx → EReal) (hu : ∀ j, 0 ≤ upd j) (i : s.Idx) :
    0 ≤ Ideal.hostScatterAdd d x idx upd i := by
  unfold Ideal.hostScatterAdd
  exact add_nonneg (hx i) (Finset.sum_nonneg (fun j _ => hu j))

/-- A gather only reads entries of its operand: of a nonnegative operand it is nonnegative. -/
theorem gather_nonneg {s si t : Shape} (d : GatherDims s si t) {w : Nat} (x : s.Idx → EReal) (hx : ∀ i, 0 ≤ x i)
    (idx : IVec si w) (j : t.Idx) : 0 ≤ Host.gather d x idx j := by
  unfold Host.gather
  exact hx _

/-- THE EDGE WEIGHTS ARE NONNEGATIVE. With the degrees an accumulating scatter of nonnegative updates into a
    nonnegative array, the weight of an edge, the product of the inverse square roots of two gathered degrees, is
    nonnegative: whatever the dimension numbers and whatever the positions scattered to and gathered from. -/
theorem norm_nonneg {s si su gi t : Shape} {w w' : Nat} (sd : ScatterDims s si su) (gd : GatherDims s gi t)
    (x : s.Idx → EReal) (hx : ∀ i, 0 ≤ x i) (didx : IVec si w) (upd : su.Idx → EReal) (hu : ∀ j, 0 ≤ upd j)
    (i1 i2 : IVec gi w') (j : t.Idx) :
    0 ≤ Host.gather gd (fun r => Ideal.rsqrt (Ideal.hostScatterAdd sd x didx upd r)) i1 j
        * Host.gather gd (fun r => Ideal.rsqrt (Ideal.hostScatterAdd sd x didx upd r)) i2 j :=
  mul_nonneg
    (gather_nonneg gd _ (fun r => rsqrt_nonneg (hostScatterAdd_nonneg sd x hx didx upd hu r)) i1 j)
    (gather_nonneg gd _ (fun r => rsqrt_nonneg (hostScatterAdd_nonneg sd x hx didx upd hu r)) i2 j)

/-- The same over the host operations as a program prints them, at the exact instance: the degrees
    `Host.scatterAdd`, their roots `Host.rsqrt`, the two gathers and the product `mulf`. -/
theorem norm_nonneg_printed {φ : FTy} {s si su gi t : Shape} {w w' : Nat} (sd : ScatterDims s si su) (gd : GatherDims s gi t)
    (x : FVec Ideal s φ) (hx : ∀ i, (0 : EReal) ≤ x i) (didx : IVec si w) (upd : FVec Ideal su φ) (hu : ∀ j, (0 : EReal) ≤ upd j)
    (i1 i2 : IVec gi w') (j : t.Idx) :
    (0 : EReal) ≤ mulf (Host.gather gd (Host.rsqrt (Host.scatterAdd sd x didx upd)) i1)
        (Host.gather gd (Host.rsqrt (Host.scatterAdd sd x didx upd)) i2) j :=
  norm_nonneg sd gd x hx didx upd hu i1 i2 j

end Cert.Lib

end
-- ==== Proof.RefEdges.lean ====
/-
  The edge columns as functions into the nodes, and a layer read through them.

  When every given source and destination, read as a signed integer, is a node number, so is every entry of the two
  columns with the self loops appended.  Then moving negative entries up changes nothing, the clamp of a gather
  changes nothing, and no scattered row falls outside the table: each column is a function from the edges to the
  nodes, and entry (r, o) of a layer's result is zero, plus, over the edges into r, entry o of the source node's row
  times the edge's weight, plus entry o of the bias.

  The edge weights are nonnegative whatever the columns hold: each is a product of two inverse square roots of
  degrees, and a degree is a count.
-/
import proofs.«420824_j61512521613989_2_alg».proof.Proof.RefConvIdx
import proofs.«420824_j61512521613989_2_alg».proof.Proof.IndexRange
import proofs.«420824_j61512521613989_2_alg».proof.Proof.LibAdjacency

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-- Every entry of a given end column, read signed, is a node number. -/
abbrev InRange (v : IVec S393216 32) : Prop :=
  ∀ e : Fin 393216, 0 ≤ (v (ix1 e)).toInt ∧ (v (ix1 e)).toInt < 12288

/-! ## The columns with the self loops appended -/

/-- With the self loops appended, every entry is still a node number. -/
theorem withLoops_range (v : IVec S393216 32) (hv : InRange v) (e : Fin 405504) :
    0 ≤ (withLoops v (ix1 e)).toInt ∧ (withLoops v (ix1 e)).toInt < ((12288 : Nat) : Int) := by
  unfold withLoops
  exact Cert.IndexRange.withLoops_range concatenates_S393216_S12288_S405504_d0 v hv e

/-- Moving the negative entries up changes nothing: there are none. -/
theorem wrap_withLoops (v : IVec S393216 32) (hv : InRange v) : wrap (withLoops v) = withLoops v := by
  unfold wrap
  exact Cert.IndexRange.wrap_eq_self _ _ _ (fun i => bcast_scalar_apply bcast_S_S405504 _ i)
    (fun i => by rw [eq_ix1 i]; exact (withLoops_range v hv (i 0)).1)

/-- The sources a layer gathers are the sources with the self loops. -/
theorem srcW_eq (src : IVec S393216 32) (hs : InRange src) : srcW src = srcSl src := wrap_withLoops src hs

/-- Likewise the destinations. -/
theorem dstW_eq (dst : IVec S393216 32) (hd : InRange dst) : dstW dst = dstSl dst := wrap_withLoops dst hd

/-- The source node of each edge. -/
def sIdx (src : IVec S393216 32) (hs : InRange src) : Fin 405504 → Fin 12288 :=
  Cert.IndexRange.nodeOf (srcSl src) (withLoops_range src hs)

/-- The destination node of each edge. -/
def dIdx (dst : IVec S393216 32) (hd : InRange dst) : Fin 405504 → Fin 12288 :=
  Cert.IndexRange.nodeOf (dstSl dst) (withLoops_range dst hd)

/-- The source column's entry, read signed, is the source node. -/
theorem srcSl_toInt (src : IVec S393216 32) (hs : InRange src) (e : Fin 405504) :
    (srcSl src (ix1 e)).toInt = ((sIdx src hs e).val : Int) :=
  Cert.IndexRange.nodeOf_spec (srcSl src) (withLoops_range src hs) e

/-- The destination column's entry, read signed, is the destination node. -/
theorem dstSl_toInt (dst : IVec S393216 32) (hd : InRange dst) (e : Fin 405504) :
    (dstSl dst (ix1 e)).toInt = ((dIdx dst hd e).val : Int) :=
  Cert.IndexRange.nodeOf_spec (dstSl dst) (withLoops_range dst hd) e

/-- The row a layer's gather reads for edge e is the source node's. -/
theorem clampRow_srcW (src : IVec S393216 32) (hs : InRange src) (e : Fin 405504) :
    clampRow (srcW src (ix1 e)) = sIdx src hs e := by
  rw [srcW_eq src hs]
  refine Fin.ext ?_
  have h := clampRow_val_of_lt (srcSl src (ix1 e)) (withLoops_range src hs e).1 (withLoops_range src hs e).2
  rw [srcSl_toInt src hs e] at h
  exact_mod_cast h

/-- Edge e's row lands on row r exactly when r is its destination node. -/
theorem dstSl_eq_iff (dst : IVec S393216 32) (hd : InRange dst) (e : Fin 405504) (r : Fin 12288) :
    (dstSl dst (ix1 e)).toInt = (r.val : Int) ↔ dIdx dst hd e = r := by
  rw [dstSl_toInt dst hd e]
  constructor
  · intro h; exact Fin.ext (by exact_mod_cast h)
  · intro h; rw [h]

/-! ## A layer read through the node functions -/

/-- THE 64-FEATURE LAYER AT (r, o), over the edges into r. -/
theorem layer64_apply (src dst : IVec S393216 32) (hs : InRange src) (hd : InRange dst)
    (hw : FVec Ideal S12288x64 .f32) (b : FVec Ideal S64 .f32) (r : Fin 12288) (o : Fin 64) :
    layer64 src dst hw b (ix2 r o)
      = ((0 : EReal) + ∑ e : Fin 405504,
          if dIdx dst hd e = r then (hw (ix2 (sIdx src hs e) o) : EReal) * norm src dst (ix1 e) else 0)
        + b (ix1 o) := by
  unfold layer64
  rw [refConv64_apply]
  refine congrArg (fun s : EReal => ((0 : EReal) + s) + b (ix1 o)) (Finset.sum_congr rfl fun e _ => ?_)
  rw [clampRow_srcW src hs e]
  exact if_congr (dstSl_eq_iff dst hd e r) rfl rfl

/-- THE 500-FEATURE LAYER AT (r, o), over the edges into r. -/
theorem layer500_apply (src dst : IVec S393216 32) (hs : InRange src) (hd : InRange dst)
    (hw : FVec Ideal S12288x500 .f32) (b : FVec Ideal S500 .f32) (r : Fin 12288) (o : Fin 500) :
    layer500 src dst hw b (ix2 r o)
      = ((0 : EReal) + ∑ e : Fin 405504,
          if dIdx dst hd e = r then (hw (ix2 (sIdx src hs e) o) : EReal) * norm src dst (ix1 e) else 0)
        + b (ix1 o) := by
  unfold layer500
  rw [refConv500_apply]
  refine congrArg (fun s : EReal => ((0 : EReal) + s) + b (ix1 o)) (Finset.sum_congr rfl fun e _ => ?_)
  rw [clampRow_srcW src hs e]
  exact if_congr (dstSl_eq_iff dst hd e r) rfl rfl

/-! ## The edge weights are nonnegative -/

/-- The one constant, anywhere. -/
theorem one_const_apply (j : S_.Idx) : constant (F := Ideal) S_ .f32 0x3F800000#32 j = (1 : EReal) := by
  show Ideal.ofBits .f32 0x3F800000#32 = 1
  simp [Ideal.ofBits, Ideal.ieee, -EReal.coe_mul]; norm_num

/-- A degree is a count and an edge's weight a product of two inverse square roots of degrees: nonnegative, whatever
    the columns hold. -/
theorem norm_nonneg (src dst : IVec S393216 32) (j : S405504.Idx) : (0 : EReal) ≤ norm src dst j := by
  unfold norm dis deg
  exact Cert.Lib.norm_nonneg_printed _ _ _
    (fun i => by rw [bcast_scalar_apply, zero_const_apply])
    _ _ (fun i => by rw [bcast_scalar_apply, one_const_apply]; exact zero_le_one) _ _ j

end Cert.ReferenceIdeal.RefValue

end
-- ==== Proof.BridgeCore.lean ====
/-
  The bridge between the two programs' graph convolutions.

  One program builds the dense normalised adjacency, the accumulating scatter of the edge weights at the
  (destination, source) pairs, and multiplies it against a feature table; the other gathers the source rows edge by
  edge, scales them and scatters them at the destinations. Where every given end is a node number, a row of the
  dense adjacency against a column of features, plus the bias, is the edge-list layer at that entry: both edge chains
  are the same terms, the adjacency's entry (r, j) collects the weights of the edges from j to r, the weights are
  nonnegative, and the sum over (node, edge) regroups by edges.
-/
import proofs.«420824_j61512521613989_2_alg».proof.Proof.HostGlue
import proofs.«420824_j61512521613989_2_alg».proof.Proof.RefEdges
import Idealize.ShloMosaic.Lib.IdealHost

noncomputable section

namespace Cert.KernelIdeal.Gen

open Idealize.ShloMosaic Idealize.ShloMosaic.ValueIdx
open scoped BigOperators

/-! ## The two programs' edge chains are the same terms -/

/-- The destinations with the self loops, as either program spells them. -/
theorem dstSlTerm_eq (dst : IVec S393216 32) :
    dstSlTerm (F := Ideal) dst = Cert.ReferenceIdeal.RefValue.dstSl dst := rfl

/-- The sources with the self loops, as either program spells them. -/
theorem srcSlTerm_eq (src : IVec S393216 32) :
    srcSlTerm (F := Ideal) src = Cert.ReferenceIdeal.RefValue.srcSl src := rfl

/-- The edge weights, as either program spells them. -/
theorem normTerm_eq (src dst : IVec S393216 32) :
    normTerm (F := Ideal) src dst = Cert.ReferenceIdeal.RefValue.norm src dst := rfl

/-- With every end a node number, wrapping the destinations changes nothing. -/
theorem wrapTerm_dst (dst : IVec S393216 32) (hd : Cert.ReferenceIdeal.RefValue.InRange dst) :
    wrapTerm (F := Ideal) (dstSlTerm (F := Ideal) dst) = Cert.ReferenceIdeal.RefValue.dstSl dst :=
  Cert.ReferenceIdeal.RefValue.dstW_eq dst hd

/-- … nor the sources. -/
theorem wrapTerm_src (src : IVec S393216 32) (hs : Cert.ReferenceIdeal.RefValue.InRange src) :
    wrapTerm (F := Ideal) (srcSlTerm (F := Ideal) src) = Cert.ReferenceIdeal.RefValue.srcSl src :=
  Cert.ReferenceIdeal.RefValue.srcW_eq src hs

/-! ## The dense adjacency at an entry -/

/-- The dense adjacency the regions read is, entry by entry, the accumulating scatter of the edge weights: the
    narrowing cast on top of it does nothing at the exact values. -/
theorem adjTerm_apply (src dst : IVec S393216 32) (r j : Fin 12288) :
    (adjTerm (F := Ideal) src dst (ix2 r j) : EReal)
      = Host.scatterAdd (F := Ideal) scatter_S12288x12288_S405504x2_S405504_n_01_01_1
          (broadcastInDim S12288x12288 ![] bcast_S_S12288x12288 (constant (F := Ideal) S_ .f32 0x00000000#32))
          (adjIdxTerm (F := Ideal) src dst) (normTerm (F := Ideal) src dst) (ix2 r j) := rfl

/-- That scatter is, at the exact instance, the exact sum, over the dimension numbers of a scatter of scalars at
    pairs of positions. -/
theorem scatterAdd_pair_ideal (x : FVec Ideal S12288x12288 .f32) (idx : IVec S405504x2 32) (u : FVec Ideal S405504 .f32)
    (r j : Fin 12288) :
    Host.scatterAdd (F := Ideal) scatter_S12288x12288_S405504x2_S405504_n_01_01_1 x idx u (ix2 r j)
      = Ideal.hostScatterAdd
          (Cert.Lib.pairScatterDims 12288 12288 405504 scatter_S12288x12288_S405504x2_S405504_n_01_01_1_wf)
          x idx u (ix2 r j) := rfl

/-- ENTRY (r, j) OF THE DENSE ADJACENCY: zero plus the weights of the edges from j to r. -/
theorem adj_entry (src dst : IVec S393216 32) (hs : Cert.ReferenceIdeal.RefValue.InRange src)
    (hd : Cert.ReferenceIdeal.RefValue.InRange dst) (r j : Fin 12288) :
    (adjTerm (F := Ideal) src dst (ix2 r j) : EReal)
      = 0 + ∑ e : Fin 405504,
          if Cert.ReferenceIdeal.RefValue.dIdx dst hd e = r ∧ Cert.ReferenceIdeal.RefValue.sIdx src hs e = j
          then (Cert.ReferenceIdeal.RefValue.norm src dst (ix1 e) : EReal) else 0 := by
  have hD : ∀ e : Fin 405504, (adjIdxTerm (F := Ideal) src dst (ix2 e (0 : Fin 2))).toInt
      = ((Cert.ReferenceIdeal.RefValue.dIdx dst hd e).val : Int) := by
    intro e
    unfold adjIdxTerm
    rw [wrapTerm_dst dst hd, wrapTerm_src src hs]
    exact Cert.IndexRange.nodeOf_pair0 bcast_S405504_S405504x1_0 concatenates_S405504x1_S405504x1_S405504x2_d1
      (Cert.ReferenceIdeal.RefValue.dstSl dst) (Cert.ReferenceIdeal.RefValue.srcSl src)
      (Cert.ReferenceIdeal.RefValue.withLoops_range dst hd) e
  have hS : ∀ e : Fin 405504, (adjIdxTerm (F := Ideal) src dst (ix2 e (1 : Fin 2))).toInt
      = ((Cert.ReferenceIdeal.RefValue.sIdx src hs e).val : Int) := by
    intro e
    unfold adjIdxTerm
    rw [wrapTerm_dst dst hd, wrapTerm_src src hs]
    exact Cert.IndexRange.nodeOf_pair1 bcast_S405504_S405504x1_0 concatenates_S405504x1_S405504x1_S405504x2_d1
      (Cert.ReferenceIdeal.RefValue.dstSl dst) (Cert.ReferenceIdeal.RefValue.srcSl src)
      (Cert.ReferenceIdeal.RefValue.withLoops_range src hs) e
  rw [adjTerm_apply, scatterAdd_pair_ideal,
    Cert.Lib.scatterAdd_pair_apply_fin scatter_S12288x12288_S405504x2_S405504_n_01_01_1_wf _ _ _
      (Cert.ReferenceIdeal.RefValue.dIdx dst hd) (Cert.ReferenceIdeal.RefValue.sIdx src hs) hD hS r j,
    Cert.ReferenceIdeal.RefValue.bcast_scalar_apply bcast_S_S12288x12288 _ (ix2 r j), normTerm_eq]
  exact congrArg (fun a : EReal => a + _) Ideal.ofBits_zero_f32

/-! ## A row of the dense adjacency against a column of features -/

/-- ROW r OF THE DENSE ADJACENCY AGAINST A COLUMN h: zero plus, over the edges into r, h at the edge's source node
    times the edge's weight. The column's entries are arbitrary extended reals; the weights are nonnegative. -/
theorem adj_col_fin (src dst : IVec S393216 32) (hs : Cert.ReferenceIdeal.RefValue.InRange src)
    (hd : Cert.ReferenceIdeal.RefValue.InRange dst) (h : Fin 12288 → EReal) (r : Fin 12288) :
    ∑ j : Fin 12288, (adjTerm (F := Ideal) src dst (ix2 r j) : EReal) * h j
      = 0 + ∑ e : Fin 405504,
          if Cert.ReferenceIdeal.RefValue.dIdx dst hd e = r
          then h (Cert.ReferenceIdeal.RefValue.sIdx src hs e) * (Cert.ReferenceIdeal.RefValue.norm src dst (ix1 e) : EReal)
          else 0 := by
  rw [Finset.sum_congr rfl (fun j _ => congrArg (fun a : EReal => a * h j) (adj_entry src dst hs hd r j))]
  exact Cert.Lib.adj_matvec_zero_add (fun e => (Cert.ReferenceIdeal.RefValue.norm src dst (ix1 e) : EReal))
    (fun e => Cert.ReferenceIdeal.RefValue.norm_nonneg src dst (ix1 e))
    (Cert.ReferenceIdeal.RefValue.sIdx src hs) (Cert.ReferenceIdeal.RefValue.dIdx dst hd) h r

/-- The same with the edges into r told by the destination word and the source node by the clamped source word. -/
theorem adj_col (src dst : IVec S393216 32)
    (hsrc : ∀ e : Fin 393216, 0 ≤ (src (ix1 e)).toInt ∧ (src (ix1 e)).toInt < 12288)
    (hdst : ∀ e : Fin 393216, 0 ≤ (dst (ix1 e)).toInt ∧ (dst (ix1 e)).toInt < 12288)
    (h : Fin 12288 → EReal) (r : Fin 12288) :
    ∑ j : Fin 12288, (adjTerm (F := Ideal) src dst (ix2 r j) : EReal) * h j
      = 0 + ∑ e : Fin 405504,
          if (Cert.ReferenceIdeal.RefValue.dstSl dst (ix1 e)).toInt = (r.val : Int)
          then h (Cert.ReferenceIdeal.RefValue.clampRow (Cert.ReferenceIdeal.RefValue.srcW src (ix1 e)))
            * Cert.ReferenceIdeal.RefValue.norm src dst (ix1 e)
          else 0 := by
  rw [adj_col_fin src dst hsrc hdst h r]
  refine congrArg (fun s : EReal => (0 : EReal) + s) (Finset.sum_congr rfl fun e _ => ?_)
  rw [Cert.ReferenceIdeal.RefValue.clampRow_srcW src hsrc e]
  exact if_congr (Cert.ReferenceIdeal.RefValue.dstSl_eq_iff dst hdst e r).symm rfl rfl

/-! ## A layer: the dense product plus the bias is the edge-list layer -/

/-- A 64-FEATURE LAYER AT (r, o): row r of the dense adjacency against column o of the features, plus the bias, is
    the edge-list layer. -/
theorem conv64_entry (src dst : IVec S393216 32)
    (hsrc : ∀ e : Fin 393216, 0 ≤ (src (ix1 e)).toInt ∧ (src (ix1 e)).toInt < 12288)
    (hdst : ∀ e : Fin 393216, 0 ≤ (dst (ix1 e)).toInt ∧ (dst (ix1 e)).toInt < 12288)
    (hw : FVec Ideal S12288x64 .f32) (b : FVec Ideal S64 .f32) (r : Fin 12288) (o : Fin 64) :
    (∑ j : Fin 12288, (adjTerm (F := Ideal) src dst (ix2 r j) : EReal) * hw (ix2 j o)) + b (ix1 o)
      = Cert.ReferenceIdeal.RefValue.layer64 src dst hw b (ix2 r o) := by
  rw [Cert.ReferenceIdeal.RefValue.layer64_apply src dst hsrc hdst hw b r o,
    adj_col_fin src dst hsrc hdst (fun j => (hw (ix2 j o) : EReal)) r]

/-- A 500-FEATURE LAYER AT (r, o), likewise. -/
theorem conv500_entry (src dst : IVec S393216 32)
    (hsrc : ∀ e : Fin 393216, 0 ≤ (src (ix1 e)).toInt ∧ (src (ix1 e)).toInt < 12288)
    (hdst : ∀ e : Fin 393216, 0 ≤ (dst (ix1 e)).toInt ∧ (dst (ix1 e)).toInt < 12288)
    (hw : FVec Ideal S12288x500 .f32) (b : FVec Ideal S500 .f32) (r : Fin 12288) (o : Fin 500) :
    (∑ j : Fin 12288, (adjTerm (F := Ideal) src dst (ix2 r j) : EReal) * hw (ix2 j o)) + b (ix1 o)
      = Cert.ReferenceIdeal.RefValue.layer500 src dst hw b (ix2 r o) := by
  rw [Cert.ReferenceIdeal.RefValue.layer500_apply src dst hsrc hdst hw b r o,
    adj_col_fin src dst hsrc hdst (fun j => (hw (ix2 j o) : EReal)) r]

end Cert.KernelIdeal.Gen

end
-- ==== Proof.Reg4Value.lean ====
/-
  The value of the fifth kernel region: the Gram matrix of z.

  At grid point (i, j) of the 6 x 8 grid the region multiplies rows 2048 i … 2048 i + 2047 of z (a [2048,64] block) by the
  transpose of rows 1536 j … 1536 j + 1535 of z (a [1536,64] block) and writes the [2048,1536] product to block (i, j)
  of the [12288,12288] output. Entry (p, q) of a block product is the inner product over the 64 columns of row p of the
  left block and row q of the right block, the left factor first. The 48 output blocks tile the output array, each
  written once, so the array ends holding  (r, s) ↦ ∑ k, z r k * z s k  over the z the region found at its entry.
-/
import proofs.«420824_j61512521613989_2_alg».proof.Proof.Reg4
import proofs.«420824_j61512521613989_2_alg».proof.Proof.Gen.KernelIdeal.Launch
import proofs.«420824_j61512521613989_2_alg».proof.Proof.Gen.KernelIdeal.Skeleton
import proofs.«420824_j61512521613989_2_alg».proof.Proof.Gen.KernelIdeal.Points
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe
open Idealize.ShloMosaic.Pipeline (Dat)

open Idealize.ShloMosaic.ValueIdx

/-! ## The block product at an index

The product contracts axis 1 of both operands. Its left index at output entry (p, q) and contraction position k is
(p, k); its right index is (q, k): the four lemmas below read the two index maps one axis at a time. -/

theorem lhs_gram_0 (i : S2048x1536.Idx) (q : dot_S2048x64_S1536x64_S2048x1536_1_1_0_0_n_n.contr.Idx) :
    (dot_S2048x64_S1536x64_S2048x1536_1_1_0_0_n_n.lhsIdx i q 0).val = (i 0).val := by
  unfold DotDims.lhsIdx
  rw [dif_neg (show ¬(0 : Fin S2048x64.rank) ∈ dot_S2048x64_S1536x64_S2048x1536_1_1_0_0_n_n.lhsBatch by decide), dif_pos (show (0 : Fin S2048x64.rank) ∈ dot_S2048x64_S1536x64_S2048x1536_1_1_0_0_n_n.lhsNonContracting by decide)]
  rfl
theorem lhs_gram_1 (i : S2048x1536.Idx) (q : dot_S2048x64_S1536x64_S2048x1536_1_1_0_0_n_n.contr.Idx) :
    (dot_S2048x64_S1536x64_S2048x1536_1_1_0_0_n_n.lhsIdx i q 1).val = (q ⟨0, by decide⟩).val :=
  dot_S2048x64_S1536x64_S2048x1536_1_1_0_0_n_n.lhsIdx_val_of_single rfl i q
theorem rhs_gram_0 (i : S2048x1536.Idx) (q : dot_S2048x64_S1536x64_S2048x1536_1_1_0_0_n_n.contr.Idx) :
    (dot_S2048x64_S1536x64_S2048x1536_1_1_0_0_n_n.rhsIdx i q 0).val = (i 1).val := by
  unfold DotDims.rhsIdx
  rw [dif_neg (show ¬(0 : Fin S1536x64.rank) ∈ dot_S2048x64_S1536x64_S2048x1536_1_1_0_0_n_n.rhsBatch by decide), dif_pos (show (0 : Fin S1536x64.rank) ∈ dot_S2048x64_S1536x64_S2048x1536_1_1_0_0_n_n.rhsNonContracting by decide)]
  rfl
theorem rhs_gram_1 (i : S2048x1536.Idx) (q : dot_S2048x64_S1536x64_S2048x1536_1_1_0_0_n_n.contr.Idx) :
    (dot_S2048x64_S1536x64_S2048x1536_1_1_0_0_n_n.rhsIdx i q 1).val = (q ⟨0, by decide⟩).val :=
  dot_S2048x64_S1536x64_S2048x1536_1_1_0_0_n_n.rhsIdx_val_of_single rfl i q

/-- The body's product of a [2048,64] block by the transpose of a [1536,64] block, at entry (p,q): the inner
    product of row p of the first block and row q of the second, the left factor first. -/
theorem blockGram_apply (x0 : Vec Ideal S2048x64 .bf16) (x1 : Vec Ideal S1536x64 .bf16) (p : Fin 2048) (q : Fin 1536) :
    (k4_pay1 (F := Ideal) x0 x1 : S2048x1536.Idx → EReal) (ix2 p q)
      = ∑ k : Fin 64, (x0 : S2048x64.Idx → EReal) (ix2 p k) * (x1 : S1536x64.Idx → EReal) (ix2 q k) := by
  unfold k4_pay1
  rw [shapeCast_self, shapeCast_self]
  simp only [matmul]
  rw [Ideal.matmul_constant_zero_apply, ← Equiv.sum_comp (ValueIdx.contrEquiv1 dot_S2048x64_S1536x64_S2048x1536_1_1_0_0_n_n 64 rfl rfl).symm]
  refine Finset.sum_congr rfl fun k _ => ?_
  have hk := ValueIdx.contrEquiv1_symm_val dot_S2048x64_S1536x64_S2048x1536_1_1_0_0_n_n 64 rfl rfl k
  have el : dot_S2048x64_S1536x64_S2048x1536_1_1_0_0_n_n.lhsIdx (ix2 p q) ((ValueIdx.contrEquiv1 dot_S2048x64_S1536x64_S2048x1536_1_1_0_0_n_n 64 rfl rfl).symm k) = ix2 p k := funext fun a => Fin.ext (by
    match a with
    | ⟨0, _⟩ => exact lhs_gram_0 _ _
    | ⟨1, _⟩ => exact (lhs_gram_1 _ _).trans hk)
  have er : dot_S2048x64_S1536x64_S2048x1536_1_1_0_0_n_n.rhsIdx (ix2 p q) ((ValueIdx.contrEquiv1 dot_S2048x64_S1536x64_S2048x1536_1_1_0_0_n_n 64 rfl rfl).symm k) = ix2 q k := funext fun a => Fin.ext (by
    match a with
    | ⟨0, _⟩ => exact rhs_gram_0 _ _
    | ⟨1, _⟩ => exact (rhs_gram_1 _ _).trans hk)
  rw [el, er]

/-! ## From blocks to the array -/

/-- The Gram matrix of the rows of a [12288,64] array: entry (p,q) is the inner product of rows p and q. -/
def gram (Z : S12288x64.Idx → EReal) : S12288x12288.Idx → EReal :=
  fun idx => ∑ k : Fin 64, Z (ix2 (n0 := 12288) (n1 := 64) (idx 0) k) * Z (ix2 (n0 := 12288) (n1 := 64) (idx 1) k)

theorem gram_apply (Z : S12288x64.Idx → EReal) (p q : Fin 12288) :
    gram Z (ix2 p q) = ∑ k : Fin 64, Z (ix2 p k) * Z (ix2 q k) := rfl

/-- The printed index maps over the 6 x 8 grid: at point t = (i, j) the left operand's window sits at row block i, the
    right operand's at row block j, both at column block 0, and the output's at block (i, j), with i = t / 8, j = t % 8. -/
theorem idx_facts4 : ∀ t : Fin cfg4.N,
    win4_0.index t (0 : Fin 2) = t.val / 8 ∧ win4_0.index t (1 : Fin 2) = 0
    ∧ win4_1.index t (0 : Fin 2) = t.val % 8 ∧ win4_1.index t (1 : Fin 2) = 0
    ∧ win4_2.index t (0 : Fin 2) = t.val / 8 ∧ win4_2.index t (1 : Fin 2) = t.val % 8 :=
  (by decide +kernel : ∀ t : Fin grid4.N, _)

variable (V : (c : Dev nD) → (b : Ref sig .tc) → Buf (Elt Ideal) ((c : Thread nD τ).loc b))

/-- The array z as the region finds it, at its literal type. -/
abbrev zarr (c : Dev nD) : S12288x64.Idx → EReal := V c main_v75

/-- The left operand's block at point t is rows 2048 (t / 8) … of z. -/
theorem zblock0_apply (c : Dev nD) (t : Fin cfg4.N) (x : S2048x64.Idx) (i : S12288x64.Idx)
    (h0 : (i 0).val = t.val / 8 * 2048 + (x 0).val) (h1 : (i 1).val = (x 1).val) :
    (iblk4 V c 0 t : S2048x64.Idx → EReal) x = zarr V c i := by
  obtain ⟨e0, e1, e2, e3, e4, e5⟩ := idx_facts4 t
  unfold iblk4
  rw [View.read_apply]
  show V c main_v75 _ = V c main_v75 _
  congr 1
  funext a
  apply Fin.ext
  match a with
  | ⟨0, _⟩ => show win4_0.index t (0 : Fin 2) * 2048 + 1 * (x 0).val = (i 0).val; omega
  | ⟨1, _⟩ => show win4_0.index t (1 : Fin 2) * 64 + 1 * (x 1).val = (i 1).val; omega

/-- The right operand's block at point t is rows 1536 (t % 8) … of z. -/
theorem zblock1_apply (c : Dev nD) (t : Fin cfg4.N) (x : S1536x64.Idx) (i : S12288x64.Idx)
    (h0 : (i 0).val = t.val % 8 * 1536 + (x 0).val) (h1 : (i 1).val = (x 1).val) :
    (iblk4 V c 1 t : S1536x64.Idx → EReal) x = zarr V c i := by
  obtain ⟨e0, e1, e2, e3, e4, e5⟩ := idx_facts4 t
  unfold iblk4
  rw [View.read_apply]
  show V c main_v75 _ = V c main_v75 _
  congr 1
  funext a
  apply Fin.ext
  match a with
  | ⟨0, _⟩ => show win4_1.index t (0 : Fin 2) * 1536 + 1 * (x 0).val = (i 0).val; omega
  | ⟨1, _⟩ => show win4_1.index t (1 : Fin 2) * 64 + 1 * (x 1).val = (i 1).val; omega

/-- What point t writes back is block t of the Gram matrix of z. -/
theorem flushed4_eq (c : Dev nD) (t : Fin cfg4.N) :
    (dat4 (F := Ideal) V c).flushed 2 t = ((cfg4.win 2).blk t).view.read (Elt Ideal) (gram (zarr V c)) := by
  show (cfg4.win 2).cut (grid4.coords t) ((dat4 V c).after 2 t) = _
  rw [after4_2]
  obtain ⟨e0, e1, e2, e3, e4, e5⟩ := idx_facts4 t
  funext j
  obtain ⟨p, q, rfl⟩ : ∃ (p : Fin 2048) (q : Fin 1536), j = ix2 p q := ⟨j 0, j 1, eq_ix2 j⟩
  show (k4_pay1 (F := Ideal) (iblk4 V c 0 t) (iblk4 V c 1 t) : S2048x1536.Idx → EReal) (ix2 p q) = gram (zarr V c) (((cfg4.win 2).blk t).view.emb (ix2 p q))
  refine (blockGram_apply (iblk4 V c 0 t) (iblk4 V c 1 t) p q).trans ?_
  unfold gram
  refine Finset.sum_congr rfl fun k _ => ?_
  have hl := zblock0_apply V c t (ix2 p k) (ix2 (n0 := 12288) (n1 := 64) ((((cfg4.win 2).blk t).view.emb (ix2 p q)) 0) k)
    (by show win4_2.index t (0 : Fin 2) * 2048 + 1 * p.val = t.val / 8 * 2048 + p.val; omega) rfl
  have hr := zblock1_apply V c t (ix2 q k) (ix2 (n0 := 12288) (n1 := 64) ((((cfg4.win 2).blk t).view.emb (ix2 p q)) 1) k)
    (by show win4_2.index t (1 : Fin 2) * 1536 + 1 * q.val = t.val % 8 * 1536 + q.val; omega) rfl
  rw [hl, hr]

/-- An index of the array is in point t's block iff each coordinate is in the block's range on its axis. -/
theorem mem_blk4 (t : Fin cfg4.N) (i : S12288x12288.Idx) :
    i ∈ ((cfg4.win 2).blk t).view.set ↔ ∀ a : Fin 2, win4_2.index t a * S2048x1536.size a ≤ (i a).val ∧ (i a).val < win4_2.index t a * S2048x1536.size a + S2048x1536.size a := by
  show i ∈ ((View.whole main_v76).slice (win4_2.rect t)).set ↔ _
  rw [View.set_slice_whole, Rect.mem_set_unit]
  exact Iff.rfl

/-- The 6 x 8 output blocks tile the array: entry (r, s) lies in the block of point 8 (r / 2048) + s / 1536. -/
theorem cover4 (i : S12288x12288.Idx) :
    ∃ t : Fin cfg4.N, (cfg4.win 2).flush t = true ∧ i ∈ ((cfg4.win 2).blk t).view.set := by
  have hi0 : (i 0).val < 12288 := (i 0).isLt
  have hi1 : (i 1).val < 12288 := (i 1).isLt
  have hN : cfg4.N = 48 := N_4
  let t : Fin cfg4.N := ⟨(i 0).val / 2048 * 8 + (i 1).val / 1536, by rw [hN]; omega⟩
  obtain ⟨e0, e1, e2, e3, e4, e5⟩ := idx_facts4 t
  have ht : t.val = (i 0).val / 2048 * 8 + (i 1).val / 1536 := rfl
  refine ⟨t, flush4_2 t, ?_⟩
  rw [mem_blk4]
  intro a
  match a with
  | ⟨0, _⟩ => show win4_2.index t (0 : Fin 2) * 2048 ≤ (i 0).val ∧ (i 0).val < win4_2.index t (0 : Fin 2) * 2048 + 2048; omega
  | ⟨1, _⟩ => show win4_2.index t (1 : Fin 2) * 1536 ≤ (i 1).val ∧ (i 1).val < win4_2.index t (1 : Fin 2) * 1536 + 1536; omega

/-- THE VALUE OF THE REGION: its output array ends holding the Gram matrix of z as the region found it. -/
theorem region4_value (c : Dev nD) :
    (dat4 (F := Ideal) V c).arrAt 2 cfg4.N = gram (V c main_v75) :=
  (dat4 (F := Ideal) V c).arrAt_eq_of_cover 2 (gram (zarr V c)) (fun t _ => flushed4_eq V c t) cover4

end Cert.KernelIdeal.Gen

end
-- ==== Proof.BridgeS.lean ====
/-
  The structure decoder's result.

  The features z are the last 64 columns of the third region's [12288,128] output: a slice, then a change of float
  format that is the identity on the ideal values, and no host operation between the third and the fifth region writes
  that slice again. The fifth region leaves the Gram matrix of z in its output array; the reference's last operation
  multiplies the features by their transpose, which at entry (i, j) is the same sum over the 64 columns of the products
  of rows i and j. So the two agree as soon as the third region's last 64 columns are the reference's features.
-/
import proofs.«420824_j61512521613989_2_alg».proof.Proof.Run
import proofs.«420824_j61512521613989_2_alg».proof.Proof.Reg4Value
import proofs.«420824_j61512521613989_2_alg».proof.Proof.HostGlue
import proofs.«420824_j61512521613989_2_alg».proof.Proof.RefLayers
import Idealize.ShloMosaic.Lib.Pipeline.Value
import Idealize.ShloMosaic.Lib.ValueIdx

set_option maxRecDepth 16384

noncomputable section

namespace Cert.KernelIdeal.Gen

open Idealize.ShloMosaic Idealize.ShloMosaic.TcCoe
open Idealize.ShloMosaic.ValueIdx

section Bridge
variable (m : (ℓ : Loc nD τ sig) → Buf (Elt Ideal) ℓ)

/-- The array the fifth region reads is columns 64 … 127 of the third region's output. -/
theorem z_entry (c : Dev nD) :
    (Vin4 m c main_v75 : S12288x64.Idx → EReal)
      = extractStridedSlice S12288x64 ![0, 64] (W6 m c (Proc.devRef .tc main_v61) : Vec Ideal S12288x128 .f32) slices_S12288x128_S12288x64_0_64 := by
  show (StableHlo.after hostOps4 (W12 m c) (Proc.devRef .tc main_v75) : Vec Ideal S12288x64 .bf16) = _
  rw [hostOps4_main_v75 (W12 m c)]
  show (W12 m c (Proc.devRef .tc main_v65) : Vec Ideal S12288x64 .f32) = _
  refine (W12_of m c main_v65 (by decide)).trans ?_
  refine (W11_of m c main_v65 (by decide)).trans ?_
  refine (W10_of m c main_v65 (by decide)).trans ?_
  refine (W9_of m c main_v65 (by decide)).trans ?_
  refine (W8_of m c main_v65 (by decide)).trans ?_
  exact hostOps3_main_v65 (W6 m c)

/-- Entry (r, o) of z is entry (r, 64 + o) of the third region's output. -/
theorem z_entry_apply (c : Dev nD) (r : Fin 12288) (o : Fin 64) :
    (Vin4 m c main_v75 : S12288x64.Idx → EReal) (ix2 r o)
      = (W6 m c (Proc.devRef .tc main_v61) : S12288x128.Idx → EReal) (ix2 r ⟨64 + o.val, by omega⟩) := by
  rw [z_entry m c]
  refine extractStridedSlice_apply _ _ _ (ix2 r o) _ fun a => ?_
  match a with
  | ⟨0, _⟩ => show r.val = 0 + r.val; omega
  | ⟨1, _⟩ => rfl

/-- THE STRUCTURE DECODER: the fifth region's output array is the reference's product of the features with their
    transpose, whenever the last 64 columns of the third region's output are the reference's features. -/
theorem s_hat_of_z (c : Dev nD) (Zr : FVec Ideal Cert.ReferenceIdeal.S12288x64 .f32)
    (hz : ∀ (r : Fin 12288) (o : Fin 64), (W6 m c (Proc.devRef .tc main_v61) : S12288x128.Idx → EReal) (ix2 r ⟨64 + o.val, by omega⟩) = (Zr (ix2 r o) : EReal)) :
    (W14 m c (Proc.devRef .tc main_v76) : S12288x12288.Idx → EReal) = Cert.ReferenceIdeal.RefValue.sHat Zr := by
  rw [W14_main_v76 m c, region4_value (Vin4 m) c]
  funext idx
  obtain ⟨p, q, rfl⟩ : ∃ (p q : Fin 12288), idx = ix2 p q := ⟨idx 0, idx 1, eq_ix2 idx⟩
  rw [gram_apply, Cert.ReferenceIdeal.RefValue.sHat_apply]
  refine Finset.sum_congr rfl fun k _ => ?_
  rw [z_entry_apply m c p k, z_entry_apply m c q k, hz p k, hz q k]

end Bridge

end Cert.KernelIdeal.Gen

end
-- ==== Proof.HostGlue3.lean ====
/-
  The operations of the host stretches between the third and the fourth region, and of the last stretch, read at a single
  index over the extended reals: the two column slices of the 128-wide region output, the clamp below at zero, the zero
  padding of the last weight (to 512 columns) and of the last bias (to 512 entries), the bias laid out as one row, the
  product with the padded weight as a sum over the 64 inner positions, and the final cut back to 500 columns.
  The layout readings hold for any element type; the arithmetic ones are at the ideal values, where every operation is
  exact and a change of float format is the identity.
-/
import proofs.«420824_j61512521613989_2_alg».proof.Proof.Gen.KernelIdeal
import proofs.«420824_j61512521613989_2_alg».proof.Proof.Gen.ReferenceIdeal
import Idealize.ShloMosaic.Lib.ValueIdx
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Gen

open Idealize.ShloMosaic Idealize.ShloMosaic.ValueIdx

/-! ## The column slices -/

section Layout
variable {α : Type}

/-- The left half (columns 0..63) of a 128-wide array. -/
theorem slice3_lo_apply (y : S12288x128.Idx → α) (r : Fin 12288) (o : Fin 64) :
    extractStridedSlice S12288x64 ![0, 0] y slices_S12288x128_S12288x64_0_0 (ix2 r o)
      = y (ix2 r (⟨o.val, by omega⟩ : Fin 128)) :=
  slice2_axis1_apply 0 y slices_S12288x128_S12288x64_0_0 r o _ (Nat.zero_add _).symm

/-- The right half (columns 64..127) of a 128-wide array. -/
theorem slice3_hi_apply (y : S12288x128.Idx → α) (r : Fin 12288) (o : Fin 64) :
    extractStridedSlice S12288x64 ![0, 64] y slices_S12288x128_S12288x64_0_64 (ix2 r o)
      = y (ix2 r (⟨o.val + 64, by omega⟩ : Fin 128)) :=
  slice2_axis1_apply 64 y slices_S12288x128_S12288x64_0_64 r o _ (Nat.add_comm _ _)

/-- The first 500 columns of a 512-wide array. -/
theorem slice4_apply (y : S12288x512.Idx → α) (r : Fin 12288) (o : Fin 500) :
    extractStridedSlice S12288x500 ![0, 0] y slices_S12288x512_S12288x500_0_0 (ix2 r o)
      = y (ix2 r (⟨o.val, by omega⟩ : Fin 512)) :=
  slice2_axis1_apply 0 y slices_S12288x512_S12288x500_0_0 r o _ (Nat.zero_add _).symm

/-! ## The zero padding -/

/-- The 64 x 500 weight padded on the right to 512 columns: inside the weight, outside the padding value. -/
theorem pad3_w_apply (w : S64x500.Idx → α) (v : S_.Idx → α) (k : Fin 64) (o : Fin 512) :
    pad S64x512 ![0, 0] ![0, 12] ![0, 0] w v pads_S64x500_S64x512_000_0120 h_S_ (ix2 k o)
      = if h : o.val < 500 then w (ix2 k (⟨o.val, h⟩ : Fin 500)) else v (Shape.Idx.first h_S_) := by
  by_cases h : o.val < 500
  · rw [dif_pos h]
    exact pad_apply_of_inside _ _ _ w v pads_S64x500_S64x512_000_0120 h_S_ (ix2 k o) (ix2 k (⟨o.val, h⟩ : Fin 500)) (fun a => by
      match a with
      | ⟨0, _⟩ => show k.val = 0 + k.val * (0 + 1); omega
      | ⟨1, _⟩ => show o.val = 0 + o.val * (0 + 1); omega)
  · rw [dif_neg h]
    exact pad_apply_of_not_inside _ _ _ w v pads_S64x500_S64x512_000_0120 h_S_ (ix2 k o) (1 : Fin 2) (fun hin => h (by
      have h3 := hin.2.2
      have e : ((ix2 k o : S64x512.Idx) ((1 : Fin S64x500.rank).cast pads_S64x500_S64x512_000_0120.1)).val = o.val := rfl
      rw [e] at h3
      have h4 : (o.val - 0) / (0 + 1) < 500 := h3
      simpa using h4))

/-- The 500-entry bias padded on the right to 512 entries. -/
theorem pad3_b_apply (b : S500.Idx → α) (v : S_.Idx → α) (o : Fin 512) :
    pad S512 ![0] ![12] ![0] b v pads_S500_S512_0120 h_S_ (ix1 o)
      = if h : o.val < 500 then b (ix1 (⟨o.val, h⟩ : Fin 500)) else v (Shape.Idx.first h_S_) := by
  by_cases h : o.val < 500
  · rw [dif_pos h]
    exact pad_apply_of_inside _ _ _ b v pads_S500_S512_0120 h_S_ (ix1 o) (ix1 (⟨o.val, h⟩ : Fin 500)) (fun a => by
      match a with
      | ⟨0, _⟩ => show o.val = 0 + o.val * (0 + 1); omega)
  · rw [dif_neg h]
    exact pad_apply_of_not_inside _ _ _ b v pads_S500_S512_0120 h_S_ (ix1 o) (0 : Fin 1) (fun hin => h (by
      have h3 := hin.2.2
      have e : ((ix1 o : S512.Idx) ((0 : Fin S500.rank).cast pads_S500_S512_0120.1)).val = o.val := rfl
      rw [e] at h3
      have h4 : (o.val - 0) / (0 + 1) < 500 := h3
      simpa using h4))

/-- The padded bias laid out as one row of 512. -/
theorem row3_apply (b : S512.Idx → α) (u : Fin 1) (o : Fin 512) :
    shapeCast S1x512 b shapeCasts_S512_S1x512 (ix2 u o) = b (ix1 o) :=
  shapeCast_a_1a_apply b shapeCasts_S512_S1x512 u o

end Layout

/-! ## The arithmetic, at the ideal values -/

/-- The padding value the program uses, an integer zero converted, is zero. -/
theorem padval3_apply (i : S_.Idx) :
    (sitofp .f32 (constantI S_ 32 0#32 : IVec S_ 32) : FVec Ideal S_ .f32) i = 0 := by
  rw [sitofp_apply, constantI_apply]
  exact sitofp_zero

/-- The clamp below at zero. -/
theorem relu3_apply (y : FVec Ideal S12288x64 .f32) (j : S12288x64.Idx) :
    maximumf y (broadcastInDim S12288x64 ![] bcast_S_S12288x64 (constant S_ .f32 0x00000000#32 : FVec Ideal S_ .f32)) j = max (y j) 0 := by
  rw [maximumf_apply]
  refine congrArg (max (y j)) ?_
  refine (broadcastInDim_apply ![] bcast_S_S12288x64 _ j ix0 (fun a => a.elim0)).trans ?_
  rw [constant_apply]
  exact Ideal.ofBits_zero_f32

/-- A plain product of an m x k by a k x n array, whatever the record of its dimension numbers is called. -/
theorem dot3_plain_apply {m k n : ℕ} {φ₁ φ₂ : FTy} (D : DotDims ⟨2, ![m, k]⟩ ⟨2, ![k, n]⟩ ⟨2, ![m, n]⟩) (hD : D = DotDims.plain m k n)
    (A : FVec Ideal ⟨2, ![m, k]⟩ φ₁) (B : FVec Ideal ⟨2, ![k, n]⟩ φ₂) (a : Fin m) (b : Fin n) :
    Host.dotGeneral D none A B (ix2 a b) = ∑ c : Fin k, A (ix2 a c) * B (ix2 c b) := by
  subst hD
  exact StackMember.dotGeneral_plain_apply none A B a b

/-- The clamped half times the padded weight: entry (r, o) is the sum over the 64 inner positions. -/
theorem dot3_apply {φ₁ φ₂ : FTy} (h : FVec Ideal S12288x64 φ₁) (w : FVec Ideal S64x512 φ₂) (r : Fin 12288) (o : Fin 512) :
    Host.dotGeneral dot_S12288x64_S64x512_S12288x512_1_0_0_1_n_n none h w (ix2 r o) = ∑ k : Fin 64, h (ix2 r k) * w (ix2 k o) :=
  dot3_plain_apply dot_S12288x64_S64x512_S12288x512_1_0_0_1_n_n rfl h w r o

/-- The reference's last product, with the unpadded weight. -/
theorem dot3_ref_apply {φ₁ φ₂ : FTy} (h : FVec Ideal Cert.ReferenceIdeal.S12288x64 φ₁) (w : FVec Ideal Cert.ReferenceIdeal.S64x500 φ₂) (r : Fin 12288) (o : Fin 500) :
    Host.dotGeneral Cert.ReferenceIdeal.dot_S12288x64_S64x500_S12288x500_1_0_0_1_n_n none h w (ix2 r o) = ∑ k : Fin 64, h (ix2 r k) * w (ix2 k o) :=
  dot3_plain_apply Cert.ReferenceIdeal.dot_S12288x64_S64x500_S12288x500_1_0_0_1_n_n rfl h w r o

/-- A change of float format is the identity at the ideal values. -/
theorem truncf3_eq {s : Shape} {φ ψ : FTy} (x : FVec Ideal s φ) (h : ψ.bits < φ.bits) : (truncf ψ x h : FVec Ideal s ψ) = x := rfl

end Cert.KernelIdeal.Gen

end
-- ==== Proof.Reg3Pay.lean ====
/-
  One grid step of the blocked product A·H + b, read at a single element.

  The accumulator block starts a row sweep at zero; each step adds the product of the current
  [2048,2048] block of A with the current [2048,512] block of H, whose (r, o) element is the sum over
  the block's 2048 inner positions of a(r, j) · h(j, o); the last step of a sweep adds the bias row
  and applies the layer's closing function. Over the extended reals every operation is exact, and the
  changes of float format are the identity.
-/
import proofs.«420824_j61512521613989_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Gen

open Idealize.ShloMosaic Idealize.ShloMosaic.ValueIdx

/-! ## The product of two blocks at an element -/

theorem lhs_pay3_0 (i : S2048x512.Idx) (q : dot_S2048x2048_S2048x512_S2048x512_1_0_0_1_n_n.contr.Idx) :
    (dot_S2048x2048_S2048x512_S2048x512_1_0_0_1_n_n.lhsIdx i q 0).val = (i 0).val := by
  unfold DotDims.lhsIdx
  rw [dif_neg (show ¬(0 : Fin S2048x2048.rank) ∈ dot_S2048x2048_S2048x512_S2048x512_1_0_0_1_n_n.lhsBatch by decide), dif_pos (show (0 : Fin S2048x2048.rank) ∈ dot_S2048x2048_S2048x512_S2048x512_1_0_0_1_n_n.lhsNonContracting by decide)]
  rfl
theorem lhs_pay3_1 (i : S2048x512.Idx) (q : dot_S2048x2048_S2048x512_S2048x512_1_0_0_1_n_n.contr.Idx) :
    (dot_S2048x2048_S2048x512_S2048x512_1_0_0_1_n_n.lhsIdx i q 1).val = (q ⟨0, by decide⟩).val :=
  dot_S2048x2048_S2048x512_S2048x512_1_0_0_1_n_n.lhsIdx_val_of_single rfl i q
theorem rhs_pay3_0 (i : S2048x512.Idx) (q : dot_S2048x2048_S2048x512_S2048x512_1_0_0_1_n_n.contr.Idx) :
    (dot_S2048x2048_S2048x512_S2048x512_1_0_0_1_n_n.rhsIdx i q 0).val = (q ⟨0, by decide⟩).val :=
  dot_S2048x2048_S2048x512_S2048x512_1_0_0_1_n_n.rhsIdx_val_of_single rfl i q
theorem rhs_pay3_1 (i : S2048x512.Idx) (q : dot_S2048x2048_S2048x512_S2048x512_1_0_0_1_n_n.contr.Idx) :
    (dot_S2048x2048_S2048x512_S2048x512_1_0_0_1_n_n.rhsIdx i q 1).val = (i 1).val := by
  unfold DotDims.rhsIdx
  rw [dif_neg (show ¬(1 : Fin S2048x512.rank) ∈ dot_S2048x2048_S2048x512_S2048x512_1_0_0_1_n_n.rhsBatch by decide), dif_pos (show (1 : Fin S2048x512.rank) ∈ dot_S2048x2048_S2048x512_S2048x512_1_0_0_1_n_n.rhsNonContracting by decide)]
  rfl

/-- The block product into a zero accumulator: element (r, o) is the sum over the inner position j of a(r, j) · h(j, o). -/
theorem mat3_apply (a : S2048x2048.Idx → EReal) (h : S2048x512.Idx → EReal) (r : Fin 2048) (o : Fin 512) :
    matmul (F := Ideal) (φ₁ := .bf16) (φ₂ := .bf16) dot_S2048x2048_S2048x512_S2048x512_1_0_0_1_n_n none a h (constant S2048x512 .f32 0x00000000#32) (ix2 r o)
      = ∑ j : Fin 2048, a (ix2 r j) * h (ix2 j o) := by
  simp only [matmul]
  rw [Ideal.matmul_constant_zero_apply, ← Equiv.sum_comp (ValueIdx.contrEquiv1 dot_S2048x2048_S2048x512_S2048x512_1_0_0_1_n_n 2048 rfl rfl).symm]
  refine Finset.sum_congr rfl fun k _ => ?_
  have hk := ValueIdx.contrEquiv1_symm_val dot_S2048x2048_S2048x512_S2048x512_1_0_0_1_n_n 2048 rfl rfl k
  have el : dot_S2048x2048_S2048x512_S2048x512_1_0_0_1_n_n.lhsIdx (ix2 r o) ((ValueIdx.contrEquiv1 dot_S2048x2048_S2048x512_S2048x512_1_0_0_1_n_n 2048 rfl rfl).symm k) = ix2 r k := funext fun x => Fin.ext (by
    match x with
    | ⟨0, _⟩ => exact lhs_pay3_0 _ _
    | ⟨1, _⟩ => exact (lhs_pay3_1 _ _).trans hk)
  have er : dot_S2048x2048_S2048x512_S2048x512_1_0_0_1_n_n.rhsIdx (ix2 r o) ((ValueIdx.contrEquiv1 dot_S2048x2048_S2048x512_S2048x512_1_0_0_1_n_n 2048 rfl rfl).symm k) = ix2 k o := funext fun x => Fin.ext (by
    match x with
    | ⟨0, _⟩ => exact (rhs_pay3_0 _ _).trans hk
    | ⟨1, _⟩ => exact rhs_pay3_1 _ _)
  rw [el, er]

/-! ## The three stored values at an element -/

/-- The value a row sweep starts from: zero everywhere. -/
theorem pay3_1_apply (idx : S2048x512.Idx) : k3_pay1 (F := Ideal) idx = 0 := by
  unfold k3_pay1
  simp only [shapeCast_self]
  exact Ideal.ofBits_zero_f32

/-- One accumulation step: the old value plus the block product, at element (r, o). -/
theorem pay3_2_apply (acc : S2048x512.Idx → EReal) (a : S2048x2048.Idx → EReal) (h : S2048x512.Idx → EReal) (r : Fin 2048) (o : Fin 512) :
    k3_pay2 (F := Ideal) acc a h (ix2 r o) = acc (ix2 r o) + ∑ j : Fin 2048, a (ix2 r j) * h (ix2 j o) := by
  unfold k3_pay2
  simp only [shapeCast_self]
  exact congrArg (acc (ix2 r o) + ·) (mat3_apply a h r o)

/-! ## The closing step of a row sweep -/

/-- The closing function of this layer at an element: none, the value itself. -/
def epi3 (x : EReal) : EReal := x

/-- The bias row spread over the block's rows reads, at (r, o), the bias at column o. -/
theorem bias3_apply (b : S1x512.Idx → EReal) (r : Fin 2048) (o : Fin 512) :
    broadcastTo S2048x512 b broadcasts_S1x512_S2048x512 (ix2 r o) = b (ix2 0 o) := by
  refine broadcastTo_apply b broadcasts_S1x512_S2048x512 (ix2 r o) (ix2 0 o) fun x => ?_
  match x with
  | ⟨0, _⟩ => show (0 : ℕ) = if (1 : ℕ) = 1 then 0 else _; rw [if_pos rfl]
  | ⟨1, _⟩ => show o.val = if (512 : ℕ) = 1 then 0 else o.val; rw [if_neg (by decide)]

/-- The closing step at element (r, o): the closing function of (accumulated sum + bias at column o). -/
theorem pay3_3_apply (acc : S2048x512.Idx → EReal) (b : S1x512.Idx → EReal) (r : Fin 2048) (o : Fin 512) :
    k3_pay3 (F := Ideal) acc b (ix2 r o) = epi3 (acc (ix2 r o) + b (ix2 0 o)) := by
  unfold k3_pay3 epi3
  simp only [shapeCast_self]
  exact congrArg (fun x => acc (ix2 r o) + x) (bias3_apply b r o)

end Cert.KernelIdeal.Gen

end
-- ==== Proof.Reg3Value.lean ====
/-
  The value of one graph-convolution region: the array its output window ends holding.

  The grid walks the row blocks i of A (2048 rows each) and, inside a row block, the six column blocks k of A
  together with the matching row blocks of H. The carried accumulator is reset at k = 0 and gains the block
  product at every k, so after the step (i, k) it holds, at (r, o), the sum over the first k + 1 column blocks of
  the 2048 products a(2048 i + r, 2048 s + j) · h(2048 s + j, o). At k = 5 the bias row is added, the closing
  function applied and the block written to rows 2048 i … 2048 i + 2047 of the result. Six tiles of 2048 inner
  positions are the 12288 inner positions of the full product, and the six row blocks cover the result; addition of
  extended reals is associative and commutative without any finiteness, so nothing is asked of the entries.
-/
import proofs.«420824_j61512521613989_2_alg».proof.Proof.Reg3
import proofs.«420824_j61512521613989_2_alg».proof.Proof.Reg3Pay
import proofs.«420824_j61512521613989_2_alg».proof.Proof.LibTileSum
import Idealize.ShloMosaic.Lib.Pipeline.Value
import Idealize.ShloMosaic.Lib.ValueIdx
import Idealize.ShloMosaic.PureOps.Ideal.Laws

set_option maxRecDepth 16384

noncomputable section

namespace Cert.KernelIdeal.Gen

open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- Row r, column o of the layer's dense form: the closing function of (the product A·H at (r, o) plus the bias at o). -/
def G3 (A : S12288x12288.Idx → EReal) (H : S12288x512.Idx → EReal) (B : S1x512.Idx → EReal) : S12288x512.Idx → EReal :=
  fun idx => epi3 ((∑ j : Fin 12288, A (ix2 (idx 0) j) * H (ix2 j (idx 1))) + B (ix2 0 (idx 1)))

/-! ## The arrays and the blocks, as functions into the extended reals -/

/-- The left factor A, [12288,12288]. -/
abbrev val3_A (c : Dev nD) : S12288x12288.Idx → EReal := V c (Pipeline.arrRef spec3 0)
/-- The right factor H, [12288,512]. -/
abbrev val3_H (c : Dev nD) : S12288x512.Idx → EReal := V c (Pipeline.arrRef spec3 1)
/-- The bias row, [1,512]. -/
abbrev val3_B (c : Dev nD) : S1x512.Idx → EReal := V c (Pipeline.arrRef spec3 2)

/-- A at a pair of naturals (zero outside the array): the form in which tiles of an axis are joined. -/
def val3_natA (c : Dev nD) (x y : ℕ) : EReal :=
  if h : x < 12288 ∧ y < 12288 then val3_A V c (ix2 ⟨x, h.1⟩ ⟨y, h.2⟩) else 0
/-- H at a natural row (zero outside the array) and a column. -/
def val3_natH (c : Dev nD) (y : ℕ) (o : Fin 512) : EReal :=
  if h : y < 12288 then val3_H V c (ix2 ⟨y, h⟩ o) else 0

/-- The block of A the step t reads. -/
abbrev blk3_A (c : Dev nD) (t : Fin cfg3.N) : S2048x2048.Idx → EReal := iblk3 V c 0 t
/-- The block of H the step t reads. -/
abbrev blk3_H (c : Dev nD) (t : Fin cfg3.N) : S2048x512.Idx → EReal := iblk3 V c 1 t
/-- The bias row as the step t reads it. -/
abbrev blk3_B (c : Dev nD) (t : Fin cfg3.N) : S1x512.Idx → EReal := iblk3 V c 2 t

/-- Where each window's block sits at step t = 6 i + k: A at block (i, k), H at block (k, 0), the bias at (0, 0),
    the result at block (i, 0). Decided over the 36 steps. -/
theorem blk3_facts : ∀ t : Fin cfg3.N,
    win3_0.index t (0 : Fin 2) = t.val / 6 ∧ win3_0.index t (1 : Fin 2) = t.val % 6
    ∧ win3_1.index t (0 : Fin 2) = t.val % 6 ∧ win3_1.index t (1 : Fin 2) = 0
    ∧ win3_2.index t (0 : Fin 2) = 0 ∧ win3_2.index t (1 : Fin 2) = 0
    ∧ win3_3.index t (0 : Fin 2) = t.val / 6 ∧ win3_3.index t (1 : Fin 2) = 0 :=
  (by decide +kernel : ∀ t : Fin grid3.N, _)

theorem blk3_A_apply (c : Dev nD) (t : Fin cfg3.N) (r j : Fin 2048) :
    blk3_A V c t (ix2 r j) = val3_natA V c (2048 * (t.val / 6) + r.val) (2048 * (t.val % 6) + j.val) := by
  have ht : t.val < 36 := t.isLt
  obtain ⟨e0, e1, -⟩ := blk3_facts t
  unfold val3_natA
  rw [dif_pos ⟨by omega, by omega⟩]
  unfold blk3_A val3_A iblk3
  rw [View.read_apply]
  show V c (Pipeline.arrRef spec3 0) _ = V c (Pipeline.arrRef spec3 0) _
  congr 1
  funext a
  apply Fin.ext
  match a with
  | ⟨0, _⟩ => show win3_0.index t (0 : Fin 2) * 2048 + 1 * r.val = 2048 * (t.val / 6) + r.val; rw [e0]; omega
  | ⟨1, _⟩ => show win3_0.index t (1 : Fin 2) * 2048 + 1 * j.val = 2048 * (t.val % 6) + j.val; rw [e1]; omega

theorem blk3_H_apply (c : Dev nD) (t : Fin cfg3.N) (j : Fin 2048) (o : Fin 512) :
    blk3_H V c t (ix2 j o) = val3_natH V c (2048 * (t.val % 6) + j.val) o := by
  have ht : t.val < 36 := t.isLt
  obtain ⟨-, -, e2, e3, -⟩ := blk3_facts t
  unfold val3_natH
  rw [dif_pos (by omega)]
  unfold blk3_H val3_H iblk3
  rw [View.read_apply]
  show V c (Pipeline.arrRef spec3 1) _ = V c (Pipeline.arrRef spec3 1) _
  congr 1
  funext a
  apply Fin.ext
  match a with
  | ⟨0, _⟩ => show win3_1.index t (0 : Fin 2) * 2048 + 1 * j.val = 2048 * (t.val % 6) + j.val; rw [e2]; omega
  | ⟨1, _⟩ => show win3_1.index t (1 : Fin 2) * 512 + 1 * o.val = o.val; rw [e3]; omega

theorem blk3_B_apply (c : Dev nD) (t : Fin cfg3.N) (o : Fin 512) :
    blk3_B V c t (ix2 0 o) = val3_B V c (ix2 0 o) := by
  obtain ⟨-, -, -, -, e4, e5, -⟩ := blk3_facts t
  unfold blk3_B val3_B iblk3
  rw [View.read_apply]
  show V c (Pipeline.arrRef spec3 2) _ = V c (Pipeline.arrRef spec3 2) _
  congr 1
  funext a
  apply Fin.ext
  match a with
  | ⟨0, _⟩ => show win3_2.index t (0 : Fin 2) * 1 + 1 * 0 = 0; rw [e4]
  | ⟨1, _⟩ => show win3_2.index t (1 : Fin 2) * 512 + 1 * o.val = o.val; rw [e5]; omega

/-! ## The accumulator after a step -/

/-- What step n adds at (r, o): the product of its block of A with its block of H there. -/
def acc3_M (c : Dev nD) (n : ℕ) : S2048x512.Idx → EReal := fun idx =>
  ∑ j : Fin 2048, val3_natA V c (2048 * (n / 6) + (idx 0).val) (2048 * (n % 6) + j.val) * val3_natH V c (2048 * (n % 6) + j.val) (idx 1)

/-- After step t = 6 i + k the accumulator holds, at each element, the sum of what the steps 6 i … 6 i + k added. -/
theorem acc3_apply (c : Dev nD) (t : Fin cfg3.N) (idx : S2048x512.Idx) :
    acc3 V c t.val t.isLt idx = 0 + ∑ s ∈ Finset.range (t.val % 6 + 1), acc3_M V c (6 * (t.val / 6) + s) idx := by
  have h' : 6 * (t.val / 6) + t.val % 6 < cfg3.N := by rw [Nat.div_add_mod]; exact t.isLt
  rw [Pipeline.eq_accAt_of_mod (acc3 V c) 6
    (fun n h => k3_pay2 (F := Ideal) (k3_pay1 (F := Ideal)) (blk3_A V c ⟨n, h⟩) (blk3_H V c ⟨n, h⟩))
    (fun n h x => k3_pay2 (F := Ideal) x (blk3_A V c ⟨n, h⟩) (blk3_H V c ⟨n, h⟩))
    (fun n h hn => acc3_reset V c ⟨n, h⟩ hn)
    (fun n h hn => acc3_step V c ⟨n + 1, h⟩ hn)
    (by decide) t.val t.isLt h']
  refine Pipeline.accAt_add_apply _ _ (fun _ => 0) (acc3_M V c) (6 * (t.val / 6)) 5 ?_ ?_ (t.val % 6) (by omega) h' idx
  · intro h i
    obtain ⟨r, o, rfl⟩ : ∃ (r : Fin 2048) (o : Fin 512), i = ix2 r o := ⟨i 0, i 1, eq_ix2 i⟩
    refine (pay3_2_apply (k3_pay1 (F := Ideal)) (blk3_A V c ⟨6 * (t.val / 6), h⟩) (blk3_H V c ⟨6 * (t.val / 6), h⟩) r o).trans ?_
    rw [pay3_1_apply]
    refine congrArg (0 + ·) (Finset.sum_congr rfl fun j _ => ?_)
    rw [blk3_A_apply, blk3_H_apply]
  · intro n h x i _ _
    obtain ⟨r, o, rfl⟩ : ∃ (r : Fin 2048) (o : Fin 512), i = ix2 r o := ⟨i 0, i 1, eq_ix2 i⟩
    refine (pay3_2_apply x (blk3_A V c ⟨n, h⟩) (blk3_H V c ⟨n, h⟩) r o).trans ?_
    refine congrArg (x (ix2 r o) + ·) (Finset.sum_congr rfl fun j _ => ?_)
    rw [blk3_A_apply, blk3_H_apply]

/-- At the last step of row block i (k = 5) the accumulator holds the full product's element: the six tiles of
    2048 inner positions are the 12288 inner positions. -/
theorem acc3_last (c : Dev nD) (t : Fin cfg3.N) (h5 : t.val % 6 = 5) (r : Fin 2048) (o : Fin 512)
    (hR : 2048 * (t.val / 6) + r.val < 12288) :
    acc3 V c t.val t.isLt (ix2 r o)
      = ∑ j : Fin 12288, val3_A V c (ix2 ⟨2048 * (t.val / 6) + r.val, hR⟩ j) * val3_H V c (ix2 j o) := by
  rw [acc3_apply, zero_add, h5]
  have e : ∀ s ∈ Finset.range (5 + 1), acc3_M V c (6 * (t.val / 6) + s) (ix2 r o)
      = ∑ j : Fin 2048, (fun y => val3_natA V c (2048 * (t.val / 6) + r.val) y * val3_natH V c y o) (2048 * s + j.val) := by
    intro s hs
    have hs' : s < 6 := Finset.mem_range.mp hs
    unfold acc3_M
    rw [show (6 * (t.val / 6) + s) / 6 = t.val / 6 by omega, show (6 * (t.val / 6) + s) % 6 = s by omega]
  rw [Finset.sum_congr rfl e]
  rw [Cert.Lib.sum_fin_tiles 2048 6 (fun y => val3_natA V c (2048 * (t.val / 6) + r.val) y * val3_natH V c y o)]
  show ∑ j : Fin 12288, _ = _
  refine Finset.sum_congr rfl fun j _ => ?_
  unfold val3_natA val3_natH
  rw [dif_pos ⟨hR, j.isLt⟩, dif_pos j.isLt]

/-! ## What a row block's last step writes, and the result array -/

/-- The closing step at (r, o) of row block i is the layer's element (2048 i + r, o). -/
theorem flushed3_val (c : Dev nD) (t : Fin cfg3.N) (h5 : t.val % 6 = 5) (r : Fin 2048) (o : Fin 512)
    (hR : 2048 * (t.val / 6) + r.val < 12288) :
    k3_pay3 (F := Ideal) (acc3 V c t.val t.isLt) (blk3_B V c t) (ix2 r o)
      = G3 (val3_A V c) (val3_H V c) (val3_B V c) (ix2 ⟨2048 * (t.val / 6) + r.val, hR⟩ o) := by
  refine (pay3_3_apply (acc3 V c t.val t.isLt) (blk3_B V c t) r o).trans ?_
  rw [acc3_last V c t h5 r o hR, blk3_B_apply]
  rfl

/-- What the write-back at the last step of a row block writes is that block of the layer's dense form. -/
theorem flushed3_eq (c : Dev nD) (t : Fin cfg3.N) (hf : (cfg3.win 3).flush t = true) :
    (dat3 (F := Ideal) V c).flushed 3 t
      = ((cfg3.win 3).blk t).view.read (Elt Ideal) (G3 (val3_A V c) (val3_H V c) (val3_B V c)) := by
  have h5 : t.val % 6 = 5 := (flush3_3 t).mp hf
  have ht : t.val < 36 := t.isLt
  obtain ⟨-, -, -, -, -, -, e6, e7⟩ := blk3_facts t
  show (cfg3.win 3).cut (grid3.coords t) ((dat3 (F := Ideal) V c).after 3 t) = _
  rw [after3_3 V c t h5]
  funext y
  obtain ⟨r, o, rfl⟩ : ∃ (r : Fin 2048) (o : Fin 512), (y : S2048x512.Idx) = ix2 r o := ⟨y 0, y 1, eq_ix2 (n0 := 2048) (n1 := 512) y⟩
  have hR : 2048 * (t.val / 6) + r.val < 12288 := by omega
  rw [View.read_apply]
  show k3_pay3 (F := Ideal) (acc3 V c t.val t.isLt) (blk3_B V c t) (ix2 r o) = G3 (val3_A V c) (val3_H V c) (val3_B V c) _
  rw [flushed3_val V c t h5 r o hR]
  congr 1
  funext a
  apply Fin.ext
  match a with
  | ⟨0, _⟩ => show 2048 * (t.val / 6) + r.val = win3_3.index t (0 : Fin 2) * 2048 + 1 * r.val; rw [e6]; omega
  | ⟨1, _⟩ => show o.val = win3_3.index t (1 : Fin 2) * 512 + 1 * o.val; rw [e7]; omega

/-- An element of the result lies in the block written at step t iff each coordinate lies in the block's range. -/
theorem rows3_mem (t : Fin cfg3.N) (i : S12288x512.Idx) :
    i ∈ ((cfg3.win 3).blk t).view.set ↔ ∀ a : Fin 2, win3_3.index t a * S2048x512.size a ≤ (i a).val ∧ (i a).val < win3_3.index t a * S2048x512.size a + S2048x512.size a := by
  show i ∈ ((View.whole (Pipeline.arrRef spec3 3)).slice (win3_3.rect t)).set ↔ _
  rw [View.set_slice_whole, Rect.mem_set_unit]
  exact Iff.rfl

/-- Every row of the result lies in the block some row block's last step writes: row x in that of i = x / 2048. -/
theorem rows3_cover (i : S12288x512.Idx) :
    ∃ t : Fin cfg3.N, (cfg3.win 3).flush t = true ∧ i ∈ ((cfg3.win 3).blk t).view.set := by
  have hi : (i 0).val < 12288 := (i 0).isLt
  have ho : (i 1).val < 512 := (i 1).isLt
  have hlt : 6 * ((i 0).val / 2048) + 5 < cfg3.N := by show _ < 36; omega
  obtain ⟨-, -, -, -, -, -, e6, e7⟩ := blk3_facts ⟨6 * ((i 0).val / 2048) + 5, hlt⟩
  refine ⟨⟨6 * ((i 0).val / 2048) + 5, hlt⟩, (flush3_3 _).mpr (by show (6 * ((i 0).val / 2048) + 5) % 6 = 5; omega), ?_⟩
  rw [rows3_mem]
  intro a
  match a with
  | ⟨0, _⟩ =>
    show win3_3.index _ (0 : Fin 2) * 2048 ≤ (i 0).val ∧ (i 0).val < win3_3.index _ (0 : Fin 2) * 2048 + 2048
    rw [e6]; dsimp only; omega
  | ⟨1, _⟩ =>
    show win3_3.index _ (1 : Fin 2) * 512 ≤ (i 1).val ∧ (i 1).val < win3_3.index _ (1 : Fin 2) * 512 + 512
    rw [e7]; omega

/-- THE REGION'S VALUE: its result array ends holding the layer's dense form of the three arrays it reads. -/
theorem region3_value (c : Dev nD) :
    (dat3 (F := Ideal) V c).arrAt 3 cfg3.N
      = G3 (V c (Pipeline.arrRef spec3 0)) (V c (Pipeline.arrRef spec3 1)) (V c (Pipeline.arrRef spec3 2)) :=
  (dat3 (F := Ideal) V c).arrAt_eq_of_cover 3 (G3 (val3_A V c) (val3_H V c) (val3_B V c))
    (fun t hf => flushed3_eq V c t hf) rows3_cover

end Cert.KernelIdeal.Gen

end
-- ==== Proof.BridgeX.lean ====
/-
  The attribute decoder's result.

  The fourth region multiplies the dense adjacency A by a [12288,512] table and adds a 512-entry bias row. The table is
  the rectified first half (columns 0 … 63) of the third region's output times the decoder's second weight, padded from
  500 to 512 columns with zeros; the bias is the decoder's second bias padded likewise. The result keeps the first 500
  columns only, so the padding is never read: at a column o < 500 the table's entry is the sum over the 64 inner
  positions of the rectified half times the unpadded weight, which is the reference's product, and the bias is the
  unpadded bias. The product with the adjacency plus the bias is then one graph-convolution layer of the reference.
  So the two results agree as soon as the third region's first 64 columns are the reference's hidden layer.
-/
import proofs.«420824_j61512521613989_2_alg».proof.Proof.Run
import proofs.«420824_j61512521613989_2_alg».proof.Proof.HostGlue
import proofs.«420824_j61512521613989_2_alg».proof.Proof.HostGlue3
import proofs.«420824_j61512521613989_2_alg».proof.Proof.Reg3Value
import proofs.«420824_j61512521613989_2_alg».proof.Proof.RefConvIdx
import proofs.«420824_j61512521613989_2_alg».proof.Proof.BridgeCore
import Idealize.ShloMosaic.Lib.Pipeline.Value
import Idealize.ShloMosaic.Lib.ValueIdx

set_option maxRecDepth 16384

noncomputable section

namespace Cert.KernelIdeal.Gen

open Idealize.ShloMosaic Idealize.ShloMosaic.TcCoe
open Idealize.ShloMosaic.ValueIdx

section Bridge
variable (m : (ℓ : Loc nD τ sig) → Buf (Elt Ideal) ℓ)

/-! ## The arrays of this stage, at their literal types -/

/-- The third region's output, [12288,128]. -/
abbrev x_y (c : Dev nD) : FVec Ideal S12288x128 .f32 := W6 m c (Proc.devRef .tc main_v61)
/-- The decoder's second weight, [64,500], and bias, [500]. -/
abbrev x_w (c : Dev nD) : FVec Ideal S64x500 .f32 := m ((c : Thread nD τ).loc main_arg9)
abbrev x_b (c : Dev nD) : FVec Ideal S500 .f32 := m ((c : Thread nD τ).loc main_arg10)
/-- The rectified first half, the padded weight and the padded bias, as the last host stretch before the fourth region reads them. -/
abbrev x_half (c : Dev nD) : FVec Ideal S12288x64 .f32 := W10 m c (Proc.devRef .tc main_v64)
abbrev x_wpad (c : Dev nD) : FVec Ideal S64x512 .f32 := W10 m c (Proc.devRef .tc main_v66)
abbrev x_bpad (c : Dev nD) : FVec Ideal S512 .f32 := W10 m c (Proc.devRef .tc main_v67)
/-- The three arrays the fourth region reads. -/
abbrev x_A (c : Dev nD) : FVec Ideal S12288x12288 .bf16 := Vin3 m c main_v38
abbrev x_H (c : Dev nD) : FVec Ideal S12288x512 .bf16 := Vin3 m c main_v71
abbrev x_B (c : Dev nD) : FVec Ideal S1x512 .f32 := Vin3 m c main_v72

/-- The left factor the fourth region reads is the dense adjacency of the edge lists: the first host stretch wrote it
    and nothing writes it again. -/
theorem x_A_eq (c : Dev nD) :
    x_A m c = adjTerm (F := Ideal) (m ((c : Thread nD τ).loc main_arg1)) (m ((c : Thread nD τ).loc main_arg2)) := by
  show (W11 m c (Proc.devRef .tc main_v38) : Vec Ideal S12288x12288 .bf16) = _
  refine (W11_of m c main_v38 (by decide)).trans ?_
  refine (W10_of m c main_v38 (by decide)).trans ?_
  refine (W9_of m c main_v38 (by decide)).trans ?_
  refine (W8_of m c main_v38 (by decide)).trans ?_
  refine (W7_of m c main_v38 (by decide)).trans ?_
  refine (W6_of m c main_v38 (by decide)).trans ?_
  refine (W5_of m c main_v38 (by decide)).trans ?_
  refine (W4_of m c main_v38 (by decide)).trans ?_
  refine (W3_of m c main_v38 (by decide)).trans ?_
  refine (W2_of m c main_v38 (by decide)).trans ?_
  exact hostOps0_main_v38 (W0 m c)

/-- The rectified half: entry (j, k) is the larger of the third region's entry (j, k) and zero. -/
theorem x_half_apply (c : Dev nD) (j : Fin 12288) (k : Fin 64) :
    x_half m c (ix2 j k) = max (x_y m c (ix2 j ⟨k.val, by omega⟩)) 0 := by
  have e := (W10_of m c main_v64 (by decide)).trans ((W9_of m c main_v64 (by decide)).trans
    ((W8_of m c main_v64 (by decide)).trans (hostOps3_main_v64 (W6 m c))))
  refine (congrFun e (ix2 j k)).trans ?_
  refine (relu3_apply _ (ix2 j k)).trans ?_
  exact congrArg (max · 0) (slice3_lo_apply (x_y m c) j k)

/-- The padded weight at a column below 500 is the decoder's second weight there. -/
theorem x_wpad_apply (c : Dev nD) (k : Fin 64) (o : Fin 500) :
    x_wpad m c (ix2 k ⟨o.val, by omega⟩) = x_w m c (ix2 k o) := by
  have e := (W10_of m c main_v66 (by decide)).trans ((W9_of m c main_v66 (by decide)).trans (hostOps3_1_main_v66 (W7 m c)))
  have e9 : W7 m c (Proc.devRef .tc main_arg9) = m ((c : Thread nD τ).loc main_arg9) :=
    (W7_of m c main_arg9 (by decide)).trans <| (W6_of m c main_arg9 (by decide)).trans <| (W5_of m c main_arg9 (by decide)).trans <|
    (W4_of m c main_arg9 (by decide)).trans <| (W3_of m c main_arg9 (by decide)).trans <| (W2_of m c main_arg9 (by decide)).trans <|
    W1_of m c main_arg9 (by decide)
  refine (congrFun e (ix2 k ⟨o.val, by omega⟩)).trans ?_
  refine (pad3_w_apply _ _ k ⟨o.val, by omega⟩).trans ?_
  rw [dif_pos (show ((⟨o.val, by omega⟩ : Fin 512) : ℕ) < 500 from o.isLt)]
  exact congrFun e9 (ix2 k o)

/-- The padded bias row at a column below 500 is the decoder's second bias there. -/
theorem x_B_apply (c : Dev nD) (o : Fin 500) :
    x_B m c (ix2 0 ⟨o.val, by omega⟩) = x_b m c (ix1 o) := by
  have e72 := hostOps3_4_main_v72 (W10 m c)
  have e67 := hostOps3_3_main_v67 (W9 m c)
  have e10 : W9 m c (Proc.devRef .tc main_arg10) = m ((c : Thread nD τ).loc main_arg10) :=
    (W9_of m c main_arg10 (by decide)).trans <| (W8_of m c main_arg10 (by decide)).trans <| (W7_of m c main_arg10 (by decide)).trans <|
    (W6_of m c main_arg10 (by decide)).trans <| (W5_of m c main_arg10 (by decide)).trans <| (W4_of m c main_arg10 (by decide)).trans <|
    (W3_of m c main_arg10 (by decide)).trans <| (W2_of m c main_arg10 (by decide)).trans <| W1_of m c main_arg10 (by decide)
  refine (congrFun e72 (ix2 0 ⟨o.val, by omega⟩)).trans ?_
  refine (row3_apply _ 0 ⟨o.val, by omega⟩).trans ?_
  refine (congrFun e67 (ix1 ⟨o.val, by omega⟩)).trans ?_
  refine (pad3_b_apply _ _ ⟨o.val, by omega⟩).trans ?_
  rw [dif_pos (show ((⟨o.val, by omega⟩ : Fin 512) : ℕ) < 500 from o.isLt)]
  exact congrFun e10 (ix1 o)

/-- The right factor the fourth region reads, at a column below 500: the reference's product of the rectified hidden
    layer with the decoder's second weight, whenever the third region's first 64 columns are that hidden layer. -/
theorem x_H_apply (c : Dev nD) (A1 : FVec Ideal Cert.ReferenceIdeal.S12288x64 .f32)
    (h2 : ∀ (r : Fin 12288) (o : Fin 64), (W6 m c (Proc.devRef .tc main_v61) : S12288x128.Idx → EReal) (ix2 r ⟨o.val, by omega⟩) = (A1 (ix2 r o) : EReal))
    (j : Fin 12288) (o : Fin 500) :
    x_H m c (ix2 j ⟨o.val, by omega⟩)
      = Host.dotGeneral (φ₁ := .f32) (φ₂ := .f32) Cert.ReferenceIdeal.dot_S12288x64_S64x500_S12288x500_1_0_0_1_n_n none
          (Cert.ReferenceIdeal.RefValue.relu64 A1) (x_w m c) (ix2 j o) := by
  have e71 := hostOps3_4_main_v71 (W10 m c)
  refine (congrFun e71 (ix2 j ⟨o.val, by omega⟩)).trans ?_
  refine (dot3_apply (φ₁ := .f32) (φ₂ := .f32) (x_half m c) (x_wpad m c) j ⟨o.val, by omega⟩).trans ?_
  refine ((dot3_ref_apply (φ₁ := .f32) (φ₂ := .f32) (Cert.ReferenceIdeal.RefValue.relu64 A1) (x_w m c) j o).trans ?_).symm
  refine Finset.sum_congr rfl fun k _ => ?_
  have h2' : x_y m c (ix2 j ⟨k.val, by omega⟩) = A1 (ix2 j k) := h2 j k
  rw [x_half_apply m c j k, x_wpad_apply m c k o, h2', Cert.ReferenceIdeal.RefValue.relu64_apply]

/-- THE ATTRIBUTE DECODER: the first result array is the reference's 500-feature layer on the product of the rectified
    hidden layer with the decoder's second weight, whenever the third region's first 64 columns are that hidden layer. -/
theorem x_hat_of_a1 (c : Dev nD)
    (hs : ∀ e : Fin 393216, 0 ≤ ((m ((c : Thread nD τ).loc main_arg1) : IVec S393216 32) (ix1 e)).toInt ∧ ((m ((c : Thread nD τ).loc main_arg1) : IVec S393216 32) (ix1 e)).toInt < 12288)
    (hd : ∀ e : Fin 393216, 0 ≤ ((m ((c : Thread nD τ).loc main_arg2) : IVec S393216 32) (ix1 e)).toInt ∧ ((m ((c : Thread nD τ).loc main_arg2) : IVec S393216 32) (ix1 e)).toInt < 12288)
    (A1 : FVec Ideal Cert.ReferenceIdeal.S12288x64 .f32)
    (h2 : ∀ (r : Fin 12288) (o : Fin 64), (W6 m c (Proc.devRef .tc main_v61) : S12288x128.Idx → EReal) (ix2 r ⟨o.val, by omega⟩) = (A1 (ix2 r o) : EReal)) :
    (W14 m c (Proc.devRef .tc main_v74) : S12288x500.Idx → EReal)
      = Cert.ReferenceIdeal.RefValue.layer500 (m ((c : Thread nD τ).loc main_arg1)) (m ((c : Thread nD τ).loc main_arg2))
          (Host.dotGeneral (φ₁ := .f32) (φ₂ := .f32) Cert.ReferenceIdeal.dot_S12288x64_S64x500_S12288x500_1_0_0_1_n_n none
            (Cert.ReferenceIdeal.RefValue.relu64 A1) (m ((c : Thread nD τ).loc main_arg9)))
          (m ((c : Thread nD τ).loc main_arg10)) := by
  have e74 := (W14_main_v74 m c).trans (hostOps4_main_v74 (W12 m c))
  funext idx
  obtain ⟨r, o, rfl⟩ : ∃ (r : Fin 12288) (o : Fin 500), idx = ix2 r o := ⟨idx 0, idx 1, eq_ix2 idx⟩
  refine (congrFun e74 (ix2 r o)).trans ?_
  refine (slice4_apply _ r o).trans ?_
  refine (congrFun ((W12_main_v73 m c).trans (region3_value (Vin3 m) c)) (ix2 r ⟨o.val, by omega⟩)).trans ?_
  show epi3 ((∑ j : Fin 12288, x_A m c (ix2 r j) * x_H m c (ix2 j ⟨o.val, by omega⟩)) + x_B m c (ix2 0 ⟨o.val, by omega⟩)) = _
  unfold epi3
  rw [x_A_eq m c, x_B_apply m c o, Finset.sum_congr rfl (fun j _ => by rw [x_H_apply m c A1 h2 j o])]
  exact conv500_entry (m ((c : Thread nD τ).loc main_arg1)) (m ((c : Thread nD τ).loc main_arg2)) hs hd _ (x_b m c) r o

end Bridge

end Cert.KernelIdeal.Gen

end
-- ==== Proof.Bridge.lean ====
/- The kernel program's two results are the reference's: along the fold of buffer contents through @main, each kernel
   region's output array is the reference's graph-convolution layer of the same inputs, because the dense weighted
   adjacency times a feature table, read at an entry, is the sum over the edges ending in the entry's row of the
   source rows times the edge weights. -/
import proofs.«420824_j61512521613989_2_alg».proof.Proof.Run
import proofs.«420824_j61512521613989_2_alg».proof.Proof.HostGlue
import proofs.«420824_j61512521613989_2_alg».proof.Proof.HostGlueIdx
import proofs.«420824_j61512521613989_2_alg».proof.Proof.Reg0Value
import proofs.«420824_j61512521613989_2_alg».proof.Proof.Reg1Value
import proofs.«420824_j61512521613989_2_alg».proof.Proof.Reg2Value
import proofs.«420824_j61512521613989_2_alg».proof.Proof.RefLayers
import proofs.«420824_j61512521613989_2_alg».proof.Proof.RefConvIdx
import proofs.«420824_j61512521613989_2_alg».proof.Proof.BridgeCore
import proofs.«420824_j61512521613989_2_alg».proof.Proof.BridgeS
import proofs.«420824_j61512521613989_2_alg».proof.Proof.BridgeX

set_option maxRecDepth 16384

noncomputable section

/-! # The kernel program's two results are the reference's

The run leaves, in every unscoped buffer, the last valuation of the fold through @main. Stage by stage along that
fold, each region's output array is the reference's layer of the same inputs: a region computes the product of the
dense weighted adjacency with a feature table plus a bias row, and that product, read at an entry, is the sum over the
edges that end in the entry's row of the source rows times the edge weights. -/

namespace Cert.KernelIdeal.Gen

open Idealize.ShloMosaic Idealize.ShloMosaic.TcCoe Idealize.ShloMosaic.ValueIdx
open scoped BigOperators

/-! ## A region's value over the adjacency is the reference's layer -/

section Layers

variable (src dst : IVec S393216 32)
  (hs : ∀ e : Fin 393216, 0 ≤ (src (ix1 e)).toInt ∧ (src (ix1 e)).toInt < 12288)
  (hd : ∀ e : Fin 393216, 0 ≤ (dst (ix1 e)).toInt ∧ (dst (ix1 e)).toInt < 12288)

include hs hd

/-- The first region: the rectified 64-feature layer. -/
theorem G0_layer (hw : FVec Ideal S12288x64 .f32) (b : FVec Ideal S64 .f32) (B : S1x64.Idx → EReal)
    (hB : ∀ o : Fin 64, B (ix2 0 o) = b (ix1 o)) :
    G0 (adjTerm (F := Ideal) src dst) hw B = Cert.ReferenceIdeal.RefValue.relu64 (Cert.ReferenceIdeal.RefValue.layer64 src dst hw b) := by
  funext idx
  obtain ⟨r, o, rfl⟩ : ∃ (r : Fin 12288) (o : Fin 64), idx = ix2 r o := ⟨_, _, eq_ix2 idx⟩
  rw [Cert.ReferenceIdeal.RefValue.relu64_apply, ← conv64_entry src dst hs hd hw b r o, ← hB]
  show max _ (Ideal.ofBits .f32 0x00000000#32) = _
  rw [Ideal.ofBits_zero_f32]

/-- The second region: the 64-feature layer. -/
theorem G1_layer (hw : FVec Ideal S12288x64 .f32) (b : FVec Ideal S64 .f32) (B : S1x64.Idx → EReal)
    (hB : ∀ o : Fin 64, B (ix2 0 o) = b (ix1 o)) :
    G1 (adjTerm (F := Ideal) src dst) hw B = Cert.ReferenceIdeal.RefValue.layer64 src dst hw b := by
  funext idx
  obtain ⟨r, o, rfl⟩ : ∃ (r : Fin 12288) (o : Fin 64), idx = ix2 r o := ⟨_, _, eq_ix2 idx⟩
  rw [← conv64_entry src dst hs hd hw b r o, ← hB]
  rfl

/-- The third region at a column: the 64-feature layer of that column's table and bias. -/
theorem G2_entry (H : S12288x128.Idx → EReal) (B : S1x128.Idx → EReal) (hw : FVec Ideal S12288x64 .f32)
    (b : FVec Ideal S64 .f32) (r : Fin 12288) (o' : Fin 128) (o : Fin 64)
    (hH : ∀ j : Fin 12288, H (ix2 j o') = hw (ix2 j o)) (hB : B (ix2 0 o') = b (ix1 o)) :
    G2 (adjTerm (F := Ideal) src dst) H B (ix2 r o') = Cert.ReferenceIdeal.RefValue.layer64 src dst hw b (ix2 r o) := by
  rw [← conv64_entry src dst hs hd hw b r o, ← hB]
  show (∑ j : Fin 12288, (adjTerm (F := Ideal) src dst (ix2 r j) : EReal) * H (ix2 j o')) + B (ix2 0 o') = _
  rw [Finset.sum_congr rfl fun j _ => by rw [hH j]]

end Layers

/-! ## The fold through @main, stage by stage -/

section Stages

variable (m : (ℓ : Loc nD τ sig) → Buf (Elt Ideal) ℓ) (c : Dev nD)

/-- The program's arguments on core `c`. -/
abbrev argX : FVec Ideal S12288x500 .f32 := m ((c : Thread nD τ).loc main_arg0)
abbrev argSrc : IVec S393216 32 := m ((c : Thread nD τ).loc main_arg1)
abbrev argDst : IVec S393216 32 := m ((c : Thread nD τ).loc main_arg2)
abbrev argW1 : FVec Ideal S500x64 .f32 := m ((c : Thread nD τ).loc main_arg3)
abbrev argB1 : FVec Ideal S64 .f32 := m ((c : Thread nD τ).loc main_arg4)
abbrev argW2 : FVec Ideal S64x64 .f32 := m ((c : Thread nD τ).loc main_arg5)
abbrev argB2 : FVec Ideal S64 .f32 := m ((c : Thread nD τ).loc main_arg6)
abbrev argAW1 : FVec Ideal S64x64 .f32 := m ((c : Thread nD τ).loc main_arg7)
abbrev argAB1 : FVec Ideal S64 .f32 := m ((c : Thread nD τ).loc main_arg8)
abbrev argAW2 : FVec Ideal S64x500 .f32 := m ((c : Thread nD τ).loc main_arg9)
abbrev argAB2 : FVec Ideal S500 .f32 := m ((c : Thread nD τ).loc main_arg10)
abbrev argSW1 : FVec Ideal S64x64 .f32 := m ((c : Thread nD τ).loc main_arg11)
abbrev argSB1 : FVec Ideal S64 .f32 := m ((c : Thread nD τ).loc main_arg12)

/-- The reference's first layer, embedding and decoder features of these arguments. -/
abbrev refH1 : FVec Ideal Cert.ReferenceIdeal.S12288x64 .f32 := Cert.ReferenceIdeal.RefValue.h1 (argSrc m c) (argDst m c) (argX m c) (argW1 m c) (argB1 m c)
abbrev refEmb : FVec Ideal Cert.ReferenceIdeal.S12288x64 .f32 :=
  Cert.ReferenceIdeal.RefValue.emb (argSrc m c) (argDst m c) (argX m c) (argW1 m c) (argB1 m c) (argW2 m c) (argB2 m c)
abbrev refA1 : FVec Ideal Cert.ReferenceIdeal.S12288x64 .f32 :=
  Cert.ReferenceIdeal.RefValue.layer64 (argSrc m c) (argDst m c)
    (Host.dotGeneral Cert.ReferenceIdeal.dot_S12288x64_S64x64_S12288x64_1_0_0_1_n_n none (refEmb m c) (argAW1 m c)) (argAB1 m c)
abbrev refZ : FVec Ideal Cert.ReferenceIdeal.S12288x64 .f32 := Cert.ReferenceIdeal.RefValue.zRef (argSrc m c) (argDst m c) (refEmb m c) (argSW1 m c) (argSB1 m c)
abbrev refXHat : FVec Ideal Cert.ReferenceIdeal.S12288x500 .f32 :=
  Cert.ReferenceIdeal.RefValue.xHat (argSrc m c) (argDst m c) (refEmb m c) (argAW1 m c) (argAB1 m c) (argAW2 m c) (argAB2 m c)

/-! ### What the boundaries hold where no item in between writes -/

theorem W2_arg5 : W2 m c (Proc.devRef .tc main_arg5) = m ((c : Thread nD τ).loc main_arg5) :=
  (W2_of m c main_arg5 (by decide)).trans <| (W1_of m c main_arg5 (by decide)).trans <| rfl
theorem W2_arg6 : W2 m c (Proc.devRef .tc main_arg6) = m ((c : Thread nD τ).loc main_arg6) :=
  (W2_of m c main_arg6 (by decide)).trans <| (W1_of m c main_arg6 (by decide)).trans <| rfl
theorem W4_arg7 : W4 m c (Proc.devRef .tc main_arg7) = m ((c : Thread nD τ).loc main_arg7) :=
  (W4_of m c main_arg7 (by decide)).trans <| (W3_of m c main_arg7 (by decide)).trans <| (W2_of m c main_arg7 (by decide)).trans <| (W1_of m c main_arg7 (by decide)).trans <| rfl
theorem W4_arg8 : W4 m c (Proc.devRef .tc main_arg8) = m ((c : Thread nD τ).loc main_arg8) :=
  (W4_of m c main_arg8 (by decide)).trans <| (W3_of m c main_arg8 (by decide)).trans <| (W2_of m c main_arg8 (by decide)).trans <| (W1_of m c main_arg8 (by decide)).trans <| rfl
theorem W4_arg11 : W4 m c (Proc.devRef .tc main_arg11) = m ((c : Thread nD τ).loc main_arg11) :=
  (W4_of m c main_arg11 (by decide)).trans <| (W3_of m c main_arg11 (by decide)).trans <| (W2_of m c main_arg11 (by decide)).trans <| (W1_of m c main_arg11 (by decide)).trans <| rfl
theorem W4_arg12 : W4 m c (Proc.devRef .tc main_arg12) = m ((c : Thread nD τ).loc main_arg12) :=
  (W4_of m c main_arg12 (by decide)).trans <| (W3_of m c main_arg12 (by decide)).trans <| (W2_of m c main_arg12 (by decide)).trans <| (W1_of m c main_arg12 (by decide)).trans <| rfl
theorem W7_arg9 : W7 m c (Proc.devRef .tc main_arg9) = m ((c : Thread nD τ).loc main_arg9) :=
  (W7_of m c main_arg9 (by decide)).trans <| (W6_of m c main_arg9 (by decide)).trans <| (W5_of m c main_arg9 (by decide)).trans <| (W4_of m c main_arg9 (by decide)).trans <| (W3_of m c main_arg9 (by decide)).trans <| (W2_of m c main_arg9 (by decide)).trans <| (W1_of m c main_arg9 (by decide)).trans <| rfl
theorem W9_arg10 : W9 m c (Proc.devRef .tc main_arg10) = m ((c : Thread nD τ).loc main_arg10) :=
  (W9_of m c main_arg10 (by decide)).trans <| (W8_of m c main_arg10 (by decide)).trans <| (W7_of m c main_arg10 (by decide)).trans <| (W6_of m c main_arg10 (by decide)).trans <| (W5_of m c main_arg10 (by decide)).trans <| (W4_of m c main_arg10 (by decide)).trans <| (W3_of m c main_arg10 (by decide)).trans <| (W2_of m c main_arg10 (by decide)).trans <| (W1_of m c main_arg10 (by decide)).trans <| rfl
theorem W3_v38 : W3 m c (Proc.devRef .tc main_v38) = W1 m c (Proc.devRef .tc main_v38) :=
  (W3_of m c main_v38 (by decide)).trans <| (W2_of m c main_v38 (by decide)).trans <| rfl
theorem W5_v38 : W5 m c (Proc.devRef .tc main_v38) = W1 m c (Proc.devRef .tc main_v38) :=
  (W5_of m c main_v38 (by decide)).trans <| (W4_of m c main_v38 (by decide)).trans <| (W3_of m c main_v38 (by decide)).trans <| (W2_of m c main_v38 (by decide)).trans <| rfl
theorem W11_v38 : W11 m c (Proc.devRef .tc main_v38) = W1 m c (Proc.devRef .tc main_v38) :=
  (W11_of m c main_v38 (by decide)).trans <| (W10_of m c main_v38 (by decide)).trans <| (W9_of m c main_v38 (by decide)).trans <| (W8_of m c main_v38 (by decide)).trans <| (W7_of m c main_v38 (by decide)).trans <| (W6_of m c main_v38 (by decide)).trans <| (W5_of m c main_v38 (by decide)).trans <| (W4_of m c main_v38 (by decide)).trans <| (W3_of m c main_v38 (by decide)).trans <| (W2_of m c main_v38 (by decide)).trans <| rfl
theorem W10_v64 : W10 m c (Proc.devRef .tc main_v64) = W7 m c (Proc.devRef .tc main_v64) :=
  (W10_of m c main_v64 (by decide)).trans <| (W9_of m c main_v64 (by decide)).trans <| (W8_of m c main_v64 (by decide)).trans <| rfl
theorem W10_v66 : W10 m c (Proc.devRef .tc main_v66) = W8 m c (Proc.devRef .tc main_v66) :=
  (W10_of m c main_v66 (by decide)).trans <| (W9_of m c main_v66 (by decide)).trans <| rfl

/-- The dense weighted adjacency the first host stretch leaves. -/
theorem W1_v38 : (W1 m c (Proc.devRef .tc main_v38) : Vec Ideal S12288x12288 .bf16) = adjTerm (argSrc m c) (argDst m c) :=
  hostOps0_main_v38 (W0 m c)

/-! ### What each host stretch leaves, read at the boundary's name

At the exact instance a change of float format is the identity, so the casts the program prints disappear. -/

theorem W1_v42 : (W1 m c (Proc.devRef .tc main_v42) : Vec Ideal S12288x64 .bf16)
    = (Host.dotGeneral dot_S12288x500_S500x64_S12288x64_1_0_0_1_n_n none (argX m c) (argW1 m c) : FVec Ideal S12288x64 .f32) :=
  hostOps0_main_v42 (W0 m c)
theorem W1_v43 : (W1 m c (Proc.devRef .tc main_v43) : Vec Ideal S1x64 .f32) = shapeCast S1x64 (argB1 m c) shapeCasts_S64_S1x64 :=
  hostOps0_main_v43 (W0 m c)
theorem W3_v48 : (W3 m c (Proc.devRef .tc main_v48) : Vec Ideal S12288x64 .bf16)
    = (Host.dotGeneral (φ₁ := .f32) (φ₂ := .f32) dot_S12288x64_S64x64_S12288x64_1_0_0_1_n_n none
        (W2 m c (Proc.devRef .tc main_v44) : Vec Ideal S12288x64 .f32) (W2 m c (Proc.devRef .tc main_arg5) : Vec Ideal S64x64 .f32) : FVec Ideal S12288x64 .f32) :=
  hostOps1_main_v48 (W2 m c)
theorem W3_v49 : (W3 m c (Proc.devRef .tc main_v49) : Vec Ideal S1x64 .f32)
    = shapeCast S1x64 (W2 m c (Proc.devRef .tc main_arg6) : Vec Ideal S64 .f32) shapeCasts_S64_S1x64 :=
  hostOps1_main_v49 (W2 m c)
/-- The third region's feature table at a column of its first half: the embedding's product with the attribute
    decoder's first weight. -/
theorem W5_v58_left (j : Fin 12288) (o : Fin 64) :
    (W5 m c (Proc.devRef .tc main_v58) : S12288x128.Idx → EReal) (ix2 j ⟨o.val, by omega⟩)
      = (Host.dotGeneral (φ₁ := .f32) (φ₂ := .f32) dot_S12288x64_S64x64_S12288x64_1_0_0_1_n_n none
          (W4 m c (Proc.devRef .tc main_v50) : Vec Ideal S12288x64 .f32) (W4 m c (Proc.devRef .tc main_arg7) : Vec Ideal S64x64 .f32)
          : FVec Ideal S12288x64 .f32) (ix2 j o) := by
  show (StableHlo.after hostOps2 (W4 m c) (Proc.devRef .tc main_v58) : Vec Ideal S12288x128 .bf16) (ix2 j _) = _
  rw [hostOps2_main_v58 (W4 m c), ValueIdx.truncf_apply, concat_S12288x128_left]
  rfl
/-- … and of its second half: the product with the structure decoder's weight. -/
theorem W5_v58_right (j : Fin 12288) (o : Fin 64) :
    (W5 m c (Proc.devRef .tc main_v58) : S12288x128.Idx → EReal) (ix2 j ⟨64 + o.val, by omega⟩)
      = (Host.dotGeneral (φ₁ := .f32) (φ₂ := .f32) dot_S12288x64_S64x64_S12288x64_1_0_0_1_n_n none
          (W4 m c (Proc.devRef .tc main_v50) : Vec Ideal S12288x64 .f32) (W4 m c (Proc.devRef .tc main_arg11) : Vec Ideal S64x64 .f32)
          : FVec Ideal S12288x64 .f32) (ix2 j o) := by
  show (StableHlo.after hostOps2 (W4 m c) (Proc.devRef .tc main_v58) : Vec Ideal S12288x128 .bf16) (ix2 j _) = _
  rw [hostOps2_main_v58 (W4 m c), ValueIdx.truncf_apply, concat_S12288x128_right]
  rfl
/-- The third region's bias row at a column of its first half, and of its second half. -/
theorem W5_v60_left (o : Fin 64) :
    (W5 m c (Proc.devRef .tc main_v60) : S1x128.Idx → EReal) (ix2 0 ⟨o.val, by omega⟩)
      = (W4 m c (Proc.devRef .tc main_arg8) : Vec Ideal S64 .f32) (ix1 o) := by
  show (StableHlo.after hostOps2 (W4 m c) (Proc.devRef .tc main_v60) : Vec Ideal S1x128 .f32) (ix2 0 _) = _
  rw [hostOps2_main_v60 (W4 m c), reshape_S1x128_apply, concat_S128_left]
theorem W5_v60_right (o : Fin 64) :
    (W5 m c (Proc.devRef .tc main_v60) : S1x128.Idx → EReal) (ix2 0 ⟨64 + o.val, by omega⟩)
      = (W4 m c (Proc.devRef .tc main_arg12) : Vec Ideal S64 .f32) (ix1 o) := by
  show (StableHlo.after hostOps2 (W4 m c) (Proc.devRef .tc main_v60) : Vec Ideal S1x128 .f32) (ix2 0 _) = _
  rw [hostOps2_main_v60 (W4 m c), reshape_S1x128_apply, concat_S128_right]

variable (hs : ∀ e : Fin 393216, 0 ≤ (argSrc m c (ix1 e)).toInt ∧ (argSrc m c (ix1 e)).toInt < 12288)
  (hd : ∀ e : Fin 393216, 0 ≤ (argDst m c (ix1 e)).toInt ∧ (argDst m c (ix1 e)).toInt < 12288)

include hs hd

/-! ### Region 0: the first encoder layer, rectified -/

theorem stage0 : (W2 m c (Proc.devRef .tc main_v44) : S12288x64.Idx → EReal) = refH1 m c := by
  rw [W2_main_v44, region0_value (Vin0 m) c]
  show G0 (W1 m c (Proc.devRef .tc main_v38)) (W1 m c (Proc.devRef .tc main_v42)) (W1 m c (Proc.devRef .tc main_v43)) = _
  rw [W1_v38 m c, W1_v42 m c, W1_v43 m c]
  exact G0_layer (argSrc m c) (argDst m c) hs hd _ (argB1 m c) _ fun o => reshape_S1x64_apply _ _ 0 o

/-! ### Region 1: the embedding -/

theorem stage1 : (W4 m c (Proc.devRef .tc main_v50) : S12288x64.Idx → EReal) = refEmb m c := by
  rw [W4_main_v50, region1_value (Vin1 m) c]
  show G1 (W3 m c (Proc.devRef .tc main_v38)) (W3 m c (Proc.devRef .tc main_v48)) (W3 m c (Proc.devRef .tc main_v49)) = _
  rw [W3_v38 m c, W1_v38 m c, W3_v48 m c, W3_v49 m c, stage0 m c hs hd, W2_arg5 m c, W2_arg6 m c]
  exact G1_layer (argSrc m c) (argDst m c) hs hd _ (argB2 m c) _ fun o => reshape_S1x64_apply _ _ 0 o

/-! ### Region 2: the two decoders' first layers, side by side -/

/-- Columns below 64: the attribute decoder's first layer on the embedding (before its rectifier). -/
theorem stage2_lo (r : Fin 12288) (o : Fin 64) :
    (W6 m c (Proc.devRef .tc main_v61) : S12288x128.Idx → EReal) (ix2 r ⟨o.val, by omega⟩) = (refA1 m c (ix2 r o) : EReal) := by
  rw [W6_main_v61, region2_value (Vin2 m) c]
  show G2 (W5 m c (Proc.devRef .tc main_v38)) (W5 m c (Proc.devRef .tc main_v58)) (W5 m c (Proc.devRef .tc main_v60)) _ = _
  rw [W5_v38 m c, W1_v38 m c]
  refine G2_entry (argSrc m c) (argDst m c) hs hd _ _
    (Host.dotGeneral Cert.ReferenceIdeal.dot_S12288x64_S64x64_S12288x64_1_0_0_1_n_n none (refEmb m c) (argAW1 m c)) (argAB1 m c) r _ o (fun j => ?_) ?_
  · rw [W5_v58_left m c j o, stage1 m c hs hd, W4_arg7 m c]
    rfl
  · rw [W5_v60_left m c o, W4_arg8 m c]

/-- Columns from 64 on: the structure decoder's features. -/
theorem stage2_hi (r : Fin 12288) (o : Fin 64) :
    (W6 m c (Proc.devRef .tc main_v61) : S12288x128.Idx → EReal) (ix2 r ⟨64 + o.val, by omega⟩) = (refZ m c (ix2 r o) : EReal) := by
  rw [W6_main_v61, region2_value (Vin2 m) c]
  show G2 (W5 m c (Proc.devRef .tc main_v38)) (W5 m c (Proc.devRef .tc main_v58)) (W5 m c (Proc.devRef .tc main_v60)) _ = _
  rw [W5_v38 m c, W1_v38 m c]
  refine G2_entry (argSrc m c) (argDst m c) hs hd _ _
    (Host.dotGeneral Cert.ReferenceIdeal.dot_S12288x64_S64x64_S12288x64_1_0_0_1_n_n none (refEmb m c) (argSW1 m c)) (argSB1 m c) r _ o (fun j => ?_) ?_
  · rw [W5_v58_right m c j o, stage1 m c hs hd, W4_arg11 m c]
    rfl
  · rw [W5_v60_right m c o, W4_arg12 m c]

/-! ### The two results -/

/-- The first result: the attribute decoder on the embedding. -/
theorem kernel_x_hat : (W14 m c (Proc.devRef .tc main_v74) : S12288x500.Idx → EReal) = refXHat m c :=
  x_hat_of_a1 m c hs hd (refA1 m c) (stage2_lo m c hs hd)

/-- The second result: the structure decoder's features times their transpose. -/
theorem kernel_s_hat : (W14 m c (Proc.devRef .tc main_v76) : S12288x12288.Idx → EReal) = Cert.ReferenceIdeal.RefValue.sHat (refZ m c) :=
  s_hat_of_z m c (refZ m c) (stage2_hi m c hs hd)

end Stages

end Cert.KernelIdeal.Gen

end
-- ==== Proof.lean ====
/- The certificate's claim, assembled.

   The kernel program is a five-layer graph-convolution network whose message passing goes through one dense
   normalized adjacency table: edge weights are scatter-added into an n × n table once, and every layer is a
   blocked matrix product of that table with the layer's projected features, accumulated over six column blocks,
   plus a bias row (the first layer rectified inside the kernel; the third and fifth layers fused into one
   128-column product and split afterwards; the fourth computed with its weights padded to 512 columns and cut
   back to 500); the last call multiplies the structure decoder's features by their own transpose. The reference
   gathers each edge's source row, scales it by the edge's weight and adds the scaled rows up at the edge's
   destination.

   Under the precondition every node index lies in [0, n), so no index is wrapped, clamped or dropped on either
   side. Entry (i, j) of the dense table is the sum of the weights of the edges from j to i; the weights are
   products of inverse square roots, hence nonnegative, so on the extended reals the sum distributes over the
   product with a feature without any finiteness argument, and regrouping the double sum by edges turns the dense
   product into the reference's sum over the edges that end in i. Layer by layer the two programs then hold the
   same tables, and the two results agree entry by entry.

   The three frames: the two kernel programs run as fourteen segments (host stretches and five kernel regions)
   under the regions launch theorem, each region's body obligation discharged point by point with the carried
   accumulator named after every point; the reference is a host program whose run names both results. -/
import proofs.«420824_j61512521613989_2_alg».proof.Defs
import proofs.«420824_j61512521613989_2_alg».proof.Proof.Gen.Kernel
import proofs.«420824_j61512521613989_2_alg».proof.Proof.Gen.KernelIdeal
import proofs.«420824_j61512521613989_2_alg».proof.Proof.Gen.ReferenceIdeal
import proofs.«420824_j61512521613989_2_alg».proof.Proof.Gen.ReferenceIdeal.Run
import proofs.«420824_j61512521613989_2_alg».proof.Proof.Gen.ReferenceIdeal.Read
import proofs.«420824_j61512521613989_2_alg».proof.Proof.Gen.Pre_finite_inputs
import proofs.«420824_j61512521613989_2_alg».proof.Proof.Run
import proofs.«420824_j61512521613989_2_alg».proof.Proof.KRun
import proofs.«420824_j61512521613989_2_alg».proof.Proof.RefLayers
import proofs.«420824_j61512521613989_2_alg».proof.Proof.IndexRange
import proofs.«420824_j61512521613989_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program at the word level runs to the end and leaves its arguments as launched. -/
theorem frame_k : Cert.frame_Kernel := fun m ρ _ => Cert.Kernel.Gen.frame_all m ρ

/-- The idealized kernel program runs to the end and leaves its arguments as launched. -/
theorem frame_ki : Cert.frame_KernelIdeal := fun m ρ _ => Cert.KernelIdeal.Gen.frame_all m ρ

/-- The reference is a host program: its run names both results and keeps the arguments; the frame drops the results. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments, with every node index in range, both idealized programs end with the
    same two tables: the witnesses are the kernel program's own final contents, which the reference's two results
    equal layer by layer. -/
theorem algebraic : Cert.algebraic_KernelIdeal_ReferenceIdeal := by
  intro m ρ m' ρ' hpre hagree
  have hr : ∀ c : Dev Cert.KernelIdeal.nD, _ := fun c => Cert.IndexRange.src_dst_range (F := Ideal) _ _ _ _ _ _ _ _ _ _ _ _ _ (hpre c)
  refine ⟨fun c => Cert.KernelIdeal.Gen.W14 m c (Proc.devRef .tc Cert.KernelIdeal.main_v74),
    fun c => Cert.KernelIdeal.Gen.W14 m c (Proc.devRef .tc Cert.KernelIdeal.main_v76), ?_, ?_⟩
  · refine (Cert.KernelIdeal.Gen.run_all m ρ).mono fun r h c => ?_
    exact ⟨h c _ (Cert.KernelIdeal.Gen.mem_uc Cert.KernelIdeal.main_v74 (by decide)),
      h c _ (Cert.KernelIdeal.Gen.mem_uc Cert.KernelIdeal.main_v76 (by decide)),
      (h c _ (Cert.KernelIdeal.Gen.mem_uc Cert.KernelIdeal.main_arg0 (by decide))).trans (Cert.KernelIdeal.Gen.W14_main_arg0 m c),
      (h c _ (Cert.KernelIdeal.Gen.mem_uc Cert.KernelIdeal.main_arg1 (by decide))).trans (Cert.KernelIdeal.Gen.W14_main_arg1 m c),
      (h c _ (Cert.KernelIdeal.Gen.mem_uc Cert.KernelIdeal.main_arg2 (by decide))).trans (Cert.KernelIdeal.Gen.W14_main_arg2 m c),
      (h c _ (Cert.KernelIdeal.Gen.mem_uc Cert.KernelIdeal.main_arg3 (by decide))).trans (Cert.KernelIdeal.Gen.W14_main_arg3 m c),
      (h c _ (Cert.KernelIdeal.Gen.mem_uc Cert.KernelIdeal.main_arg4 (by decide))).trans (Cert.KernelIdeal.Gen.W14_main_arg4 m c),
      (h c _ (Cert.KernelIdeal.Gen.mem_uc Cert.KernelIdeal.main_arg5 (by decide))).trans (Cert.KernelIdeal.Gen.W14_main_arg5 m c),
      (h c _ (Cert.KernelIdeal.Gen.mem_uc Cert.KernelIdeal.main_arg6 (by decide))).trans (Cert.KernelIdeal.Gen.W14_main_arg6 m c),
      (h c _ (Cert.KernelIdeal.Gen.mem_uc Cert.KernelIdeal.main_arg7 (by decide))).trans (Cert.KernelIdeal.Gen.W14_main_arg7 m c),
      (h c _ (Cert.KernelIdeal.Gen.mem_uc Cert.KernelIdeal.main_arg8 (by decide))).trans (Cert.KernelIdeal.Gen.W14_main_arg8 m c),
      (h c _ (Cert.KernelIdeal.Gen.mem_uc Cert.KernelIdeal.main_arg9 (by decide))).trans (Cert.KernelIdeal.Gen.W14_main_arg9 m c),
      (h c _ (Cert.KernelIdeal.Gen.mem_uc Cert.KernelIdeal.main_arg10 (by decide))).trans (Cert.KernelIdeal.Gen.W14_main_arg10 m c),
      (h c _ (Cert.KernelIdeal.Gen.mem_uc Cert.KernelIdeal.main_arg11 (by decide))).trans (Cert.KernelIdeal.Gen.W14_main_arg11 m c),
      (h c _ (Cert.KernelIdeal.Gen.mem_uc Cert.KernelIdeal.main_arg12 (by decide))).trans (Cert.KernelIdeal.Gen.W14_main_arg12 m c)⟩
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨a0, a1, a2, a3, a4, a5, a6, a7, a8, a9, a10, a11, a12⟩ := hagree c
      have e := Cert.ReferenceIdeal.RefValue.res_x_hat m' c
      simp only [Cert.ReferenceIdeal.Value.res_out0] at e
      rw [e, a0, a1, a2, a3, a4, a5, a6, a7, a8, a9, a10]
      exact (Cert.KernelIdeal.Gen.kernel_x_hat m c (hr c).1 (hr c).2).symm
    · obtain ⟨a0, a1, a2, a3, a4, a5, a6, a7, a8, a9, a10, a11, a12⟩ := hagree c
      have e := Cert.ReferenceIdeal.RefValue.res_s_hat m' c
      simp only [Cert.ReferenceIdeal.Value.res_out1] at e
      rw [e, a0, a1, a2, a3, a4, a5, a6, a11, a12]
      exact (Cert.KernelIdeal.Gen.kernel_s_hat m c (hr c).1 (hr c).2).symm

/-- Everything the certificate claims, behind the witnesses of the programs' stated facts. -/
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
